-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  IdealRules.truncf_extf.Statement Cert.KernelIdeal.S256x1024 .f32 .bf16
  ∧ IdealRules.truncf_extf.Statement Cert.KernelIdeal.S256x1024 .f32 .bf16
  ∧ IdealRules.truncf_extf.Statement Cert.KernelIdeal.S256x1024 .f32 .bf16
  ∧ IdealRules.truncf_extf.Statement Cert.KernelIdeal.S256x1024 .f32 .bf16
  ∧ IdealRules.truncf_extf.Statement Cert.KernelIdeal.S256x1024 .f32 .bf16
  ∧ IdealRules.truncf_extf.Statement Cert.KernelIdeal.S256x1024 .f32 .bf16
  ∧ IdealRules.truncf_extf.Statement Cert.KernelIdeal.S256x1024 .f32 .bf16
  ∧ IdealRules.truncf_extf.Statement Cert.KernelIdeal.S256x1024 .f32 .bf16
  ∧ IdealRules.truncf_extf.Statement Cert.KernelIdeal.S256x1024 .f32 .bf16
  ∧ IdealRules.truncf_extf.Statement Cert.KernelIdeal.S256x1024 .f32 .bf16
  ∧ IdealRules.truncf_extf.Statement Cert.KernelIdeal.S256x1024 .f32 .bf16
  ∧ IdealRules.truncf_extf.Statement Cert.KernelIdeal.S256x1024 .f32 .bf16
  ∧ IdealRules.truncf_extf.Statement Cert.KernelIdeal.S256x1024 .f32 .bf16
  ∧ IdealRules.truncf_extf.Statement Cert.KernelIdeal.S256x1024 .f32 .bf16
  ∧ IdealRules.truncf_extf.Statement Cert.KernelIdeal.S256x1024 .f32 .bf16
  ∧ IdealRules.truncf_extf.Statement Cert.KernelIdeal.S256x1024 .f32 .bf16
  ∧ IdealRules.truncf_extf.Statement Cert.KernelIdeal.S512x4096 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S32x11008 : Shape := ⟨2, ![32, 11008]⟩
abbrev S4096 : Shape := ⟨1, ![4096]⟩
abbrev S11008 : Shape := ⟨1, ![11008]⟩
abbrev S8 : Shape := ⟨1, ![8]⟩
abbrev S128x688x96 : Shape := ⟨3, ![128, 688, 96]⟩
abbrev S128x11008 : Shape := ⟨2, ![128, 11008]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S32x11008 : S_.BroadcastsInDim S32x11008 (![] : Fin 0 → Fin S32x11008.rank)
  reducesTo_S32x11008_S_d0_1 : S32x11008.ReducesTo [0, 1] S_
  bcast_S_S4096 : S_.BroadcastsInDim S4096 (![] : Fin 0 → Fin S4096.rank)
  reducesTo_S4096_S_d0 : S4096.ReducesTo [0] S_
  bcast_S_S11008 : S_.BroadcastsInDim S11008 (![] : Fin 0 → Fin S11008.rank)
  reducesTo_S11008_S_d0 : S11008.ReducesTo [0] S_
  bcast_S_S8 : S_.BroadcastsInDim S8 (![] : Fin 0 → Fin S8.rank)
  reducesTo_S8_S_d0 : S8.ReducesTo [0] S_

variable [Facts]

def fn_part1 {F : FTy → Type} [FloatOps F] (main_arg4 : FVec F S8 .f32) (main_v13 : IVec S_ 1) (main_v16 : IVec S11008 1) : IVec S_ 1 :=
  let main_c_5 : IVec S_ 1 := constantI S_ 1 1#1
  let main_v17 : IVec S_ 1 := (fun x v => Host.reduce IntOp.andi x v reducesTo_S11008_S_d0 h_S_) main_v16 main_c_5
  let main_v18 : IVec S_ 1 := andi main_v13 main_v17
  let main_v19 : FVec F S8 .f32 := Host.absf main_arg4
  let main_cst_6 : FVec F S_ .f32 := constant S_ .f32 0x7F800000#32
  let main_v20 : FVec F S8 .f32 := broadcastInDim S8 ![] bcast_S_S8 main_cst_6
  let main_v21 : IVec S8 1 := cmpf .olt main_v19 main_v20
  let main_c_7 : IVec S_ 1 := constantI S_ 1 1#1
  let main_v22 : IVec S_ 1 := (fun x v => Host.reduce IntOp.andi x v reducesTo_S8_S_d0 h_S_) main_v21 main_c_7
  let main_v23 : IVec S_ 1 := andi main_v18 main_v22
  main_v23

def fn {F : FTy → Type} [FloatOps F] (main_arg0 : FVec F S4096x4096 .f32) (main_arg1 : FVec F S32x11008 .f32) (main_arg2 : FVec F S4096 .f32) (main_arg3 : FVec F S11008 .f32) (main_arg4 : FVec F S8 .f32) (main_arg5 : IVec S128x688x96 32) (main_arg6 : IVec S128x11008 32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S32x11008 .f32 := Host.absf main_arg1
  let main_cst_0 : FVec F S_ .f32 := constant S_ .f32 0x7F800000#32
  let main_v5 : FVec F S32x11008 .f32 := broadcastInDim S32x11008 ![] bcast_S_S32x11008 main_cst_0
  let main_v6 : IVec S32x11008 1 := cmpf .olt main_v4 main_v5
  let main_c_1 : IVec S_ 1 := constantI S_ 1 1#1
  let main_v7 : IVec S_ 1 := (fun x v => Host.reduce IntOp.andi x v reducesTo_S32x11008_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S11008 .f32 := Host.absf main_arg3
  let main_cst_4 : FVec F S_ .f32 := constant S_ .f32 0x7F800000#32
  let main_v15 : FVec F S11008 .f32 := broadcastInDim S11008 ![] bcast_S_S11008 main_cst_4
  let main_v16 : IVec S11008 1 := cmpf .olt main_v14 main_v15
  fn_part1 (F := F) main_arg4 main_v13 main_v16
-- ==== Kernel.lean ====
abbrev S4096x4096 : Shape := ⟨2, ![4096, 4096]⟩
abbrev S32x11008 : Shape := ⟨2, ![32, 11008]⟩
abbrev S4096 : Shape := ⟨1, ![4096]⟩
abbrev S11008 : Shape := ⟨1, ![11008]⟩
abbrev S8 : Shape := ⟨1, ![8]⟩
abbrev S128x688x96 : Shape := ⟨3, ![128, 688, 96]⟩
abbrev S128x11008 : Shape := ⟨2, ![128, 11008]⟩
abbrev S128x688x96x1 : Shape := ⟨4, ![128, 688, 96, 1]⟩
abbrev S1x1x1x8 : Shape := ⟨4, ![1, 1, 1, 8]⟩
abbrev S128x688x96x8 : Shape := ⟨4, ![128, 688, 96, 8]⟩
abbrev S_ : Shape := ⟨0, ![]⟩
abbrev S128x688x256x3 : Shape := ⟨4, ![128, 688, 256, 3]⟩
abbrev S3 : Shape := ⟨1, ![3]⟩
abbrev S1x1x1x3 : Shape := ⟨4, ![1, 1, 1, 3]⟩
abbrev S128x688x256 : Shape := ⟨3, ![128, 688, 256]⟩
abbrev S128x688x16x16 : Shape := ⟨4, ![128, 688, 16, 16]⟩
abbrev S128x16x688x16 : Shape := ⟨4, ![128, 16, 688, 16]⟩
abbrev S2048x11008 : Shape := ⟨2, ![2048, 11008]⟩
abbrev S2048x11008x1 : Shape := ⟨3, ![2048, 11008, 1]⟩
abbrev S1024x2x11008 : Shape := ⟨3, ![1024, 2, 11008]⟩
abbrev S1024x1x11008 : Shape := ⟨3, ![1024, 1, 11008]⟩
abbrev S1024x11008 : Shape := ⟨2, ![1024, 11008]⟩
abbrev S1x11008 : Shape := ⟨2, ![1, 11008]⟩
abbrev S4096x11008 : Shape := ⟨2, ![4096, 11008]⟩
abbrev S512x4096 : Shape := ⟨2, ![512, 4096]⟩
abbrev S1024x1024 : Shape := ⟨2, ![1024, 1024]⟩
abbrev S128x1024 : Shape := ⟨2, ![128, 1024]⟩
abbrev S32x1024 : Shape := ⟨2, ![32, 1024]⟩
abbrev S512x1024 : Shape := ⟨2, ![512, 1024]⟩
abbrev S4096x1024 : Shape := ⟨2, ![4096, 1024]⟩
abbrev S64x1024 : Shape := ⟨2, ![64, 1024]⟩
abbrev S8x1024 : Shape := ⟨2, ![8, 1024]⟩
abbrev S8x1x1024 : Shape := ⟨3, ![8, 1, 1024]⟩
abbrev S8x8x1024 : Shape := ⟨3, ![8, 8, 1024]⟩
abbrev S64x1x1024 : Shape := ⟨3, ![64, 1, 1024]⟩
abbrev S64x4x1024 : Shape := ⟨3, ![64, 4, 1024]⟩
abbrev S256x1024 : Shape := ⟨2, ![256, 1024]⟩
abbrev S2x1024 : Shape := ⟨2, ![2, 1024]⟩
abbrev S2x1x1024 : Shape := ⟨3, ![2, 1, 1024]⟩
abbrev S2x128x1024 : Shape := ⟨3, ![2, 128, 1024]⟩
abbrev S1x4096 : Shape := ⟨2, ![1, 4096]⟩

abbrev nBuf : Space → Nat
  | .hbm => 46
  | .vmem => 15
  | .smem => 0
  | _ => 0

abbrev bufTy : (tb : Table) → Fin (tcTables nBuf tb) → BufTy
  | .hbm, ⟨0, _⟩ => ⟨S4096x4096, .f32⟩
  | .hbm, ⟨1, _⟩ => ⟨S32x11008, .f32⟩
  | .hbm, ⟨2, _⟩ => ⟨S4096, .f32⟩
  | .hbm, ⟨3, _⟩ => ⟨S11008, .f32⟩
  | .hbm, ⟨4, _⟩ => ⟨S8, .f32⟩
  | .hbm, ⟨5, _⟩ => ⟨S128x688x96, .i32⟩
  | .hbm, ⟨6, _⟩ => ⟨S128x11008, .i32⟩
  | .hbm, ⟨7, _⟩ => ⟨S128x688x96, .i32⟩
  | .hbm, ⟨8, _⟩ => ⟨S128x688x96x1, .i32⟩
  | .hbm, ⟨9, _⟩ => ⟨S8, .i32⟩
  | .hbm, ⟨10, _⟩ => ⟨S1x1x1x8, .i32⟩
  | .hbm, ⟨11, _⟩ => ⟨S128x688x96x8, .i32⟩
  | .hbm, ⟨12, _⟩ => ⟨S128x688x96x8, .i32⟩
  | .hbm, ⟨13, _⟩ => ⟨S128x688x96x8, .i32⟩
  | .hbm, ⟨14, _⟩ => ⟨S_, .i32⟩
  | .hbm, ⟨15, _⟩ => ⟨S128x688x96x8, .i32⟩
  | .hbm, ⟨16, _⟩ => ⟨S128x688x96x8, .i32⟩
  | .hbm, ⟨17, _⟩ => ⟨S128x688x256x3, .i32⟩
  | .hbm, ⟨18, _⟩ => ⟨S3, .i32⟩
  | .hbm, ⟨19, _⟩ => ⟨S1x1x1x3, .i32⟩
  | .hbm, ⟨20, _⟩ => ⟨S128x688x256x3, .i32⟩
  | .hbm, ⟨21, _⟩ => ⟨S128x688x256x3, .i32⟩
  | .hbm, ⟨22, _⟩ => ⟨S_, .i32⟩
  | .hbm, ⟨23, _⟩ => ⟨S128x688x256, .i32⟩
  | .hbm, ⟨24, _⟩ => ⟨S128x688x256, .i32⟩
  | .hbm, ⟨25, _⟩ => ⟨S128x688x16x16, .i32⟩
  | .hbm, ⟨26, _⟩ => ⟨S128x16x688x16, .i32⟩
  | .hbm, ⟨27, _⟩ => ⟨S2048x11008, .i32⟩
  | .hbm, ⟨28, _⟩ => ⟨S_, .i32⟩
  | .hbm, ⟨29, _⟩ => ⟨S2048x11008, .i32⟩
  | .hbm, ⟨30, _⟩ => ⟨S2048x11008, .i1⟩
  | .hbm, ⟨31, _⟩ => ⟨S_, .i32⟩
  | .hbm, ⟨32, _⟩ => ⟨S2048x11008, .i32⟩
  | .hbm, ⟨33, _⟩ => ⟨S2048x11008, .i32⟩
  | .hbm, ⟨34, _⟩ => ⟨S2048x11008, .i32⟩
  | .hbm, ⟨35, _⟩ => ⟨S2048x11008x1, .i32⟩
  | .hbm, ⟨36, _⟩ => ⟨S2048x11008, .f32⟩
  | .hbm, ⟨37, _⟩ => ⟨S1024x2x11008, .f32⟩
  | .hbm, ⟨38, _⟩ => ⟨S1024x1x11008, .f32⟩
  | .hbm, ⟨39, _⟩ => ⟨S1024x11008, .f32⟩
  | .hbm, ⟨40, _⟩ => ⟨S1024x1x11008, .f32⟩
  | .hbm, ⟨41, _⟩ => ⟨S1024x11008, .f32⟩
  | .hbm, ⟨42, _⟩ => ⟨S1x11008, .f32⟩
  | .hbm, ⟨43, _⟩ => ⟨S32x11008, .f32⟩
  | .hbm, ⟨44, _⟩ => ⟨S32x11008, .f32⟩
  | .hbm, ⟨45, _⟩ => ⟨S4096x11008, .f32⟩
  | .local _ .vmem, ⟨0, _⟩ => ⟨S512x4096, .f32⟩
  | .local _ .vmem, ⟨1, _⟩ => ⟨S512x4096, .f32⟩
  | .local _ .vmem, ⟨2, _⟩ => ⟨S4096, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S128x1024, .i32⟩
  | .local _ .vmem, ⟨8, _⟩ => ⟨S128x1024, .i32⟩
  | .local _ .vmem, ⟨9, _⟩ => ⟨S32x1024, .f32⟩
  | .local _ .vmem, ⟨10, _⟩ => ⟨S32x1024, .f32⟩
  | .local _ .vmem, ⟨11, _⟩ => ⟨S512x1024, .f32⟩
  | .local _ .vmem, ⟨12, _⟩ => ⟨S512x1024, .f32⟩
  | .local _ .vmem, ⟨13, _⟩ => ⟨S4096x1024, .bf16⟩
  | .local _ .vmem, ⟨14, _⟩ => ⟨S4096x1024, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c_1 : Ref sig .tc := ⟨.hbm, 28, rfl⟩
abbrev main_v19 : Ref sig .tc := ⟨.hbm, 29, rfl⟩
abbrev main_v20 : Ref sig .tc := ⟨.hbm, 30, rfl⟩
abbrev main_c_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![11, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S128x1024 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S32x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  bcast_S128x688x96_S128x688x96x1_0_1_2 : S128x688x96.BroadcastsInDim S128x688x96x1 (![0, 1, 2] : Fin 3 → Fin S128x688x96x1.rank)
  bcast_S8_S1x1x1x8_3 : S8.BroadcastsInDim S1x1x1x8 (![3] : Fin 1 → Fin S1x1x1x8.rank)
  bcast_S128x688x96x1_S128x688x96x8_0_1_2_3 : S128x688x96x1.BroadcastsInDim S128x688x96x8 (![0, 1, 2, 3] : Fin 4 → Fin S128x688x96x8.rank)
  bcast_S1x1x1x8_S128x688x96x8_0_1_2_3 : S1x1x1x8.BroadcastsInDim S128x688x96x8 (![0, 1, 2, 3] : Fin 4 → Fin S128x688x96x8.rank)
  bcast_S_S128x688x96x8 : S_.BroadcastsInDim S128x688x96x8 (![] : Fin 0 → Fin S128x688x96x8.rank)
  shapeCasts_S128x688x96x8_S128x688x256x3 : S128x688x96x8.ShapeCasts S128x688x256x3
  bcast_S3_S1x1x1x3_3 : S3.BroadcastsInDim S1x1x1x3 (![3] : Fin 1 → Fin S1x1x1x3.rank)
  bcast_S1x1x1x3_S128x688x256x3_0_1_2_3 : S1x1x1x3.BroadcastsInDim S128x688x256x3 (![0, 1, 2, 3] : Fin 4 → Fin S128x688x256x3.rank)
  reducesTo_S128x688x256x3_S128x688x256_d3 : S128x688x256x3.ReducesTo [3] S128x688x256
  h_S_ : 0 < S_.numel
  shapeCasts_S128x688x256_S128x688x16x16 : S128x688x256.ShapeCasts S128x688x16x16
  transposes_S128x688x16x16_S128x16x688x16_0_2_1_3 : S128x688x16x16.Transposes [0, 2, 1, 3] S128x16x688x16
  shapeCasts_S128x16x688x16_S2048x11008 : S128x16x688x16.ShapeCasts S2048x11008
  bcast_S_S2048x11008 : S_.BroadcastsInDim S2048x11008 (![] : Fin 0 → Fin S2048x11008.rank)
  bcast_S2048x11008_S2048x11008x1_0_1 : S2048x11008.BroadcastsInDim S2048x11008x1 (![0, 1] : Fin 2 → Fin S2048x11008x1.rank)
  shapeCasts_S2048x11008_S1024x2x11008 : S2048x11008.ShapeCasts S1024x2x11008
  slices_S1024x2x11008_S1024x1x11008_0_0_0 : S1024x2x11008.Slices ![0, 0, 0] S1024x1x11008
  shapeCasts_S1024x1x11008_S1024x11008 : S1024x1x11008.ShapeCasts S1024x11008
  slices_S1024x2x11008_S1024x1x11008_0_1_0 : S1024x2x11008.Slices ![0, 1, 0] S1024x1x11008
  bcast_S11008_S1x11008_1 : S11008.BroadcastsInDim S1x11008 (![1] : Fin 1 → Fin S1x11008.rank)
  bcast_S1x11008_S32x11008_0_1 : S1x11008.BroadcastsInDim S32x11008 (![0, 1] : Fin 2 → Fin S32x11008.rank)
  inb_S1024x1024_S64x1024_0_0 : ∀ a, (![0, 0] : Fin 2 → Nat) a + S64x1024.size a ≤ S1024x1024.size a
  h_S64x1024 : 0 < S64x1024.numel
  shapeCasts_S64x1024_S64x1024 : S64x1024.ShapeCasts S64x1024
  inb_S128x1024_S8x1024_0_0 : ∀ a, (![0, 0] : Fin 2 → Nat) a + S8x1024.size a ≤ S128x1024.size a
  h_S8x1024 : 0 < S8x1024.numel
  shapeCasts_S8x1024_S8x1x1024 : S8x1024.ShapeCasts S8x1x1024
  concatenates_S8x1x1024_S8x1x1024_S8x1x1024_S8x1x1024_S8x1x1024_S8x1x1024_S8x1x1024_S8x1x1024_S8x8x1024_d1 : Shape.Concatenates [S8x1x1024, S8x1x1024, S8x1x1024, S8x1x1024, S8x1x1024, S8x1x1024, S8x1x1024, S8x1x1024] S8x8x1024 1
  shapeCasts_S8x8x1024_S64x1024 : S8x8x1024.ShapeCasts S64x1024
  shapeCasts_S64x1024_S64x1x1024 : S64x1024.ShapeCasts S64x1x1024
  concatenates_S64x1x1024_S64x1x1024_S64x1x1024_S64x1x1024_S64x4x1024_d1 : Shape.Concatenates [S64x1x1024, S64x1x1024, S64x1x1024, S64x1x1024] S64x4x1024 1
  shapeCasts_S64x4x1024_S256x1024 : S64x4x1024.ShapeCasts S256x1024
  inb_S32x1024_S2x1024_0_0 : ∀ a, (![0, 0] : Fin 2 → Nat) a + S2x1024.size a ≤ S32x1024.size a
  h_S2x1024 : 0 < S2x1024.numel
  shapeCasts_S2x1024_S2x1024 : S2x1024.ShapeCasts S2x1024
  shapeCasts_S2x1024_S2x1x1024 : S2x1024.ShapeCasts S2x1x1024
  shapeCasts_S2x1x1024_S2x1x1024 : S2x1x1024.ShapeCasts S2x1x1024
  broadcasts_S2x1x1024_S2x128x1024 : S2x1x1024.Broadcasts S2x128x1024
  shapeCasts_S2x128x1024_S256x1024 : S2x128x1024.ShapeCasts S256x1024
  bitsLt_bf16_f32 : FTy.bits .bf16 < FTy.bits .f32
  inb_S4096x1024_S256x1024_0_0 : ∀ a, (![0, 0] : Fin 2 → Nat) a + S256x1024.size a ≤ S4096x1024.size a
  h_S256x1024 : 0 < S256x1024.numel
  shapeCasts_S256x1024_S256x1024 : S256x1024.ShapeCasts S256x1024
  packedbf16_S4096x1024_S256x1024_0_0 : (Rect.unit (s := S4096x1024) ![0, 0] S256x1024.size inb_S4096x1024_S256x1024_0_0).PackedRows (EltTy.packing .bf16)
  inb_S1024x1024_S64x1024_64_0 : ∀ a, (![64, 0] : Fin 2 → Nat) a + S64x1024.size a ≤ S1024x1024.size a
  inb_S128x1024_S8x1024_8_0 : ∀ a, (![8, 0] : Fin 2 → Nat) a + S8x1024.size a ≤ S128x1024.size a
  inb_S32x1024_S2x1024_2_0 : ∀ a, (![2, 0] : Fin 2 → Nat) a + S2x1024.size a ≤ S32x1024.size a
  inb_S4096x1024_S256x1024_256_0 : ∀ a, (![256, 0] : Fin 2 → Nat) a + S256x1024.size a ≤ S4096x1024.size a
  packedbf16_S4096x1024_S256x1024_256_0 : (Rect.unit (s := S4096x1024) ![256, 0] S256x1024.size inb_S4096x1024_S256x1024_256_0).PackedRows (EltTy.packing .bf16)
  inb_S1024x1024_S64x1024_128_0 : ∀ a, (![128, 0] : Fin 2 → Nat) a + S64x1024.size a ≤ S1024x1024.size a
  inb_S128x1024_S8x1024_16_0 : ∀ a, (![16, 0] : Fin 2 → Nat) a + S8x1024.size a ≤ S128x1024.size a
  inb_S32x1024_S2x1024_4_0 : ∀ a, (![4, 0] : Fin 2 → Nat) a + S2x1024.size a ≤ S32x1024.size a
  inb_S4096x1024_S256x1024_512_0 : ∀ a, (![512, 0] : Fin 2 → Nat) a + S256x1024.size a ≤ S4096x1024.size a
  packedbf16_S4096x1024_S256x1024_512_0 : (Rect.unit (s := S4096x1024) ![512, 0] S256x1024.size inb_S4096x1024_S256x1024_512_0).PackedRows (EltTy.packing .bf16)
  inb_S1024x1024_S64x1024_192_0 : ∀ a, (![192, 0] : Fin 2 → Nat) a + S64x1024.size a ≤ S1024x1024.size a
  inb_S128x1024_S8x1024_24_0 : ∀ a, (![24, 0] : Fin 2 → Nat) a + S8x1024.size a ≤ S128x1024.size a
  inb_S32x1024_S2x1024_6_0 : ∀ a, (![6, 0] : Fin 2 → Nat) a + S2x1024.size a ≤ S32x1024.size a
  inb_S4096x1024_S256x1024_768_0 : ∀ a, (![768, 0] : Fin 2 → Nat) a + S256x1024.size a ≤ S4096x1024.size a
  packedbf16_S4096x1024_S256x1024_768_0 : (Rect.unit (s := S4096x1024) ![768, 0] S256x1024.size inb_S4096x1024_S256x1024_768_0).PackedRows (EltTy.packing .bf16)
  inb_S1024x1024_S64x1024_256_0 : ∀ a, (![256, 0] : Fin 2 → Nat) a + S64x1024.size a ≤ S1024x1024.size a
  inb_S128x1024_S8x1024_32_0 : ∀ a, (![32, 0] : Fin 2 → Nat) a + S8x1024.size a ≤ S128x1024.size a
  inb_S32x1024_S2x1024_8_0 : ∀ a, (![8, 0] : Fin 2 → Nat) a + S2x1024.size a ≤ S32x1024.size a
  inb_S4096x1024_S256x1024_1024_0 : ∀ a, (![1024, 0] : Fin 2 → Nat) a + S256x1024.size a ≤ S4096x1024.size a
  packedbf16_S4096x1024_S256x1024_1024_0 : (Rect.unit (s := S4096x1024) ![1024, 0] S256x1024.size inb_S4096x1024_S256x1024_1024_0).PackedRows (EltTy.packing .bf16)
  inb_S1024x1024_S64x1024_320_0 : ∀ a, (![320, 0] : Fin 2 → Nat) a + S64x1024.size a ≤ S1024x1024.size a
  inb_S128x1024_S8x1024_40_0 : ∀ a, (![40, 0] : Fin 2 → Nat) a + S8x1024.size a ≤ S128x1024.size a
  inb_S32x1024_S2x1024_10_0 : ∀ a, (![10, 0] : Fin 2 → Nat) a + S2x1024.size a ≤ S32x1024.size a
  inb_S4096x1024_S256x1024_1280_0 : ∀ a, (![1280, 0] : Fin 2 → Nat) a + S256x1024.size a ≤ S4096x1024.size a
  packedbf16_S4096x1024_S256x1024_1280_0 : (Rect.unit (s := S4096x1024) ![1280, 0] S256x1024.size inb_S4096x1024_S256x1024_1280_0).PackedRows (EltTy.packing .bf16)
  inb_S1024x1024_S64x1024_384_0 : ∀ a, (![384, 0] : Fin 2 → Nat) a + S64x1024.size a ≤ S1024x1024.size a
  inb_S128x1024_S8x1024_48_0 : ∀ a, (![48, 0] : Fin 2 → Nat) a + S8x1024.size a ≤ S128x1024.size a
  inb_S32x1024_S2x1024_12_0 : ∀ a, (![12, 0] : Fin 2 → Nat) a + S2x1024.size a ≤ S32x1024.size a
  inb_S4096x1024_S256x1024_1536_0 : ∀ a, (![1536, 0] : Fin 2 → Nat) a + S256x1024.size a ≤ S4096x1024.size a
  packedbf16_S4096x1024_S256x1024_1536_0 : (Rect.unit (s := S4096x1024) ![1536, 0] S256x1024.size inb_S4096x1024_S256x1024_1536_0).PackedRows (EltTy.packing .bf16)
  inb_S1024x1024_S64x1024_448_0 : ∀ a, (![448, 0] : Fin 2 → Nat) a + S64x1024.size a ≤ S1024x1024.size a
  inb_S128x1024_S8x1024_56_0 : ∀ a, (![56, 0] : Fin 2 → Nat) a + S8x1024.size a ≤ S128x1024.size a
  inb_S32x1024_S2x1024_14_0 : ∀ a, (![14, 0] : Fin 2 → Nat) a + S2x1024.size a ≤ S32x1024.size a
  inb_S4096x1024_S256x1024_1792_0 : ∀ a, (![1792, 0] : Fin 2 → Nat) a + S256x1024.size a ≤ S4096x1024.size a
  packedbf16_S4096x1024_S256x1024_1792_0 : (Rect.unit (s := S4096x1024) ![1792, 0] S256x1024.size inb_S4096x1024_S256x1024_1792_0).PackedRows (EltTy.packing .bf16)
  inb_S1024x1024_S64x1024_512_0 : ∀ a, (![512, 0] : Fin 2 → Nat) a + S64x1024.size a ≤ S1024x1024.size a
  inb_S128x1024_S8x1024_64_0 : ∀ a, (![64, 0] : Fin 2 → Nat) a + S8x1024.size a ≤ S128x1024.size a
  inb_S32x1024_S2x1024_16_0 : ∀ a, (![16, 0] : Fin 2 → Nat) a + S2x1024.size a ≤ S32x1024.size a
  inb_S4096x1024_S256x1024_2048_0 : ∀ a, (![2048, 0] : Fin 2 → Nat) a + S256x1024.size a ≤ S4096x1024.size a
  packedbf16_S4096x1024_S256x1024_2048_0 : (Rect.unit (s := S4096x1024) ![2048, 0] S256x1024.size inb_S4096x1024_S256x1024_2048_0).PackedRows (EltTy.packing .bf16)
  inb_S1024x1024_S64x1024_576_0 : ∀ a, (![576, 0] : Fin 2 → Nat) a + S64x1024.size a ≤ S1024x1024.size a
  inb_S128x1024_S8x1024_72_0 : ∀ a, (![72, 0] : Fin 2 → Nat) a + S8x1024.size a ≤ S128x1024.size a
  inb_S32x1024_S2x1024_18_0 : ∀ a, (![18, 0] : Fin 2 → Nat) a + S2x1024.size a ≤ S32x1024.size a
  inb_S4096x1024_S256x1024_2304_0 : ∀ a, (![2304, 0] : Fin 2 → Nat) a + S256x1024.size a ≤ S4096x1024.size a
  packedbf16_S4096x1024_S256x1024_2304_0 : (Rect.unit (s := S4096x1024) ![2304, 0] S256x1024.size inb_S4096x1024_S256x1024_2304_0).PackedRows (EltTy.packing .bf16)
  inb_S1024x1024_S64x1024_640_0 : ∀ a, (![640, 0] : Fin 2 → Nat) a + S64x1024.size a ≤ S1024x1024.size a
  inb_S128x1024_S8x1024_80_0 : ∀ a, (![80, 0] : Fin 2 → Nat) a + S8x1024.size a ≤ S128x1024.size a
  inb_S32x1024_S2x1024_20_0 : ∀ a, (![20, 0] : Fin 2 → Nat) a + S2x1024.size a ≤ S32x1024.size a
  inb_S4096x1024_S256x1024_2560_0 : ∀ a, (![2560, 0] : Fin 2 → Nat) a + S256x1024.size a ≤ S4096x1024.size a
  packedbf16_S4096x1024_S256x1024_2560_0 : (Rect.unit (s := S4096x1024) ![2560, 0] S256x1024.size inb_S4096x1024_S256x1024_2560_0).PackedRows (EltTy.packing .bf16)
  inb_S1024x1024_S64x1024_704_0 : ∀ a, (![704, 0] : Fin 2 → Nat) a + S64x1024.size a ≤ S1024x1024.size a
  inb_S128x1024_S8x1024_88_0 : ∀ a, (![88, 0] : Fin 2 → Nat) a + S8x1024.size a ≤ S128x1024.size a
  inb_S32x1024_S2x1024_22_0 : ∀ a, (![22, 0] : Fin 2 → Nat) a + S2x1024.size a ≤ S32x1024.size a
  inb_S4096x1024_S256x1024_2816_0 : ∀ a, (![2816, 0] : Fin 2 → Nat) a + S256x1024.size a ≤ S4096x1024.size a
  packedbf16_S4096x1024_S256x1024_2816_0 : (Rect.unit (s := S4096x1024) ![2816, 0] S256x1024.size inb_S4096x1024_S256x1024_2816_0).PackedRows (EltTy.packing .bf16)
  inb_S1024x1024_S64x1024_768_0 : ∀ a, (![768, 0] : Fin 2 → Nat) a + S64x1024.size a ≤ S1024x1024.size a
  inb_S128x1024_S8x1024_96_0 : ∀ a, (![96, 0] : Fin 2 → Nat) a + S8x1024.size a ≤ S128x1024.size a
  inb_S32x1024_S2x1024_24_0 : ∀ a, (![24, 0] : Fin 2 → Nat) a + S2x1024.size a ≤ S32x1024.size a
  inb_S4096x1024_S256x1024_3072_0 : ∀ a, (![3072, 0] : Fin 2 → Nat) a + S256x1024.size a ≤ S4096x1024.size a
  packedbf16_S4096x1024_S256x1024_3072_0 : (Rect.unit (s := S4096x1024) ![3072, 0] S256x1024.size inb_S4096x1024_S256x1024_3072_0).PackedRows (EltTy.packing .bf16)
  inb_S1024x1024_S64x1024_832_0 : ∀ a, (![832, 0] : Fin 2 → Nat) a + S64x1024.size a ≤ S1024x1024.size a
  inb_S128x1024_S8x1024_104_0 : ∀ a, (![104, 0] : Fin 2 → Nat) a + S8x1024.size a ≤ S128x1024.size a
  inb_S32x1024_S2x1024_26_0 : ∀ a, (![26, 0] : Fin 2 → Nat) a + S2x1024.size a ≤ S32x1024.size a
  inb_S4096x1024_S256x1024_3328_0 : ∀ a, (![3328, 0] : Fin 2 → Nat) a + S256x1024.size a ≤ S4096x1024.size a
  packedbf16_S4096x1024_S256x1024_3328_0 : (Rect.unit (s := S4096x1024) ![3328, 0] S256x1024.size inb_S4096x1024_S256x1024_3328_0).PackedRows (EltTy.packing .bf16)
  inb_S1024x1024_S64x1024_896_0 : ∀ a, (![896, 0] : Fin 2 → Nat) a + S64x1024.size a ≤ S1024x1024.size a
  inb_S128x1024_S8x1024_112_0 : ∀ a, (![112, 0] : Fin 2 → Nat) a + S8x1024.size a ≤ S128x1024.size a
  inb_S32x1024_S2x1024_28_0 : ∀ a, (![28, 0] : Fin 2 → Nat) a + S2x1024.size a ≤ S32x1024.size a
  inb_S4096x1024_S256x1024_3584_0 : ∀ a, (![3584, 0] : Fin 2 → Nat) a + S256x1024.size a ≤ S4096x1024.size a
  packedbf16_S4096x1024_S256x1024_3584_0 : (Rect.unit (s := S4096x1024) ![3584, 0] S256x1024.size inb_S4096x1024_S256x1024_3584_0).PackedRows (EltTy.packing .bf16)
  inb_S1024x1024_S64x1024_960_0 : ∀ a, (![960, 0] : Fin 2 → Nat) a + S64x1024.size a ≤ S1024x1024.size a
  inb_S128x1024_S8x1024_120_0 : ∀ a, (![120, 0] : Fin 2 → Nat) a + S8x1024.size a ≤ S128x1024.size a
  inb_S32x1024_S2x1024_30_0 : ∀ a, (![30, 0] : Fin 2 → Nat) a + S2x1024.size a ≤ S32x1024.size a
  inb_S4096x1024_S256x1024_3840_0 : ∀ a, (![3840, 0] : Fin 2 → Nat) a + S256x1024.size a ≤ S4096x1024.size a
  packedbf16_S4096x1024_S256x1024_3840_0 : (Rect.unit (s := S4096x1024) ![3840, 0] S256x1024.size inb_S4096x1024_S256x1024_3840_0).PackedRows (EltTy.packing .bf16)
  inb_S512x4096_S512x4096_0_0 : ∀ a, (![0, 0] : Fin 2 → Nat) a + S512x4096.size a ≤ S512x4096.size a
  h_S512x4096 : 0 < S512x4096.numel
  inb_S4096_S4096_0 : ∀ a, (![0] : Fin 1 → Nat) a + S4096.size a ≤ S4096.size a
  h_S4096 : 0 < S4096.numel
  shapeCasts_S4096_S1x4096 : S4096.ShapeCasts S1x4096
  broadcasts_S1x4096_S512x4096 : S1x4096.Broadcasts S512x4096
  inb_S4096x1024_S4096x1024_0_0 : ∀ a, (![0, 0] : Fin 2 → Nat) a + S4096x1024.size a ≤ S4096x1024.size a
  h_S4096x1024 : 0 < S4096x1024.numel
  inb_S512x1024_S512x1024_0_0 : ∀ a, (![0, 0] : Fin 2 → Nat) a + S512x1024.size a ≤ S512x1024.size a
  h_S512x1024 : 0 < S512x1024.numel
  gather_S8_S2048x11008x1_S2048x11008_n_0_n_n_0_2_1_wf : GatherDims.WF S8 S2048x11008x1 S2048x11008 [] [0] [] [0] [] 2 ![1]
  dot_S512x4096_S4096x1024_S512x1024_1_0_0_1_n_n_wf : DotDims.WF S512x4096 S4096x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .f32 = 32 ∨ (Rect.block (s := S4096x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096.size a ≤ S4096.size a
  hwx0_1 : ∀ i : grid0.Coords, EltTy.bits .f32 = 32 ∨ (Rect.block (s := S4096) S4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S1024x1024.size a < S1024x11008.size a
  hwx0_2 : ∀ i : grid0.Coords, EltTy.bits .f32 = 32 ∨ (Rect.unit (s := S1024x11008) (fun a => cc0_transform_2 i a * S1024x1024.size a) (fun a => (Pipeline.Clip.of (cc0_transform_2 i a) (S1024x1024.size a) (S1024x11008.size a)).extent (S1024x1024.size a)) fun a => Pipeline.Clip.inb (Pipeline.Clip.ok_of (hstart0_2 i a))).WholeWords (EltTy.packing .f32)
  hwxs0_2 : ∀ i : grid0.Coords, EltTy.bits .f32 = 32 ∨ (Rect.unit (s := S1024x1024) (fun _ => 0) (fun a => (Pipeline.Clip.of (cc0_transform_2 i a) (S1024x1024.size a) (S1024x11008.size a)).extent (S1024x1024.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S1024x1024.size a < S1024x11008.size a
  hwx0_3 : ∀ i : grid0.Coords, EltTy.bits .f32 = 32 ∨ (Rect.unit (s := S1024x11008) (fun a => cc0_transform_3 i a * S1024x1024.size a) (fun a => (Pipeline.Clip.of (cc0_transform_3 i a) (S1024x1024.size a) (S1024x11008.size a)).extent (S1024x1024.size a)) fun a => Pipeline.Clip.inb (Pipeline.Clip.ok_of (hstart0_3 i a))).WholeWords (EltTy.packing .f32)
  hwxs0_3 : ∀ i : grid0.Coords, EltTy.bits .f32 = 32 ∨ (Rect.unit (s := S1024x1024) (fun _ => 0) (fun a => (Pipeline.Clip.of (cc0_transform_3 i a) (S1024x1024.size a) (S1024x11008.size a)).extent (S1024x1024.size a)) fun a => (Nat.zero_add _).trans_le (Pipeline.Clip.extent_le (Pipeline.Clip.ok_of (hstart0_3 i a)))).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hstart0_4 : ∀ (i : grid0.Coords) a, cc0_transform_4 i a * S128x1024.size a < S128x11008.size a
  hwx0_4 : ∀ i : grid0.Coords, EltTy.bits .i32 = 32 ∨ (Rect.unit (s := S128x11008) (fun a => cc0_transform_4 i a * S128x1024.size a) (fun a => (Pipeline.Clip.of (cc0_transform_4 i a) (S128x1024.size a) (S128x11008.size a)).extent (S128x1024.size a)) fun a => Pipeline.Clip.inb (Pipeline.Clip.ok_of (hstart0_4 i a))).WholeWords (EltTy.packing .i32)
  hwxs0_4 : ∀ i : grid0.Coords, EltTy.bits .i32 = 32 ∨ (Rect.unit (s := S128x1024) (fun _ => 0) (fun a => (Pipeline.Clip.of (cc0_transform_4 i a) (S128x1024.size a) (S128x11008.size a)).extent (S128x1024.size a)) fun a => (Nat.zero_add _).trans_le (Pipeline.Clip.extent_le (Pipeline.Clip.ok_of (hstart0_4 i a)))).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hstart0_5 : ∀ (i : grid0.Coords) a, cc0_transform_5 i a * S32x1024.size a < S32x11008.size a
  hwx0_5 : ∀ i : grid0.Coords, EltTy.bits .f32 = 32 ∨ (Rect.unit (s := S32x11008) (fun a => cc0_transform_5 i a * S32x1024.size a) (fun a => (Pipeline.Clip.of (cc0_transform_5 i a) (S32x1024.size a) (S32x11008.size a)).extent (S32x1024.size a)) fun a => Pipeline.Clip.inb (Pipeline.Clip.ok_of (hstart0_5 i a))).WholeWords (EltTy.packing .f32)
  hwxs0_5 : ∀ i : grid0.Coords, EltTy.bits .f32 = 32 ∨ (Rect.unit (s := S32x1024) (fun _ => 0) (fun a => (Pipeline.Clip.of (cc0_transform_5 i a) (S32x1024.size a) (S32x11008.size a)).extent (S32x1024.size a)) fun a => (Nat.zero_add _).trans_le (Pipeline.Clip.extent_le (Pipeline.Clip.ok_of (hstart0_5 i a)))).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hstart0_6 : ∀ (i : grid0.Coords) a, cc0_transform_6 i a * S512x1024.size a < S4096x11008.size a
  hwx0_6 : ∀ i : grid0.Coords, EltTy.bits .f32 = 32 ∨ (Rect.unit (s := S4096x11008) (fun a => cc0_transform_6 i a * S512x1024.size a) (fun a => (Pipeline.Clip.of (cc0_transform_6 i a) (S512x1024.size a) (S4096x11008.size a)).extent (S512x1024.size a)) fun a => Pipeline.Clip.inb (Pipeline.Clip.ok_of (hstart0_6 i a))).WholeWords (EltTy.packing .f32)
  hwxs0_6 : ∀ i : grid0.Coords, EltTy.bits .f32 = 32 ∨ (Rect.unit (s := S512x1024) (fun _ => 0) (fun a => (Pipeline.Clip.of (cc0_transform_6 i a) (S512x1024.size a) (S4096x11008.size a)).extent (S512x1024.size a)) fun a => (Nat.zero_add _).trans_le (Pipeline.Clip.extent_le (Pipeline.Clip.ok_of (hstart0_6 i a)))).WholeWords (EltTy.packing .f32)

variable [Facts₀]

def gather_S8_S2048x11008x1_S2048x11008_n_0_n_n_0_2_1 : GatherDims S8 S2048x11008x1 S2048x11008 where
  offsetDims := []
  collapsedSliceDims := [0]
  operandBatchingDims := []
  startIndicesBatchingDims := []
  startIndexMap := [0]
  indexVectorDim := 2
  sliceSizes := ![1]
  wf := gather_S8_S2048x11008x1_S2048x11008_n_0_n_n_0_2_1_wf
def dot_S512x4096_S4096x1024_S512x1024_1_0_0_1_n_n : DotDims S512x4096 S4096x1024 S512x1024 where
  lhsContracting := [1]
  rhsContracting := [0]
  lhsNonContracting := [0]
  rhsNonContracting := [1]
  lhsBatch := []
  rhsBatch := []
  wf := dot_S512x4096_S4096x1024_S512x1024_1_0_0_1_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpecClip (Memref.whole main_v28) S1024x1024.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_v30) S1024x1024.size cc0_transform_3 reads0_3 false false 2 stage0_3 sem0_3
    hrank0 hreads0_3 hstart0_3 nbuf0_3 (Memref.isWhole_whole _) hwx0_3 hwxs0_3 hstage0_3

abbrev win0_4 : Pipeline.Window sig grid0 :=
  Pipeline.Window.ofSpecClip (Memref.whole main_arg6) S128x1024.size cc0_transform_4 reads0_4 false false 2 stage0_4 sem0_4
    hrank0 hreads0_4 hstart0_4 nbuf0_4 (Memref.isWhole_whole _) hwx0_4 hwxs0_4 hstage0_4

abbrev win0_5 : Pipeline.Window sig grid0 :=
  Pipeline.Window.ofSpecClip (Memref.whole main_v33) S32x1024.size cc0_transform_5 reads0_5 false false 2 stage0_5 sem0_5
    hrank0 hreads0_5 hstart0_5 nbuf0_5 (Memref.isWhole_whole _) hwx0_5 hwxs0_5 hstage0_5

abbrev win0_6 : Pipeline.Window sig grid0 :=
  Pipeline.Window.ofSpecClip (Memref.whole main_v34) S512x1024.size cc0_transform_6 reads0_6 true false 2 stage0_6 sem0_6
    hrank0 hreads0_6 hstart0_6 nbuf0_6 (Memref.isWhole_whole _) hwx0_6 hwxs0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4096x4096 : Shape := ⟨2, ![4096, 4096]⟩
abbrev S32x11008 : Shape := ⟨2, ![32, 11008]⟩
abbrev S4096 : Shape := ⟨1, ![4096]⟩
abbrev S11008 : Shape := ⟨1, ![11008]⟩
abbrev S8 : Shape := ⟨1, ![8]⟩
abbrev S128x688x96 : Shape := ⟨3, ![128, 688, 96]⟩
abbrev S128x11008 : Shape := ⟨2, ![128, 11008]⟩
abbrev S128x688x96x1 : Shape := ⟨4, ![128, 688, 96, 1]⟩
abbrev S1x1x1x8 : Shape := ⟨4, ![1, 1, 1, 8]⟩
abbrev S128x688x96x8 : Shape := ⟨4, ![128, 688, 96, 8]⟩
abbrev S_ : Shape := ⟨0, ![]⟩
abbrev S128x688x256x3 : Shape := ⟨4, ![128, 688, 256, 3]⟩
abbrev S3 : Shape := ⟨1, ![3]⟩
abbrev S1x1x1x3 : Shape := ⟨4, ![1, 1, 1, 3]⟩
abbrev S128x688x256 : Shape := ⟨3, ![128, 688, 256]⟩
abbrev S128x688x16x16 : Shape := ⟨4, ![128, 688, 16, 16]⟩
abbrev S128x16x688x16 : Shape := ⟨4, ![128, 16, 688, 16]⟩
abbrev S2048x11008 : Shape := ⟨2, ![2048, 11008]⟩
abbrev S2048x11008x1 : Shape := ⟨3, ![2048, 11008, 1]⟩
abbrev S128x1x11008 : Shape := ⟨3, ![128, 1, 11008]⟩
abbrev S1x8x1 : Shape := ⟨3, ![1, 8, 1]⟩
abbrev S128x8x11008 : Shape := ⟨3, ![128, 8, 11008]⟩
abbrev S1024x11008 : Shape := ⟨2, ![1024, 11008]⟩
abbrev S1024 : Shape := ⟨1, ![1024]⟩
abbrev S1024x1 : Shape := ⟨2, ![1024, 1]⟩
abbrev S1024x1x11008 : Shape := ⟨3, ![1024, 1, 11008]⟩
abbrev S1024x2x11008 : Shape := ⟨3, ![1024, 2, 11008]⟩
abbrev S4096x11008 : Shape := ⟨2, ![4096, 11008]⟩
abbrev S1024x2x11008x1 : Shape := ⟨4, ![1024, 2, 11008, 1]⟩
abbrev S1024x2x11008x2 : Shape := ⟨4, ![1024, 2, 11008, 2]⟩
abbrev S32x128x11008 : Shape := ⟨3, ![32, 128, 11008]⟩
abbrev S4096x1 : Shape := ⟨2, ![4096, 1]⟩
abbrev S1x11008 : Shape := ⟨2, ![1, 11008]⟩

abbrev nBuf : Space → Nat
  | .hbm => 107
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S32x11008, .f32⟩
  | .hbm, ⟨2, _⟩ => ⟨S4096, .f32⟩
  | .hbm, ⟨3, _⟩ => ⟨S11008, .f32⟩
  | .hbm, ⟨4, _⟩ => ⟨S8, .f32⟩
  | .hbm, ⟨5, _⟩ => ⟨S128x688x96, .i32⟩
  | .hbm, ⟨6, _⟩ => ⟨S128x11008, .i32⟩
  | .hbm, ⟨7, _⟩ => ⟨S128x688x96, .i32⟩
  | .hbm, ⟨8, _⟩ => ⟨S128x688x96x1, .i32⟩
  | .hbm, ⟨9, _⟩ => ⟨S8, .i32⟩
  | .hbm, ⟨10, _⟩ => ⟨S1x1x1x8, .i32⟩
  | .hbm, ⟨11, _⟩ => ⟨S128x688x96x8, .i32⟩
  | .hbm, ⟨12, _⟩ => ⟨S128x688x96x8, .i32⟩
  | .hbm, ⟨13, _⟩ => ⟨S128x688x96x8, .i32⟩
  | .hbm, ⟨14, _⟩ => ⟨S_, .i32⟩
  | .hbm, ⟨15, _⟩ => ⟨S128x688x96x8, .i32⟩
  | .hbm, ⟨16, _⟩ => ⟨S128x688x96x8, .i32⟩
  | .hbm, ⟨17, _⟩ => ⟨S128x688x256x3, .i32⟩
  | .hbm, ⟨18, _⟩ => ⟨S3, .i32⟩
  | .hbm, ⟨19, _⟩ => ⟨S1x1x1x3, .i32⟩
  | .hbm, ⟨20, _⟩ => ⟨S128x688x256x3, .i32⟩
  | .hbm, ⟨21, _⟩ => ⟨S128x688x256x3, .i32⟩
  | .hbm, ⟨22, _⟩ => ⟨S_, .i32⟩
  | .hbm, ⟨23, _⟩ => ⟨S128x688x256, .i32⟩
  | .hbm, ⟨24, _⟩ => ⟨S128x688x256, .i32⟩
  | .hbm, ⟨25, _⟩ => ⟨S128x688x16x16, .i32⟩
  | .hbm, ⟨26, _⟩ => ⟨S128x16x688x16, .i32⟩
  | .hbm, ⟨27, _⟩ => ⟨S2048x11008, .i32⟩
  | .hbm, ⟨28, _⟩ => ⟨S_, .i32⟩
  | .hbm, ⟨29, _⟩ => ⟨S2048x11008, .i32⟩
  | .hbm, ⟨30, _⟩ => ⟨S2048x11008, .i1⟩
  | .hbm, ⟨31, _⟩ => ⟨S_, .i32⟩
  | .hbm, ⟨32, _⟩ => ⟨S2048x11008, .i32⟩
  | .hbm, ⟨33, _⟩ => ⟨S2048x11008, .i32⟩
  | .hbm, ⟨34, _⟩ => ⟨S2048x11008, .i32⟩
  | .hbm, ⟨35, _⟩ => ⟨S2048x11008x1, .i32⟩
  | .hbm, ⟨36, _⟩ => ⟨S2048x11008, .f32⟩
  | .hbm, ⟨37, _⟩ => ⟨S128x11008, .i32⟩
  | .hbm, ⟨38, _⟩ => ⟨S128x1x11008, .i32⟩
  | .hbm, ⟨39, _⟩ => ⟨S8, .i32⟩
  | .hbm, ⟨40, _⟩ => ⟨S_, .i32⟩
  | .hbm, ⟨41, _⟩ => ⟨S8, .i32⟩
  | .hbm, ⟨42, _⟩ => ⟨S8, .i32⟩
  | .hbm, ⟨43, _⟩ => ⟨S1x8x1, .i32⟩
  | .hbm, ⟨44, _⟩ => ⟨S128x8x11008, .i32⟩
  | .hbm, ⟨45, _⟩ => ⟨S128x8x11008, .i32⟩
  | .hbm, ⟨46, _⟩ => ⟨S128x8x11008, .i32⟩
  | .hbm, ⟨47, _⟩ => ⟨S_, .i32⟩
  | .hbm, ⟨48, _⟩ => ⟨S128x8x11008, .i32⟩
  | .hbm, ⟨49, _⟩ => ⟨S128x8x11008, .i32⟩
  | .hbm, ⟨50, _⟩ => ⟨S1024x11008, .i32⟩
  | .hbm, ⟨51, _⟩ => ⟨S_, .i32⟩
  | .hbm, ⟨52, _⟩ => ⟨S1024x11008, .i32⟩
  | .hbm, ⟨53, _⟩ => ⟨S1024x11008, .i32⟩
  | .hbm, ⟨54, _⟩ => ⟨S1024x11008, .i32⟩
  | .hbm, ⟨55, _⟩ => ⟨S_, .i32⟩
  | .hbm, ⟨56, _⟩ => ⟨S1024x11008, .i32⟩
  | .hbm, ⟨57, _⟩ => ⟨S1024x11008, .i32⟩
  | .hbm, ⟨58, _⟩ => ⟨S_, .i32⟩
  | .hbm, ⟨59, _⟩ => ⟨S1024x11008, .i32⟩
  | .hbm, ⟨60, _⟩ => ⟨S1024x11008, .i32⟩
  | .hbm, ⟨61, _⟩ => ⟨S1024x11008, .i32⟩
  | .hbm, ⟨62, _⟩ => ⟨S1024, .i32⟩
  | .hbm, ⟨63, _⟩ => ⟨S_, .i32⟩
  | .hbm, ⟨64, _⟩ => ⟨S1024, .i32⟩
  | .hbm, ⟨65, _⟩ => ⟨S1024, .i32⟩
  | .hbm, ⟨66, _⟩ => ⟨S1024x1, .i32⟩
  | .hbm, ⟨67, _⟩ => ⟨S1024x11008, .i32⟩
  | .hbm, ⟨68, _⟩ => ⟨S1024x11008, .i32⟩
  | .hbm, ⟨69, _⟩ => ⟨S1024x11008, .i32⟩
  | .hbm, ⟨70, _⟩ => ⟨S1024x11008, .i32⟩
  | .hbm, ⟨71, _⟩ => ⟨S1024x1x11008, .i32⟩
  | .hbm, ⟨72, _⟩ => ⟨S1024x1x11008, .i32⟩
  | .hbm, ⟨73, _⟩ => ⟨S1024x2x11008, .i32⟩
  | .hbm, ⟨74, _⟩ => ⟨S11008, .i32⟩
  | .hbm, ⟨75, _⟩ => ⟨S1024x2x11008, .i32⟩
  | .hbm, ⟨76, _⟩ => ⟨S1024x2x11008, .f32⟩
  | .hbm, ⟨77, _⟩ => ⟨S_, .f32⟩
  | .hbm, ⟨78, _⟩ => ⟨S4096x11008, .f32⟩
  | .hbm, ⟨79, _⟩ => ⟨S_, .i32⟩
  | .hbm, ⟨80, _⟩ => ⟨S1024x2x11008, .i32⟩
  | .hbm, ⟨81, _⟩ => ⟨S1024x2x11008, .i1⟩
  | .hbm, ⟨82, _⟩ => ⟨S_, .i32⟩
  | .hbm, ⟨83, _⟩ => ⟨S1024x2x11008, .i32⟩
  | .hbm, ⟨84, _⟩ => ⟨S1024x2x11008, .i32⟩
  | .hbm, ⟨85, _⟩ => ⟨S1024x2x11008, .i32⟩
  | .hbm, ⟨86, _⟩ => ⟨S_, .i32⟩
  | .hbm, ⟨87, _⟩ => ⟨S1024x2x11008, .i32⟩
  | .hbm, ⟨88, _⟩ => ⟨S1024x2x11008, .i1⟩
  | .hbm, ⟨89, _⟩ => ⟨S_, .i32⟩
  | .hbm, ⟨90, _⟩ => ⟨S1024x2x11008, .i32⟩
  | .hbm, ⟨91, _⟩ => ⟨S1024x2x11008, .i32⟩
  | .hbm, ⟨92, _⟩ => ⟨S1024x2x11008, .i32⟩
  | .hbm, ⟨93, _⟩ => ⟨S1024x2x11008x1, .i32⟩
  | .hbm, ⟨94, _⟩ => ⟨S1024x2x11008x1, .i32⟩
  | .hbm, ⟨95, _⟩ => ⟨S1024x2x11008x2, .i32⟩
  | .hbm, ⟨96, _⟩ => ⟨S4096x11008, .f32⟩
  | .hbm, ⟨97, _⟩ => ⟨S32x128x11008, .f32⟩
  | .hbm, ⟨98, _⟩ => ⟨S4096x11008, .f32⟩
  | .hbm, ⟨99, _⟩ => ⟨S4096x11008, .f32⟩
  | .hbm, ⟨100, _⟩ => ⟨S4096x1, .f32⟩
  | .hbm, ⟨101, _⟩ => ⟨S4096x11008, .f32⟩
  | .hbm, ⟨102, _⟩ => ⟨S4096x11008, .f32⟩
  | .hbm, ⟨103, _⟩ => ⟨S1x11008, .f32⟩
  | .hbm, ⟨104, _⟩ => ⟨S4096x11008, .f32⟩
  | .hbm, ⟨105, _⟩ => ⟨S4096x11008, .f32⟩
  | .hbm, ⟨106, _⟩ => ⟨S4096x11008, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c_1 : Ref sig .tc := ⟨.hbm, 28, rfl⟩
abbrev main_v19 : Ref sig .tc := ⟨.hbm, 29, rfl⟩
abbrev main_v20 : Ref sig .tc := ⟨.hbm, 30, rfl⟩
abbrev main_c_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_c_3 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_c_4 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_c_5 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_c_6 : Ref sig .tc := ⟨.hbm, 55, rfl⟩
abbrev main_v41 : Ref sig .tc := ⟨.hbm, 56, rfl⟩
abbrev main_v42 : Ref sig .tc := ⟨.hbm, 57, rfl⟩
abbrev main_c_7 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_c_8 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_cst : Ref sig .tc := ⟨.hbm, 77, rfl⟩
abbrev main_v60 : Ref sig .tc := ⟨.hbm, 78, rfl⟩
abbrev main_c_9 : Ref sig .tc := ⟨.hbm, 79, rfl⟩
abbrev main_v61 : Ref sig .tc := ⟨.hbm, 80, rfl⟩
abbrev main_v62 : Ref sig .tc := ⟨.hbm, 81, rfl⟩
abbrev main_c_10 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_c_11 : Ref sig .tc := ⟨.hbm, 86, rfl⟩
abbrev main_v66 : Ref sig .tc := ⟨.hbm, 87, rfl⟩
abbrev main_v67 : Ref sig .tc := ⟨.hbm, 88, rfl⟩
abbrev main_c_12 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩

abbrev nD : Nat := 1
abbrev τ : Topo := Topo.v7x

variable {F : FTy → Type} [FloatOps F]

class Facts₀ : Prop where
  bcast_S128x688x96_S128x688x96x1_0_1_2 : S128x688x96.BroadcastsInDim S128x688x96x1 (![0, 1, 2] : Fin 3 → Fin S128x688x96x1.rank)
  bcast_S8_S1x1x1x8_3 : S8.BroadcastsInDim S1x1x1x8 (![3] : Fin 1 → Fin S1x1x1x8.rank)
  bcast_S128x688x96x1_S128x688x96x8_0_1_2_3 : S128x688x96x1.BroadcastsInDim S128x688x96x8 (![0, 1, 2, 3] : Fin 4 → Fin S128x688x96x8.rank)
  bcast_S1x1x1x8_S128x688x96x8_0_1_2_3 : S1x1x1x8.BroadcastsInDim S128x688x96x8 (![0, 1, 2, 3] : Fin 4 → Fin S128x688x96x8.rank)
  bcast_S_S128x688x96x8 : S_.BroadcastsInDim S128x688x96x8 (![] : Fin 0 → Fin S128x688x96x8.rank)
  shapeCasts_S128x688x96x8_S128x688x256x3 : S128x688x96x8.ShapeCasts S128x688x256x3
  bcast_S3_S1x1x1x3_3 : S3.BroadcastsInDim S1x1x1x3 (![3] : Fin 1 → Fin S1x1x1x3.rank)
  bcast_S1x1x1x3_S128x688x256x3_0_1_2_3 : S1x1x1x3.BroadcastsInDim S128x688x256x3 (![0, 1, 2, 3] : Fin 4 → Fin S128x688x256x3.rank)
  reducesTo_S128x688x256x3_S128x688x256_d3 : S128x688x256x3.ReducesTo [3] S128x688x256
  h_S_ : 0 < S_.numel
  shapeCasts_S128x688x256_S128x688x16x16 : S128x688x256.ShapeCasts S128x688x16x16
  transposes_S128x688x16x16_S128x16x688x16_0_2_1_3 : S128x688x16x16.Transposes [0, 2, 1, 3] S128x16x688x16
  shapeCasts_S128x16x688x16_S2048x11008 : S128x16x688x16.ShapeCasts S2048x11008
  bcast_S_S2048x11008 : S_.BroadcastsInDim S2048x11008 (![] : Fin 0 → Fin S2048x11008.rank)
  bcast_S2048x11008_S2048x11008x1_0_1 : S2048x11008.BroadcastsInDim S2048x11008x1 (![0, 1] : Fin 2 → Fin S2048x11008x1.rank)
  bcast_S128x11008_S128x1x11008_0_2 : S128x11008.BroadcastsInDim S128x1x11008 (![0, 2] : Fin 2 → Fin S128x1x11008.rank)
  bcast_S_S8 : S_.BroadcastsInDim S8 (![] : Fin 0 → Fin S8.rank)
  bcast_S8_S1x8x1_1 : S8.BroadcastsInDim S1x8x1 (![1] : Fin 1 → Fin S1x8x1.rank)
  bcast_S128x1x11008_S128x8x11008_0_1_2 : S128x1x11008.BroadcastsInDim S128x8x11008 (![0, 1, 2] : Fin 3 → Fin S128x8x11008.rank)
  bcast_S1x8x1_S128x8x11008_0_1_2 : S1x8x1.BroadcastsInDim S128x8x11008 (![0, 1, 2] : Fin 3 → Fin S128x8x11008.rank)
  bcast_S_S128x8x11008 : S_.BroadcastsInDim S128x8x11008 (![] : Fin 0 → Fin S128x8x11008.rank)
  shapeCasts_S128x8x11008_S1024x11008 : S128x8x11008.ShapeCasts S1024x11008
  bcast_S_S1024x11008 : S_.BroadcastsInDim S1024x11008 (![] : Fin 0 → Fin S1024x11008.rank)
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x11008_0_1 : S1024x1.BroadcastsInDim S1024x11008 (![0, 1] : Fin 2 → Fin S1024x11008.rank)
  bcast_S1024x11008_S1024x1x11008_0_2 : S1024x11008.BroadcastsInDim S1024x1x11008 (![0, 2] : Fin 2 → Fin S1024x1x11008.rank)
  concatenates_S1024x1x11008_S1024x1x11008_S1024x2x11008_d1 : Shape.Concatenates [S1024x1x11008, S1024x1x11008] S1024x2x11008 1
  bcast_S11008_S1024x2x11008_2 : S11008.BroadcastsInDim S1024x2x11008 (![2] : Fin 1 → Fin S1024x2x11008.rank)
  shapeCasts_S2048x11008_S1024x2x11008 : S2048x11008.ShapeCasts S1024x2x11008
  bcast_S_S4096x11008 : S_.BroadcastsInDim S4096x11008 (![] : Fin 0 → Fin S4096x11008.rank)
  bcast_S_S1024x2x11008 : S_.BroadcastsInDim S1024x2x11008 (![] : Fin 0 → Fin S1024x2x11008.rank)
  bcast_S1024x2x11008_S1024x2x11008x1_0_1_2 : S1024x2x11008.BroadcastsInDim S1024x2x11008x1 (![0, 1, 2] : Fin 3 → Fin S1024x2x11008x1.rank)
  concatenates_S1024x2x11008x1_S1024x2x11008x1_S1024x2x11008x2_d3 : Shape.Concatenates [S1024x2x11008x1, S1024x2x11008x1] S1024x2x11008x2 3
  bcast_S32x11008_S32x128x11008_0_2 : S32x11008.BroadcastsInDim S32x128x11008 (![0, 2] : Fin 2 → Fin S32x128x11008.rank)
  shapeCasts_S32x128x11008_S4096x11008 : S32x128x11008.ShapeCasts S4096x11008
  bcast_S4096_S4096x1_0 : S4096.BroadcastsInDim S4096x1 (![0] : Fin 1 → Fin S4096x1.rank)
  bcast_S4096x1_S4096x11008_0_1 : S4096x1.BroadcastsInDim S4096x11008 (![0, 1] : Fin 2 → Fin S4096x11008.rank)
  bcast_S11008_S1x11008_1 : S11008.BroadcastsInDim S1x11008 (![1] : Fin 1 → Fin S1x11008.rank)
  bcast_S1x11008_S4096x11008_0_1 : S1x11008.BroadcastsInDim S4096x11008 (![0, 1] : Fin 2 → Fin S4096x11008.rank)
  gather_S8_S2048x11008x1_S2048x11008_n_0_n_n_0_2_1_wf : GatherDims.WF S8 S2048x11008x1 S2048x11008 [] [0] [] [0] [] 2 ![1]
  scatter_S4096x11008_S1024x2x11008x2_S1024x2x11008_n_01_01_3_wf : ScatterDims.WF S4096x11008 S1024x2x11008x2 S1024x2x11008 [] [0, 1] [0, 1] 3
  dot_S4096x4096_S4096x11008_S4096x11008_1_0_0_1_n_n_wf : DotDims.WF S4096x4096 S4096x11008 S4096x11008 [1] [0] [0] [1] [] []

variable [Facts₀]

def gather_S8_S2048x11008x1_S2048x11008_n_0_n_n_0_2_1 : GatherDims S8 S2048x11008x1 S2048x11008 where
  offsetDims := []
  collapsedSliceDims := [0]
  operandBatchingDims := []
  startIndicesBatchingDims := []
  startIndexMap := [0]
  indexVectorDim := 2
  sliceSizes := ![1]
  wf := gather_S8_S2048x11008x1_S2048x11008_n_0_n_n_0_2_1_wf
def scatter_S4096x11008_S1024x2x11008x2_S1024x2x11008_n_01_01_3 : ScatterDims S4096x11008 S1024x2x11008x2 S1024x2x11008 where
  updateWindowDims := []
  insertedWindowDims := [0, 1]
  scatterDimsToOperandDims := [0, 1]
  indexVectorDim := 3
  wf := scatter_S4096x11008_S1024x2x11008x2_S1024x2x11008_n_01_01_3_wf
def dot_S4096x4096_S4096x11008_S4096x11008_1_0_0_1_n_n : DotDims S4096x4096 S4096x11008 S4096x11008 where
  lhsContracting := [1]
  rhsContracting := [0]
  lhsNonContracting := [0]
  rhsNonContracting := [1]
  lhsBatch := []
  rhsBatch := []
  wf := dot_S4096x4096_S4096x11008_S4096x11008_1_0_0_1_n_n_wf

class Facts : Prop extends Facts₀ where

variable [Facts]
-- ==== Proof.KernelRunDefs.lean ====
import proofs.«416245_j678604833216_3_alg».proof.Proof.Gen.Kernel.Skeleton
import proofs.«416245_j678604833216_3_alg».proof.Proof.Gen.Kernel.Launch
import Idealize.ShloMosaic.Lib.Pipeline.FrameBody
import Idealize.ShloMosaic.Lib.Tactic

set_option maxRecDepth 16384

noncomputable section

namespace Cert.Kernel.Body

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The kernel's one branch condition: the second grid coordinate is zero (the weights are rebuilt there). -/
abbrev cond0 (i : grid0.Coords) : Prop :=
  Scalar.cmpi .ne (Scalar.extui (Scalar.cmpi .eq (BitVec.ofNat 32 (i 1).val) 0#32)) 0#32 = 1#1

/-- Over the grid's 88 points the condition holds exactly at the points divisible by eight. -/
theorem hcond0 : ∀ t : Fin cfg0.N, cond0 (grid0.coords t) ↔ t.val % 8 = 0 :=
  (by decide +kernel : ∀ t : Fin grid0.N, cond0 (grid0.coords t) ↔ t.val % 8 = 0)

end Cert.Kernel.Body

end
-- ==== Proof.KernelRunA.lean ====
import proofs.«416245_j678604833216_3_alg».proof.Proof.Gen.Kernel.Skeleton
import proofs.«416245_j678604833216_3_alg».proof.Proof.Gen.Kernel.Launch
import proofs.«416245_j678604833216_3_alg».proof.Proof.KernelRunDefs
import Idealize.ShloMosaic.Lib.Pipeline.FrameBody
import Idealize.ShloMosaic.Lib.Tactic

set_option maxRecDepth 16384

noncomputable section

namespace Cert.Kernel.Body

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The body at a point where the weights are rebuilt: the pieces the result's staging buffer and the two weight buffers end with
    (the witness the run finds), with the proof that on whole staging memrefs, the six inputs' at their contents and the three others'
    at anything, the body runs to its return, the inputs' as they were and the three others' with their pieces written. -/
noncomputable def runA (c : Dev nD) (i : grid0.Coords) (arg2 : Memref sig .tc .vmem S512x4096 .f32) (harg2 : arg2.IsWhole) (arg3 : Memref sig .tc .vmem S4096 .f32) (harg3 : arg3.IsWhole)
    (arg4 : Memref sig .tc .vmem S1024x1024 .f32) (harg4 : arg4.IsWhole) (arg5 : Memref sig .tc .vmem S1024x1024 .f32) (harg5 : arg5.IsWhole)
    (arg6 : Memref sig .tc .vmem S128x1024 .i32) (harg6 : arg6.IsWhole) (arg7 : Memref sig .tc .vmem S32x1024 .f32) (harg7 : arg7.IsWhole)
    (arg8 : Memref sig .tc .vmem S512x1024 .f32) (harg8 : arg8.IsWhole) (arg9 : Memref sig .tc .vmem S4096x1024 .bf16) (harg9 : arg9.IsWhole)
    (arg10 : Memref sig .tc .vmem S4096x1024 .bf16) (harg10 : arg10.IsWhole) (hc : cond0 i)
    (x2 : Vec F S512x4096 .f32) (x3 : Vec F S4096 .f32) (x4 : Vec F S1024x1024 .f32) (x5 : Vec F S1024x1024 .f32) (x6 : Vec F S128x1024 .i32) (x7 : Vec F S32x1024 .f32) :
    { L : List (View.Piece (Elt F) S512x1024 .f32) × List (View.Piece (Elt F) S4096x1024 .bf16) × List (View.Piece (Elt F) S4096x1024 .bf16) //
      ∀ (E : Set ℕ) (K : PUnit → sProp 𝕄),
        iprop(owns (c : Thread nD τ) arg2 fullShare x2 ∗ owns (c : Thread nD τ) arg3 fullShare x3 ∗ owns (c : Thread nD τ) arg4 fullShare x4
            ∗ owns (c : Thread nD τ) arg5 fullShare x5 ∗ owns (c : Thread nD τ) arg6 fullShare x6 ∗ owns (c : Thread nD τ) arg7 fullShare x7
            ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x2 ∗ owns (c : Thread nD τ) arg3 fullShare x3 ∗ owns (c : Thread nD τ) arg4 fullShare x4
            ∗ owns (c : Thread nD τ) arg5 fullShare x5 ∗ owns (c : Thread nD τ) arg6 fullShare x6 ∗ owns (c : Thread nD τ) arg7 fullShare x7
                ∗ (∃ f, arg8.view.loc (c : Thread nD τ) ↦[arg8.view.set]{fullShare} arg8.view.writes (Elt F) f L.1)
                ∗ (∃ f, arg9.view.loc (c : Thread nD τ) ↦[arg9.view.set]{fullShare} arg9.view.writes (Elt F) f L.2.1)
                ∗ (∃ f, arg10.view.loc (c : Thread nD τ) ↦[arg10.view.set]{fullShare} arg10.view.writes (Elt F) f L.2.2)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10) K } := by
  refine ⟨⟨?_, ?_, ?_⟩, fun E K => ?run⟩
  case run =>
    simp only [cc0__fused_kernel_eq_skeleton]; unfold cc0__fused_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
    obtain rfl := harg2.eq_unread hf2
    obtain rfl := harg3.eq_unread hf3
    obtain rfl := harg4.eq_unread hf4
    obtain rfl := harg5.eq_unread hf5
    obtain rfl := harg6.eq_unread hf6
    obtain rfl := harg7.eq_unread hf7
    sl_exec (disch := first | exact hc)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; iexact H8
    isplitl [H9]
    · iexists _; iexact H9
    iexists _; iexact H10

end Cert.Kernel.Body

end
-- ==== Proof.KernelRunB.lean ====
import proofs.«416245_j678604833216_3_alg».proof.Proof.Gen.Kernel.Skeleton
import proofs.«416245_j678604833216_3_alg».proof.Proof.Gen.Kernel.Launch
import proofs.«416245_j678604833216_3_alg».proof.Proof.KernelRunDefs
import Idealize.ShloMosaic.Lib.Pipeline.FrameBody
import Idealize.ShloMosaic.Lib.Tactic

set_option maxRecDepth 16384

noncomputable section

namespace Cert.Kernel.Body

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a point where the weights are kept: the pieces the result's staging buffer ends with (the witness the run finds),
    with the proof that on whole staging memrefs, the six inputs' and the two weight buffers' at their contents and the result's at
    anything, the body runs to its return, those eight as they were and the result's with its pieces written. -/
noncomputable def runB (c : Dev nD) (i : grid0.Coords) (arg2 : Memref sig .tc .vmem S512x4096 .f32) (harg2 : arg2.IsWhole) (arg3 : Memref sig .tc .vmem S4096 .f32) (harg3 : arg3.IsWhole)
    (arg4 : Memref sig .tc .vmem S1024x1024 .f32) (harg4 : arg4.IsWhole) (arg5 : Memref sig .tc .vmem S1024x1024 .f32) (harg5 : arg5.IsWhole)
    (arg6 : Memref sig .tc .vmem S128x1024 .i32) (harg6 : arg6.IsWhole) (arg7 : Memref sig .tc .vmem S32x1024 .f32) (harg7 : arg7.IsWhole)
    (arg8 : Memref sig .tc .vmem S512x1024 .f32) (harg8 : arg8.IsWhole) (arg9 : Memref sig .tc .vmem S4096x1024 .bf16) (harg9 : arg9.IsWhole)
    (arg10 : Memref sig .tc .vmem S4096x1024 .bf16) (harg10 : arg10.IsWhole) (hc : ¬cond0 i)
    (x2 : Vec F S512x4096 .f32) (x3 : Vec F S4096 .f32) (x4 : Vec F S1024x1024 .f32) (x5 : Vec F S1024x1024 .f32) (x6 : Vec F S128x1024 .i32) (x7 : Vec F S32x1024 .f32) (s9 : Vec F S4096x1024 .bf16) (s10 : Vec F S4096x1024 .bf16) :
    { L : List (View.Piece (Elt F) S512x1024 .f32) //
      ∀ (E : Set ℕ) (K : PUnit → sProp 𝕄),
        iprop(owns (c : Thread nD τ) arg2 fullShare x2 ∗ owns (c : Thread nD τ) arg3 fullShare x3 ∗ owns (c : Thread nD τ) arg4 fullShare x4
            ∗ owns (c : Thread nD τ) arg5 fullShare x5 ∗ owns (c : Thread nD τ) arg6 fullShare x6 ∗ owns (c : Thread nD τ) arg7 fullShare x7
            ∗ (∃ d, owns (c : Thread nD τ) arg8 fullShare d) ∗ owns (c : Thread nD τ) arg9 fullShare s9 ∗ owns (c : Thread nD τ) arg10 fullShare s10
            ∗ (iprop(owns (c : Thread nD τ) arg2 fullShare x2 ∗ owns (c : Thread nD τ) arg3 fullShare x3 ∗ owns (c : Thread nD τ) arg4 fullShare x4
            ∗ owns (c : Thread nD τ) arg5 fullShare x5 ∗ owns (c : Thread nD τ) arg6 fullShare x6 ∗ owns (c : Thread nD τ) arg7 fullShare x7
                ∗ (∃ f, arg8.view.loc (c : Thread nD τ) ↦[arg8.view.set]{fullShare} arg8.view.writes (Elt F) f L)
                ∗ owns (c : Thread nD τ) arg9 fullShare s9 ∗ owns (c : Thread nD τ) arg10 fullShare s10) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10) K } := by
  refine ⟨?_, fun E K => ?run⟩
  case run =>
    simp only [cc0__fused_kernel_eq_skeleton]; unfold cc0__fused_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, Hk⟩
    obtain rfl := harg2.eq_unread hf2
    obtain rfl := harg3.eq_unread hf3
    obtain rfl := harg4.eq_unread hf4
    obtain rfl := harg5.eq_unread hf5
    obtain rfl := harg6.eq_unread hf6
    obtain rfl := harg7.eq_unread hf7
    obtain rfl := harg9.eq_unread hf9
    obtain rfl := harg10.eq_unread hf10
    sl_exec (disch := first | exact hc)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; iexact H8
    isplitl [H9]
    · iexists _; isplitr; · ipureintro; exact harg9.read_unread _
      iexact H9
    iexists _; isplitr; · ipureintro; exact harg10.read_unread _
    iexact H10

end Cert.Kernel.Body

end
-- ==== Proof.KernelFrame.lean ====
/- The bit-level program runs to its end without fault and leaves its seven argument arrays as launched.
   Nothing is said of any value the body computes: of each window's buffer only that it comes back at some
   contents; the two buffers carried from point to point stay in the invariant at some contents. -/
import proofs.«416245_j678604833216_3_alg».proof.Defs
import proofs.«416245_j678604833216_3_alg».proof.Proof.Gen.Kernel.Frame
import proofs.«416245_j678604833216_3_alg».proof.Proof.Gen.Pre_finite_inputs
import proofs.«416245_j678604833216_3_alg».proof.Proof.KernelRunDefs
import proofs.«416245_j678604833216_3_alg».proof.Proof.KernelRunA
import proofs.«416245_j678604833216_3_alg».proof.Proof.KernelRunB
import Idealize.ShloMosaic.Lib.Pipeline.Frame
import Idealize.ShloMosaic.Lib.Pipeline.FrameBody
import Idealize.ShloMosaic.Lib.Memref
import Idealize.ShloMosaic.Lib.Tactic

set_option maxRecDepth 16384

noncomputable section

namespace Cert.Kernel.FrameProof

open Cert.Kernel Cert.Kernel.Gen Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data of the one pipeline on a core: each windowed array as the region finds it; of what the body
    leaves in a window's buffer nothing is said; the invariant is the two carried buffers at some contents and
    the generator register at some state; nothing owed; whole shares. -/
def rdat (c : Dev nD) : Pipeline.RDat τ (Elt F) Unit ℕ (UR sig nD τ) ℕ cfg0 c where
  A w := V m c (Pipeline.arrRef spec0 w)
  after _ _ _ _ := True
  Φ _ := Pipeline.ΦA spec0 c
  q _ := fullShare
  owed _ := 0

/-- A whole buffer's points-to is owning its whole memref at those contents. -/
theorem whole_fwd (c : Dev nD) (b : Ref sig .tc) (f : Buf (Elt F) ((c : Thread nD τ).loc b)) :
    (((c : Thread nD τ).loc b) ↦{fullShare} f : sProp 𝕄) ⊢ owns (c : Thread nD τ) (Memref.whole b) fullShare f := by
  rw [owns_whole]

/-- Owning a whole memref at some contents is the buffer's points-to at some contents. -/
theorem whole_back (c : Dev nD) (b : Ref sig .tc) (f : Buf (Elt F) ((c : Thread nD τ).loc b)) :
    (owns (c : Thread nD τ) (Memref.whole b) fullShare f : sProp 𝕄)
      ⊢ iprop(∃ g : Buf (Elt F) ((c : Thread nD τ).loc b), ((c : Thread nD τ).loc b) ↦{fullShare} g) := by
  rw [owns_whole]; iintro H; iexists f; iexact H

/-- The elements of a whole memref at any raw contents: the buffer's points-to at some contents. -/
theorem whole_raw_back (c : Dev nD) (b : Ref sig .tc) (g : (Memref.whole b).view.ty.Contents (Elt F)) :
    ((Memref.whole b).view.loc (c : Thread nD τ) ↦[(Memref.whole b).view.set]{fullShare} g : sProp 𝕄)
      ⊢ iprop(∃ f : Buf (Elt F) ((c : Thread nD τ).loc b), ((c : Thread nD τ).loc b) ↦{fullShare} f) :=
  (owns_intro (c : Thread nD τ) (Memref.whole b) fullShare g).trans (whole_back c b _)

/-- What the body is called with at a point: the invariant, what the core owes, each window's current buffer at
    the contents it was handed. -/
def bodyPre (c : Dev nD) (t : Fin cfg0.N) (Y : (w : Fin cfg0.W) → (cfg0.win w).block.Idx → Elt F (cfg0.win w).elt) : sProp 𝕄 :=
  iprop((rdat m c).Φ t.castSucc ∗ (rdat m c).owesAt () t.castSucc
    ∗ owns (c : Thread nD τ) (st0_0 t) fullShare (Y 0)
    ∗ owns (c : Thread nD τ) (st0_1 t) fullShare (Y 1)
    ∗ owns (c : Thread nD τ) (st0_2 t) fullShare (Y 2)
    ∗ owns (c : Thread nD τ) (st0_3 t) fullShare (Y 3)
    ∗ owns (c : Thread nD τ) (st0_4 t) fullShare (Y 4)
    ∗ owns (c : Thread nD τ) (st0_5 t) fullShare (Y 5)
    ∗ owns (c : Thread nD τ) (st0_6 t) fullShare (Y 6))

/-- What it returns: the invariant, what the core owes, each window's current buffer at some contents. -/
def bodyPost (c : Dev nD) (t : Fin cfg0.N) : sProp 𝕄 :=
  iprop((rdat m c).Φ t.succ ∗ (rdat m c).owesAt () t.succ
    ∗ (∃ X, ⌜True⌝ ∗ owns (c : Thread nD τ) (st0_0 t) fullShare X)
    ∗ (∃ X, ⌜True⌝ ∗ owns (c : Thread nD τ) (st0_1 t) fullShare X)
    ∗ (∃ X, ⌜True⌝ ∗ owns (c : Thread nD τ) (st0_2 t) fullShare X)
    ∗ (∃ X, ⌜True⌝ ∗ owns (c : Thread nD τ) (st0_3 t) fullShare X)
    ∗ (∃ X, ⌜True⌝ ∗ owns (c : Thread nD τ) (st0_4 t) fullShare X)
    ∗ (∃ X, ⌜True⌝ ∗ owns (c : Thread nD τ) (st0_5 t) fullShare X)
    ∗ (∃ X, ⌜True⌝ ∗ owns (c : Thread nD τ) (st0_6 t) fullShare X))

/-- The body at any point. Where the second grid coordinate is zero the two carried buffers are handed over at
    whatever they hold and come back rewritten; elsewhere they are handed over and come back as they were. Every
    input window's buffer comes back as handed over, the result's with the point's block written. -/
theorem sound_body (c : Dev nD) (t : Fin cfg0.N) (Y : (w : Fin cfg0.W) → (cfg0.win w).block.Idx → Elt F (cfg0.win w).elt) :
    bodyPre m c t Y ⊢ wp frame (wpE (defs₀ (F := F)) Variants.none c none) Set.univ (bodyAt0 t) (fun _ => bodyPost m c t) := by
  unfold bodyPre bodyPost
  rw [show (rdat m c).Φ t.succ = Pipeline.ΦA spec0 c from rfl, show (rdat m c).Φ t.castSucc = Pipeline.ΦA spec0 c from rfl,
    show (rdat m c).owesAt () t.succ = (rdat m c).owesAt () t.castSucc from rfl]
  unfold Pipeline.ΦA
  rw [scopedRest0_eq]
  by_cases hc : cond0 (grid0.coords t)
  · iintro ⟨⟨⟨⟨%s9, H9⟩, ⟨%s10, H10⟩⟩, Hr⟩, Ho, H0, H1, H2, H3, H4, H5, H6⟩
    iapply ((runA c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (Memref.whole cc0_scratch0) (Memref.isWhole_whole _) (Memref.whole cc0_scratch1) (Memref.isWhole_whole _) hc (Y 0) (Y 1) (Y 2) (Y 3) (Y 4) (Y 5)).2 Set.univ _)
    isplitl [H0]
    · iexact H0
    isplitl [H1]
    · iexact H1
    isplitl [H2]
    · iexact H2
    isplitl [H3]
    · iexact H3
    isplitl [H4]
    · iexact H4
    isplitl [H5]
    · iexact H5
    isplitl [H6]
    · iexists _; iexact H6
    isplitl [H9]
    · iexists s9; iapply (whole_fwd c cc0_scratch0 s9); iexact H9
    isplitl [H10]
    · iexists s10; iapply (whole_fwd c cc0_scratch1 s10); iexact H10
    iintro ⟨H0, H1, H2, H3, H4, H5, ⟨%f6, H6⟩, ⟨%f9, H9⟩, ⟨%f10, H10⟩⟩
    isplitl [H9 H10 Hr]
    · isplitr [Hr]
      · isplitl [H9]
        · iapply (whole_raw_back c cc0_scratch0 _); iexact H9
        · iapply (whole_raw_back c cc0_scratch1 _); iexact H10
      · iexact Hr
    isplitl [Ho]
    · iexact Ho
    isplitl [H0]
    · iexists _; isplitr
      · ipureintro; trivial
      iexact H0
    isplitl [H1]
    · iexists _; isplitr
      · ipureintro; trivial
      iexact H1
    isplitl [H2]
    · iexists _; isplitr
      · ipureintro; trivial
      iexact H2
    isplitl [H3]
    · iexists _; isplitr
      · ipureintro; trivial
      iexact H3
    isplitl [H4]
    · iexists _; isplitr
      · ipureintro; trivial
      iexact H4
    isplitl [H5]
    · iexists _; isplitr
      · ipureintro; trivial
      iexact H5
    iexists _; isplitr
    · ipureintro; trivial
    iapply (owns_intro _ _ _ _); iexact H6
  · iintro ⟨⟨⟨⟨%s9, H9⟩, ⟨%s10, H10⟩⟩, Hr⟩, Ho, H0, H1, H2, H3, H4, H5, H6⟩
    iapply ((runB c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (Memref.whole cc0_scratch0) (Memref.isWhole_whole _) (Memref.whole cc0_scratch1) (Memref.isWhole_whole _) hc (Y 0) (Y 1) (Y 2) (Y 3) (Y 4) (Y 5) s9 s10).2 Set.univ _)
    isplitl [H0]
    · iexact H0
    isplitl [H1]
    · iexact H1
    isplitl [H2]
    · iexact H2
    isplitl [H3]
    · iexact H3
    isplitl [H4]
    · iexact H4
    isplitl [H5]
    · iexact H5
    isplitl [H6]
    · iexists _; iexact H6
    isplitl [H9]
    · iapply (whole_fwd c cc0_scratch0 s9); iexact H9
    isplitl [H10]
    · iapply (whole_fwd c cc0_scratch1 s10); iexact H10
    iintro ⟨H0, H1, H2, H3, H4, H5, ⟨%f6, H6⟩, H9, H10⟩
    isplitl [H9 H10 Hr]
    · isplitr [Hr]
      · isplitl [H9]
        · iapply (whole_back c cc0_scratch0 _); iexact H9
        · iapply (whole_back c cc0_scratch1 _); iexact H10
      · iexact Hr
    isplitl [Ho]
    · iexact Ho
    isplitl [H0]
    · iexists _; isplitr
      · ipureintro; trivial
      iexact H0
    isplitl [H1]
    · iexists _; isplitr
      · ipureintro; trivial
      iexact H1
    isplitl [H2]
    · iexists _; isplitr
      · ipureintro; trivial
      iexact H2
    isplitl [H3]
    · iexists _; isplitr
      · ipureintro; trivial
      iexact H3
    isplitl [H4]
    · iexists _; isplitr
      · ipureintro; trivial
      iexact H4
    isplitl [H5]
    · iexists _; isplitr
      · ipureintro; trivial
      iexact H5
    iexists _; isplitr
    · ipureintro; trivial
    iapply (owns_intro _ _ _ _); iexact H6

/-- The library's body obligation of the relational data, at every point and all contents handed over. -/
theorem body_obligation (c : Dev nD) : (rdat m c).BodyObligation (defs₀ (F := F)) Variants.none () Set.univ := fun t Y _ => by
  rw [bigSep_W0, bigSep_W0]
  exact sound_body m c t Y

/-- The proof data's arrays are the contents the region finds. -/
theorem A_eq (c : Dev nD) (w : Fin cfg0.W) : (rdat m c).A w = V m c (Pipeline.arrRef spec0 w) := by
  dsimp only [rdat]

set_option backward.isDefEq.respectTransparency.types false in
/-- For any values, from any memory with zero counters: every weakly fair execution terminates without fault, every
    input window's array ends as the region found it and so does every unscoped buffer no window stages. -/
theorem run_main : θ_run defs (onTc (τ := τ) (main (F := F))) (s₀ m ρ) (Pipeline.RDat.FramePost cfg0 (rdat m) (V m)) :=
  Pipeline.RDat.θ_run_frame cfgs (0 : Fin 1) launch0 defs₀ Variants.none (rdat m) m ρ main
    (hbody := body_obligation m) (hshare := fun c w => by unfold Pipeline.RDat.share; split <;> rfl)
    (howed := fun _ _ => rfl) (V := V m)
    (hmain := hmain m Variants.none) (hA := A_eq m) (hΦ := fun _ _ => rfl)

/-- The seven argument arrays end unchanged: three are arrays of input windows, never written; four are staged by
    no window and bypass the region; none is written by the operations before the region. -/
theorem frame : Cert.frame_Kernel := fun m ρ _ =>
  (θ_run defs _ _).mono (fun _ h c => ⟨((Pipeline.RDat.FramePost.arr_in h c 0 rfl).trans ((A_eq m c 0).trans (V_main_arg0 m c))),
      ((h c).2 main_arg1 (Pipeline.mem_restRefs_of main_arg1 (by decide) (by decide))).trans (V_main_arg1 m c),
      ((Pipeline.RDat.FramePost.arr_in h c 1 rfl).trans ((A_eq m c 1).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((Pipeline.RDat.FramePost.arr_in h c 4 rfl).trans ((A_eq m c 4).trans (V_main_arg6 m c)))⟩) (run_main m ρ)

end Cert.Kernel.FrameProof

end
-- ==== Proof.KernelIdealRunDefs.lean ====
import proofs.«416245_j678604833216_3_alg».proof.Proof.Gen.KernelIdeal.Skeleton
import proofs.«416245_j678604833216_3_alg».proof.Proof.Gen.KernelIdeal.Launch
import Idealize.ShloMosaic.Lib.Pipeline.FrameBody
import Idealize.ShloMosaic.Lib.Tactic

set_option maxRecDepth 16384

noncomputable section

namespace Cert.KernelIdeal.Body

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The kernel's one branch condition: the second grid coordinate is zero (the weights are rebuilt there). -/
abbrev cond0 (i : grid0.Coords) : Prop :=
  Scalar.cmpi .ne (Scalar.extui (Scalar.cmpi .eq (BitVec.ofNat 32 (i 1).val) 0#32)) 0#32 = 1#1

/-- Over the grid's 88 points the condition holds exactly at the points divisible by eight. -/
theorem hcond0 : ∀ t : Fin cfg0.N, cond0 (grid0.coords t) ↔ t.val % 8 = 0 :=
  (by decide +kernel : ∀ t : Fin grid0.N, cond0 (grid0.coords t) ↔ t.val % 8 = 0)

end Cert.KernelIdeal.Body

end
-- ==== Proof.KernelIdealRunA.lean ====
import proofs.«416245_j678604833216_3_alg».proof.Proof.Gen.KernelIdeal.Skeleton
import proofs.«416245_j678604833216_3_alg».proof.Proof.Gen.KernelIdeal.Launch
import proofs.«416245_j678604833216_3_alg».proof.Proof.KernelIdealRunDefs
import Idealize.ShloMosaic.Lib.Pipeline.FrameBody
import Idealize.ShloMosaic.Lib.Tactic

set_option maxRecDepth 16384

noncomputable section

namespace Cert.KernelIdeal.Body

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The body at a point where the weights are rebuilt: the pieces the result's staging buffer and the two weight buffers end with
    (the witness the run finds), with the proof that on whole staging memrefs, the six inputs' at their contents and the three others'
    at anything, the body runs to its return, the inputs' as they were and the three others' with their pieces written. -/
noncomputable def runA (c : Dev nD) (i : grid0.Coords) (arg2 : Memref sig .tc .vmem S512x4096 .f32) (harg2 : arg2.IsWhole) (arg3 : Memref sig .tc .vmem S4096 .f32) (harg3 : arg3.IsWhole)
    (arg4 : Memref sig .tc .vmem S1024x1024 .f32) (harg4 : arg4.IsWhole) (arg5 : Memref sig .tc .vmem S1024x1024 .f32) (harg5 : arg5.IsWhole)
    (arg6 : Memref sig .tc .vmem S128x1024 .i32) (harg6 : arg6.IsWhole) (arg7 : Memref sig .tc .vmem S32x1024 .f32) (harg7 : arg7.IsWhole)
    (arg8 : Memref sig .tc .vmem S512x1024 .f32) (harg8 : arg8.IsWhole) (arg9 : Memref sig .tc .vmem S4096x1024 .bf16) (harg9 : arg9.IsWhole)
    (arg10 : Memref sig .tc .vmem S4096x1024 .bf16) (harg10 : arg10.IsWhole) (hc : cond0 i)
    (x2 : Vec F S512x4096 .f32) (x3 : Vec F S4096 .f32) (x4 : Vec F S1024x1024 .f32) (x5 : Vec F S1024x1024 .f32) (x6 : Vec F S128x1024 .i32) (x7 : Vec F S32x1024 .f32) :
    { L : List (View.Piece (Elt F) S512x1024 .f32) × List (View.Piece (Elt F) S4096x1024 .bf16) × List (View.Piece (Elt F) S4096x1024 .bf16) //
      ∀ (E : Set ℕ) (K : PUnit → sProp 𝕄),
        iprop(owns (c : Thread nD τ) arg2 fullShare x2 ∗ owns (c : Thread nD τ) arg3 fullShare x3 ∗ owns (c : Thread nD τ) arg4 fullShare x4
            ∗ owns (c : Thread nD τ) arg5 fullShare x5 ∗ owns (c : Thread nD τ) arg6 fullShare x6 ∗ owns (c : Thread nD τ) arg7 fullShare x7
            ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x2 ∗ owns (c : Thread nD τ) arg3 fullShare x3 ∗ owns (c : Thread nD τ) arg4 fullShare x4
            ∗ owns (c : Thread nD τ) arg5 fullShare x5 ∗ owns (c : Thread nD τ) arg6 fullShare x6 ∗ owns (c : Thread nD τ) arg7 fullShare x7
                ∗ (∃ f, arg8.view.loc (c : Thread nD τ) ↦[arg8.view.set]{fullShare} arg8.view.writes (Elt F) f L.1)
                ∗ (∃ f, arg9.view.loc (c : Thread nD τ) ↦[arg9.view.set]{fullShare} arg9.view.writes (Elt F) f L.2.1)
                ∗ (∃ f, arg10.view.loc (c : Thread nD τ) ↦[arg10.view.set]{fullShare} arg10.view.writes (Elt F) f L.2.2)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10) K } := by
  refine ⟨⟨?_, ?_, ?_⟩, fun E K => ?run⟩
  case run =>
    simp only [cc0__fused_kernel_eq_skeleton]; unfold cc0__fused_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
    obtain rfl := harg2.eq_unread hf2
    obtain rfl := harg3.eq_unread hf3
    obtain rfl := harg4.eq_unread hf4
    obtain rfl := harg5.eq_unread hf5
    obtain rfl := harg6.eq_unread hf6
    obtain rfl := harg7.eq_unread hf7
    sl_exec (disch := first | exact hc)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; iexact H8
    isplitl [H9]
    · iexists _; iexact H9
    iexists _; iexact H10

end Cert.KernelIdeal.Body

end
-- ==== Proof.KernelIdealRunB.lean ====
import proofs.«416245_j678604833216_3_alg».proof.Proof.Gen.KernelIdeal.Skeleton
import proofs.«416245_j678604833216_3_alg».proof.Proof.Gen.KernelIdeal.Launch
import proofs.«416245_j678604833216_3_alg».proof.Proof.KernelIdealRunDefs
import Idealize.ShloMosaic.Lib.Pipeline.FrameBody
import Idealize.ShloMosaic.Lib.Tactic

set_option maxRecDepth 16384

noncomputable section

namespace Cert.KernelIdeal.Body

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a point where the weights are kept: the pieces the result's staging buffer ends with (the witness the run finds),
    with the proof that on whole staging memrefs, the six inputs' and the two weight buffers' at their contents and the result's at
    anything, the body runs to its return, those eight as they were and the result's with its pieces written. -/
noncomputable def runB (c : Dev nD) (i : grid0.Coords) (arg2 : Memref sig .tc .vmem S512x4096 .f32) (harg2 : arg2.IsWhole) (arg3 : Memref sig .tc .vmem S4096 .f32) (harg3 : arg3.IsWhole)
    (arg4 : Memref sig .tc .vmem S1024x1024 .f32) (harg4 : arg4.IsWhole) (arg5 : Memref sig .tc .vmem S1024x1024 .f32) (harg5 : arg5.IsWhole)
    (arg6 : Memref sig .tc .vmem S128x1024 .i32) (harg6 : arg6.IsWhole) (arg7 : Memref sig .tc .vmem S32x1024 .f32) (harg7 : arg7.IsWhole)
    (arg8 : Memref sig .tc .vmem S512x1024 .f32) (harg8 : arg8.IsWhole) (arg9 : Memref sig .tc .vmem S4096x1024 .bf16) (harg9 : arg9.IsWhole)
    (arg10 : Memref sig .tc .vmem S4096x1024 .bf16) (harg10 : arg10.IsWhole) (hc : ¬cond0 i)
    (x2 : Vec F S512x4096 .f32) (x3 : Vec F S4096 .f32) (x4 : Vec F S1024x1024 .f32) (x5 : Vec F S1024x1024 .f32) (x6 : Vec F S128x1024 .i32) (x7 : Vec F S32x1024 .f32) (s9 : Vec F S4096x1024 .bf16) (s10 : Vec F S4096x1024 .bf16) :
    { L : List (View.Piece (Elt F) S512x1024 .f32) //
      ∀ (E : Set ℕ) (K : PUnit → sProp 𝕄),
        iprop(owns (c : Thread nD τ) arg2 fullShare x2 ∗ owns (c : Thread nD τ) arg3 fullShare x3 ∗ owns (c : Thread nD τ) arg4 fullShare x4
            ∗ owns (c : Thread nD τ) arg5 fullShare x5 ∗ owns (c : Thread nD τ) arg6 fullShare x6 ∗ owns (c : Thread nD τ) arg7 fullShare x7
            ∗ (∃ d, owns (c : Thread nD τ) arg8 fullShare d) ∗ owns (c : Thread nD τ) arg9 fullShare s9 ∗ owns (c : Thread nD τ) arg10 fullShare s10
            ∗ (iprop(owns (c : Thread nD τ) arg2 fullShare x2 ∗ owns (c : Thread nD τ) arg3 fullShare x3 ∗ owns (c : Thread nD τ) arg4 fullShare x4
            ∗ owns (c : Thread nD τ) arg5 fullShare x5 ∗ owns (c : Thread nD τ) arg6 fullShare x6 ∗ owns (c : Thread nD τ) arg7 fullShare x7
                ∗ (∃ f, arg8.view.loc (c : Thread nD τ) ↦[arg8.view.set]{fullShare} arg8.view.writes (Elt F) f L)
                ∗ owns (c : Thread nD τ) arg9 fullShare s9 ∗ owns (c : Thread nD τ) arg10 fullShare s10) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10) K } := by
  refine ⟨?_, fun E K => ?run⟩
  case run =>
    simp only [cc0__fused_kernel_eq_skeleton]; unfold cc0__fused_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, Hk⟩
    obtain rfl := harg2.eq_unread hf2
    obtain rfl := harg3.eq_unread hf3
    obtain rfl := harg4.eq_unread hf4
    obtain rfl := harg5.eq_unread hf5
    obtain rfl := harg6.eq_unread hf6
    obtain rfl := harg7.eq_unread hf7
    obtain rfl := harg9.eq_unread hf9
    obtain rfl := harg10.eq_unread hf10
    sl_exec (disch := first | exact hc)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; iexact H8
    isplitl [H9]
    · iexists _; isplitr; · ipureintro; exact harg9.read_unread _
      iexact H9
    iexists _; isplitr; · ipureintro; exact harg10.read_unread _
    iexact H10

end Cert.KernelIdeal.Body

end
-- ==== Proof.Spec.lean ====
/-
  The mathematics both programs compute, stated once over the argument arrays and importing no program.

  A column j of the weight matrix has 1024 groups of four consecutive rows; of each group two rows are kept. The word
  `sel (g / 8, j)` (the selector array) holds, in its nibble number `g % 8`, the two kept positions of group g: bits 0-1 the first (`pos0`), bits 2-3 the
  second (`pos1`). The value table `vals` (2048 rows) holds the two kept values of group g in rows 2g and 2g+1. Row k = 4g + p
  of the unscaled weight (`wsel`) is `vals (2g+1, j)` if `pos1 = p`, else `vals (2g, j)` if `pos0 = p`, else zero: the second
  position wins a tie. The result is x times the weight scaled by the group scale (128 rows a group), the row sign `su` and the
  column sign `sv`; the two programs associate these products differently (`outRef`, `outKer`), which on the extended reals is
  the same number, multiplication being associative and commutative there (`outKer_eq_outRef`).
-/
import Idealize.ShloMosaic.PureOps.Ideal
import Idealize.ShloMosaic.Lib.ValueIdx

noncomputable section

open scoped BigOperators

namespace Cert.Spec

open Idealize.ShloMosaic Idealize.ShloMosaic.ValueIdx

abbrev Sh1 (a : Nat) : Shape := ⟨1, ![a]⟩
abbrev Sh2 (a b : Nat) : Shape := ⟨2, ![a, b]⟩

/-- The selector nibble of group `g` in column `j`. -/
def nib (sel : (Sh2 128 11008).Idx → BitVec 32) (g : Fin 1024) (j : Fin 11008) : BitVec 32 :=
  (sel (ix2 (⟨g.val / 8, by have := g.isLt; omega⟩ : Fin 128) j) >>> (4 * (g.val % 8))) &&& 15#32

/-- The first kept position of group `g` in column `j` (bits 0-1 of the nibble). -/
def pos0 (sel : (Sh2 128 11008).Idx → BitVec 32) (g : Fin 1024) (j : Fin 11008) : BitVec 32 := nib sel g j &&& 3#32

/-- The second kept position (bits 2-3 of the nibble). -/
def pos1 (sel : (Sh2 128 11008).Idx → BitVec 32) (g : Fin 1024) (j : Fin 11008) : BitVec 32 := (nib sel g j >>> 2) &&& 3#32

/-- The group of a dense row. -/
abbrev grp (k : Fin 4096) : Fin 1024 := ⟨k.val / 4, by have := k.isLt; omega⟩
/-- The two rows of the value table that hold a group's kept values. -/
abbrev lo (g : Fin 1024) : Fin 2048 := ⟨2 * g.val, by have := g.isLt; omega⟩
abbrev hi (g : Fin 1024) : Fin 2048 := ⟨2 * g.val + 1, by have := g.isLt; omega⟩
/-- The scale group of a dense row. -/
abbrev sgrp (k : Fin 4096) : Fin 32 := ⟨k.val / 128, by have := k.isLt; omega⟩

/-- The unscaled weight at row `k`, column `j`: the second position wins a tie. -/
def wsel (vals : (Sh2 2048 11008).Idx → EReal) (sel : (Sh2 128 11008).Idx → BitVec 32) (k : Fin 4096) (j : Fin 11008) : EReal :=
  if pos1 sel (grp k) j = BitVec.ofNat 32 (k.val % 4) then vals (ix2 (hi (grp k)) j)
  else if pos0 sel (grp k) j = BitVec.ofNat 32 (k.val % 4) then vals (ix2 (lo (grp k)) j)
  else 0

/-- The weight as the reference scales it: ((w · scale) · su) · sv. -/
def wRef (vals : (Sh2 2048 11008).Idx → EReal) (sel : (Sh2 128 11008).Idx → BitVec 32) (scales : (Sh2 32 11008).Idx → EReal)
    (su : (Sh1 4096).Idx → EReal) (sv : (Sh1 11008).Idx → EReal) (k : Fin 4096) (j : Fin 11008) : EReal :=
  ((wsel vals sel k j * scales (ix2 (sgrp k) j)) * su (ix1 k)) * sv (ix1 j)

/-- The weight as the kernel stores it: w · (scale · sv); the row sign goes to the activations. -/
def wKer (vals : (Sh2 2048 11008).Idx → EReal) (sel : (Sh2 128 11008).Idx → BitVec 32) (scales : (Sh2 32 11008).Idx → EReal)
    (sv : (Sh1 11008).Idx → EReal) (k : Fin 4096) (j : Fin 11008) : EReal :=
  wsel vals sel k j * (scales (ix2 (sgrp k) j) * sv (ix1 j))

/-- The reference's result. -/
def outRef (x : (Sh2 4096 4096).Idx → EReal) (vals : (Sh2 2048 11008).Idx → EReal) (sel : (Sh2 128 11008).Idx → BitVec 32)
    (scales : (Sh2 32 11008).Idx → EReal) (su : (Sh1 4096).Idx → EReal) (sv : (Sh1 11008).Idx → EReal) (i : Fin 4096) (j : Fin 11008) : EReal :=
  ∑ k : Fin 4096, x (ix2 i k) * wRef vals sel scales su sv k j

/-- The kernel's result. -/
def outKer (x : (Sh2 4096 4096).Idx → EReal) (vals : (Sh2 2048 11008).Idx → EReal) (sel : (Sh2 128 11008).Idx → BitVec 32)
    (scales : (Sh2 32 11008).Idx → EReal) (su : (Sh1 4096).Idx → EReal) (sv : (Sh1 11008).Idx → EReal) (i : Fin 4096) (j : Fin 11008) : EReal :=
  ∑ k : Fin 4096, (x (ix2 i k) * su (ix1 k)) * wKer vals sel scales sv k j

/-- The two associations of the products agree, term by term. -/
theorem outKer_eq_outRef (x : (Sh2 4096 4096).Idx → EReal) (vals : (Sh2 2048 11008).Idx → EReal) (sel : (Sh2 128 11008).Idx → BitVec 32)
    (scales : (Sh2 32 11008).Idx → EReal) (su : (Sh1 4096).Idx → EReal) (sv : (Sh1 11008).Idx → EReal) (i : Fin 4096) (j : Fin 11008) :
    outKer x vals sel scales su sv i j = outRef x vals sel scales su sv i j := by
  unfold outKer outRef wKer wRef
  refine Finset.sum_congr rfl fun k _ => ?_
  ac_rfl

end Cert.Spec

end
-- ==== Proof.KData.lean ====
/-
  The kernel's pipeline at the idealized instance: what its run is measured against. The result array `G` is the kernel's association
  of the product (Spec.outKer) of the argument arrays; the weight the kernel keeps in its first weight buffer is `wArr` (Spec.wKer), the
  second buffer holds the rounding remainder, which is zero on the extended reals where the weight is finite. The proof data name, for every
  grid point, what each staging buffer holds after the body, and the invariant says what the two weight buffers hold between points
  (`Good`: from the second point of a column block on, that block's weights on the columns inside the arrays).
-/
import proofs.«416245_j678604833216_3_alg».proof.Proof.KernelIdealRunA
import proofs.«416245_j678604833216_3_alg».proof.Proof.KernelIdealRunB
import proofs.«416245_j678604833216_3_alg».proof.Proof.Gen.KernelIdeal.Frame
import proofs.«416245_j678604833216_3_alg».proof.Proof.Gen.KernelIdeal.Points
import proofs.«416245_j678604833216_3_alg».proof.Proof.Spec
import proofs.«416245_j678604833216_3_alg».proof.Proof.RefRead
import Idealize.ShloMosaic.Lib.Pipeline.Frame
import Idealize.ShloMosaic.Lib.Pipeline.FrameBody
import Idealize.ShloMosaic.Lib.Pipeline.Value
import Idealize.ShloMosaic.Lib.Tactic

set_option maxRecDepth 16384

noncomputable section

namespace Cert.KernelIdeal.Data

open Cert.KernelIdeal Cert.KernelIdeal.Gen Cert.KernelIdeal.Body

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- The value table both programs gather from the code grid, of this program's arguments. -/
abbrev vals (c : Dev nD) : (Cert.Spec.Sh2 2048 11008).Idx → EReal :=
  Cert.ReferenceIdeal.ReadP.val_main_v25 (F := Ideal) (m ((c.tc : Thread nD τ).loc main_arg4)) (m ((c.tc : Thread nD τ).loc main_arg5))

/-- The weight the kernel keeps in its first weight buffer, as a function of the whole arrays. -/
def wArr (c : Dev nD) (k : Fin 4096) (J : Fin 11008) : EReal :=
  Cert.Spec.wKer (vals m c) (m ((c.tc : Thread nD τ).loc main_arg6)) (m ((c.tc : Thread nD τ).loc main_arg1)) (m ((c.tc : Thread nD τ).loc main_arg3)) k J

/-- The result array. -/
def G (c : Dev nD) : Buf (Elt Ideal) ((c.tc : Thread nD τ).loc main_v34) := fun y =>
  Cert.Spec.outKer (m ((c.tc : Thread nD τ).loc main_arg0)) (vals m c) (m ((c.tc : Thread nD τ).loc main_arg6))
    (m ((c.tc : Thread nD τ).loc main_arg1)) (m ((c.tc : Thread nD τ).loc main_arg2)) (m ((c.tc : Thread nD τ).loc main_arg3)) (y 0) (y 1)

/-- Every entry of the five float arguments is a real number. -/
def FinArgs (c : Dev nD) : Prop :=
  (∀ y, ∃ a : ℝ, m ((c.tc : Thread nD τ).loc main_arg0) y = (a : EReal)) ∧ (∀ y, ∃ a : ℝ, m ((c.tc : Thread nD τ).loc main_arg1) y = (a : EReal))
    ∧ (∀ y, ∃ a : ℝ, m ((c.tc : Thread nD τ).loc main_arg2) y = (a : EReal)) ∧ (∀ y, ∃ a : ℝ, m ((c.tc : Thread nD τ).loc main_arg3) y = (a : EReal))
    ∧ (∀ y, ∃ a : ℝ, m ((c.tc : Thread nD τ).loc main_arg4) y = (a : EReal))

/-- The two weight buffers hold, on the columns of column block `n` that lie inside the arrays, the weight and zero. -/
def Good (c : Dev nD) (n : Nat) (S9 S10 : Vec Ideal S4096x1024 .bf16) : Prop :=
  ∀ (k : Fin 4096) (j : Fin 1024) (h : 1024 * n + j.val < 11008),
    S9 (ix2 k j) = wArr m c k ⟨1024 * n + j.val, h⟩ ∧ S10 (ix2 k j) = 0

/-- What the loose windows' staging buffers hold after the body: the block on the columns inside the array, a word nothing reads
    past it. -/
def aft2 (c : Dev nD) (t : Fin cfg0.N) : S1024x1024.Idx → Elt Ideal .f32 :=
  win0_2.fill (grid0.coords t) (fun _ => Scalar.ofBits (F := Ideal) .f32 0#32) (iblk m c 2 t)
def aft3 (c : Dev nD) (t : Fin cfg0.N) : S1024x1024.Idx → Elt Ideal .f32 :=
  win0_3.fill (grid0.coords t) (fun _ => Scalar.ofBits (F := Ideal) .f32 0#32) (iblk m c 3 t)
def aft4 (c : Dev nD) (t : Fin cfg0.N) : S128x1024.Idx → Elt Ideal .i32 :=
  win0_4.fill (grid0.coords t) (fun _ => (0#32 : BitVec 32)) (iblk m c 4 t)
def aft5 (c : Dev nD) (t : Fin cfg0.N) : S32x1024.Idx → Elt Ideal .f32 :=
  win0_5.fill (grid0.coords t) (fun _ => Scalar.ofBits (F := Ideal) .f32 0#32) (iblk m c 5 t)
/-- The result's: its block of the result array. -/
def aft6 (c : Dev nD) (t : Fin cfg0.N) : S512x1024.Idx → Elt Ideal .f32 :=
  win0_6.fill (grid0.coords t) (fun _ => Scalar.ofBits (F := Ideal) .f32 0#32) ((win0_6.blk t).view.read (Elt Ideal) (G m c))

/-- The invariant before point `t`: the two weight buffers at some contents, which from the second point of a column block on are
    that block's weights; and the generator register. -/
def Phi (c : Dev nD) (t : Fin (cfg0.N + 1)) : sProp 𝕄 :=
  iprop(∃ S9 S10 : Vec Ideal S4096x1024 .bf16, ⌜t.val % 8 ≠ 0 → Good m c (t.val / 8) S9 S10⌝
      ∗ owns (c : Thread nD τ) (Memref.whole cc0_scratch0) fullShare S9 ∗ owns (c : Thread nD τ) (Memref.whole cc0_scratch1) fullShare S10
      ∗ ∃ r, prngReg c r)

/-- The proof data: the arrays as the region finds them; after the body the inputs' staging buffers hold their blocks, the result's
    the block of the result array; the invariant carries the two weight buffers. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => aft2 m c t
    | ⟨3, _⟩ => aft3 m c t
    | ⟨4, _⟩ => aft4 m c t
    | ⟨5, _⟩ => aft5 m c t
    | ⟨6, _⟩ => aft6 m c t
  Φ t := Phi m c t
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = aft2 m c t := by dsimp only [dats]
theorem after_3 (c : Dev nD) (t : Fin cfg0.N) : (dats m 0 c).after 3 t = aft3 m c t := by dsimp only [dats]
theorem after_4 (c : Dev nD) (t : Fin cfg0.N) : (dats m 0 c).after 4 t = aft4 m c t := by dsimp only [dats]
theorem after_5 (c : Dev nD) (t : Fin cfg0.N) : (dats m 0 c).after 5 t = aft5 m c t := by dsimp only [dats]
theorem after_6 (c : Dev nD) (t : Fin cfg0.N) : (dats m 0 c).after 6 t = aft6 m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d

end Cert.KernelIdeal.Data

end
-- ==== Proof.Blocks.lean ====
/-
  The arithmetic of the windows of the fused kernel's pipeline.

  The grid is 11 × 8: point `t` has coordinates (n, mm) = (t / 8, t % 8). Window 0 is the activations x[4096, 4096] in
  blocks of 512 rows at block index (mm, 0); window 1 the per-row factor [4096], whole; windows 2 and 3 the two value
  tables [1024, 11008] in blocks of 1024 columns at (0, n); window 4 the selector words [128, 11008] and window 5 the
  scales [32, 11008], in blocks of 1024 columns at (0, n); window 6 the result [4096, 11008] in blocks (512, 1024) at
  (mm, n). 11008 = 10 · 1024 + 768, so in the last column of blocks (n = 10) windows 2 … 6 overhang their arrays and
  their transfers move the leading 768 columns only.

  Stated here once, over explicit coordinates: the block index of each window at each point, the sizes of what each
  transfer moves, which array element a block coordinate is, which block coordinates a transfer moves, and that the
  result's blocks cover its array. The statements name the windows as `cfg0.win w`.
-/
import proofs.«416245_j678604833216_3_alg».proof.Proof.Gen.KernelIdeal.Points
import proofs.«416245_j678604833216_3_alg».proof.Proof.Gen.KernelIdeal.Launch
import Idealize.ShloMosaic.Lib.Pipeline.Value
import Idealize.ShloMosaic.Lib.ValueIdx

noncomputable section

namespace Cert.Blocks

open Cert.KernelIdeal Cert.KernelIdeal.Gen
open Idealize.ShloMosaic Idealize.ShloMosaic.ValueIdx

variable {F : FTy → Type} [FloatOps F]

/-! ## The block index of each window at a grid point

The grid is 11 × 8; point `t` has coordinates (n, mm) = (t / 8, t % 8). The activations and the result move down
their rows with mm; the value tables, the selector words, the scales and the result move along the columns with n. -/

/-- The activations' block index at point `t` is (t % 8, 0). -/
theorem index0 : ∀ t : Fin cfg0.N, (cfg0.win 0).index t (0 : Fin 2) = t.val % 8 ∧ (cfg0.win 0).index t (1 : Fin 2) = 0 :=
  (by decide +kernel : ∀ t : Fin grid0.N, win0_0.index t (0 : Fin 2) = t.val % 8 ∧ win0_0.index t (1 : Fin 2) = 0)
/-- The per-row factor is one block, at index 0. -/
theorem index1 : ∀ t : Fin cfg0.N, (cfg0.win 1).index t (0 : Fin 1) = 0 :=
  (by decide +kernel : ∀ t : Fin grid0.N, win0_1.index t (0 : Fin 1) = 0)
/-- The first value table's block index at point `t` is (0, t / 8). -/
theorem index2 : ∀ t : Fin cfg0.N, (cfg0.win 2).index t (0 : Fin 2) = 0 ∧ (cfg0.win 2).index t (1 : Fin 2) = t.val / 8 :=
  (by decide +kernel : ∀ t : Fin grid0.N, win0_2.index t (0 : Fin 2) = 0 ∧ win0_2.index t (1 : Fin 2) = t.val / 8)
/-- The second value table's block index at point `t` is (0, t / 8). -/
theorem index3 : ∀ t : Fin cfg0.N, (cfg0.win 3).index t (0 : Fin 2) = 0 ∧ (cfg0.win 3).index t (1 : Fin 2) = t.val / 8 :=
  (by decide +kernel : ∀ t : Fin grid0.N, win0_3.index t (0 : Fin 2) = 0 ∧ win0_3.index t (1 : Fin 2) = t.val / 8)
/-- The selector words' block index at point `t` is (0, t / 8). -/
theorem index4 : ∀ t : Fin cfg0.N, (cfg0.win 4).index t (0 : Fin 2) = 0 ∧ (cfg0.win 4).index t (1 : Fin 2) = t.val / 8 :=
  (by decide +kernel : ∀ t : Fin grid0.N, win0_4.index t (0 : Fin 2) = 0 ∧ win0_4.index t (1 : Fin 2) = t.val / 8)
/-- The scales' block index at point `t` is (0, t / 8). -/
theorem index5 : ∀ t : Fin cfg0.N, (cfg0.win 5).index t (0 : Fin 2) = 0 ∧ (cfg0.win 5).index t (1 : Fin 2) = t.val / 8 :=
  (by decide +kernel : ∀ t : Fin grid0.N, win0_5.index t (0 : Fin 2) = 0 ∧ win0_5.index t (1 : Fin 2) = t.val / 8)
/-- The result's block index at point `t` is (t % 8, t / 8). -/
theorem index6 : ∀ t : Fin cfg0.N, (cfg0.win 6).index t (0 : Fin 2) = t.val % 8 ∧ (cfg0.win 6).index t (1 : Fin 2) = t.val / 8 :=
  (by decide +kernel : ∀ t : Fin grid0.N, win0_6.index t (0 : Fin 2) = t.val % 8 ∧ win0_6.index t (1 : Fin 2) = t.val / 8)

/-! ## The sizes of what each transfer moves

11008 = 10 · 1024 + 768: in the last column of blocks (n = 10) only the leading 768 columns lie inside the arrays. -/

/-- The activations' blocks are whole: 512 rows of 4096. -/
theorem xsize0 (t : Fin cfg0.N) : (cfg0.win 0).xsize (grid0.coords t) (0 : Fin 2) = 512 ∧ (cfg0.win 0).xsize (grid0.coords t) (1 : Fin 2) = 4096 :=
  ⟨rfl, rfl⟩
/-- The per-row factor's block is whole. -/
theorem xsize1 (t : Fin cfg0.N) : (cfg0.win 1).xsize (grid0.coords t) (0 : Fin 1) = 4096 := rfl
/-- The first value table's transfer at point `t`: 1024 rows, and the columns of the block that lie inside the array. -/
theorem xsize2 : ∀ t : Fin cfg0.N, (cfg0.win 2).xsize (grid0.coords t) (0 : Fin 2) = 1024
    ∧ (cfg0.win 2).xsize (grid0.coords t) (1 : Fin 2) = min 1024 (11008 - 1024 * (t.val / 8)) :=
  (by decide +kernel : ∀ t : Fin grid0.N, win0_2.xsize (grid0.coords t) (0 : Fin 2) = 1024
    ∧ win0_2.xsize (grid0.coords t) (1 : Fin 2) = min 1024 (11008 - 1024 * (t.val / 8)))
/-- The second value table's likewise. -/
theorem xsize3 : ∀ t : Fin cfg0.N, (cfg0.win 3).xsize (grid0.coords t) (0 : Fin 2) = 1024
    ∧ (cfg0.win 3).xsize (grid0.coords t) (1 : Fin 2) = min 1024 (11008 - 1024 * (t.val / 8)) :=
  (by decide +kernel : ∀ t : Fin grid0.N, win0_3.xsize (grid0.coords t) (0 : Fin 2) = 1024
    ∧ win0_3.xsize (grid0.coords t) (1 : Fin 2) = min 1024 (11008 - 1024 * (t.val / 8)))
/-- The selector words': 128 rows. -/
theorem xsize4 : ∀ t : Fin cfg0.N, (cfg0.win 4).xsize (grid0.coords t) (0 : Fin 2) = 128
    ∧ (cfg0.win 4).xsize (grid0.coords t) (1 : Fin 2) = min 1024 (11008 - 1024 * (t.val / 8)) :=
  (by decide +kernel : ∀ t : Fin grid0.N, win0_4.xsize (grid0.coords t) (0 : Fin 2) = 128
    ∧ win0_4.xsize (grid0.coords t) (1 : Fin 2) = min 1024 (11008 - 1024 * (t.val / 8)))
/-- The scales': 32 rows. -/
theorem xsize5 : ∀ t : Fin cfg0.N, (cfg0.win 5).xsize (grid0.coords t) (0 : Fin 2) = 32
    ∧ (cfg0.win 5).xsize (grid0.coords t) (1 : Fin 2) = min 1024 (11008 - 1024 * (t.val / 8)) :=
  (by decide +kernel : ∀ t : Fin grid0.N, win0_5.xsize (grid0.coords t) (0 : Fin 2) = 32
    ∧ win0_5.xsize (grid0.coords t) (1 : Fin 2) = min 1024 (11008 - 1024 * (t.val / 8)))
/-- The result's: 512 rows. -/
theorem xsize6 : ∀ t : Fin cfg0.N, (cfg0.win 6).xsize (grid0.coords t) (0 : Fin 2) = 512
    ∧ (cfg0.win 6).xsize (grid0.coords t) (1 : Fin 2) = min 1024 (11008 - 1024 * (t.val / 8)) :=
  (by decide +kernel : ∀ t : Fin grid0.N, win0_6.xsize (grid0.coords t) (0 : Fin 2) = 512
    ∧ win0_6.xsize (grid0.coords t) (1 : Fin 2) = min 1024 (11008 - 1024 * (t.val / 8)))

/-! ## The cut of a block is a function of its block index -/

theorem clip_congr2 (t t' : Fin cfg0.N) (h : (cfg0.win 2).index t = (cfg0.win 2).index t') :
    (cfg0.win 2).clip (cfg0.grid.coords t) = (cfg0.win 2).clip (cfg0.grid.coords t') := by
  funext a
  show Pipeline.Clip.of ((cfg0.win 2).index t a) _ _ = Pipeline.Clip.of ((cfg0.win 2).index t' a) _ _
  rw [h]
theorem clip_congr3 (t t' : Fin cfg0.N) (h : (cfg0.win 3).index t = (cfg0.win 3).index t') :
    (cfg0.win 3).clip (cfg0.grid.coords t) = (cfg0.win 3).clip (cfg0.grid.coords t') := by
  funext a
  show Pipeline.Clip.of ((cfg0.win 3).index t a) _ _ = Pipeline.Clip.of ((cfg0.win 3).index t' a) _ _
  rw [h]
theorem clip_congr4 (t t' : Fin cfg0.N) (h : (cfg0.win 4).index t = (cfg0.win 4).index t') :
    (cfg0.win 4).clip (cfg0.grid.coords t) = (cfg0.win 4).clip (cfg0.grid.coords t') := by
  funext a
  show Pipeline.Clip.of ((cfg0.win 4).index t a) _ _ = Pipeline.Clip.of ((cfg0.win 4).index t' a) _ _
  rw [h]
theorem clip_congr5 (t t' : Fin cfg0.N) (h : (cfg0.win 5).index t = (cfg0.win 5).index t') :
    (cfg0.win 5).clip (cfg0.grid.coords t) = (cfg0.win 5).clip (cfg0.grid.coords t') := by
  funext a
  show Pipeline.Clip.of ((cfg0.win 5).index t a) _ _ = Pipeline.Clip.of ((cfg0.win 5).index t' a) _ _
  rw [h]

example : (cfg0.win 0).isOut = false ∧ (cfg0.win 1).isOut = false ∧ (cfg0.win 2).isOut = false ∧ (cfg0.win 3).isOut = false
    ∧ (cfg0.win 4).isOut = false ∧ (cfg0.win 5).isOut = false := ⟨rfl, rfl, rfl, rfl, rfl, rfl⟩
example (w : Fin cfg0.W) : ∀ i, cfg0.idle w i = false := fun _ => rfl

/-! ## Where an element of a block sits in its array

An element of the block at point `t` sits, on each axis, at the block index times the block's size plus its own
coordinate in the block. -/

/-- The result's block at point `t` read off contents `A` of the result array: element (y₀, y₁) of the block is
    element (512 · (t % 8) + y₀, 1024 · (t / 8) + y₁) of the array. -/
theorem read_blk6 (c : Dev nD) (t : Fin cfg0.N) (A : Buf (Elt F) ((cfg0.win 6).arr.view.loc (c.tc : Thread nD τ)))
    (y : ((cfg0.win 6).xblock (grid0.coords t)).Idx) :
    ((cfg0.win 6).blk t).view.read (Elt F) A y
      = A (ix2 (⟨512 * (t.val % 8) + (y 0).val, by
              have h : (y 0).val < (cfg0.win 6).xsize (grid0.coords t) (0 : Fin 2) := (y 0).isLt
              rw [(xsize6 t).1] at h; omega⟩ : Fin 4096)
            (⟨1024 * (t.val / 8) + (y 1).val, by
              have h : (y 1).val < (cfg0.win 6).xsize (grid0.coords t) (1 : Fin 2) := (y 1).isLt
              rw [(xsize6 t).2] at h; omega⟩ : Fin 11008)) := by
  rw [View.read_apply]
  show A (((cfg0.win 6).blk t).view.emb y) = _
  refine congrArg A ?_
  funext a; apply Fin.ext
  match a with
  | ⟨0, _⟩ =>
    show (cfg0.win 6).index t (0 : Fin 2) * 512 + 1 * (y 0).val = 512 * (t.val % 8) + (y 0).val
    rw [(index6 t).1]; omega
  | ⟨1, _⟩ =>
    show (cfg0.win 6).index t (1 : Fin 2) * 1024 + 1 * (y 1).val = 1024 * (t.val / 8) + (y 1).val
    rw [(index6 t).2]; omega

/-- An index of the result array is in point `t`'s block iff each coordinate is in the block's range on its axis. -/
theorem mem_blk6 (c : Dev nD) (t : Fin cfg0.N) (i : ((cfg0.win 6).arr.view.loc (c.tc : Thread nD τ)).2.ty.Idx) :
    i ∈ ((cfg0.win 6).blk t).view.set ↔ ∀ a : Fin 2, (cfg0.win 6).index t a * S512x1024.size a ≤ (i a).val
      ∧ (i a).val < (cfg0.win 6).index t a * S512x1024.size a + (cfg0.win 6).xsize (grid0.coords t) a := by
  show i ∈ ((View.whole main_v34).slice ((cfg0.win 6).rect t)).set ↔ _
  rw [View.set_slice_whole, Rect.mem_set_unit]
  exact Iff.rfl

/-- The result's blocks cover its array: the index (i₀, i₁) is in the block of the point 8 · (i₁ / 1024) + i₀ / 512. -/
theorem cover6 (c : Dev nD) (i : ((cfg0.win 6).arr.view.loc (c.tc : Thread nD τ)).2.ty.Idx) :
    ∃ t : Fin cfg0.N, (cfg0.win 6).flush t = true ∧ i ∈ ((cfg0.win 6).blk t).view.set := by
  have hi0 : (i 0).val < 4096 := (i 0).isLt
  have hi1 : (i 1).val < 11008 := (i 1).isLt
  obtain ⟨t, ht⟩ : ∃ t : Fin cfg0.N, t.val = 8 * ((i 1).val / 1024) + (i 0).val / 512 :=
    ⟨⟨8 * ((i 1).val / 1024) + (i 0).val / 512, Nat.lt_of_lt_of_eq (by omega) N_0.symm⟩, rfl⟩
  refine ⟨t, flush0_6 t, ?_⟩
  rw [mem_blk6]
  obtain ⟨e0, e1⟩ := index6 t
  obtain ⟨x0, x1⟩ := xsize6 t
  intro a
  match a with
  | ⟨0, _⟩ =>
    show (cfg0.win 6).index t (0 : Fin 2) * 512 ≤ (i 0).val
      ∧ (i 0).val < (cfg0.win 6).index t (0 : Fin 2) * 512 + (cfg0.win 6).xsize (grid0.coords t) (0 : Fin 2)
    rw [e0, x0]; omega
  | ⟨1, _⟩ =>
    show (cfg0.win 6).index t (1 : Fin 2) * 1024 ≤ (i 1).val
      ∧ (i 1).val < (cfg0.win 6).index t (1 : Fin 2) * 1024 + (cfg0.win 6).xsize (grid0.coords t) (1 : Fin 2)
    rw [e1, x1]; omega

/-- The activations' block at point `t` read off contents `A` of the array: element (y₀, y₁) of the block is element
    (512 · (t % 8) + y₀, y₁) of the array. -/
theorem read_blk0 (c : Dev nD) (t : Fin cfg0.N) (A : Buf (Elt F) ((cfg0.win 0).arr.view.loc (c.tc : Thread nD τ)))
    (y : ((cfg0.win 0).xblock (grid0.coords t)).Idx) :
    ((cfg0.win 0).blk t).view.read (Elt F) A y
      = A (ix2 (⟨512 * (t.val % 8) + (y 0).val, by
              have h : (y 0).val < 512 := (y 0).isLt
              omega⟩ : Fin 4096)
            (⟨(y 1).val, (y 1).isLt⟩ : Fin 4096)) := by
  rw [View.read_apply]
  show A (((cfg0.win 0).blk t).view.emb y) = _
  refine congrArg A ?_
  funext a; apply Fin.ext
  match a with
  | ⟨0, _⟩ =>
    show (cfg0.win 0).index t (0 : Fin 2) * 512 + 1 * (y 0).val = 512 * (t.val % 8) + (y 0).val
    rw [(index0 t).1]; omega
  | ⟨1, _⟩ =>
    show (cfg0.win 0).index t (1 : Fin 2) * 4096 + 1 * (y 1).val = (y 1).val
    rw [(index0 t).2]; omega

/-- The per-row factor's block is the array. -/
theorem read_blk1 (c : Dev nD) (t : Fin cfg0.N) (A : Buf (Elt F) ((cfg0.win 1).arr.view.loc (c.tc : Thread nD τ)))
    (y : ((cfg0.win 1).xblock (grid0.coords t)).Idx) :
    ((cfg0.win 1).blk t).view.read (Elt F) A y = A (ix1 (⟨(y 0).val, (y 0).isLt⟩ : Fin 4096)) := by
  rw [View.read_apply]
  show A (((cfg0.win 1).blk t).view.emb y) = _
  refine congrArg A ?_
  funext a; apply Fin.ext
  match a with
  | ⟨0, _⟩ =>
    show (cfg0.win 1).index t (0 : Fin 1) * 4096 + 1 * (y 0).val = (y 0).val
    rw [index1 t]; omega

/-- The first value table's block at point `t` read off contents `A` of the array: element (y₀, y₁) of the block is element
    (y₀, 1024 · (t / 8) + y₁) of the array. -/
theorem read_blk2 (c : Dev nD) (t : Fin cfg0.N) (A : Buf (Elt F) ((cfg0.win 2).arr.view.loc (c.tc : Thread nD τ)))
    (y : ((cfg0.win 2).xblock (grid0.coords t)).Idx) :
    ((cfg0.win 2).blk t).view.read (Elt F) A y
      = A (ix2 (⟨(y 0).val, by
              have h : (y 0).val < (cfg0.win 2).xsize (grid0.coords t) (0 : Fin 2) := (y 0).isLt
              rw [(xsize2 t).1] at h; exact h⟩ : Fin 1024)
            (⟨1024 * (t.val / 8) + (y 1).val, by
              have h : (y 1).val < (cfg0.win 2).xsize (grid0.coords t) (1 : Fin 2) := (y 1).isLt
              rw [(xsize2 t).2] at h; omega⟩ : Fin 11008)) := by
  rw [View.read_apply]
  show A (((cfg0.win 2).blk t).view.emb y) = _
  refine congrArg A ?_
  funext a; apply Fin.ext
  match a with
  | ⟨0, _⟩ =>
    show (cfg0.win 2).index t (0 : Fin 2) * 1024 + 1 * (y 0).val = (y 0).val
    rw [(index2 t).1]; omega
  | ⟨1, _⟩ =>
    show (cfg0.win 2).index t (1 : Fin 2) * 1024 + 1 * (y 1).val = 1024 * (t.val / 8) + (y 1).val
    rw [(index2 t).2]; omega

/-- The second value table's block at point `t` read off contents `A` of the array: element (y₀, y₁) of the block is element
    (y₀, 1024 · (t / 8) + y₁) of the array. -/
theorem read_blk3 (c : Dev nD) (t : Fin cfg0.N) (A : Buf (Elt F) ((cfg0.win 3).arr.view.loc (c.tc : Thread nD τ)))
    (y : ((cfg0.win 3).xblock (grid0.coords t)).Idx) :
    ((cfg0.win 3).blk t).view.read (Elt F) A y
      = A (ix2 (⟨(y 0).val, by
              have h : (y 0).val < (cfg0.win 3).xsize (grid0.coords t) (0 : Fin 2) := (y 0).isLt
              rw [(xsize3 t).1] at h; exact h⟩ : Fin 1024)
            (⟨1024 * (t.val / 8) + (y 1).val, by
              have h : (y 1).val < (cfg0.win 3).xsize (grid0.coords t) (1 : Fin 2) := (y 1).isLt
              rw [(xsize3 t).2] at h; omega⟩ : Fin 11008)) := by
  rw [View.read_apply]
  show A (((cfg0.win 3).blk t).view.emb y) = _
  refine congrArg A ?_
  funext a; apply Fin.ext
  match a with
  | ⟨0, _⟩ =>
    show (cfg0.win 3).index t (0 : Fin 2) * 1024 + 1 * (y 0).val = (y 0).val
    rw [(index3 t).1]; omega
  | ⟨1, _⟩ =>
    show (cfg0.win 3).index t (1 : Fin 2) * 1024 + 1 * (y 1).val = 1024 * (t.val / 8) + (y 1).val
    rw [(index3 t).2]; omega

/-- The selector words' block at point `t` read off contents `A` of the array: element (y₀, y₁) of the block is element
    (y₀, 1024 · (t / 8) + y₁) of the array. -/
theorem read_blk4 (c : Dev nD) (t : Fin cfg0.N) (A : Buf (Elt F) ((cfg0.win 4).arr.view.loc (c.tc : Thread nD τ)))
    (y : ((cfg0.win 4).xblock (grid0.coords t)).Idx) :
    ((cfg0.win 4).blk t).view.read (Elt F) A y
      = A (ix2 (⟨(y 0).val, by
              have h : (y 0).val < (cfg0.win 4).xsize (grid0.coords t) (0 : Fin 2) := (y 0).isLt
              rw [(xsize4 t).1] at h; exact h⟩ : Fin 128)
            (⟨1024 * (t.val / 8) + (y 1).val, by
              have h : (y 1).val < (cfg0.win 4).xsize (grid0.coords t) (1 : Fin 2) := (y 1).isLt
              rw [(xsize4 t).2] at h; omega⟩ : Fin 11008)) := by
  rw [View.read_apply]
  show A (((cfg0.win 4).blk t).view.emb y) = _
  refine congrArg A ?_
  funext a; apply Fin.ext
  match a with
  | ⟨0, _⟩ =>
    show (cfg0.win 4).index t (0 : Fin 2) * 128 + 1 * (y 0).val = (y 0).val
    rw [(index4 t).1]; omega
  | ⟨1, _⟩ =>
    show (cfg0.win 4).index t (1 : Fin 2) * 1024 + 1 * (y 1).val = 1024 * (t.val / 8) + (y 1).val
    rw [(index4 t).2]; omega

/-- The scales' block at point `t` read off contents `A` of the array: element (y₀, y₁) of the block is element
    (y₀, 1024 · (t / 8) + y₁) of the array. -/
theorem read_blk5 (c : Dev nD) (t : Fin cfg0.N) (A : Buf (Elt F) ((cfg0.win 5).arr.view.loc (c.tc : Thread nD τ)))
    (y : ((cfg0.win 5).xblock (grid0.coords t)).Idx) :
    ((cfg0.win 5).blk t).view.read (Elt F) A y
      = A (ix2 (⟨(y 0).val, by
              have h : (y 0).val < (cfg0.win 5).xsize (grid0.coords t) (0 : Fin 2) := (y 0).isLt
              rw [(xsize5 t).1] at h; exact h⟩ : Fin 32)
            (⟨1024 * (t.val / 8) + (y 1).val, by
              have h : (y 1).val < (cfg0.win 5).xsize (grid0.coords t) (1 : Fin 2) := (y 1).isLt
              rw [(xsize5 t).2] at h; omega⟩ : Fin 11008)) := by
  rw [View.read_apply]
  show A (((cfg0.win 5).blk t).view.emb y) = _
  refine congrArg A ?_
  funext a; apply Fin.ext
  match a with
  | ⟨0, _⟩ =>
    show (cfg0.win 5).index t (0 : Fin 2) * 32 + 1 * (y 0).val = (y 0).val
    rw [(index5 t).1]; omega
  | ⟨1, _⟩ =>
    show (cfg0.win 5).index t (1 : Fin 2) * 1024 + 1 * (y 1).val = 1024 * (t.val / 8) + (y 1).val
    rw [(index5 t).2]; omega

/-! ## Which coordinates of a block a transfer moves

A coordinate (y₀, y₁) of the block at point `t` is moved iff its column 1024 · (t / 8) + y₁ is inside the array. -/

theorem moved2 (t : Fin cfg0.N) (y : (cfg0.win 2).block.Idx) :
    (cfg0.win 2).moved (grid0.coords t) y = true ↔ 1024 * (t.val / 8) + (y 1).val < 11008 := by
  rw [Pipeline.Window.moved_iff]
  have h0 : (y 0).val < 1024 := (y 0).isLt
  have h1 : (y 1).val < 1024 := (y 1).isLt
  obtain ⟨x0, x1⟩ := xsize2 t
  constructor
  · intro h
    have h' : (y 1).val < (cfg0.win 2).xsize (grid0.coords t) (1 : Fin 2) := h 1
    rw [x1] at h'; omega
  · intro h a
    match a with
    | ⟨0, _⟩ =>
      show (y 0).val < (cfg0.win 2).xsize (grid0.coords t) (0 : Fin 2)
      rw [x0]; exact h0
    | ⟨1, _⟩ =>
      show (y 1).val < (cfg0.win 2).xsize (grid0.coords t) (1 : Fin 2)
      rw [x1]; omega

theorem moved3 (t : Fin cfg0.N) (y : (cfg0.win 3).block.Idx) :
    (cfg0.win 3).moved (grid0.coords t) y = true ↔ 1024 * (t.val / 8) + (y 1).val < 11008 := by
  rw [Pipeline.Window.moved_iff]
  have h0 : (y 0).val < 1024 := (y 0).isLt
  have h1 : (y 1).val < 1024 := (y 1).isLt
  obtain ⟨x0, x1⟩ := xsize3 t
  constructor
  · intro h
    have h' : (y 1).val < (cfg0.win 3).xsize (grid0.coords t) (1 : Fin 2) := h 1
    rw [x1] at h'; omega
  · intro h a
    match a with
    | ⟨0, _⟩ =>
      show (y 0).val < (cfg0.win 3).xsize (grid0.coords t) (0 : Fin 2)
      rw [x0]; exact h0
    | ⟨1, _⟩ =>
      show (y 1).val < (cfg0.win 3).xsize (grid0.coords t) (1 : Fin 2)
      rw [x1]; omega

theorem moved4 (t : Fin cfg0.N) (y : (cfg0.win 4).block.Idx) :
    (cfg0.win 4).moved (grid0.coords t) y = true ↔ 1024 * (t.val / 8) + (y 1).val < 11008 := by
  rw [Pipeline.Window.moved_iff]
  have h0 : (y 0).val < 128 := (y 0).isLt
  have h1 : (y 1).val < 1024 := (y 1).isLt
  obtain ⟨x0, x1⟩ := xsize4 t
  constructor
  · intro h
    have h' : (y 1).val < (cfg0.win 4).xsize (grid0.coords t) (1 : Fin 2) := h 1
    rw [x1] at h'; omega
  · intro h a
    match a with
    | ⟨0, _⟩ =>
      show (y 0).val < (cfg0.win 4).xsize (grid0.coords t) (0 : Fin 2)
      rw [x0]; exact h0
    | ⟨1, _⟩ =>
      show (y 1).val < (cfg0.win 4).xsize (grid0.coords t) (1 : Fin 2)
      rw [x1]; omega

theorem moved5 (t : Fin cfg0.N) (y : (cfg0.win 5).block.Idx) :
    (cfg0.win 5).moved (grid0.coords t) y = true ↔ 1024 * (t.val / 8) + (y 1).val < 11008 := by
  rw [Pipeline.Window.moved_iff]
  have h0 : (y 0).val < 32 := (y 0).isLt
  have h1 : (y 1).val < 1024 := (y 1).isLt
  obtain ⟨x0, x1⟩ := xsize5 t
  constructor
  · intro h
    have h' : (y 1).val < (cfg0.win 5).xsize (grid0.coords t) (1 : Fin 2) := h 1
    rw [x1] at h'; omega
  · intro h a
    match a with
    | ⟨0, _⟩ =>
      show (y 0).val < (cfg0.win 5).xsize (grid0.coords t) (0 : Fin 2)
      rw [x0]; exact h0
    | ⟨1, _⟩ =>
      show (y 1).val < (cfg0.win 5).xsize (grid0.coords t) (1 : Fin 2)
      rw [x1]; omega

theorem moved6 (t : Fin cfg0.N) (y : (cfg0.win 6).block.Idx) :
    (cfg0.win 6).moved (grid0.coords t) y = true ↔ 1024 * (t.val / 8) + (y 1).val < 11008 := by
  rw [Pipeline.Window.moved_iff]
  have h0 : (y 0).val < 512 := (y 0).isLt
  have h1 : (y 1).val < 1024 := (y 1).isLt
  obtain ⟨x0, x1⟩ := xsize6 t
  constructor
  · intro h
    have h' : (y 1).val < (cfg0.win 6).xsize (grid0.coords t) (1 : Fin 2) := h 1
    rw [x1] at h'; omega
  · intro h a
    match a with
    | ⟨0, _⟩ =>
      show (y 0).val < (cfg0.win 6).xsize (grid0.coords t) (0 : Fin 2)
      rw [x0]; exact h0
    | ⟨1, _⟩ =>
      show (y 1).val < (cfg0.win 6).xsize (grid0.coords t) (1 : Fin 2)
      rw [x1]; omega

/-! ## The same reads at an array index the caller names

The element read is `A (ix2 r J)` for any `r`, `J` with the values above, whatever proofs of their bounds they carry. -/

theorem read_blk6_at (c : Dev nD) (t : Fin cfg0.N) (A : Buf (Elt F) ((cfg0.win 6).arr.view.loc (c.tc : Thread nD τ)))
    (y : ((cfg0.win 6).xblock (grid0.coords t)).Idx) (r : Fin 4096) (J : Fin 11008)
    (hr : r.val = 512 * (t.val % 8) + (y 0).val) (hJ : J.val = 1024 * (t.val / 8) + (y 1).val) :
    ((cfg0.win 6).blk t).view.read (Elt F) A y = A (ix2 r J) := by
  rw [read_blk6 c t A y]
  exact congrArg A (congrArg₂ ix2 (Fin.ext hr.symm) (Fin.ext hJ.symm))

theorem read_blk0_at (c : Dev nD) (t : Fin cfg0.N) (A : Buf (Elt F) ((cfg0.win 0).arr.view.loc (c.tc : Thread nD τ)))
    (y : ((cfg0.win 0).xblock (grid0.coords t)).Idx) (r : Fin 4096) (k : Fin 4096)
    (hr : r.val = 512 * (t.val % 8) + (y 0).val) (hk : k.val = (y 1).val) :
    ((cfg0.win 0).blk t).view.read (Elt F) A y = A (ix2 r k) := by
  rw [read_blk0 c t A y]
  exact congrArg A (congrArg₂ ix2 (Fin.ext hr.symm) (Fin.ext hk.symm))

theorem read_blk1_at (c : Dev nD) (t : Fin cfg0.N) (A : Buf (Elt F) ((cfg0.win 1).arr.view.loc (c.tc : Thread nD τ)))
    (y : ((cfg0.win 1).xblock (grid0.coords t)).Idx) (k : Fin 4096) (hk : k.val = (y 0).val) :
    ((cfg0.win 1).blk t).view.read (Elt F) A y = A (ix1 k) := by
  rw [read_blk1 c t A y]
  exact congrArg A (congrArg ix1 (Fin.ext hk.symm))

theorem read_blk2_at (c : Dev nD) (t : Fin cfg0.N) (A : Buf (Elt F) ((cfg0.win 2).arr.view.loc (c.tc : Thread nD τ)))
    (y : ((cfg0.win 2).xblock (grid0.coords t)).Idx) (r : Fin 1024) (J : Fin 11008)
    (hr : r.val = (y 0).val) (hJ : J.val = 1024 * (t.val / 8) + (y 1).val) :
    ((cfg0.win 2).blk t).view.read (Elt F) A y = A (ix2 r J) := by
  rw [read_blk2 c t A y]
  exact congrArg A (congrArg₂ ix2 (Fin.ext hr.symm) (Fin.ext hJ.symm))

theorem read_blk3_at (c : Dev nD) (t : Fin cfg0.N) (A : Buf (Elt F) ((cfg0.win 3).arr.view.loc (c.tc : Thread nD τ)))
    (y : ((cfg0.win 3).xblock (grid0.coords t)).Idx) (r : Fin 1024) (J : Fin 11008)
    (hr : r.val = (y 0).val) (hJ : J.val = 1024 * (t.val / 8) + (y 1).val) :
    ((cfg0.win 3).blk t).view.read (Elt F) A y = A (ix2 r J) := by
  rw [read_blk3 c t A y]
  exact congrArg A (congrArg₂ ix2 (Fin.ext hr.symm) (Fin.ext hJ.symm))

theorem read_blk4_at (c : Dev nD) (t : Fin cfg0.N) (A : Buf (Elt F) ((cfg0.win 4).arr.view.loc (c.tc : Thread nD τ)))
    (y : ((cfg0.win 4).xblock (grid0.coords t)).Idx) (r : Fin 128) (J : Fin 11008)
    (hr : r.val = (y 0).val) (hJ : J.val = 1024 * (t.val / 8) + (y 1).val) :
    ((cfg0.win 4).blk t).view.read (Elt F) A y = A (ix2 r J) := by
  rw [read_blk4 c t A y]
  exact congrArg A (congrArg₂ ix2 (Fin.ext hr.symm) (Fin.ext hJ.symm))

theorem read_blk5_at (c : Dev nD) (t : Fin cfg0.N) (A : Buf (Elt F) ((cfg0.win 5).arr.view.loc (c.tc : Thread nD τ)))
    (y : ((cfg0.win 5).xblock (grid0.coords t)).Idx) (r : Fin 32) (J : Fin 11008)
    (hr : r.val = (y 0).val) (hJ : J.val = 1024 * (t.val / 8) + (y 1).val) :
    ((cfg0.win 5).blk t).view.read (Elt F) A y = A (ix2 r J) := by
  rw [read_blk5 c t A y]
  exact congrArg A (congrArg₂ ix2 (Fin.ext hr.symm) (Fin.ext hJ.symm))

end Cert.Blocks

end
-- ==== Proof.BlockSpec.lean ====
/-
  The kernel's weight computation, stated on the contents of its staging buffers and importing no program.

  One 256-row slab of the weight block is computed from 64 rows of each value table (`a`: the first kept value of each group, `b`: the
  second), 8 rows of selector words (`mw`) and 2 rows of scales (`sc`): row r = 4g + p of the slab is `b (g, j)` if the second
  position of group g is p, else `a (g, j)` if the first is, else zero, times the scale of row r's scale group (`wSlab`).
  The whole 4096-row block is the same formula on the whole 1024-row tables, 128 selector rows and 32 scale rows (`wBlock`), and a
  slab of the block is the slab formula on the corresponding rows (`wBlock_slab`).
-/
import Idealize.ShloMosaic.PureOps.Ideal
import Idealize.ShloMosaic.Lib.ValueIdx

noncomputable section

namespace Cert.BlockSpec

open Idealize.ShloMosaic Idealize.ShloMosaic.ValueIdx

abbrev Sh2 (a b : Nat) : Shape := ⟨2, ![a, b]⟩

/-- The selector nibble of group `g` of a table of `8 * W` groups held in `W` rows of words. -/
def nibOf {W : Nat} (mw : (Sh2 W 1024).Idx → BitVec 32) (g : Fin (8 * W)) (j : Fin 1024) : BitVec 32 :=
  (mw (ix2 (⟨g.val / 8, by have := g.isLt; omega⟩ : Fin W) j) >>> (4 * (g.val % 8))) &&& 15#32

/-- The unscaled weight at row `r = 4 g + p`: the second position (bits 2-3 of the nibble) wins a tie with the first (bits 0-1). -/
def selOf {W : Nat} (a b : (Sh2 (8 * W) 1024).Idx → EReal) (mw : (Sh2 W 1024).Idx → BitVec 32) (r : Fin (32 * W)) (j : Fin 1024) : EReal :=
  if (nibOf mw (⟨r.val / 4, by have := r.isLt; omega⟩ : Fin (8 * W)) j >>> 2) &&& 3#32 = BitVec.ofNat 32 (r.val % 4)
    then b (ix2 (⟨r.val / 4, by have := r.isLt; omega⟩ : Fin (8 * W)) j)
  else if nibOf mw (⟨r.val / 4, by have := r.isLt; omega⟩ : Fin (8 * W)) j &&& 3#32 = BitVec.ofNat 32 (r.val % 4)
    then a (ix2 (⟨r.val / 4, by have := r.isLt; omega⟩ : Fin (8 * W)) j)
  else 0

/-- One slab: 64 groups, 8 word rows, 256 weight rows, 2 scale rows. -/
def wSlab (a b : (Sh2 64 1024).Idx → EReal) (mw : (Sh2 8 1024).Idx → BitVec 32) (sc : (Sh2 2 1024).Idx → EReal) (r : Fin 256) (j : Fin 1024) : EReal :=
  selOf (W := 8) a b mw r j * sc (ix2 (⟨r.val / 128, by have := r.isLt; omega⟩ : Fin 2) j)

/-- The whole block: 1024 groups, 128 word rows, 4096 weight rows, 32 scale rows. -/
def wBlock (a b : (Sh2 1024 1024).Idx → EReal) (mw : (Sh2 128 1024).Idx → BitVec 32) (sc : (Sh2 32 1024).Idx → EReal) (k : Fin 4096) (j : Fin 1024) : EReal :=
  selOf (W := 128) a b mw k j * sc (ix2 (⟨k.val / 128, by have := k.isLt; omega⟩ : Fin 32) j)

/-- The nibble of group `64 s + g` of the block's words is the nibble of group `g` of word rows `8 s ..`. -/
theorem nibOf_slab (mw : (Sh2 128 1024).Idx → BitVec 32) (s : Fin 16) (g : Fin 64) (j : Fin 1024) :
    nibOf (W := 128) mw (⟨64 * s.val + g.val, by have := s.isLt; have := g.isLt; omega⟩ : Fin (8 * 128)) j
      = nibOf (W := 8) (fun y => mw (ix2 (⟨8 * s.val + (y 0).val, by have := s.isLt; have : (y 0).val < 8 := (y 0).isLt; omega⟩ : Fin 128) (y 1)))
          (⟨g.val, g.isLt⟩ : Fin (8 * 8)) j := by
  have e2 : (64 * s.val + g.val) % 8 = g.val % 8 := by omega
  have e1 : (⟨(64 * s.val + g.val) / 8, by have := s.isLt; have := g.isLt; omega⟩ : Fin 128)
      = ⟨8 * s.val + g.val / 8, by have := s.isLt; have := g.isLt; omega⟩ := Fin.ext (by show (64 * s.val + g.val) / 8 = 8 * s.val + g.val / 8; omega)
  unfold nibOf
  simp only [e2]
  rw [e1]

/-- The unscaled weight at row `256 s + r` of the block is the one at row `r` of slab `s`. -/
theorem selOf_slab (a b : (Sh2 1024 1024).Idx → EReal) (mw : (Sh2 128 1024).Idx → BitVec 32)
    (s : Fin 16) (r : Fin 256) (j : Fin 1024) :
    selOf (W := 128) a b mw (⟨256 * s.val + r.val, by have := s.isLt; have := r.isLt; omega⟩ : Fin (32 * 128)) j
      = selOf (W := 8)
          (fun y => a (ix2 (⟨64 * s.val + (y 0).val, by have := s.isLt; have : (y 0).val < 64 := (y 0).isLt; omega⟩ : Fin 1024) (y 1)))
          (fun y => b (ix2 (⟨64 * s.val + (y 0).val, by have := s.isLt; have : (y 0).val < 64 := (y 0).isLt; omega⟩ : Fin 1024) (y 1)))
          (fun y => mw (ix2 (⟨8 * s.val + (y 0).val, by have := s.isLt; have : (y 0).val < 8 := (y 0).isLt; omega⟩ : Fin 128) (y 1)))
          (⟨r.val, r.isLt⟩ : Fin (32 * 8)) j := by
  have e2 : (256 * s.val + r.val) % 4 = r.val % 4 := by omega
  have e1 : (⟨(256 * s.val + r.val) / 4, by have := s.isLt; have := r.isLt; omega⟩ : Fin (8 * 128))
      = ⟨64 * s.val + (⟨r.val / 4, by have := r.isLt; omega⟩ : Fin 64).val, by have := s.isLt; have := r.isLt; show 64 * s.val + r.val / 4 < 8 * 128; omega⟩ :=
    Fin.ext (by show (256 * s.val + r.val) / 4 = 64 * s.val + r.val / 4; omega)
  unfold selOf
  simp only [e2]
  rw [e1, nibOf_slab]

/-- Slab `s` of the block is the slab formula on rows `64 s ..` of the value tables, `8 s ..` of the words and `2 s ..` of the scales. -/
theorem wBlock_slab (a b : (Sh2 1024 1024).Idx → EReal) (mw : (Sh2 128 1024).Idx → BitVec 32) (sc : (Sh2 32 1024).Idx → EReal)
    (s : Fin 16) (r : Fin 256) (j : Fin 1024) :
    wBlock a b mw sc (⟨256 * s.val + r.val, by have := s.isLt; have := r.isLt; omega⟩ : Fin 4096) j
      = wSlab (fun y => a (ix2 (⟨64 * s.val + (y 0).val, by have := s.isLt; have : (y 0).val < 64 := (y 0).isLt; omega⟩ : Fin 1024) (y 1)))
              (fun y => b (ix2 (⟨64 * s.val + (y 0).val, by have := s.isLt; have : (y 0).val < 64 := (y 0).isLt; omega⟩ : Fin 1024) (y 1)))
              (fun y => mw (ix2 (⟨8 * s.val + (y 0).val, by have := s.isLt; have : (y 0).val < 8 := (y 0).isLt; omega⟩ : Fin 128) (y 1)))
              (fun y => sc (ix2 (⟨2 * s.val + (y 0).val, by have := s.isLt; have : (y 0).val < 2 := (y 0).isLt; omega⟩ : Fin 32) (y 1))) r j := by
  have e1 : (⟨(256 * s.val + r.val) / 128, by have := s.isLt; have := r.isLt; omega⟩ : Fin 32)
      = ⟨2 * s.val + r.val / 128, by have := s.isLt; have := r.isLt; omega⟩ :=
    Fin.ext (by show (256 * s.val + r.val) / 128 = 2 * s.val + r.val / 128; omega)
  unfold wBlock wSlab
  rw [selOf_slab a b mw s r j, e1]

end Cert.BlockSpec

end
-- ==== Proof.SlabEven.lean ====
/-
  The even chunks of the kernel's weight computation, read at an index.

  A chunk turns 64 rows of each value table (`a`: the first kept value of each group, `b`: the second), 8 rows of selector
  words (`mw`) and 2 rows of scales (`sc`) into a 256-row slab. Nibble `s` of every word is the word shifted right by `4 s` and
  masked; the eight nibble arrays are stacked on a new middle axis and merged into the rows, so that row `g` of the result is
  nibble `g % 8` of word row `g / 8` (`nib_apply`). Bits 0-1 of a group's nibble name the position of the first kept value and
  bits 2-3 that of the second; position `p` of the group holds the second value if its position is `p`, else the first if its
  position is `p`, else zero (`pick`). The four position arrays are stacked on a new middle axis and merged into the rows, so that
  row `r` of the slab is position `r % 4` of group `r / 4` (`stack4_apply`), and the slab is multiplied by the two scale rows,
  each repeated over 128 rows (`scale_apply`). On extended reals the rounding to the storage format is the identity, so the
  stored high part is the slab and the stored low part is the slab less itself.

  `hiN` / `loN` are the two stored values of chunk `N` as functions of the four loaded vectors; `hiN_apply` / `loN_apply` read
  them at row `r`, column `j` as the slab formula `Cert.BlockSpec.wSlab`. The eight even chunks are the same functions of what
  they load (`hiN_eq`, `loN_eq`), so chunk 0 is read in full and the others follow.
-/
import proofs.«416245_j678604833216_3_alg».proof.Proof.Gen.KernelIdeal.Skeleton
import proofs.«416245_j678604833216_3_alg».proof.Proof.BlockSpec
import Idealize.ShloMosaic.Lib.ValueIdx
import Idealize.ShloMosaic.Lib.Pipeline.Value
import Idealize.ShloMosaic.Lib.ValueLayout
import Idealize.ShloMosaic.PureOps.Ideal.Laws

noncomputable section

namespace Cert.SlabEven

open Idealize.ShloMosaic Idealize.ShloMosaic.ValueIdx Cert.KernelIdeal Cert.KernelIdeal.Gen

/-! ## The stored values of the even chunks as functions of what the chunk loads -/

/-- Chunk 0: the stored high part, as a function of the four loaded vectors. -/
def hi0 (a b : Vec Ideal S64x1024 .f32) (mw : Vec Ideal S8x1024 .i32) (sc : Vec Ideal S2x1024 .f32) : FVec Ideal S256x1024 .bf16 :=
  k0_pay21 (F := Ideal)
    (k0_pay16 (F := Ideal) (k0_pay2 (F := Ideal) a) (k0_pay3 (F := Ideal) b) (k0_pay5 (F := Ideal) mw) (k0_pay6 (F := Ideal) mw) (k0_pay7 (F := Ideal) mw) (k0_pay8 (F := Ideal) mw) (k0_pay9 (F := Ideal) mw) (k0_pay10 (F := Ideal) mw) (k0_pay11 (F := Ideal) mw) (k0_pay12 (F := Ideal) mw))
    (k0_pay17 (F := Ideal) (k0_pay2 (F := Ideal) a) (k0_pay3 (F := Ideal) b) (k0_pay5 (F := Ideal) mw) (k0_pay6 (F := Ideal) mw) (k0_pay7 (F := Ideal) mw) (k0_pay8 (F := Ideal) mw) (k0_pay9 (F := Ideal) mw) (k0_pay10 (F := Ideal) mw) (k0_pay11 (F := Ideal) mw) (k0_pay12 (F := Ideal) mw))
    (k0_pay18 (F := Ideal) (k0_pay2 (F := Ideal) a) (k0_pay3 (F := Ideal) b) (k0_pay5 (F := Ideal) mw) (k0_pay6 (F := Ideal) mw) (k0_pay7 (F := Ideal) mw) (k0_pay8 (F := Ideal) mw) (k0_pay9 (F := Ideal) mw) (k0_pay10 (F := Ideal) mw) (k0_pay11 (F := Ideal) mw) (k0_pay12 (F := Ideal) mw))
    (k0_pay19 (F := Ideal) (k0_pay2 (F := Ideal) a) (k0_pay3 (F := Ideal) b) (k0_pay5 (F := Ideal) mw) (k0_pay6 (F := Ideal) mw) (k0_pay7 (F := Ideal) mw) (k0_pay8 (F := Ideal) mw) (k0_pay9 (F := Ideal) mw) (k0_pay10 (F := Ideal) mw) (k0_pay11 (F := Ideal) mw) (k0_pay12 (F := Ideal) mw)) sc

/-- Chunk 0: the stored low part. -/
def lo0 (a b : Vec Ideal S64x1024 .f32) (mw : Vec Ideal S8x1024 .i32) (sc : Vec Ideal S2x1024 .f32) : FVec Ideal S256x1024 .bf16 :=
  k0_pay22 (F := Ideal)
    (k0_pay16 (F := Ideal) (k0_pay2 (F := Ideal) a) (k0_pay3 (F := Ideal) b) (k0_pay5 (F := Ideal) mw) (k0_pay6 (F := Ideal) mw) (k0_pay7 (F := Ideal) mw) (k0_pay8 (F := Ideal) mw) (k0_pay9 (F := Ideal) mw) (k0_pay10 (F := Ideal) mw) (k0_pay11 (F := Ideal) mw) (k0_pay12 (F := Ideal) mw))
    (k0_pay17 (F := Ideal) (k0_pay2 (F := Ideal) a) (k0_pay3 (F := Ideal) b) (k0_pay5 (F := Ideal) mw) (k0_pay6 (F := Ideal) mw) (k0_pay7 (F := Ideal) mw) (k0_pay8 (F := Ideal) mw) (k0_pay9 (F := Ideal) mw) (k0_pay10 (F := Ideal) mw) (k0_pay11 (F := Ideal) mw) (k0_pay12 (F := Ideal) mw))
    (k0_pay18 (F := Ideal) (k0_pay2 (F := Ideal) a) (k0_pay3 (F := Ideal) b) (k0_pay5 (F := Ideal) mw) (k0_pay6 (F := Ideal) mw) (k0_pay7 (F := Ideal) mw) (k0_pay8 (F := Ideal) mw) (k0_pay9 (F := Ideal) mw) (k0_pay10 (F := Ideal) mw) (k0_pay11 (F := Ideal) mw) (k0_pay12 (F := Ideal) mw))
    (k0_pay19 (F := Ideal) (k0_pay2 (F := Ideal) a) (k0_pay3 (F := Ideal) b) (k0_pay5 (F := Ideal) mw) (k0_pay6 (F := Ideal) mw) (k0_pay7 (F := Ideal) mw) (k0_pay8 (F := Ideal) mw) (k0_pay9 (F := Ideal) mw) (k0_pay10 (F := Ideal) mw) (k0_pay11 (F := Ideal) mw) (k0_pay12 (F := Ideal) mw)) sc

/-- Chunk 2: the stored high part, as a function of the four loaded vectors. -/
def hi2 (a b : Vec Ideal S64x1024 .f32) (mw : Vec Ideal S8x1024 .i32) (sc : Vec Ideal S2x1024 .f32) : FVec Ideal S256x1024 .bf16 :=
  k0_pay55 (F := Ideal)
    (k0_pay50 (F := Ideal) (k0_pay36 (F := Ideal) a) (k0_pay37 (F := Ideal) b) (k0_pay39 (F := Ideal) mw) (k0_pay40 (F := Ideal) mw) (k0_pay41 (F := Ideal) mw) (k0_pay42 (F := Ideal) mw) (k0_pay43 (F := Ideal) mw) (k0_pay44 (F := Ideal) mw) (k0_pay45 (F := Ideal) mw) (k0_pay46 (F := Ideal) mw))
    (k0_pay51 (F := Ideal) (k0_pay36 (F := Ideal) a) (k0_pay37 (F := Ideal) b) (k0_pay39 (F := Ideal) mw) (k0_pay40 (F := Ideal) mw) (k0_pay41 (F := Ideal) mw) (k0_pay42 (F := Ideal) mw) (k0_pay43 (F := Ideal) mw) (k0_pay44 (F := Ideal) mw) (k0_pay45 (F := Ideal) mw) (k0_pay46 (F := Ideal) mw))
    (k0_pay52 (F := Ideal) (k0_pay36 (F := Ideal) a) (k0_pay37 (F := Ideal) b) (k0_pay39 (F := Ideal) mw) (k0_pay40 (F := Ideal) mw) (k0_pay41 (F := Ideal) mw) (k0_pay42 (F := Ideal) mw) (k0_pay43 (F := Ideal) mw) (k0_pay44 (F := Ideal) mw) (k0_pay45 (F := Ideal) mw) (k0_pay46 (F := Ideal) mw))
    (k0_pay53 (F := Ideal) (k0_pay36 (F := Ideal) a) (k0_pay37 (F := Ideal) b) (k0_pay39 (F := Ideal) mw) (k0_pay40 (F := Ideal) mw) (k0_pay41 (F := Ideal) mw) (k0_pay42 (F := Ideal) mw) (k0_pay43 (F := Ideal) mw) (k0_pay44 (F := Ideal) mw) (k0_pay45 (F := Ideal) mw) (k0_pay46 (F := Ideal) mw)) sc

/-- Chunk 2: the stored low part. -/
def lo2 (a b : Vec Ideal S64x1024 .f32) (mw : Vec Ideal S8x1024 .i32) (sc : Vec Ideal S2x1024 .f32) : FVec Ideal S256x1024 .bf16 :=
  k0_pay56 (F := Ideal)
    (k0_pay50 (F := Ideal) (k0_pay36 (F := Ideal) a) (k0_pay37 (F := Ideal) b) (k0_pay39 (F := Ideal) mw) (k0_pay40 (F := Ideal) mw) (k0_pay41 (F := Ideal) mw) (k0_pay42 (F := Ideal) mw) (k0_pay43 (F := Ideal) mw) (k0_pay44 (F := Ideal) mw) (k0_pay45 (F := Ideal) mw) (k0_pay46 (F := Ideal) mw))
    (k0_pay51 (F := Ideal) (k0_pay36 (F := Ideal) a) (k0_pay37 (F := Ideal) b) (k0_pay39 (F := Ideal) mw) (k0_pay40 (F := Ideal) mw) (k0_pay41 (F := Ideal) mw) (k0_pay42 (F := Ideal) mw) (k0_pay43 (F := Ideal) mw) (k0_pay44 (F := Ideal) mw) (k0_pay45 (F := Ideal) mw) (k0_pay46 (F := Ideal) mw))
    (k0_pay52 (F := Ideal) (k0_pay36 (F := Ideal) a) (k0_pay37 (F := Ideal) b) (k0_pay39 (F := Ideal) mw) (k0_pay40 (F := Ideal) mw) (k0_pay41 (F := Ideal) mw) (k0_pay42 (F := Ideal) mw) (k0_pay43 (F := Ideal) mw) (k0_pay44 (F := Ideal) mw) (k0_pay45 (F := Ideal) mw) (k0_pay46 (F := Ideal) mw))
    (k0_pay53 (F := Ideal) (k0_pay36 (F := Ideal) a) (k0_pay37 (F := Ideal) b) (k0_pay39 (F := Ideal) mw) (k0_pay40 (F := Ideal) mw) (k0_pay41 (F := Ideal) mw) (k0_pay42 (F := Ideal) mw) (k0_pay43 (F := Ideal) mw) (k0_pay44 (F := Ideal) mw) (k0_pay45 (F := Ideal) mw) (k0_pay46 (F := Ideal) mw)) sc

/-- Chunk 4: the stored high part, as a function of the four loaded vectors. -/
def hi4 (a b : Vec Ideal S64x1024 .f32) (mw : Vec Ideal S8x1024 .i32) (sc : Vec Ideal S2x1024 .f32) : FVec Ideal S256x1024 .bf16 :=
  k0_pay89 (F := Ideal)
    (k0_pay84 (F := Ideal) (k0_pay70 (F := Ideal) a) (k0_pay71 (F := Ideal) b) (k0_pay73 (F := Ideal) mw) (k0_pay74 (F := Ideal) mw) (k0_pay75 (F := Ideal) mw) (k0_pay76 (F := Ideal) mw) (k0_pay77 (F := Ideal) mw) (k0_pay78 (F := Ideal) mw) (k0_pay79 (F := Ideal) mw) (k0_pay80 (F := Ideal) mw))
    (k0_pay85 (F := Ideal) (k0_pay70 (F := Ideal) a) (k0_pay71 (F := Ideal) b) (k0_pay73 (F := Ideal) mw) (k0_pay74 (F := Ideal) mw) (k0_pay75 (F := Ideal) mw) (k0_pay76 (F := Ideal) mw) (k0_pay77 (F := Ideal) mw) (k0_pay78 (F := Ideal) mw) (k0_pay79 (F := Ideal) mw) (k0_pay80 (F := Ideal) mw))
    (k0_pay86 (F := Ideal) (k0_pay70 (F := Ideal) a) (k0_pay71 (F := Ideal) b) (k0_pay73 (F := Ideal) mw) (k0_pay74 (F := Ideal) mw) (k0_pay75 (F := Ideal) mw) (k0_pay76 (F := Ideal) mw) (k0_pay77 (F := Ideal) mw) (k0_pay78 (F := Ideal) mw) (k0_pay79 (F := Ideal) mw) (k0_pay80 (F := Ideal) mw))
    (k0_pay87 (F := Ideal) (k0_pay70 (F := Ideal) a) (k0_pay71 (F := Ideal) b) (k0_pay73 (F := Ideal) mw) (k0_pay74 (F := Ideal) mw) (k0_pay75 (F := Ideal) mw) (k0_pay76 (F := Ideal) mw) (k0_pay77 (F := Ideal) mw) (k0_pay78 (F := Ideal) mw) (k0_pay79 (F := Ideal) mw) (k0_pay80 (F := Ideal) mw)) sc

/-- Chunk 4: the stored low part. -/
def lo4 (a b : Vec Ideal S64x1024 .f32) (mw : Vec Ideal S8x1024 .i32) (sc : Vec Ideal S2x1024 .f32) : FVec Ideal S256x1024 .bf16 :=
  k0_pay90 (F := Ideal)
    (k0_pay84 (F := Ideal) (k0_pay70 (F := Ideal) a) (k0_pay71 (F := Ideal) b) (k0_pay73 (F := Ideal) mw) (k0_pay74 (F := Ideal) mw) (k0_pay75 (F := Ideal) mw) (k0_pay76 (F := Ideal) mw) (k0_pay77 (F := Ideal) mw) (k0_pay78 (F := Ideal) mw) (k0_pay79 (F := Ideal) mw) (k0_pay80 (F := Ideal) mw))
    (k0_pay85 (F := Ideal) (k0_pay70 (F := Ideal) a) (k0_pay71 (F := Ideal) b) (k0_pay73 (F := Ideal) mw) (k0_pay74 (F := Ideal) mw) (k0_pay75 (F := Ideal) mw) (k0_pay76 (F := Ideal) mw) (k0_pay77 (F := Ideal) mw) (k0_pay78 (F := Ideal) mw) (k0_pay79 (F := Ideal) mw) (k0_pay80 (F := Ideal) mw))
    (k0_pay86 (F := Ideal) (k0_pay70 (F := Ideal) a) (k0_pay71 (F := Ideal) b) (k0_pay73 (F := Ideal) mw) (k0_pay74 (F := Ideal) mw) (k0_pay75 (F := Ideal) mw) (k0_pay76 (F := Ideal) mw) (k0_pay77 (F := Ideal) mw) (k0_pay78 (F := Ideal) mw) (k0_pay79 (F := Ideal) mw) (k0_pay80 (F := Ideal) mw))
    (k0_pay87 (F := Ideal) (k0_pay70 (F := Ideal) a) (k0_pay71 (F := Ideal) b) (k0_pay73 (F := Ideal) mw) (k0_pay74 (F := Ideal) mw) (k0_pay75 (F := Ideal) mw) (k0_pay76 (F := Ideal) mw) (k0_pay77 (F := Ideal) mw) (k0_pay78 (F := Ideal) mw) (k0_pay79 (F := Ideal) mw) (k0_pay80 (F := Ideal) mw)) sc

/-- Chunk 6: the stored high part, as a function of the four loaded vectors. -/
def hi6 (a b : Vec Ideal S64x1024 .f32) (mw : Vec Ideal S8x1024 .i32) (sc : Vec Ideal S2x1024 .f32) : FVec Ideal S256x1024 .bf16 :=
  k0_pay123 (F := Ideal)
    (k0_pay118 (F := Ideal) (k0_pay104 (F := Ideal) a) (k0_pay105 (F := Ideal) b) (k0_pay107 (F := Ideal) mw) (k0_pay108 (F := Ideal) mw) (k0_pay109 (F := Ideal) mw) (k0_pay110 (F := Ideal) mw) (k0_pay111 (F := Ideal) mw) (k0_pay112 (F := Ideal) mw) (k0_pay113 (F := Ideal) mw) (k0_pay114 (F := Ideal) mw))
    (k0_pay119 (F := Ideal) (k0_pay104 (F := Ideal) a) (k0_pay105 (F := Ideal) b) (k0_pay107 (F := Ideal) mw) (k0_pay108 (F := Ideal) mw) (k0_pay109 (F := Ideal) mw) (k0_pay110 (F := Ideal) mw) (k0_pay111 (F := Ideal) mw) (k0_pay112 (F := Ideal) mw) (k0_pay113 (F := Ideal) mw) (k0_pay114 (F := Ideal) mw))
    (k0_pay120 (F := Ideal) (k0_pay104 (F := Ideal) a) (k0_pay105 (F := Ideal) b) (k0_pay107 (F := Ideal) mw) (k0_pay108 (F := Ideal) mw) (k0_pay109 (F := Ideal) mw) (k0_pay110 (F := Ideal) mw) (k0_pay111 (F := Ideal) mw) (k0_pay112 (F := Ideal) mw) (k0_pay113 (F := Ideal) mw) (k0_pay114 (F := Ideal) mw))
    (k0_pay121 (F := Ideal) (k0_pay104 (F := Ideal) a) (k0_pay105 (F := Ideal) b) (k0_pay107 (F := Ideal) mw) (k0_pay108 (F := Ideal) mw) (k0_pay109 (F := Ideal) mw) (k0_pay110 (F := Ideal) mw) (k0_pay111 (F := Ideal) mw) (k0_pay112 (F := Ideal) mw) (k0_pay113 (F := Ideal) mw) (k0_pay114 (F := Ideal) mw)) sc

/-- Chunk 6: the stored low part. -/
def lo6 (a b : Vec Ideal S64x1024 .f32) (mw : Vec Ideal S8x1024 .i32) (sc : Vec Ideal S2x1024 .f32) : FVec Ideal S256x1024 .bf16 :=
  k0_pay124 (F := Ideal)
    (k0_pay118 (F := Ideal) (k0_pay104 (F := Ideal) a) (k0_pay105 (F := Ideal) b) (k0_pay107 (F := Ideal) mw) (k0_pay108 (F := Ideal) mw) (k0_pay109 (F := Ideal) mw) (k0_pay110 (F := Ideal) mw) (k0_pay111 (F := Ideal) mw) (k0_pay112 (F := Ideal) mw) (k0_pay113 (F := Ideal) mw) (k0_pay114 (F := Ideal) mw))
    (k0_pay119 (F := Ideal) (k0_pay104 (F := Ideal) a) (k0_pay105 (F := Ideal) b) (k0_pay107 (F := Ideal) mw) (k0_pay108 (F := Ideal) mw) (k0_pay109 (F := Ideal) mw) (k0_pay110 (F := Ideal) mw) (k0_pay111 (F := Ideal) mw) (k0_pay112 (F := Ideal) mw) (k0_pay113 (F := Ideal) mw) (k0_pay114 (F := Ideal) mw))
    (k0_pay120 (F := Ideal) (k0_pay104 (F := Ideal) a) (k0_pay105 (F := Ideal) b) (k0_pay107 (F := Ideal) mw) (k0_pay108 (F := Ideal) mw) (k0_pay109 (F := Ideal) mw) (k0_pay110 (F := Ideal) mw) (k0_pay111 (F := Ideal) mw) (k0_pay112 (F := Ideal) mw) (k0_pay113 (F := Ideal) mw) (k0_pay114 (F := Ideal) mw))
    (k0_pay121 (F := Ideal) (k0_pay104 (F := Ideal) a) (k0_pay105 (F := Ideal) b) (k0_pay107 (F := Ideal) mw) (k0_pay108 (F := Ideal) mw) (k0_pay109 (F := Ideal) mw) (k0_pay110 (F := Ideal) mw) (k0_pay111 (F := Ideal) mw) (k0_pay112 (F := Ideal) mw) (k0_pay113 (F := Ideal) mw) (k0_pay114 (F := Ideal) mw)) sc

/-- Chunk 8: the stored high part, as a function of the four loaded vectors. -/
def hi8 (a b : Vec Ideal S64x1024 .f32) (mw : Vec Ideal S8x1024 .i32) (sc : Vec Ideal S2x1024 .f32) : FVec Ideal S256x1024 .bf16 :=
  k0_pay157 (F := Ideal)
    (k0_pay152 (F := Ideal) (k0_pay138 (F := Ideal) a) (k0_pay139 (F := Ideal) b) (k0_pay141 (F := Ideal) mw) (k0_pay142 (F := Ideal) mw) (k0_pay143 (F := Ideal) mw) (k0_pay144 (F := Ideal) mw) (k0_pay145 (F := Ideal) mw) (k0_pay146 (F := Ideal) mw) (k0_pay147 (F := Ideal) mw) (k0_pay148 (F := Ideal) mw))
    (k0_pay153 (F := Ideal) (k0_pay138 (F := Ideal) a) (k0_pay139 (F := Ideal) b) (k0_pay141 (F := Ideal) mw) (k0_pay142 (F := Ideal) mw) (k0_pay143 (F := Ideal) mw) (k0_pay144 (F := Ideal) mw) (k0_pay145 (F := Ideal) mw) (k0_pay146 (F := Ideal) mw) (k0_pay147 (F := Ideal) mw) (k0_pay148 (F := Ideal) mw))
    (k0_pay154 (F := Ideal) (k0_pay138 (F := Ideal) a) (k0_pay139 (F := Ideal) b) (k0_pay141 (F := Ideal) mw) (k0_pay142 (F := Ideal) mw) (k0_pay143 (F := Ideal) mw) (k0_pay144 (F := Ideal) mw) (k0_pay145 (F := Ideal) mw) (k0_pay146 (F := Ideal) mw) (k0_pay147 (F := Ideal) mw) (k0_pay148 (F := Ideal) mw))
    (k0_pay155 (F := Ideal) (k0_pay138 (F := Ideal) a) (k0_pay139 (F := Ideal) b) (k0_pay141 (F := Ideal) mw) (k0_pay142 (F := Ideal) mw) (k0_pay143 (F := Ideal) mw) (k0_pay144 (F := Ideal) mw) (k0_pay145 (F := Ideal) mw) (k0_pay146 (F := Ideal) mw) (k0_pay147 (F := Ideal) mw) (k0_pay148 (F := Ideal) mw)) sc

/-- Chunk 8: the stored low part. -/
def lo8 (a b : Vec Ideal S64x1024 .f32) (mw : Vec Ideal S8x1024 .i32) (sc : Vec Ideal S2x1024 .f32) : FVec Ideal S256x1024 .bf16 :=
  k0_pay158 (F := Ideal)
    (k0_pay152 (F := Ideal) (k0_pay138 (F := Ideal) a) (k0_pay139 (F := Ideal) b) (k0_pay141 (F := Ideal) mw) (k0_pay142 (F := Ideal) mw) (k0_pay143 (F := Ideal) mw) (k0_pay144 (F := Ideal) mw) (k0_pay145 (F := Ideal) mw) (k0_pay146 (F := Ideal) mw) (k0_pay147 (F := Ideal) mw) (k0_pay148 (F := Ideal) mw))
    (k0_pay153 (F := Ideal) (k0_pay138 (F := Ideal) a) (k0_pay139 (F := Ideal) b) (k0_pay141 (F := Ideal) mw) (k0_pay142 (F := Ideal) mw) (k0_pay143 (F := Ideal) mw) (k0_pay144 (F := Ideal) mw) (k0_pay145 (F := Ideal) mw) (k0_pay146 (F := Ideal) mw) (k0_pay147 (F := Ideal) mw) (k0_pay148 (F := Ideal) mw))
    (k0_pay154 (F := Ideal) (k0_pay138 (F := Ideal) a) (k0_pay139 (F := Ideal) b) (k0_pay141 (F := Ideal) mw) (k0_pay142 (F := Ideal) mw) (k0_pay143 (F := Ideal) mw) (k0_pay144 (F := Ideal) mw) (k0_pay145 (F := Ideal) mw) (k0_pay146 (F := Ideal) mw) (k0_pay147 (F := Ideal) mw) (k0_pay148 (F := Ideal) mw))
    (k0_pay155 (F := Ideal) (k0_pay138 (F := Ideal) a) (k0_pay139 (F := Ideal) b) (k0_pay141 (F := Ideal) mw) (k0_pay142 (F := Ideal) mw) (k0_pay143 (F := Ideal) mw) (k0_pay144 (F := Ideal) mw) (k0_pay145 (F := Ideal) mw) (k0_pay146 (F := Ideal) mw) (k0_pay147 (F := Ideal) mw) (k0_pay148 (F := Ideal) mw)) sc

/-- Chunk 10: the stored high part, as a function of the four loaded vectors. -/
def hi10 (a b : Vec Ideal S64x1024 .f32) (mw : Vec Ideal S8x1024 .i32) (sc : Vec Ideal S2x1024 .f32) : FVec Ideal S256x1024 .bf16 :=
  k0_pay191 (F := Ideal)
    (k0_pay186 (F := Ideal) (k0_pay172 (F := Ideal) a) (k0_pay173 (F := Ideal) b) (k0_pay175 (F := Ideal) mw) (k0_pay176 (F := Ideal) mw) (k0_pay177 (F := Ideal) mw) (k0_pay178 (F := Ideal) mw) (k0_pay179 (F := Ideal) mw) (k0_pay180 (F := Ideal) mw) (k0_pay181 (F := Ideal) mw) (k0_pay182 (F := Ideal) mw))
    (k0_pay187 (F := Ideal) (k0_pay172 (F := Ideal) a) (k0_pay173 (F := Ideal) b) (k0_pay175 (F := Ideal) mw) (k0_pay176 (F := Ideal) mw) (k0_pay177 (F := Ideal) mw) (k0_pay178 (F := Ideal) mw) (k0_pay179 (F := Ideal) mw) (k0_pay180 (F := Ideal) mw) (k0_pay181 (F := Ideal) mw) (k0_pay182 (F := Ideal) mw))
    (k0_pay188 (F := Ideal) (k0_pay172 (F := Ideal) a) (k0_pay173 (F := Ideal) b) (k0_pay175 (F := Ideal) mw) (k0_pay176 (F := Ideal) mw) (k0_pay177 (F := Ideal) mw) (k0_pay178 (F := Ideal) mw) (k0_pay179 (F := Ideal) mw) (k0_pay180 (F := Ideal) mw) (k0_pay181 (F := Ideal) mw) (k0_pay182 (F := Ideal) mw))
    (k0_pay189 (F := Ideal) (k0_pay172 (F := Ideal) a) (k0_pay173 (F := Ideal) b) (k0_pay175 (F := Ideal) mw) (k0_pay176 (F := Ideal) mw) (k0_pay177 (F := Ideal) mw) (k0_pay178 (F := Ideal) mw) (k0_pay179 (F := Ideal) mw) (k0_pay180 (F := Ideal) mw) (k0_pay181 (F := Ideal) mw) (k0_pay182 (F := Ideal) mw)) sc

/-- Chunk 10: the stored low part. -/
def lo10 (a b : Vec Ideal S64x1024 .f32) (mw : Vec Ideal S8x1024 .i32) (sc : Vec Ideal S2x1024 .f32) : FVec Ideal S256x1024 .bf16 :=
  k0_pay192 (F := Ideal)
    (k0_pay186 (F := Ideal) (k0_pay172 (F := Ideal) a) (k0_pay173 (F := Ideal) b) (k0_pay175 (F := Ideal) mw) (k0_pay176 (F := Ideal) mw) (k0_pay177 (F := Ideal) mw) (k0_pay178 (F := Ideal) mw) (k0_pay179 (F := Ideal) mw) (k0_pay180 (F := Ideal) mw) (k0_pay181 (F := Ideal) mw) (k0_pay182 (F := Ideal) mw))
    (k0_pay187 (F := Ideal) (k0_pay172 (F := Ideal) a) (k0_pay173 (F := Ideal) b) (k0_pay175 (F := Ideal) mw) (k0_pay176 (F := Ideal) mw) (k0_pay177 (F := Ideal) mw) (k0_pay178 (F := Ideal) mw) (k0_pay179 (F := Ideal) mw) (k0_pay180 (F := Ideal) mw) (k0_pay181 (F := Ideal) mw) (k0_pay182 (F := Ideal) mw))
    (k0_pay188 (F := Ideal) (k0_pay172 (F := Ideal) a) (k0_pay173 (F := Ideal) b) (k0_pay175 (F := Ideal) mw) (k0_pay176 (F := Ideal) mw) (k0_pay177 (F := Ideal) mw) (k0_pay178 (F := Ideal) mw) (k0_pay179 (F := Ideal) mw) (k0_pay180 (F := Ideal) mw) (k0_pay181 (F := Ideal) mw) (k0_pay182 (F := Ideal) mw))
    (k0_pay189 (F := Ideal) (k0_pay172 (F := Ideal) a) (k0_pay173 (F := Ideal) b) (k0_pay175 (F := Ideal) mw) (k0_pay176 (F := Ideal) mw) (k0_pay177 (F := Ideal) mw) (k0_pay178 (F := Ideal) mw) (k0_pay179 (F := Ideal) mw) (k0_pay180 (F := Ideal) mw) (k0_pay181 (F := Ideal) mw) (k0_pay182 (F := Ideal) mw)) sc

/-- Chunk 12: the stored high part, as a function of the four loaded vectors. -/
def hi12 (a b : Vec Ideal S64x1024 .f32) (mw : Vec Ideal S8x1024 .i32) (sc : Vec Ideal S2x1024 .f32) : FVec Ideal S256x1024 .bf16 :=
  k0_pay225 (F := Ideal)
    (k0_pay220 (F := Ideal) (k0_pay206 (F := Ideal) a) (k0_pay207 (F := Ideal) b) (k0_pay209 (F := Ideal) mw) (k0_pay210 (F := Ideal) mw) (k0_pay211 (F := Ideal) mw) (k0_pay212 (F := Ideal) mw) (k0_pay213 (F := Ideal) mw) (k0_pay214 (F := Ideal) mw) (k0_pay215 (F := Ideal) mw) (k0_pay216 (F := Ideal) mw))
    (k0_pay221 (F := Ideal) (k0_pay206 (F := Ideal) a) (k0_pay207 (F := Ideal) b) (k0_pay209 (F := Ideal) mw) (k0_pay210 (F := Ideal) mw) (k0_pay211 (F := Ideal) mw) (k0_pay212 (F := Ideal) mw) (k0_pay213 (F := Ideal) mw) (k0_pay214 (F := Ideal) mw) (k0_pay215 (F := Ideal) mw) (k0_pay216 (F := Ideal) mw))
    (k0_pay222 (F := Ideal) (k0_pay206 (F := Ideal) a) (k0_pay207 (F := Ideal) b) (k0_pay209 (F := Ideal) mw) (k0_pay210 (F := Ideal) mw) (k0_pay211 (F := Ideal) mw) (k0_pay212 (F := Ideal) mw) (k0_pay213 (F := Ideal) mw) (k0_pay214 (F := Ideal) mw) (k0_pay215 (F := Ideal) mw) (k0_pay216 (F := Ideal) mw))
    (k0_pay223 (F := Ideal) (k0_pay206 (F := Ideal) a) (k0_pay207 (F := Ideal) b) (k0_pay209 (F := Ideal) mw) (k0_pay210 (F := Ideal) mw) (k0_pay211 (F := Ideal) mw) (k0_pay212 (F := Ideal) mw) (k0_pay213 (F := Ideal) mw) (k0_pay214 (F := Ideal) mw) (k0_pay215 (F := Ideal) mw) (k0_pay216 (F := Ideal) mw)) sc

/-- Chunk 12: the stored low part. -/
def lo12 (a b : Vec Ideal S64x1024 .f32) (mw : Vec Ideal S8x1024 .i32) (sc : Vec Ideal S2x1024 .f32) : FVec Ideal S256x1024 .bf16 :=
  k0_pay226 (F := Ideal)
    (k0_pay220 (F := Ideal) (k0_pay206 (F := Ideal) a) (k0_pay207 (F := Ideal) b) (k0_pay209 (F := Ideal) mw) (k0_pay210 (F := Ideal) mw) (k0_pay211 (F := Ideal) mw) (k0_pay212 (F := Ideal) mw) (k0_pay213 (F := Ideal) mw) (k0_pay214 (F := Ideal) mw) (k0_pay215 (F := Ideal) mw) (k0_pay216 (F := Ideal) mw))
    (k0_pay221 (F := Ideal) (k0_pay206 (F := Ideal) a) (k0_pay207 (F := Ideal) b) (k0_pay209 (F := Ideal) mw) (k0_pay210 (F := Ideal) mw) (k0_pay211 (F := Ideal) mw) (k0_pay212 (F := Ideal) mw) (k0_pay213 (F := Ideal) mw) (k0_pay214 (F := Ideal) mw) (k0_pay215 (F := Ideal) mw) (k0_pay216 (F := Ideal) mw))
    (k0_pay222 (F := Ideal) (k0_pay206 (F := Ideal) a) (k0_pay207 (F := Ideal) b) (k0_pay209 (F := Ideal) mw) (k0_pay210 (F := Ideal) mw) (k0_pay211 (F := Ideal) mw) (k0_pay212 (F := Ideal) mw) (k0_pay213 (F := Ideal) mw) (k0_pay214 (F := Ideal) mw) (k0_pay215 (F := Ideal) mw) (k0_pay216 (F := Ideal) mw))
    (k0_pay223 (F := Ideal) (k0_pay206 (F := Ideal) a) (k0_pay207 (F := Ideal) b) (k0_pay209 (F := Ideal) mw) (k0_pay210 (F := Ideal) mw) (k0_pay211 (F := Ideal) mw) (k0_pay212 (F := Ideal) mw) (k0_pay213 (F := Ideal) mw) (k0_pay214 (F := Ideal) mw) (k0_pay215 (F := Ideal) mw) (k0_pay216 (F := Ideal) mw)) sc

/-- Chunk 14: the stored high part, as a function of the four loaded vectors. -/
def hi14 (a b : Vec Ideal S64x1024 .f32) (mw : Vec Ideal S8x1024 .i32) (sc : Vec Ideal S2x1024 .f32) : FVec Ideal S256x1024 .bf16 :=
  k0_pay259 (F := Ideal)
    (k0_pay254 (F := Ideal) (k0_pay240 (F := Ideal) a) (k0_pay241 (F := Ideal) b) (k0_pay243 (F := Ideal) mw) (k0_pay244 (F := Ideal) mw) (k0_pay245 (F := Ideal) mw) (k0_pay246 (F := Ideal) mw) (k0_pay247 (F := Ideal) mw) (k0_pay248 (F := Ideal) mw) (k0_pay249 (F := Ideal) mw) (k0_pay250 (F := Ideal) mw))
    (k0_pay255 (F := Ideal) (k0_pay240 (F := Ideal) a) (k0_pay241 (F := Ideal) b) (k0_pay243 (F := Ideal) mw) (k0_pay244 (F := Ideal) mw) (k0_pay245 (F := Ideal) mw) (k0_pay246 (F := Ideal) mw) (k0_pay247 (F := Ideal) mw) (k0_pay248 (F := Ideal) mw) (k0_pay249 (F := Ideal) mw) (k0_pay250 (F := Ideal) mw))
    (k0_pay256 (F := Ideal) (k0_pay240 (F := Ideal) a) (k0_pay241 (F := Ideal) b) (k0_pay243 (F := Ideal) mw) (k0_pay244 (F := Ideal) mw) (k0_pay245 (F := Ideal) mw) (k0_pay246 (F := Ideal) mw) (k0_pay247 (F := Ideal) mw) (k0_pay248 (F := Ideal) mw) (k0_pay249 (F := Ideal) mw) (k0_pay250 (F := Ideal) mw))
    (k0_pay257 (F := Ideal) (k0_pay240 (F := Ideal) a) (k0_pay241 (F := Ideal) b) (k0_pay243 (F := Ideal) mw) (k0_pay244 (F := Ideal) mw) (k0_pay245 (F := Ideal) mw) (k0_pay246 (F := Ideal) mw) (k0_pay247 (F := Ideal) mw) (k0_pay248 (F := Ideal) mw) (k0_pay249 (F := Ideal) mw) (k0_pay250 (F := Ideal) mw)) sc

/-- Chunk 14: the stored low part. -/
def lo14 (a b : Vec Ideal S64x1024 .f32) (mw : Vec Ideal S8x1024 .i32) (sc : Vec Ideal S2x1024 .f32) : FVec Ideal S256x1024 .bf16 :=
  k0_pay260 (F := Ideal)
    (k0_pay254 (F := Ideal) (k0_pay240 (F := Ideal) a) (k0_pay241 (F := Ideal) b) (k0_pay243 (F := Ideal) mw) (k0_pay244 (F := Ideal) mw) (k0_pay245 (F := Ideal) mw) (k0_pay246 (F := Ideal) mw) (k0_pay247 (F := Ideal) mw) (k0_pay248 (F := Ideal) mw) (k0_pay249 (F := Ideal) mw) (k0_pay250 (F := Ideal) mw))
    (k0_pay255 (F := Ideal) (k0_pay240 (F := Ideal) a) (k0_pay241 (F := Ideal) b) (k0_pay243 (F := Ideal) mw) (k0_pay244 (F := Ideal) mw) (k0_pay245 (F := Ideal) mw) (k0_pay246 (F := Ideal) mw) (k0_pay247 (F := Ideal) mw) (k0_pay248 (F := Ideal) mw) (k0_pay249 (F := Ideal) mw) (k0_pay250 (F := Ideal) mw))
    (k0_pay256 (F := Ideal) (k0_pay240 (F := Ideal) a) (k0_pay241 (F := Ideal) b) (k0_pay243 (F := Ideal) mw) (k0_pay244 (F := Ideal) mw) (k0_pay245 (F := Ideal) mw) (k0_pay246 (F := Ideal) mw) (k0_pay247 (F := Ideal) mw) (k0_pay248 (F := Ideal) mw) (k0_pay249 (F := Ideal) mw) (k0_pay250 (F := Ideal) mw))
    (k0_pay257 (F := Ideal) (k0_pay240 (F := Ideal) a) (k0_pay241 (F := Ideal) b) (k0_pay243 (F := Ideal) mw) (k0_pay244 (F := Ideal) mw) (k0_pay245 (F := Ideal) mw) (k0_pay246 (F := Ideal) mw) (k0_pay247 (F := Ideal) mw) (k0_pay248 (F := Ideal) mw) (k0_pay249 (F := Ideal) mw) (k0_pay250 (F := Ideal) mw)) sc

/-! ## The eight nibbles of a selector word -/

/-- The eight shifted and masked copies of the word rows: copy `s` holds nibble `s` of every word. -/
def nibs (mw : Vec Ideal S8x1024 .i32) : Fin 8 → IVec S8x1024 32 :=
  ![k0_pay5 (F := Ideal) mw, k0_pay6 (F := Ideal) mw, k0_pay7 (F := Ideal) mw, k0_pay8 (F := Ideal) mw,
    k0_pay9 (F := Ideal) mw, k0_pay10 (F := Ideal) mw, k0_pay11 (F := Ideal) mw, k0_pay12 (F := Ideal) mw]

/-- Copy `s` at a word is the word shifted right by `4 s` and masked to four bits. -/
theorem nibs_apply (mw : Vec Ideal S8x1024 .i32) (s : Fin 8) (i : S8x1024.Idx) :
    nibs mw s i = (mw i >>> (4 * s.val)) &&& 15#32 := by
  fin_cases s <;> rfl

/-! ## Stacking on a new middle axis and merging it into the rows -/

/-- Eight `[8, 1024]` arrays stacked on a new axis 1 and reshaped to `[64, 1024]`: row `g` is row `g / 8` of array `g % 8`. -/
theorem pay13_apply (v0 v1 v2 v3 v4 v5 v6 v7 : IVec S8x1024 32) (g : Fin 64) (j : Fin 1024) :
    k0_pay13 v0 v1 v2 v3 v4 v5 v6 v7 (ix2 g j)
      = (![v0, v1, v2, v3, v4, v5, v6, v7] : Fin 8 → IVec S8x1024 32) ⟨g.val % 8, Nat.mod_lt _ (by decide)⟩
          (ix2 (⟨g.val / 8, by have := g.isLt; omega⟩ : Fin 8) j) := by
  dsimp only [k0_pay13]
  refine (shapeCast_apply _ _ (ix2 g j)
    (ix3 (⟨g.val / 8, by have := g.isLt; omega⟩ : Fin 8) (⟨g.val % 8, Nat.mod_lt _ (by decide)⟩ : Fin 8) j) ?_).trans ?_
  · rw [Shape.rowMajor_val_three, Shape.rowMajor_val_two]
    show (g.val / 8 * 8 + g.val % 8) * 1024 + j.val = g.val * 1024 + j.val
    omega
  · refine (concatenate_ofFn_unit_apply (t := S8x8x1024) (s₁ := S8x1x1024) (1 : Fin 3)
      (fun n => shapeCast S8x1x1024 ((![v0, v1, v2, v3, v4, v5, v6, v7] : Fin 8 → IVec S8x1024 32) n) shapeCasts_S8x1024_S8x1x1024)
      _ rfl rfl _ (⟨g.val % 8, Nat.mod_lt _ (by decide)⟩ : Fin 8) rfl
      (ix3 (⟨g.val / 8, by have := g.isLt; omega⟩ : Fin 8) (0 : Fin 1) j) ?_).trans ?_
    · intro b hb
      match b with
      | ⟨0, _⟩ => rfl
      | ⟨1, _⟩ => exact absurd rfl hb
      | ⟨2, _⟩ => rfl
    · refine shapeCast_apply _ _ _ _ ?_
      rw [Shape.rowMajor_val_three, Shape.rowMajor_val_two]
      show g.val / 8 * 1024 + j.val = (g.val / 8 * 1 + 0) * 1024 + j.val
      omega

/-! ## The two positions of a group -/

/-- The stacked nibbles: row `g` is nibble `g % 8` of word row `g / 8`. -/
theorem nib_apply (mw : Vec Ideal S8x1024 .i32) (g : Fin 64) (j : Fin 1024) :
    k0_pay13 (nibs mw 0) (nibs mw 1) (nibs mw 2) (nibs mw 3) (nibs mw 4) (nibs mw 5) (nibs mw 6) (nibs mw 7) (ix2 g j)
      = Cert.BlockSpec.nibOf (W := 8) mw (⟨g.val, g.isLt⟩ : Fin (8 * 8)) j := by
  rw [pay13_apply]
  exact nibs_apply mw _ _

/-- A select on an equality test of two words is the `if` on their equality. -/
theorem select_cmpi_eq {α : Type} (x y : BitVec 32) (A B : α) :
    Scalar.select (IntOp.cmpi .eq x y) A B = if x = y then A else B := by
  show (if BitVec.ofBool (x == y) = 1#1 then A else B) = _
  by_cases h : x = y
  · have hc : BitVec.ofBool (x == y) = 1#1 := by rw [h, beq_self_eq_true]; rfl
    rw [if_pos hc, if_pos h]
  · have hc : ¬ BitVec.ofBool (x == y) = 1#1 := by rw [beq_false_of_ne h]; decide
    rw [if_neg hc, if_neg h]

/-- The unscaled weight of position `p` of group `g`, from the group's nibble `n`. -/
def pick (n : BitVec 32) (p : Nat) (A B : EReal) : EReal :=
  if (n >>> 2) &&& 3#32 = BitVec.ofNat 32 p then B else if n &&& 3#32 = BitVec.ofNat 32 p then A else 0

section Sel
variable (a b : FVec Ideal S64x1024 .f32) (v0 v1 v2 v3 v4 v5 v6 v7 : IVec S8x1024 32)

theorem pay16_apply (i : S64x1024.Idx) :
    k0_pay16 (F := Ideal) a b v0 v1 v2 v3 v4 v5 v6 v7 i = pick (k0_pay13 v0 v1 v2 v3 v4 v5 v6 v7 i) 1 (a i) (b i) := by
  show Scalar.select (IntOp.cmpi .eq (IntOp.andi (IntOp.shrui .vector (k0_pay13 v0 v1 v2 v3 v4 v5 v6 v7 i) 2#32) 3#32) 1#32) (b i)
      (Scalar.select (IntOp.cmpi .eq (IntOp.andi (k0_pay13 v0 v1 v2 v3 v4 v5 v6 v7 i) 3#32) 1#32) (a i) (Ideal.ofBits .f32 0x00000000#32)) = _
  rw [select_cmpi_eq, select_cmpi_eq, Ideal.ofBits_zero_f32]
  rfl

theorem pay17_apply (i : S64x1024.Idx) :
    k0_pay17 (F := Ideal) a b v0 v1 v2 v3 v4 v5 v6 v7 i = pick (k0_pay13 v0 v1 v2 v3 v4 v5 v6 v7 i) 2 (a i) (b i) := by
  show Scalar.select (IntOp.cmpi .eq (IntOp.andi (IntOp.shrui .vector (k0_pay13 v0 v1 v2 v3 v4 v5 v6 v7 i) 2#32) 3#32) 2#32) (b i)
      (Scalar.select (IntOp.cmpi .eq (IntOp.andi (k0_pay13 v0 v1 v2 v3 v4 v5 v6 v7 i) 3#32) 2#32) (a i) (Ideal.ofBits .f32 0x00000000#32)) = _
  rw [select_cmpi_eq, select_cmpi_eq, Ideal.ofBits_zero_f32]
  rfl

theorem pay18_apply (i : S64x1024.Idx) :
    k0_pay18 (F := Ideal) a b v0 v1 v2 v3 v4 v5 v6 v7 i = pick (k0_pay13 v0 v1 v2 v3 v4 v5 v6 v7 i) 3 (a i) (b i) := by
  show Scalar.select (IntOp.cmpi .eq (IntOp.andi (IntOp.shrui .vector (k0_pay13 v0 v1 v2 v3 v4 v5 v6 v7 i) 2#32) 3#32) 3#32) (b i)
      (Scalar.select (IntOp.cmpi .eq (IntOp.andi (k0_pay13 v0 v1 v2 v3 v4 v5 v6 v7 i) 3#32) 3#32) (a i) (Ideal.ofBits .f32 0x00000000#32)) = _
  rw [select_cmpi_eq, select_cmpi_eq, Ideal.ofBits_zero_f32]
  rfl

/-- Position 0 is stored with a unit middle axis already added. -/
theorem pay19_apply (g : Fin 64) (j : Fin 1024) :
    k0_pay19 (F := Ideal) a b v0 v1 v2 v3 v4 v5 v6 v7 (ix3 g (0 : Fin 1) j)
      = pick (k0_pay13 v0 v1 v2 v3 v4 v5 v6 v7 (ix2 g j)) 0 (a (ix2 g j)) (b (ix2 g j)) := by
  dsimp only [k0_pay19]
  refine (shapeCast_apply _ _ _ (ix2 g j) ?_).trans ?_
  · rw [Shape.rowMajor_val_three, Shape.rowMajor_val_two]
    show g.val * 1024 + j.val = (g.val * 1 + 0) * 1024 + j.val
    omega
  · show Scalar.select (IntOp.cmpi .eq (IntOp.andi (IntOp.shrui .vector (k0_pay13 v0 v1 v2 v3 v4 v5 v6 v7 (ix2 g j)) 2#32) 3#32) 0#32) (b (ix2 g j))
        (Scalar.select (IntOp.cmpi .eq (IntOp.andi (k0_pay13 v0 v1 v2 v3 v4 v5 v6 v7 (ix2 g j)) 3#32) 0#32) (a (ix2 g j)) (Ideal.ofBits .f32 0x00000000#32)) = _
    rw [select_cmpi_eq, select_cmpi_eq, Ideal.ofBits_zero_f32]
    rfl

end Sel

/-! ## The slab: positions interleaved into rows, times the scales -/

/-- Four `[64, 1, 1024]` arrays concatenated on axis 1 and reshaped to `[256, 1024]`: row `r` is row `r / 4` of array `r % 4`. -/
theorem stack4_apply {α : Type} (x0 x1 x2 x3 : S64x1x1024.Idx → α)
    (hc : Shape.Concatenates (([⟨S64x1x1024, x0⟩, ⟨S64x1x1024, x1⟩, ⟨S64x1x1024, x2⟩, ⟨S64x1x1024, x3⟩] :
      List ((s : Shape) × (s.Idx → α))).map (·.1)) S64x4x1024 1)
    (h2 : S64x4x1024.ShapeCasts S256x1024) (r : Fin 256) (j : Fin 1024) :
    shapeCast S256x1024 (concatenate S64x4x1024 1 [⟨S64x1x1024, x0⟩, ⟨S64x1x1024, x1⟩, ⟨S64x1x1024, x2⟩, ⟨S64x1x1024, x3⟩] hc) h2 (ix2 r j)
      = (![x0, x1, x2, x3] : Fin 4 → S64x1x1024.Idx → α) ⟨r.val % 4, Nat.mod_lt _ (by decide)⟩
          (ix3 (⟨r.val / 4, by have := r.isLt; omega⟩ : Fin 64) (0 : Fin 1) j) := by
  refine (shapeCast_apply _ _ (ix2 r j)
    (ix3 (⟨r.val / 4, by have := r.isLt; omega⟩ : Fin 64) (⟨r.val % 4, Nat.mod_lt _ (by decide)⟩ : Fin 4) j) ?_).trans ?_
  · rw [Shape.rowMajor_val_three, Shape.rowMajor_val_two]
    show (r.val / 4 * 4 + r.val % 4) * 1024 + j.val = r.val * 1024 + j.val
    omega
  · refine concatenate_ofFn_unit_apply (t := S64x4x1024) (s₁ := S64x1x1024) (1 : Fin 3)
      (fun n => (![x0, x1, x2, x3] : Fin 4 → S64x1x1024.Idx → α) n)
      _ rfl rfl _ (⟨r.val % 4, Nat.mod_lt _ (by decide)⟩ : Fin 4) rfl
      (ix3 (⟨r.val / 4, by have := r.isLt; omega⟩ : Fin 64) (0 : Fin 1) j) ?_
    intro b hb
    match b with
    | ⟨0, _⟩ => rfl
    | ⟨1, _⟩ => exact absurd rfl hb
    | ⟨2, _⟩ => rfl

/-- A `[64, 1024]` array given a unit middle axis reads, at `(g, 0, j)`, the array at `(g, j)`. -/
theorem unsq_apply {α : Type} (x : S64x1024.Idx → α) (h : S64x1024.ShapeCasts S64x1x1024) (g : Fin 64) (j : Fin 1024) :
    shapeCast S64x1x1024 x h (ix3 g (0 : Fin 1) j) = x (ix2 g j) := by
  refine shapeCast_apply _ _ _ _ ?_
  rw [Shape.rowMajor_val_three, Shape.rowMajor_val_two]
  show g.val * 1024 + j.val = (g.val * 1 + 0) * 1024 + j.val
  omega

/-- Two rows of scales, each broadcast over 128 rows: row `r` reads scale row `r / 128`. -/
theorem scale_apply {α : Type} (sc : S2x1024.Idx → α) (h1 : S2x1024.ShapeCasts S2x1x1024)
    (h2 : S2x1x1024.Broadcasts S2x128x1024) (h3 : S2x128x1024.ShapeCasts S256x1024) (r : Fin 256) (j : Fin 1024) :
    shapeCast S256x1024 (broadcastTo S2x128x1024 (shapeCast S2x1x1024 sc h1) h2) h3 (ix2 r j)
      = sc (ix2 (⟨r.val / 128, by have := r.isLt; omega⟩ : Fin 2) j) := by
  refine (shapeCast_apply _ _ (ix2 r j)
    (ix3 (⟨r.val / 128, by have := r.isLt; omega⟩ : Fin 2) (⟨r.val % 128, Nat.mod_lt _ (by decide)⟩ : Fin 128) j) ?_).trans ?_
  · rw [Shape.rowMajor_val_three, Shape.rowMajor_val_two]
    show (r.val / 128 * 128 + r.val % 128) * 1024 + j.val = r.val * 1024 + j.val
    omega
  · refine (broadcastTo_apply _ _ _ (ix3 (⟨r.val / 128, by have := r.isLt; omega⟩ : Fin 2) (0 : Fin 1) j) ?_).trans ?_
    · intro ax
      match ax with
      | ⟨0, _⟩ => rfl
      | ⟨1, _⟩ => rfl
      | ⟨2, _⟩ => rfl
    · refine shapeCast_apply _ _ _ _ ?_
      rw [Shape.rowMajor_val_three, Shape.rowMajor_val_two]
      show r.val / 128 * 1024 + j.val = (r.val / 128 * 1 + 0) * 1024 + j.val
      omega

/-- The slab before rounding: row `r` is position `r % 4` of group `r / 4`, times the scale of row `r / 128`. -/
theorem pay20_apply (w1 w2 w3 : FVec Ideal S64x1024 .f32) (w0 : FVec Ideal S64x1x1024 .f32) (sc : Vec Ideal S2x1024 .f32)
    (r : Fin 256) (j : Fin 1024) :
    k0_pay20 (F := Ideal) w1 w2 w3 w0 sc (ix2 r j)
      = (![w0, shapeCast S64x1x1024 w1 shapeCasts_S64x1024_S64x1x1024, shapeCast S64x1x1024 w2 shapeCasts_S64x1024_S64x1x1024,
            shapeCast S64x1x1024 w3 shapeCasts_S64x1024_S64x1x1024] : Fin 4 → FVec Ideal S64x1x1024 .f32)
          ⟨r.val % 4, Nat.mod_lt _ (by decide)⟩ (ix3 (⟨r.val / 4, by have := r.isLt; omega⟩ : Fin 64) (0 : Fin 1) j)
        * sc (ix2 (⟨r.val / 128, by have := r.isLt; omega⟩ : Fin 2) j) := by
  dsimp only [k0_pay20]
  rw [mulf_apply, stack4_apply]
  simp only [shapeCast_self]
  rw [scale_apply]

/-! ## Chunk 0 -/

/-- The four positions of group `g`, as they are stacked: position `p` is `pick` of the group's nibble. -/
theorem sel4_apply (A B : FVec Ideal S64x1024 .f32) (v0 v1 v2 v3 v4 v5 v6 v7 : IVec S8x1024 32) (p : Fin 4) (g : Fin 64) (j : Fin 1024) :
    (![k0_pay19 (F := Ideal) A B v0 v1 v2 v3 v4 v5 v6 v7,
       shapeCast S64x1x1024 (k0_pay16 (F := Ideal) A B v0 v1 v2 v3 v4 v5 v6 v7) shapeCasts_S64x1024_S64x1x1024,
       shapeCast S64x1x1024 (k0_pay17 (F := Ideal) A B v0 v1 v2 v3 v4 v5 v6 v7) shapeCasts_S64x1024_S64x1x1024,
       shapeCast S64x1x1024 (k0_pay18 (F := Ideal) A B v0 v1 v2 v3 v4 v5 v6 v7) shapeCasts_S64x1024_S64x1x1024] : Fin 4 → FVec Ideal S64x1x1024 .f32)
        p (ix3 g (0 : Fin 1) j)
      = pick (k0_pay13 v0 v1 v2 v3 v4 v5 v6 v7 (ix2 g j)) p.val (A (ix2 g j)) (B (ix2 g j)) := by
  fin_cases p
  · exact pay19_apply A B v0 v1 v2 v3 v4 v5 v6 v7 g j
  · exact (unsq_apply _ _ g j).trans (pay16_apply A B v0 v1 v2 v3 v4 v5 v6 v7 (ix2 g j))
  · exact (unsq_apply _ _ g j).trans (pay17_apply A B v0 v1 v2 v3 v4 v5 v6 v7 (ix2 g j))
  · exact (unsq_apply _ _ g j).trans (pay18_apply A B v0 v1 v2 v3 v4 v5 v6 v7 (ix2 g j))

/-- Rounding to the storage format is the identity on extended reals: the stored high part is the slab. -/
theorem pay21_apply (w1 w2 w3 : FVec Ideal S64x1024 .f32) (w0 : FVec Ideal S64x1x1024 .f32) (sc : Vec Ideal S2x1024 .f32)
    (i : S256x1024.Idx) : k0_pay21 (F := Ideal) w1 w2 w3 w0 sc i = k0_pay20 (F := Ideal) w1 w2 w3 w0 sc i := by
  dsimp only [k0_pay21]
  rw [shapeCast_self]
  rfl

/-- The stored low part is the slab less its rounding, which is the slab. -/
theorem pay22_apply (w1 w2 w3 : FVec Ideal S64x1024 .f32) (w0 : FVec Ideal S64x1x1024 .f32) (sc : Vec Ideal S2x1024 .f32)
    (i : S256x1024.Idx) :
    k0_pay22 (F := Ideal) w1 w2 w3 w0 sc i = k0_pay20 (F := Ideal) w1 w2 w3 w0 sc i - k0_pay20 (F := Ideal) w1 w2 w3 w0 sc i := by
  dsimp only [k0_pay22]
  rw [shapeCast_self]
  rfl

/-- The slab of chunk 0 before rounding is the slab formula on what the chunk loads. -/
theorem w0_apply (a b : Vec Ideal S64x1024 .f32) (mw : Vec Ideal S8x1024 .i32) (sc : Vec Ideal S2x1024 .f32) (r : Fin 256) (j : Fin 1024) :
    k0_pay20 (F := Ideal)
      (k0_pay16 (F := Ideal) (k0_pay2 (F := Ideal) a) (k0_pay3 (F := Ideal) b) (nibs mw 0) (nibs mw 1) (nibs mw 2) (nibs mw 3) (nibs mw 4) (nibs mw 5) (nibs mw 6) (nibs mw 7))
      (k0_pay17 (F := Ideal) (k0_pay2 (F := Ideal) a) (k0_pay3 (F := Ideal) b) (nibs mw 0) (nibs mw 1) (nibs mw 2) (nibs mw 3) (nibs mw 4) (nibs mw 5) (nibs mw 6) (nibs mw 7))
      (k0_pay18 (F := Ideal) (k0_pay2 (F := Ideal) a) (k0_pay3 (F := Ideal) b) (nibs mw 0) (nibs mw 1) (nibs mw 2) (nibs mw 3) (nibs mw 4) (nibs mw 5) (nibs mw 6) (nibs mw 7))
      (k0_pay19 (F := Ideal) (k0_pay2 (F := Ideal) a) (k0_pay3 (F := Ideal) b) (nibs mw 0) (nibs mw 1) (nibs mw 2) (nibs mw 3) (nibs mw 4) (nibs mw 5) (nibs mw 6) (nibs mw 7))
      sc (ix2 r j) = Cert.BlockSpec.wSlab a b mw sc r j := by
  have hA : k0_pay2 (F := Ideal) a = a := shapeCast_self a _
  have hB : k0_pay3 (F := Ideal) b = b := shapeCast_self b _
  rw [pay20_apply, sel4_apply, hA, hB,
    nib_apply mw (⟨r.val / 4, by have := r.isLt; omega⟩ : Fin 64) j]
  rfl

theorem hi0_apply (a b : Vec Ideal S64x1024 .f32) (mw : Vec Ideal S8x1024 .i32) (sc : Vec Ideal S2x1024 .f32) (r : Fin 256) (j : Fin 1024) :
    hi0 a b mw sc (ix2 r j) = Cert.BlockSpec.wSlab a b mw sc r j := by
  unfold hi0
  rw [pay21_apply]
  exact w0_apply a b mw sc r j

theorem lo0_apply (a b : Vec Ideal S64x1024 .f32) (mw : Vec Ideal S8x1024 .i32) (sc : Vec Ideal S2x1024 .f32) (r : Fin 256) (j : Fin 1024) :
    lo0 a b mw sc (ix2 r j) = Cert.BlockSpec.wSlab a b mw sc r j - Cert.BlockSpec.wSlab a b mw sc r j := by
  unfold lo0
  rw [pay22_apply]
  exact congrArg₂ (· - ·) (w0_apply a b mw sc r j) (w0_apply a b mw sc r j)

/-! ## Chunks 2, 4, …, 14 -/

/-- Chunk 2 is the same function of what it loads as chunk 0. -/
theorem hi2_eq : @hi2 = @hi0 := rfl
theorem lo2_eq : @lo2 = @lo0 := rfl

theorem hi2_apply (a b : Vec Ideal S64x1024 .f32) (mw : Vec Ideal S8x1024 .i32) (sc : Vec Ideal S2x1024 .f32) (r : Fin 256) (j : Fin 1024) :
    hi2 a b mw sc (ix2 r j) = Cert.BlockSpec.wSlab a b mw sc r j := by
  rw [hi2_eq]
  exact hi0_apply a b mw sc r j

theorem lo2_apply (a b : Vec Ideal S64x1024 .f32) (mw : Vec Ideal S8x1024 .i32) (sc : Vec Ideal S2x1024 .f32) (r : Fin 256) (j : Fin 1024) :
    lo2 a b mw sc (ix2 r j) = Cert.BlockSpec.wSlab a b mw sc r j - Cert.BlockSpec.wSlab a b mw sc r j := by
  rw [lo2_eq]
  exact lo0_apply a b mw sc r j

/-- Chunk 4 is the same function of what it loads as chunk 0. -/
theorem hi4_eq : @hi4 = @hi0 := rfl
theorem lo4_eq : @lo4 = @lo0 := rfl

theorem hi4_apply (a b : Vec Ideal S64x1024 .f32) (mw : Vec Ideal S8x1024 .i32) (sc : Vec Ideal S2x1024 .f32) (r : Fin 256) (j : Fin 1024) :
    hi4 a b mw sc (ix2 r j) = Cert.BlockSpec.wSlab a b mw sc r j := by
  rw [hi4_eq]
  exact hi0_apply a b mw sc r j

theorem lo4_apply (a b : Vec Ideal S64x1024 .f32) (mw : Vec Ideal S8x1024 .i32) (sc : Vec Ideal S2x1024 .f32) (r : Fin 256) (j : Fin 1024) :
    lo4 a b mw sc (ix2 r j) = Cert.BlockSpec.wSlab a b mw sc r j - Cert.BlockSpec.wSlab a b mw sc r j := by
  rw [lo4_eq]
  exact lo0_apply a b mw sc r j

/-- Chunk 6 is the same function of what it loads as chunk 0. -/
theorem hi6_eq : @hi6 = @hi0 := rfl
theorem lo6_eq : @lo6 = @lo0 := rfl

theorem hi6_apply (a b : Vec Ideal S64x1024 .f32) (mw : Vec Ideal S8x1024 .i32) (sc : Vec Ideal S2x1024 .f32) (r : Fin 256) (j : Fin 1024) :
    hi6 a b mw sc (ix2 r j) = Cert.BlockSpec.wSlab a b mw sc r j := by
  rw [hi6_eq]
  exact hi0_apply a b mw sc r j

theorem lo6_apply (a b : Vec Ideal S64x1024 .f32) (mw : Vec Ideal S8x1024 .i32) (sc : Vec Ideal S2x1024 .f32) (r : Fin 256) (j : Fin 1024) :
    lo6 a b mw sc (ix2 r j) = Cert.BlockSpec.wSlab a b mw sc r j - Cert.BlockSpec.wSlab a b mw sc r j := by
  rw [lo6_eq]
  exact lo0_apply a b mw sc r j

/-- Chunk 8 is the same function of what it loads as chunk 0. -/
theorem hi8_eq : @hi8 = @hi0 := rfl
theorem lo8_eq : @lo8 = @lo0 := rfl

theorem hi8_apply (a b : Vec Ideal S64x1024 .f32) (mw : Vec Ideal S8x1024 .i32) (sc : Vec Ideal S2x1024 .f32) (r : Fin 256) (j : Fin 1024) :
    hi8 a b mw sc (ix2 r j) = Cert.BlockSpec.wSlab a b mw sc r j := by
  rw [hi8_eq]
  exact hi0_apply a b mw sc r j

theorem lo8_apply (a b : Vec Ideal S64x1024 .f32) (mw : Vec Ideal S8x1024 .i32) (sc : Vec Ideal S2x1024 .f32) (r : Fin 256) (j : Fin 1024) :
    lo8 a b mw sc (ix2 r j) = Cert.BlockSpec.wSlab a b mw sc r j - Cert.BlockSpec.wSlab a b mw sc r j := by
  rw [lo8_eq]
  exact lo0_apply a b mw sc r j

/-- Chunk 10 is the same function of what it loads as chunk 0. -/
theorem hi10_eq : @hi10 = @hi0 := rfl
theorem lo10_eq : @lo10 = @lo0 := rfl

theorem hi10_apply (a b : Vec Ideal S64x1024 .f32) (mw : Vec Ideal S8x1024 .i32) (sc : Vec Ideal S2x1024 .f32) (r : Fin 256) (j : Fin 1024) :
    hi10 a b mw sc (ix2 r j) = Cert.BlockSpec.wSlab a b mw sc r j := by
  rw [hi10_eq]
  exact hi0_apply a b mw sc r j

theorem lo10_apply (a b : Vec Ideal S64x1024 .f32) (mw : Vec Ideal S8x1024 .i32) (sc : Vec Ideal S2x1024 .f32) (r : Fin 256) (j : Fin 1024) :
    lo10 a b mw sc (ix2 r j) = Cert.BlockSpec.wSlab a b mw sc r j - Cert.BlockSpec.wSlab a b mw sc r j := by
  rw [lo10_eq]
  exact lo0_apply a b mw sc r j

/-- Chunk 12 is the same function of what it loads as chunk 0. -/
theorem hi12_eq : @hi12 = @hi0 := rfl
theorem lo12_eq : @lo12 = @lo0 := rfl

theorem hi12_apply (a b : Vec Ideal S64x1024 .f32) (mw : Vec Ideal S8x1024 .i32) (sc : Vec Ideal S2x1024 .f32) (r : Fin 256) (j : Fin 1024) :
    hi12 a b mw sc (ix2 r j) = Cert.BlockSpec.wSlab a b mw sc r j := by
  rw [hi12_eq]
  exact hi0_apply a b mw sc r j

theorem lo12_apply (a b : Vec Ideal S64x1024 .f32) (mw : Vec Ideal S8x1024 .i32) (sc : Vec Ideal S2x1024 .f32) (r : Fin 256) (j : Fin 1024) :
    lo12 a b mw sc (ix2 r j) = Cert.BlockSpec.wSlab a b mw sc r j - Cert.BlockSpec.wSlab a b mw sc r j := by
  rw [lo12_eq]
  exact lo0_apply a b mw sc r j

/-- Chunk 14 is the same function of what it loads as chunk 0. -/
theorem hi14_eq : @hi14 = @hi0 := rfl
theorem lo14_eq : @lo14 = @lo0 := rfl

theorem hi14_apply (a b : Vec Ideal S64x1024 .f32) (mw : Vec Ideal S8x1024 .i32) (sc : Vec Ideal S2x1024 .f32) (r : Fin 256) (j : Fin 1024) :
    hi14 a b mw sc (ix2 r j) = Cert.BlockSpec.wSlab a b mw sc r j := by
  rw [hi14_eq]
  exact hi0_apply a b mw sc r j

theorem lo14_apply (a b : Vec Ideal S64x1024 .f32) (mw : Vec Ideal S8x1024 .i32) (sc : Vec Ideal S2x1024 .f32) (r : Fin 256) (j : Fin 1024) :
    lo14 a b mw sc (ix2 r j) = Cert.BlockSpec.wSlab a b mw sc r j - Cert.BlockSpec.wSlab a b mw sc r j := by
  rw [lo14_eq]
  exact lo0_apply a b mw sc r j

end Cert.SlabEven

end
-- ==== Proof.SlabOdd.lean ====
/-
  The odd chunks of the kernel's weight computation, read at an index.

  Each chunk decodes 8 rows of selector words into 64 groups' nibbles (nibble s of word row w is group 8 w + s), takes the two
  kept positions of each group from its nibble, selects for each of the four rows of a group the second kept value, else the
  first, else zero, stacks the four rows (row 4 g + p) and multiplies by the scale of the row's scale group (row / 128). The high
  part stored is that slab, the low part the slab less itself. Here the composite of each odd chunk is written out as the
  program composes it and shown to be the slab formula of the block specification at every row and column.
-/
import proofs.«416245_j678604833216_3_alg».proof.Proof.Gen.KernelIdeal.Skeleton
import proofs.«416245_j678604833216_3_alg».proof.Proof.BlockSpec
import Idealize.ShloMosaic.Lib.ValueIdx
import Idealize.ShloMosaic.Lib.Pipeline.Value
import Idealize.ShloMosaic.Lib.ValueLayout
import Idealize.ShloMosaic.PureOps.Ideal.Laws

noncomputable section

namespace Cert.SlabOdd

open Cert.KernelIdeal Cert.KernelIdeal.Gen Idealize.ShloMosaic Idealize.ShloMosaic.ValueIdx

/-! ## The odd chunks' slabs as the program composes them -/

/-- Chunk 1: the high part of the slab as the program composes it from the four loaded vectors. -/
def hi1 (a b : Vec Ideal S64x1024 .f32) (mw : Vec Ideal S8x1024 .i32) (sc : Vec Ideal S2x1024 .f32) : FVec Ideal S256x1024 .bf16 :=
  k0_pay34 (k0_pay23 a) (k0_pay24 b)
    (k0_pay30 (k0_pay25 mw) (k0_pay26 mw) (k0_pay27 mw) (k0_pay28 mw))
    (k0_pay31 (k0_pay25 mw) (k0_pay26 mw) (k0_pay27 mw) (k0_pay28 mw))
    (k0_pay32 (k0_pay23 a) (k0_pay24 b) (k0_pay25 mw) (k0_pay26 mw) (k0_pay27 mw) (k0_pay28 mw))
    1#32 sc

/-- Chunk 1: the low part (the slab less its high part). -/
def lo1 (a b : Vec Ideal S64x1024 .f32) (mw : Vec Ideal S8x1024 .i32) (sc : Vec Ideal S2x1024 .f32) : FVec Ideal S256x1024 .bf16 :=
  k0_pay35 (k0_pay23 a) (k0_pay24 b)
    (k0_pay30 (k0_pay25 mw) (k0_pay26 mw) (k0_pay27 mw) (k0_pay28 mw))
    (k0_pay31 (k0_pay25 mw) (k0_pay26 mw) (k0_pay27 mw) (k0_pay28 mw))
    (k0_pay32 (k0_pay23 a) (k0_pay24 b) (k0_pay25 mw) (k0_pay26 mw) (k0_pay27 mw) (k0_pay28 mw))
    1#32 sc

/-- Chunk 3: the high part of the slab as the program composes it from the four loaded vectors. -/
def hi3 (a b : Vec Ideal S64x1024 .f32) (mw : Vec Ideal S8x1024 .i32) (sc : Vec Ideal S2x1024 .f32) : FVec Ideal S256x1024 .bf16 :=
  k0_pay68 (k0_pay57 a) (k0_pay58 b)
    (k0_pay64 (k0_pay59 mw) (k0_pay60 mw) (k0_pay61 mw) (k0_pay62 mw))
    (k0_pay65 (k0_pay59 mw) (k0_pay60 mw) (k0_pay61 mw) (k0_pay62 mw))
    (k0_pay66 (k0_pay57 a) (k0_pay58 b) (k0_pay59 mw) (k0_pay60 mw) (k0_pay61 mw) (k0_pay62 mw))
    1#32 sc

/-- Chunk 3: the low part (the slab less its high part). -/
def lo3 (a b : Vec Ideal S64x1024 .f32) (mw : Vec Ideal S8x1024 .i32) (sc : Vec Ideal S2x1024 .f32) : FVec Ideal S256x1024 .bf16 :=
  k0_pay69 (k0_pay57 a) (k0_pay58 b)
    (k0_pay64 (k0_pay59 mw) (k0_pay60 mw) (k0_pay61 mw) (k0_pay62 mw))
    (k0_pay65 (k0_pay59 mw) (k0_pay60 mw) (k0_pay61 mw) (k0_pay62 mw))
    (k0_pay66 (k0_pay57 a) (k0_pay58 b) (k0_pay59 mw) (k0_pay60 mw) (k0_pay61 mw) (k0_pay62 mw))
    1#32 sc

/-- Chunk 5: the high part of the slab as the program composes it from the four loaded vectors. -/
def hi5 (a b : Vec Ideal S64x1024 .f32) (mw : Vec Ideal S8x1024 .i32) (sc : Vec Ideal S2x1024 .f32) : FVec Ideal S256x1024 .bf16 :=
  k0_pay102 (k0_pay91 a) (k0_pay92 b)
    (k0_pay98 (k0_pay93 mw) (k0_pay94 mw) (k0_pay95 mw) (k0_pay96 mw))
    (k0_pay99 (k0_pay93 mw) (k0_pay94 mw) (k0_pay95 mw) (k0_pay96 mw))
    (k0_pay100 (k0_pay91 a) (k0_pay92 b) (k0_pay93 mw) (k0_pay94 mw) (k0_pay95 mw) (k0_pay96 mw))
    1#32 sc

/-- Chunk 5: the low part (the slab less its high part). -/
def lo5 (a b : Vec Ideal S64x1024 .f32) (mw : Vec Ideal S8x1024 .i32) (sc : Vec Ideal S2x1024 .f32) : FVec Ideal S256x1024 .bf16 :=
  k0_pay103 (k0_pay91 a) (k0_pay92 b)
    (k0_pay98 (k0_pay93 mw) (k0_pay94 mw) (k0_pay95 mw) (k0_pay96 mw))
    (k0_pay99 (k0_pay93 mw) (k0_pay94 mw) (k0_pay95 mw) (k0_pay96 mw))
    (k0_pay100 (k0_pay91 a) (k0_pay92 b) (k0_pay93 mw) (k0_pay94 mw) (k0_pay95 mw) (k0_pay96 mw))
    1#32 sc

/-- Chunk 7: the high part of the slab as the program composes it from the four loaded vectors. -/
def hi7 (a b : Vec Ideal S64x1024 .f32) (mw : Vec Ideal S8x1024 .i32) (sc : Vec Ideal S2x1024 .f32) : FVec Ideal S256x1024 .bf16 :=
  k0_pay136 (k0_pay125 a) (k0_pay126 b)
    (k0_pay132 (k0_pay127 mw) (k0_pay128 mw) (k0_pay129 mw) (k0_pay130 mw))
    (k0_pay133 (k0_pay127 mw) (k0_pay128 mw) (k0_pay129 mw) (k0_pay130 mw))
    (k0_pay134 (k0_pay125 a) (k0_pay126 b) (k0_pay127 mw) (k0_pay128 mw) (k0_pay129 mw) (k0_pay130 mw))
    1#32 sc

/-- Chunk 7: the low part (the slab less its high part). -/
def lo7 (a b : Vec Ideal S64x1024 .f32) (mw : Vec Ideal S8x1024 .i32) (sc : Vec Ideal S2x1024 .f32) : FVec Ideal S256x1024 .bf16 :=
  k0_pay137 (k0_pay125 a) (k0_pay126 b)
    (k0_pay132 (k0_pay127 mw) (k0_pay128 mw) (k0_pay129 mw) (k0_pay130 mw))
    (k0_pay133 (k0_pay127 mw) (k0_pay128 mw) (k0_pay129 mw) (k0_pay130 mw))
    (k0_pay134 (k0_pay125 a) (k0_pay126 b) (k0_pay127 mw) (k0_pay128 mw) (k0_pay129 mw) (k0_pay130 mw))
    1#32 sc

/-- Chunk 9: the high part of the slab as the program composes it from the four loaded vectors. -/
def hi9 (a b : Vec Ideal S64x1024 .f32) (mw : Vec Ideal S8x1024 .i32) (sc : Vec Ideal S2x1024 .f32) : FVec Ideal S256x1024 .bf16 :=
  k0_pay170 (k0_pay159 a) (k0_pay160 b)
    (k0_pay166 (k0_pay161 mw) (k0_pay162 mw) (k0_pay163 mw) (k0_pay164 mw))
    (k0_pay167 (k0_pay161 mw) (k0_pay162 mw) (k0_pay163 mw) (k0_pay164 mw))
    (k0_pay168 (k0_pay159 a) (k0_pay160 b) (k0_pay161 mw) (k0_pay162 mw) (k0_pay163 mw) (k0_pay164 mw))
    1#32 sc

/-- Chunk 9: the low part (the slab less its high part). -/
def lo9 (a b : Vec Ideal S64x1024 .f32) (mw : Vec Ideal S8x1024 .i32) (sc : Vec Ideal S2x1024 .f32) : FVec Ideal S256x1024 .bf16 :=
  k0_pay171 (k0_pay159 a) (k0_pay160 b)
    (k0_pay166 (k0_pay161 mw) (k0_pay162 mw) (k0_pay163 mw) (k0_pay164 mw))
    (k0_pay167 (k0_pay161 mw) (k0_pay162 mw) (k0_pay163 mw) (k0_pay164 mw))
    (k0_pay168 (k0_pay159 a) (k0_pay160 b) (k0_pay161 mw) (k0_pay162 mw) (k0_pay163 mw) (k0_pay164 mw))
    1#32 sc

/-- Chunk 11: the high part of the slab as the program composes it from the four loaded vectors. -/
def hi11 (a b : Vec Ideal S64x1024 .f32) (mw : Vec Ideal S8x1024 .i32) (sc : Vec Ideal S2x1024 .f32) : FVec Ideal S256x1024 .bf16 :=
  k0_pay204 (k0_pay193 a) (k0_pay194 b)
    (k0_pay200 (k0_pay195 mw) (k0_pay196 mw) (k0_pay197 mw) (k0_pay198 mw))
    (k0_pay201 (k0_pay195 mw) (k0_pay196 mw) (k0_pay197 mw) (k0_pay198 mw))
    (k0_pay202 (k0_pay193 a) (k0_pay194 b) (k0_pay195 mw) (k0_pay196 mw) (k0_pay197 mw) (k0_pay198 mw))
    1#32 sc

/-- Chunk 11: the low part (the slab less its high part). -/
def lo11 (a b : Vec Ideal S64x1024 .f32) (mw : Vec Ideal S8x1024 .i32) (sc : Vec Ideal S2x1024 .f32) : FVec Ideal S256x1024 .bf16 :=
  k0_pay205 (k0_pay193 a) (k0_pay194 b)
    (k0_pay200 (k0_pay195 mw) (k0_pay196 mw) (k0_pay197 mw) (k0_pay198 mw))
    (k0_pay201 (k0_pay195 mw) (k0_pay196 mw) (k0_pay197 mw) (k0_pay198 mw))
    (k0_pay202 (k0_pay193 a) (k0_pay194 b) (k0_pay195 mw) (k0_pay196 mw) (k0_pay197 mw) (k0_pay198 mw))
    1#32 sc

/-- Chunk 13: the high part of the slab as the program composes it from the four loaded vectors. -/
def hi13 (a b : Vec Ideal S64x1024 .f32) (mw : Vec Ideal S8x1024 .i32) (sc : Vec Ideal S2x1024 .f32) : FVec Ideal S256x1024 .bf16 :=
  k0_pay238 (k0_pay227 a) (k0_pay228 b)
    (k0_pay234 (k0_pay229 mw) (k0_pay230 mw) (k0_pay231 mw) (k0_pay232 mw))
    (k0_pay235 (k0_pay229 mw) (k0_pay230 mw) (k0_pay231 mw) (k0_pay232 mw))
    (k0_pay236 (k0_pay227 a) (k0_pay228 b) (k0_pay229 mw) (k0_pay230 mw) (k0_pay231 mw) (k0_pay232 mw))
    1#32 sc

/-- Chunk 13: the low part (the slab less its high part). -/
def lo13 (a b : Vec Ideal S64x1024 .f32) (mw : Vec Ideal S8x1024 .i32) (sc : Vec Ideal S2x1024 .f32) : FVec Ideal S256x1024 .bf16 :=
  k0_pay239 (k0_pay227 a) (k0_pay228 b)
    (k0_pay234 (k0_pay229 mw) (k0_pay230 mw) (k0_pay231 mw) (k0_pay232 mw))
    (k0_pay235 (k0_pay229 mw) (k0_pay230 mw) (k0_pay231 mw) (k0_pay232 mw))
    (k0_pay236 (k0_pay227 a) (k0_pay228 b) (k0_pay229 mw) (k0_pay230 mw) (k0_pay231 mw) (k0_pay232 mw))
    1#32 sc

/-- Chunk 15: the high part of the slab as the program composes it from the four loaded vectors. -/
def hi15 (a b : Vec Ideal S64x1024 .f32) (mw : Vec Ideal S8x1024 .i32) (sc : Vec Ideal S2x1024 .f32) : FVec Ideal S256x1024 .bf16 :=
  k0_pay272 (k0_pay261 a) (k0_pay262 b)
    (k0_pay268 (k0_pay263 mw) (k0_pay264 mw) (k0_pay265 mw) (k0_pay266 mw))
    (k0_pay269 (k0_pay263 mw) (k0_pay264 mw) (k0_pay265 mw) (k0_pay266 mw))
    (k0_pay270 (k0_pay261 a) (k0_pay262 b) (k0_pay263 mw) (k0_pay264 mw) (k0_pay265 mw) (k0_pay266 mw))
    1#32 sc

/-- Chunk 15: the low part (the slab less its high part). -/
def lo15 (a b : Vec Ideal S64x1024 .f32) (mw : Vec Ideal S8x1024 .i32) (sc : Vec Ideal S2x1024 .f32) : FVec Ideal S256x1024 .bf16 :=
  k0_pay273 (k0_pay261 a) (k0_pay262 b)
    (k0_pay268 (k0_pay263 mw) (k0_pay264 mw) (k0_pay265 mw) (k0_pay266 mw))
    (k0_pay269 (k0_pay263 mw) (k0_pay264 mw) (k0_pay265 mw) (k0_pay266 mw))
    (k0_pay270 (k0_pay261 a) (k0_pay262 b) (k0_pay263 mw) (k0_pay264 mw) (k0_pay265 mw) (k0_pay266 mw))
    1#32 sc

/-! ## Layout operations read at an index -/

section Layout
variable {α : Type}

/-- An `[A, C]` array cast to `[A, 1, C]` reads, at `(p, u, c)`, the operand at `(p, c)`. -/
theorem shapeCast_ac_a1c_apply {A C : ℕ} (x : (⟨2, ![A, C]⟩ : Shape).Idx → α)
    (h : (⟨2, ![A, C]⟩ : Shape).ShapeCasts ⟨3, ![A, 1, C]⟩) (p : Fin A) (u : Fin 1) (c : Fin C) :
    shapeCast ⟨3, ![A, 1, C]⟩ x h (ix3 p u c) = x (ix2 p c) :=
  shapeCast_apply x h _ _ (by
    have hu : u.val = 0 := by omega
    rw [Shape.rowMajor_val_three, Shape.rowMajor_val_two]
    show p.val * C + c.val = (p.val * 1 + u.val) * C + c.val
    rw [hu, Nat.mul_one, Nat.add_zero])

/-- An `[A, B, C]` array cast to `[N, C]` (N = A B) reads, at `(B p + q, c)`, the operand at `(p, q, c)`. -/
theorem shapeCast_abc_nc_apply {A B C N : ℕ} (x : (⟨3, ![A, B, C]⟩ : Shape).Idx → α)
    (h : (⟨3, ![A, B, C]⟩ : Shape).ShapeCasts ⟨2, ![N, C]⟩) (p : Fin A) (q : Fin B) (c : Fin C) (r : Fin N) (hr : r.val = B * p.val + q.val) :
    shapeCast ⟨2, ![N, C]⟩ x h (ix2 r c) = x (ix3 p q c) :=
  shapeCast_apply x h _ _ (by
    rw [Shape.rowMajor_val_three, Shape.rowMajor_val_two]
    show (p.val * B + q.val) * C + c.val = r.val * C + c.val
    rw [hr, Nat.mul_comm p.val B])

end Layout

/-- Piece `s` of the eight stacked words. -/
theorem stack8_apply (v0 v1 v2 v3 v4 v5 v6 v7 : IVec S8x1x1024 32)
    (h : Shape.Concatenates (([⟨S8x1x1024, v0⟩, ⟨S8x1x1024, v1⟩, ⟨S8x1x1024, v2⟩, ⟨S8x1x1024, v3⟩, ⟨S8x1x1024, v4⟩, ⟨S8x1x1024, v5⟩, ⟨S8x1x1024, v6⟩, ⟨S8x1x1024, v7⟩] : List ((s : Shape) × (s.Idx → BitVec 32))).map (·.1)) S8x8x1024 1)
    (w : Fin 8) (s : Fin 8) (c : Fin 1024) :
    concatenate S8x8x1024 1 [⟨S8x1x1024, v0⟩, ⟨S8x1x1024, v1⟩, ⟨S8x1x1024, v2⟩, ⟨S8x1x1024, v3⟩, ⟨S8x1x1024, v4⟩, ⟨S8x1x1024, v5⟩, ⟨S8x1x1024, v6⟩, ⟨S8x1x1024, v7⟩] h (ix3 w s c)
      = (![v0, v1, v2, v3, v4, v5, v6, v7] s) (ix3 w (0 : Fin 1) c) := by
  have hi : ∀ b : Fin S8x1x1024.rank, b.cast (rfl : S8x1x1024.rank = S8x8x1024.rank) ≠ (1 : Fin S8x8x1024.rank) →
      ((ix3 w (0 : Fin 1) c : S8x1x1024.Idx) b).val = ((ix3 w s c : S8x8x1024.Idx) (b.cast rfl)).val := by
    intro b hb
    match b, hb with
    | ⟨0, _⟩, _ => rfl
    | ⟨1, _⟩, hb => exact absurd rfl hb
    | ⟨2, _⟩, _ => rfl
  match s with
  | ⟨0, _⟩ => exact concatenate_apply_piece 1 _ h _ 0 (by simp) S8x1x1024 v0 rfl rfl 0 rfl _ hi rfl
  | ⟨1, _⟩ => exact concatenate_apply_piece 1 _ h _ 1 (by simp) S8x1x1024 v1 rfl rfl 1 rfl _ hi rfl
  | ⟨2, _⟩ => exact concatenate_apply_piece 1 _ h _ 2 (by simp) S8x1x1024 v2 rfl rfl 2 rfl _ hi rfl
  | ⟨3, _⟩ => exact concatenate_apply_piece 1 _ h _ 3 (by simp) S8x1x1024 v3 rfl rfl 3 rfl _ hi rfl
  | ⟨4, _⟩ => exact concatenate_apply_piece 1 _ h _ 4 (by simp) S8x1x1024 v4 rfl rfl 4 rfl _ hi rfl
  | ⟨5, _⟩ => exact concatenate_apply_piece 1 _ h _ 5 (by simp) S8x1x1024 v5 rfl rfl 5 rfl _ hi rfl
  | ⟨6, _⟩ => exact concatenate_apply_piece 1 _ h _ 6 (by simp) S8x1x1024 v6 rfl rfl 6 rfl _ hi rfl
  | ⟨7, _⟩ => exact concatenate_apply_piece 1 _ h _ 7 (by simp) S8x1x1024 v7 rfl rfl 7 rfl _ hi rfl

/-! ## Words and selects at an index -/

/-- On the vector unit a logical right shift by a literal below 32 is the shift. -/
theorem shrui_lit (x : BitVec 32) (n : Nat) (hn : n < 32) :
    IntOp.shrui .vector x (BitVec.ofNat 32 n) = x >>> n := by
  have e : (BitVec.ofNat 32 n).toNat = n := by
    rw [BitVec.toNat_ofNat]; exact Nat.mod_eq_of_lt (by omega)
  unfold IntOp.shrui
  rw [if_pos (by rw [e]; exact hn)]
  show x >>> (BitVec.ofNat 32 n).toNat = x >>> n
  rw [e]

/-- A select on an equality of words is the `if` on it. -/
theorem select_cmpi_eq {α : Type} (x y : BitVec 32) (A B : α) :
    Scalar.select (IntOp.cmpi .eq x y) A B = if x = y then A else B := by
  unfold Scalar.select IntOp.cmpi
  by_cases h : x = y
  · subst h; simp
  · have hb : (x == y) = false := by simpa using h
    rw [hb, if_neg h]
    exact if_neg (show ¬ (BitVec.ofBool false = 1#1) by decide)

/-- Group `8 w + s` of the stacked nibbles is nibble `s` of word row `w`. -/
theorem nib1_ws (mw : Vec Ideal S8x1024 .i32) (w s : Fin 8) (g : Fin 64) (hg : g.val = 8 * w.val + s.val) (c : Fin 1024) :
    k0_pay29 (k0_pay25 mw) (k0_pay26 mw) (k0_pay27 mw) (k0_pay28 mw) (ix2 g c)
      = (mw (ix2 w c) >>> (4 * s.val)) &&& 15#32 := by
  unfold k0_pay29
  rw [shapeCast_abc_nc_apply _ _ w s c g hg, stack8_apply]
  match s, hg with
  | ⟨0, _⟩, _ =>
    show shapeCast S8x1x1024 (k0_pay26 mw) _ (ix3 w (0 : Fin 1) c) = _
    rw [shapeCast_ac_a1c_apply]
    show IntOp.andi (IntOp.shrui .vector (mw (ix2 w c)) (BitVec.ofNat 32 0)) 15#32 = _
    rw [shrui_lit _ 0 (by omega)]; rfl
  | ⟨1, _⟩, _ =>
    show shapeCast S8x1x1024 (k0_pay27 mw) _ (ix3 w (0 : Fin 1) c) = _
    rw [shapeCast_ac_a1c_apply]
    show IntOp.andi (IntOp.shrui .vector (mw (ix2 w c)) (BitVec.ofNat 32 4)) 15#32 = _
    rw [shrui_lit _ 4 (by omega)]; rfl
  | ⟨2, _⟩, _ =>
    show shapeCast S8x1x1024 (k0_pay28 mw) _ (ix3 w (0 : Fin 1) c) = _
    rw [shapeCast_ac_a1c_apply]
    show IntOp.andi (IntOp.shrui .vector (mw (ix2 w c)) (BitVec.ofNat 32 8)) 15#32 = _
    rw [shrui_lit _ 8 (by omega)]; rfl
  | ⟨3, _⟩, _ =>
    show shapeCast S8x1x1024 (andi (shrui (k0_pay25 mw) (broadcast S8x1024 12#32)) (broadcast S8x1024 15#32)) _ (ix3 w (0 : Fin 1) c) = _
    rw [shapeCast_ac_a1c_apply]
    show IntOp.andi (IntOp.shrui .vector (mw (ix2 w c)) (BitVec.ofNat 32 12)) 15#32 = _
    rw [shrui_lit _ 12 (by omega)]; rfl
  | ⟨4, _⟩, _ =>
    show shapeCast S8x1x1024 (andi (shrui (k0_pay25 mw) (broadcast S8x1024 16#32)) (broadcast S8x1024 15#32)) _ (ix3 w (0 : Fin 1) c) = _
    rw [shapeCast_ac_a1c_apply]
    show IntOp.andi (IntOp.shrui .vector (mw (ix2 w c)) (BitVec.ofNat 32 16)) 15#32 = _
    rw [shrui_lit _ 16 (by omega)]; rfl
  | ⟨5, _⟩, _ =>
    show shapeCast S8x1x1024 (andi (shrui (k0_pay25 mw) (broadcast S8x1024 20#32)) (broadcast S8x1024 15#32)) _ (ix3 w (0 : Fin 1) c) = _
    rw [shapeCast_ac_a1c_apply]
    show IntOp.andi (IntOp.shrui .vector (mw (ix2 w c)) (BitVec.ofNat 32 20)) 15#32 = _
    rw [shrui_lit _ 20 (by omega)]; rfl
  | ⟨6, _⟩, _ =>
    show shapeCast S8x1x1024 (andi (shrui (k0_pay25 mw) (broadcast S8x1024 24#32)) (broadcast S8x1024 15#32)) _ (ix3 w (0 : Fin 1) c) = _
    rw [shapeCast_ac_a1c_apply]
    show IntOp.andi (IntOp.shrui .vector (mw (ix2 w c)) (BitVec.ofNat 32 24)) 15#32 = _
    rw [shrui_lit _ 24 (by omega)]; rfl
  | ⟨7, _⟩, _ =>
    show shapeCast S8x1x1024 (andi (shrui (k0_pay25 mw) (broadcast S8x1024 28#32)) (broadcast S8x1024 15#32)) _ (ix3 w (0 : Fin 1) c) = _
    rw [shapeCast_ac_a1c_apply]
    show IntOp.andi (IntOp.shrui .vector (mw (ix2 w c)) (BitVec.ofNat 32 28)) 15#32 = _
    rw [shrui_lit _ 28 (by omega)]; rfl

/-- The stacked nibbles are the nibbles of the word table. -/
theorem nib1_apply (mw : Vec Ideal S8x1024 .i32) (g : Fin 64) (c : Fin 1024) :
    k0_pay29 (k0_pay25 mw) (k0_pay26 mw) (k0_pay27 mw) (k0_pay28 mw) (ix2 g c)
      = Cert.BlockSpec.nibOf (W := 8) mw g c :=
  nib1_ws mw ⟨g.val / 8, by omega⟩ ⟨g.val % 8, by omega⟩ g (by show g.val = 8 * (g.val / 8) + g.val % 8; omega) c

/-- Piece `p` of the four stacked rows. -/
theorem stack4_apply {α : Type} (u0 u1 u2 u3 : S64x1x1024.Idx → α)
    (h : Shape.Concatenates (([⟨S64x1x1024, u0⟩, ⟨S64x1x1024, u1⟩, ⟨S64x1x1024, u2⟩, ⟨S64x1x1024, u3⟩] : List ((s : Shape) × (s.Idx → α))).map (·.1)) S64x4x1024 1)
    (g : Fin 64) (p : Fin 4) (c : Fin 1024) :
    concatenate S64x4x1024 1 [⟨S64x1x1024, u0⟩, ⟨S64x1x1024, u1⟩, ⟨S64x1x1024, u2⟩, ⟨S64x1x1024, u3⟩] h (ix3 g p c)
      = (![u0, u1, u2, u3] p) (ix3 g (0 : Fin 1) c) := by
  have hi : ∀ b : Fin S64x1x1024.rank, b.cast (rfl : S64x1x1024.rank = S64x4x1024.rank) ≠ (1 : Fin S64x4x1024.rank) →
      ((ix3 g (0 : Fin 1) c : S64x1x1024.Idx) b).val = ((ix3 g p c : S64x4x1024.Idx) (b.cast rfl)).val := by
    intro b hb
    match b, hb with
    | ⟨0, _⟩, _ => rfl
    | ⟨1, _⟩, hb => exact absurd rfl hb
    | ⟨2, _⟩, _ => rfl
  match p with
  | ⟨0, _⟩ => exact concatenate_apply_piece 1 _ h _ 0 (by simp) S64x1x1024 u0 rfl rfl 0 rfl _ hi rfl
  | ⟨1, _⟩ => exact concatenate_apply_piece 1 _ h _ 1 (by simp) S64x1x1024 u1 rfl rfl 1 rfl _ hi rfl
  | ⟨2, _⟩ => exact concatenate_apply_piece 1 _ h _ 2 (by simp) S64x1x1024 u2 rfl rfl 2 rfl _ hi rfl
  | ⟨3, _⟩ => exact concatenate_apply_piece 1 _ h _ 3 (by simp) S64x1x1024 u3 rfl rfl 3 rfl _ hi rfl

/-- The two scale rows, each spread over 128 rows: row `r` reads scale row `r / 128`. -/
theorem scaleRows_apply {α : Type} (v : S2x1024.Idx → α)
    (h1 : S2x1024.ShapeCasts S2x1024) (h2 : S2x1024.ShapeCasts S2x1x1024) (h3 : S2x1x1024.ShapeCasts S2x1x1024)
    (h4 : S2x1x1024.Broadcasts S2x128x1024) (h5 : S2x128x1024.ShapeCasts S256x1024) (r : Fin 256) (c : Fin 1024) :
    shapeCast S256x1024 (broadcastTo S2x128x1024 (shapeCast S2x1x1024 (shapeCast S2x1x1024 (shapeCast S2x1024 v h1) h2) h3) h4) h5 (ix2 r c)
      = v (ix2 (⟨r.val / 128, by omega⟩ : Fin 2) c) := by
  rw [shapeCast_abc_nc_apply _ h5 (⟨r.val / 128, by omega⟩ : Fin 2) (⟨r.val % 128, by omega⟩ : Fin 128) c r
    (by show r.val = 128 * (r.val / 128) + r.val % 128; omega)]
  rw [broadcastTo_apply _ h4 _ (ix3 (⟨r.val / 128, by omega⟩ : Fin 2) (0 : Fin 1) c) (by
    intro a
    match a with
    | ⟨0, _⟩ => rfl
    | ⟨1, _⟩ => rfl
    | ⟨2, _⟩ => rfl)]
  rw [shapeCast_self, shapeCast_ac_a1c_apply, shapeCast_self]

/-! ## The payloads of chunk 1 at an index -/

/-- The first kept position of a group: bits 0-1 of its nibble. -/
theorem idx0_apply (mw : Vec Ideal S8x1024 .i32) (g : Fin 64) (c : Fin 1024) :
    k0_pay30 (k0_pay25 mw) (k0_pay26 mw) (k0_pay27 mw) (k0_pay28 mw) (ix2 g c) = Cert.BlockSpec.nibOf (W := 8) mw g c &&& 3#32 := by
  show IntOp.andi (k0_pay29 (k0_pay25 mw) (k0_pay26 mw) (k0_pay27 mw) (k0_pay28 mw) (ix2 g c)) 3#32 = _
  rw [nib1_apply]; rfl

/-- The second kept position of a group: bits 2-3 of its nibble. -/
theorem idx1_apply (mw : Vec Ideal S8x1024 .i32) (g : Fin 64) (c : Fin 1024) :
    k0_pay31 (k0_pay25 mw) (k0_pay26 mw) (k0_pay27 mw) (k0_pay28 mw) (ix2 g c) = (Cert.BlockSpec.nibOf (W := 8) mw g c >>> 2) &&& 3#32 := by
  show IntOp.andi (IntOp.shrui .vector (k0_pay29 (k0_pay25 mw) (k0_pay26 mw) (k0_pay27 mw) (k0_pay28 mw) (ix2 g c)) (BitVec.ofNat 32 2)) 3#32 = _
  rw [nib1_apply, shrui_lit _ 2 (by omega)]; rfl

/-- Row 0 of each group: the second kept value if the second position is 0, else the first if the first position is 0, else zero. -/
theorem sel0_apply (A B : FVec Ideal S64x1024 .f32) (v130 v134 v138 v142 : IVec S8x1024 32) (g : Fin 64) (c : Fin 1024) :
    k0_pay32 A B v130 v134 v138 v142 (ix2 g c)
      = if k0_pay31 v130 v134 v138 v142 (ix2 g c) = 0#32 then B (ix2 g c)
        else if k0_pay30 v130 v134 v138 v142 (ix2 g c) = 0#32 then A (ix2 g c) else 0 := by
  show Scalar.select (IntOp.cmpi .eq (k0_pay31 v130 v134 v138 v142 (ix2 g c)) 0#32) (B (ix2 g c))
        (Scalar.select (IntOp.cmpi .eq (k0_pay30 v130 v134 v138 v142 (ix2 g c)) 0#32) (A (ix2 g c)) (Ideal.ofBits .f32 0x00000000#32)) = _
  rw [select_cmpi_eq, select_cmpi_eq, Ideal.ofBits_zero_f32]

/-- Row `4 g + p` of the scaled slab: the select of row `p` of group `g`, times the scale of the row's scale group. -/
theorem w1_gp (v126 v128 : FVec Ideal S64x1024 .f32) (v174 v178 : IVec S64x1024 32) (v185 : FVec Ideal S64x1024 .f32) (v213 : Vec Ideal S2x1024 .f32)
    (h185 : ∀ g c, v185 (ix2 g c) = if v178 (ix2 g c) = 0#32 then v128 (ix2 g c) else if v174 (ix2 g c) = 0#32 then v126 (ix2 g c) else 0)
    (g : Fin 64) (p : Fin 4) (r : Fin 256) (hr : r.val = 4 * g.val + p.val) (c : Fin 1024) :
    k0_pay33 v126 v128 v174 v178 v185 1#32 v213 (ix2 r c)
      = (if v178 (ix2 g c) = BitVec.ofNat 32 p.val then v128 (ix2 g c)
         else if v174 (ix2 g c) = BitVec.ofNat 32 p.val then v126 (ix2 g c) else 0)
        * v213 (ix2 (⟨r.val / 128, by omega⟩ : Fin 2) c) := by
  unfold k0_pay33
  rw [mulf_apply, scaleRows_apply, shapeCast_abc_nc_apply _ _ g p c r hr, stack4_apply]
  congr 1
  match p, hr with
  | ⟨0, _⟩, _ =>
    show shapeCast S64x1x1024 v185 _ (ix3 g (0 : Fin 1) c) = _
    rw [shapeCast_ac_a1c_apply, h185]
  | ⟨1, _⟩, _ =>
    show shapeCast S64x1x1024 (select (cmpi .eq v178 (broadcast S64x1024 1#32)) v128 (select (cmpi .eq v174 (broadcast S64x1024 1#32)) v126 (broadcast S64x1024 (Scalar.ofBits .f32 0x00000000#32)))) _ (ix3 g (0 : Fin 1) c) = _
    rw [shapeCast_ac_a1c_apply]
    show Scalar.select (IntOp.cmpi .eq (v178 (ix2 g c)) 1#32) (v128 (ix2 g c)) (Scalar.select (IntOp.cmpi .eq (v174 (ix2 g c)) 1#32) (v126 (ix2 g c)) (Ideal.ofBits .f32 0x00000000#32)) = _
    rw [select_cmpi_eq, select_cmpi_eq, Ideal.ofBits_zero_f32]
  | ⟨2, _⟩, _ =>
    show shapeCast S64x1x1024 (select (cmpi .eq v178 (broadcast S64x1024 2#32)) v128 (select (cmpi .eq v174 (broadcast S64x1024 2#32)) v126 (broadcast S64x1024 (Scalar.ofBits .f32 0x00000000#32)))) _ (ix3 g (0 : Fin 1) c) = _
    rw [shapeCast_ac_a1c_apply]
    show Scalar.select (IntOp.cmpi .eq (v178 (ix2 g c)) 2#32) (v128 (ix2 g c)) (Scalar.select (IntOp.cmpi .eq (v174 (ix2 g c)) 2#32) (v126 (ix2 g c)) (Ideal.ofBits .f32 0x00000000#32)) = _
    rw [select_cmpi_eq, select_cmpi_eq, Ideal.ofBits_zero_f32]
  | ⟨3, _⟩, _ =>
    show shapeCast S64x1x1024 (select (cmpi .eq v178 (broadcast S64x1024 3#32)) v128 (select (cmpi .eq v174 (broadcast S64x1024 3#32)) v126 (broadcast S64x1024 (Scalar.ofBits .f32 0x00000000#32)))) _ (ix3 g (0 : Fin 1) c) = _
    rw [shapeCast_ac_a1c_apply]
    show Scalar.select (IntOp.cmpi .eq (v178 (ix2 g c)) 3#32) (v128 (ix2 g c)) (Scalar.select (IntOp.cmpi .eq (v174 (ix2 g c)) 3#32) (v126 (ix2 g c)) (Ideal.ofBits .f32 0x00000000#32)) = _
    rw [select_cmpi_eq, select_cmpi_eq, Ideal.ofBits_zero_f32]

/-- The scaled slab of chunk 1, before it is split into a high and a low part, is the slab formula. -/
theorem w1_apply (a b : Vec Ideal S64x1024 .f32) (mw : Vec Ideal S8x1024 .i32) (sc : Vec Ideal S2x1024 .f32) (r : Fin 256) (j : Fin 1024) :
    k0_pay33 (k0_pay23 a) (k0_pay24 b) (k0_pay30 (k0_pay25 mw) (k0_pay26 mw) (k0_pay27 mw) (k0_pay28 mw)) (k0_pay31 (k0_pay25 mw) (k0_pay26 mw) (k0_pay27 mw) (k0_pay28 mw))
      (k0_pay32 (k0_pay23 a) (k0_pay24 b) (k0_pay25 mw) (k0_pay26 mw) (k0_pay27 mw) (k0_pay28 mw)) 1#32 sc (ix2 r j)
      = Cert.BlockSpec.wSlab a b mw sc r j := by
  have ha : k0_pay23 a = a := shapeCast_self a _
  have hb : k0_pay24 b = b := shapeCast_self b _
  rw [ha, hb]
  rw [w1_gp a b _ _ _ sc (fun g c => sel0_apply a b _ _ _ _ g c) (⟨r.val / 4, by omega⟩ : Fin 64) (⟨r.val % 4, by omega⟩ : Fin 4) r
    (by show r.val = 4 * (r.val / 4) + r.val % 4; omega) j]
  rw [idx1_apply, idx0_apply]
  rfl

/-! ## Chunk 1 -/

theorem hi1_apply (a b : Vec Ideal S64x1024 .f32) (mw : Vec Ideal S8x1024 .i32) (sc : Vec Ideal S2x1024 .f32) (r : Fin 256) (j : Fin 1024) :
    hi1 a b mw sc (ix2 r j) = Cert.BlockSpec.wSlab a b mw sc r j := by
  unfold hi1 k0_pay34
  rw [shapeCast_self, truncf_apply]
  exact w1_apply a b mw sc r j

theorem lo1_apply (a b : Vec Ideal S64x1024 .f32) (mw : Vec Ideal S8x1024 .i32) (sc : Vec Ideal S2x1024 .f32) (r : Fin 256) (j : Fin 1024) :
    lo1 a b mw sc (ix2 r j) = Cert.BlockSpec.wSlab a b mw sc r j - Cert.BlockSpec.wSlab a b mw sc r j := by
  unfold lo1 k0_pay35
  rw [shapeCast_self, truncf_apply, subf_apply, w1_apply]

/-! ## The other odd chunks: the same operations on their own loads, so the same functions -/

theorem hi3_eq : hi3 = hi1 := rfl
theorem lo3_eq : lo3 = lo1 := rfl

theorem hi3_apply (a b : Vec Ideal S64x1024 .f32) (mw : Vec Ideal S8x1024 .i32) (sc : Vec Ideal S2x1024 .f32) (r : Fin 256) (j : Fin 1024) :
    hi3 a b mw sc (ix2 r j) = Cert.BlockSpec.wSlab a b mw sc r j := by
  rw [hi3_eq]; exact hi1_apply a b mw sc r j

theorem lo3_apply (a b : Vec Ideal S64x1024 .f32) (mw : Vec Ideal S8x1024 .i32) (sc : Vec Ideal S2x1024 .f32) (r : Fin 256) (j : Fin 1024) :
    lo3 a b mw sc (ix2 r j) = Cert.BlockSpec.wSlab a b mw sc r j - Cert.BlockSpec.wSlab a b mw sc r j := by
  rw [lo3_eq]; exact lo1_apply a b mw sc r j

theorem hi5_eq : hi5 = hi1 := rfl
theorem lo5_eq : lo5 = lo1 := rfl

theorem hi5_apply (a b : Vec Ideal S64x1024 .f32) (mw : Vec Ideal S8x1024 .i32) (sc : Vec Ideal S2x1024 .f32) (r : Fin 256) (j : Fin 1024) :
    hi5 a b mw sc (ix2 r j) = Cert.BlockSpec.wSlab a b mw sc r j := by
  rw [hi5_eq]; exact hi1_apply a b mw sc r j

theorem lo5_apply (a b : Vec Ideal S64x1024 .f32) (mw : Vec Ideal S8x1024 .i32) (sc : Vec Ideal S2x1024 .f32) (r : Fin 256) (j : Fin 1024) :
    lo5 a b mw sc (ix2 r j) = Cert.BlockSpec.wSlab a b mw sc r j - Cert.BlockSpec.wSlab a b mw sc r j := by
  rw [lo5_eq]; exact lo1_apply a b mw sc r j

theorem hi7_eq : hi7 = hi1 := rfl
theorem lo7_eq : lo7 = lo1 := rfl

theorem hi7_apply (a b : Vec Ideal S64x1024 .f32) (mw : Vec Ideal S8x1024 .i32) (sc : Vec Ideal S2x1024 .f32) (r : Fin 256) (j : Fin 1024) :
    hi7 a b mw sc (ix2 r j) = Cert.BlockSpec.wSlab a b mw sc r j := by
  rw [hi7_eq]; exact hi1_apply a b mw sc r j

theorem lo7_apply (a b : Vec Ideal S64x1024 .f32) (mw : Vec Ideal S8x1024 .i32) (sc : Vec Ideal S2x1024 .f32) (r : Fin 256) (j : Fin 1024) :
    lo7 a b mw sc (ix2 r j) = Cert.BlockSpec.wSlab a b mw sc r j - Cert.BlockSpec.wSlab a b mw sc r j := by
  rw [lo7_eq]; exact lo1_apply a b mw sc r j

theorem hi9_eq : hi9 = hi1 := rfl
theorem lo9_eq : lo9 = lo1 := rfl

theorem hi9_apply (a b : Vec Ideal S64x1024 .f32) (mw : Vec Ideal S8x1024 .i32) (sc : Vec Ideal S2x1024 .f32) (r : Fin 256) (j : Fin 1024) :
    hi9 a b mw sc (ix2 r j) = Cert.BlockSpec.wSlab a b mw sc r j := by
  rw [hi9_eq]; exact hi1_apply a b mw sc r j

theorem lo9_apply (a b : Vec Ideal S64x1024 .f32) (mw : Vec Ideal S8x1024 .i32) (sc : Vec Ideal S2x1024 .f32) (r : Fin 256) (j : Fin 1024) :
    lo9 a b mw sc (ix2 r j) = Cert.BlockSpec.wSlab a b mw sc r j - Cert.BlockSpec.wSlab a b mw sc r j := by
  rw [lo9_eq]; exact lo1_apply a b mw sc r j

theorem hi11_eq : hi11 = hi1 := rfl
theorem lo11_eq : lo11 = lo1 := rfl

theorem hi11_apply (a b : Vec Ideal S64x1024 .f32) (mw : Vec Ideal S8x1024 .i32) (sc : Vec Ideal S2x1024 .f32) (r : Fin 256) (j : Fin 1024) :
    hi11 a b mw sc (ix2 r j) = Cert.BlockSpec.wSlab a b mw sc r j := by
  rw [hi11_eq]; exact hi1_apply a b mw sc r j

theorem lo11_apply (a b : Vec Ideal S64x1024 .f32) (mw : Vec Ideal S8x1024 .i32) (sc : Vec Ideal S2x1024 .f32) (r : Fin 256) (j : Fin 1024) :
    lo11 a b mw sc (ix2 r j) = Cert.BlockSpec.wSlab a b mw sc r j - Cert.BlockSpec.wSlab a b mw sc r j := by
  rw [lo11_eq]; exact lo1_apply a b mw sc r j

theorem hi13_eq : hi13 = hi1 := rfl
theorem lo13_eq : lo13 = lo1 := rfl

theorem hi13_apply (a b : Vec Ideal S64x1024 .f32) (mw : Vec Ideal S8x1024 .i32) (sc : Vec Ideal S2x1024 .f32) (r : Fin 256) (j : Fin 1024) :
    hi13 a b mw sc (ix2 r j) = Cert.BlockSpec.wSlab a b mw sc r j := by
  rw [hi13_eq]; exact hi1_apply a b mw sc r j

theorem lo13_apply (a b : Vec Ideal S64x1024 .f32) (mw : Vec Ideal S8x1024 .i32) (sc : Vec Ideal S2x1024 .f32) (r : Fin 256) (j : Fin 1024) :
    lo13 a b mw sc (ix2 r j) = Cert.BlockSpec.wSlab a b mw sc r j - Cert.BlockSpec.wSlab a b mw sc r j := by
  rw [lo13_eq]; exact lo1_apply a b mw sc r j

theorem hi15_eq : hi15 = hi1 := rfl
theorem lo15_eq : lo15 = lo1 := rfl

theorem hi15_apply (a b : Vec Ideal S64x1024 .f32) (mw : Vec Ideal S8x1024 .i32) (sc : Vec Ideal S2x1024 .f32) (r : Fin 256) (j : Fin 1024) :
    hi15 a b mw sc (ix2 r j) = Cert.BlockSpec.wSlab a b mw sc r j := by
  rw [hi15_eq]; exact hi1_apply a b mw sc r j

theorem lo15_apply (a b : Vec Ideal S64x1024 .f32) (mw : Vec Ideal S8x1024 .i32) (sc : Vec Ideal S2x1024 .f32) (r : Fin 256) (j : Fin 1024) :
    lo15 a b mw sc (ix2 r j) = Cert.BlockSpec.wSlab a b mw sc r j - Cert.BlockSpec.wSlab a b mw sc r j := by
  rw [lo15_eq]; exact lo1_apply a b mw sc r j

end Cert.SlabOdd

end
-- ==== Proof.Values.lean ====
/-
  What the kernel body's run leaves in its buffers, as values.

  Where the weights are kept, the result buffer ends with the product payload of the two inputs and the kept weights. Where they are
  rebuilt, each weight buffer is written in sixteen slabs of 256 rows; slab s is computed from rows 64 s .. of the two value tables,
  rows 8 s .. of the selector words and rows 2 s .. of the scales, and is the slab formula there, so the whole buffer read back is the
  block formula at every row and column (the low-part buffer: the block formula less itself), and the result buffer ends with the
  product payload of the inputs and those two buffers.
-/
import proofs.«416245_j678604833216_3_alg».proof.Proof.Gen.KernelIdeal.Skeleton
import proofs.«416245_j678604833216_3_alg».proof.Proof.Gen.KernelIdeal.Launch
import proofs.«416245_j678604833216_3_alg».proof.Proof.KernelIdealRunA
import proofs.«416245_j678604833216_3_alg».proof.Proof.KernelIdealRunB
import proofs.«416245_j678604833216_3_alg».proof.Proof.BlockSpec
import proofs.«416245_j678604833216_3_alg».proof.Proof.SlabEven
import proofs.«416245_j678604833216_3_alg».proof.Proof.SlabOdd
import Idealize.ShloMosaic.Lib.Ring
import Idealize.ShloMosaic.Lib.Pipeline.FrameBody
import Idealize.ShloMosaic.Lib.Pipeline.Value
import Idealize.ShloMosaic.Lib.Tactic

set_option maxRecDepth 16384

noncomputable section

namespace Cert.Values

open Cert.KernelIdeal Cert.KernelIdeal.Gen Cert.KernelIdeal.Body
open Idealize.ShloMosaic Idealize.ShloMosaic.TcCoe Idealize.ShloMosaic.Tactic Idealize.ShloMosaic.ValueIdx
open Idealize.SL.Sem

theorem hz2 : (![0, 0] : Fin 2 → Nat) = fun _ => 0 := funext fun a => by fin_cases a <;> rfl
theorem hz1 : (![0] : Fin 1 → Nat) = fun _ => 0 := funext fun a => by fin_cases a; rfl

/-- Where the weights are kept, the result buffer ends holding the product payload of the inputs and the kept weights. -/
theorem readB8 (c : Dev nD) (i : grid0.Coords) (arg2 : Memref sig .tc .vmem S512x4096 .f32) (harg2 : arg2.IsWhole) (arg3 : Memref sig .tc .vmem S4096 .f32) (harg3 : arg3.IsWhole)
    (arg4 : Memref sig .tc .vmem S1024x1024 .f32) (harg4 : arg4.IsWhole) (arg5 : Memref sig .tc .vmem S1024x1024 .f32) (harg5 : arg5.IsWhole)
    (arg6 : Memref sig .tc .vmem S128x1024 .i32) (harg6 : arg6.IsWhole) (arg7 : Memref sig .tc .vmem S32x1024 .f32) (harg7 : arg7.IsWhole)
    (arg8 : Memref sig .tc .vmem S512x1024 .f32) (harg8 : arg8.IsWhole) (arg9 : Memref sig .tc .vmem S4096x1024 .bf16) (harg9 : arg9.IsWhole)
    (arg10 : Memref sig .tc .vmem S4096x1024 .bf16) (harg10 : arg10.IsWhole) (hc : ¬cond0 i)
    (x2 : Vec Ideal S512x4096 .f32) (x3 : Vec Ideal S4096 .f32) (x4 : Vec Ideal S1024x1024 .f32) (x5 : Vec Ideal S1024x1024 .f32) (x6 : Vec Ideal S128x1024 .i32) (x7 : Vec Ideal S32x1024 .f32) (s9 s10 : Vec Ideal S4096x1024 .bf16)
    (f : Buf (Elt Ideal) (arg8.view.loc (c : Thread nD τ))) :
    arg8.view.read (Elt Ideal) (arg8.view.writes (Elt Ideal) f (runB c i arg2 harg2 arg3 harg3 arg4 harg4 arg5 harg5 arg6 harg6 arg7 harg7 arg8 harg8 arg9 harg9 arg10 harg10 hc x2 x3 x4 x5 x6 x7 s9 s10).1) = k0_pay1 x2 x3 s9 s10 := by
  unfold runB; dsimp only
  refine (View.read_writes_eq_canon _ _ _ ?_).trans ?_
  · intro y
    exact ⟨_, List.mem_singleton_self _, View.mem_set_unit_zero (S := S512x1024) hz2 inb_S512x1024_S512x1024_0_0 y⟩
  · rw [View.canon_unit_zero (S := S512x1024) hz2]
    simp only [View.readAt_eq_ld, harg2.read_unread, harg3.read_unread, harg9.read_unread, harg10.read_unread,
      View.ld_unit_zero (S := S512x4096) hz2, View.ld_unit_zero (S := S4096) hz1, View.ld_unit_zero (S := S4096x1024) hz2]

open Cert.BlockSpec (wSlab wBlock wBlock_slab)

/-- A load of `n` rows from row `o` of a whole staging buffer holding `X` reads rows `o ..` of `X`. -/
theorem rd_rows {R C n : ℕ} {e : EltTy} (m : Memref sig .tc .vmem (⟨2, ![R, C]⟩ : Shape) e) (hm : m.IsWhole)
    (X : Vec Ideal (⟨2, ![R, C]⟩ : Shape) e) (o : ℕ) (inb : ∀ a, ![o, 0] a + ![n, C] a ≤ (⟨2, ![R, C]⟩ : Shape).size a)
    (hn : ∀ t, t < n → o + t < R) :
    View.readAt (Elt Ideal) m.view (Rect.unit (s := (⟨2, ![R, C]⟩ : Shape)) ![o, 0] ![n, C] inb).toLoadRect (hm.unread X)
      = fun (y : (⟨2, ![n, C]⟩ : Shape).Idx) => X (ix2 (⟨o + (y 0).val, hn _ (y 0).isLt⟩ : Fin R) (y 1)) := by
  rw [View.readAt_eq_ld, hm.read_unread]
  funext y
  show X ((Rect.unit (s := (⟨2, ![R, C]⟩ : Shape)) ![o, 0] ![n, C] inb).idx y) = _
  congr 1
  funext a
  match a with
  | ⟨0, _⟩ => exact Fin.ext (by show o + 1 * (y 0).val = o + (y 0).val; omega)
  | ⟨1, _⟩ => exact Fin.ext (by show 0 + 1 * (y 1).val = (y 1).val; omega)

/-- Rows `o .. o + n` of an `R`-row table are in bounds. -/
theorem inb2 {R C n o : ℕ} (h : o + n ≤ R) : ∀ a, ![o, 0] a + ![n, C] a ≤ (⟨2, ![R, C]⟩ : Shape).size a := by
  intro a
  match a with
  | ⟨0, _⟩ => exact h
  | ⟨1, _⟩ => show 0 + C ≤ C; omega

/-- The block formula as one function of the weight buffer's index. -/
def G (x4 x5 : Vec Ideal S1024x1024 .f32) (x6 : Vec Ideal S128x1024 .i32) (x7 : Vec Ideal S32x1024 .f32) : Vec Ideal S4096x1024 .bf16 :=
  fun y => wBlock x4 x5 x6 x7 (y 0) (y 1)

/-- The low part: the block formula less itself. -/
def G0 (x4 x5 : Vec Ideal S1024x1024 .f32) (x6 : Vec Ideal S128x1024 .i32) (x7 : Vec Ideal S32x1024 .f32) : Vec Ideal S4096x1024 .bf16 :=
  fun y => wBlock x4 x5 x6 x7 (y 0) (y 1) - wBlock x4 x5 x6 x7 (y 0) (y 1)

theorem G_ix2 (x4 x5 : Vec Ideal S1024x1024 .f32) (x6 : Vec Ideal S128x1024 .i32) (x7 : Vec Ideal S32x1024 .f32) (k : Fin 4096) (j : Fin 1024) :
    G x4 x5 x6 x7 (ix2 k j) = wBlock x4 x5 x6 x7 k j := rfl
theorem G0_ix2 (x4 x5 : Vec Ideal S1024x1024 .f32) (x6 : Vec Ideal S128x1024 .i32) (x7 : Vec Ideal S32x1024 .f32) (k : Fin 4096) (j : Fin 1024) :
    G0 x4 x5 x6 x7 (ix2 k j) = wBlock x4 x5 x6 x7 k j - wBlock x4 x5 x6 x7 k j := rfl

/-- Row `r` of the slab stored at row `o = 256 s` is row `256 s + r` of the buffer. -/
theorem emb_slab (s : Fin 16) (o : ℕ) (ho : o = 256 * s.val) (inb : ∀ a, ![o, 0] a + S256x1024.size a ≤ S4096x1024.size a)
    (r : Fin 256) (j : Fin 1024) :
    (Rect.unit (s := S4096x1024) ![o, 0] S256x1024.size inb).emb (ix2 r j)
      = ix2 (⟨256 * s.val + r.val, by have := s.isLt; have := r.isLt; omega⟩ : Fin 4096) j := by
  funext a
  match a with
  | ⟨0, _⟩ => exact Fin.ext (by show o + 1 * r.val = 256 * s.val + r.val; omega)
  | ⟨1, _⟩ => exact Fin.ext (by show 0 + 1 * j.val = j.val; omega)

/-- A slab whose payload is the slab formula on rows `64 s ..`, `8 s ..`, `2 s ..` of the tables agrees with the block formula. -/
theorem piece_hi (x4 x5 : Vec Ideal S1024x1024 .f32) (x6 : Vec Ideal S128x1024 .i32) (x7 : Vec Ideal S32x1024 .f32) (s : ℕ) (hs : s < 16)
    (o4 o6 o7 o : ℕ) (e4 : o4 = 64 * s) (e6 : o6 = 8 * s) (e7 : o7 = 2 * s) (ho : o = 256 * s)
    (h4 : ∀ t, t < 64 → o4 + t < 1024) (h6 : ∀ t, t < 8 → o6 + t < 128) (h7 : ∀ t, t < 2 → o7 + t < 32)
    (A B : Vec Ideal S64x1024 .f32) (MW : Vec Ideal S8x1024 .i32) (SC : Vec Ideal S2x1024 .f32)
    (hA : A = fun (y : S64x1024.Idx) => x4 (ix2 (⟨o4 + (y 0).val, h4 _ (y 0).isLt⟩ : Fin 1024) (y 1)))
    (hB : B = fun (y : S64x1024.Idx) => x5 (ix2 (⟨o4 + (y 0).val, h4 _ (y 0).isLt⟩ : Fin 1024) (y 1)))
    (hMW : MW = fun (y : S8x1024.Idx) => x6 (ix2 (⟨o6 + (y 0).val, h6 _ (y 0).isLt⟩ : Fin 128) (y 1)))
    (hSC : SC = fun (y : S2x1024.Idx) => x7 (ix2 (⟨o7 + (y 0).val, h7 _ (y 0).isLt⟩ : Fin 32) (y 1)))
    (P : Vec Ideal S256x1024 .bf16) (hP : ∀ r j, P (ix2 r j) = wSlab A B MW SC r j)
    (inb : ∀ a, ![o, 0] a + S256x1024.size a ≤ S4096x1024.size a) :
    ∀ x : (Rect.unit (s := S4096x1024) ![o, 0] S256x1024.size inb).shape.Idx,
      P x = G x4 x5 x6 x7 ((Rect.unit (s := S4096x1024) ![o, 0] S256x1024.size inb).emb x) := by
  intro x
  obtain ⟨r, j, rfl⟩ : ∃ (r : Fin 256) (j : Fin 1024), x = ix2 r j := ⟨x 0, x 1, eq_ix2 x⟩
  subst e4 e6 e7
  rw [emb_slab ⟨s, hs⟩ o ho inb r j, G_ix2, wBlock_slab x4 x5 x6 x7 ⟨s, hs⟩ r j, hP, hA, hB, hMW, hSC]

/-- The same for the low part. -/
theorem piece_lo (x4 x5 : Vec Ideal S1024x1024 .f32) (x6 : Vec Ideal S128x1024 .i32) (x7 : Vec Ideal S32x1024 .f32) (s : ℕ) (hs : s < 16)
    (o4 o6 o7 o : ℕ) (e4 : o4 = 64 * s) (e6 : o6 = 8 * s) (e7 : o7 = 2 * s) (ho : o = 256 * s)
    (h4 : ∀ t, t < 64 → o4 + t < 1024) (h6 : ∀ t, t < 8 → o6 + t < 128) (h7 : ∀ t, t < 2 → o7 + t < 32)
    (A B : Vec Ideal S64x1024 .f32) (MW : Vec Ideal S8x1024 .i32) (SC : Vec Ideal S2x1024 .f32)
    (hA : A = fun (y : S64x1024.Idx) => x4 (ix2 (⟨o4 + (y 0).val, h4 _ (y 0).isLt⟩ : Fin 1024) (y 1)))
    (hB : B = fun (y : S64x1024.Idx) => x5 (ix2 (⟨o4 + (y 0).val, h4 _ (y 0).isLt⟩ : Fin 1024) (y 1)))
    (hMW : MW = fun (y : S8x1024.Idx) => x6 (ix2 (⟨o6 + (y 0).val, h6 _ (y 0).isLt⟩ : Fin 128) (y 1)))
    (hSC : SC = fun (y : S2x1024.Idx) => x7 (ix2 (⟨o7 + (y 0).val, h7 _ (y 0).isLt⟩ : Fin 32) (y 1)))
    (P : Vec Ideal S256x1024 .bf16) (hP : ∀ r j, P (ix2 r j) = wSlab A B MW SC r j - wSlab A B MW SC r j)
    (inb : ∀ a, ![o, 0] a + S256x1024.size a ≤ S4096x1024.size a) :
    ∀ x : (Rect.unit (s := S4096x1024) ![o, 0] S256x1024.size inb).shape.Idx,
      P x = G0 x4 x5 x6 x7 ((Rect.unit (s := S4096x1024) ![o, 0] S256x1024.size inb).emb x) := by
  intro x
  obtain ⟨r, j, rfl⟩ : ∃ (r : Fin 256) (j : Fin 1024), x = ix2 r j := ⟨x 0, x 1, eq_ix2 x⟩
  subst e4 e6 e7
  rw [emb_slab ⟨s, hs⟩ o ho inb r j, G0_ix2, wBlock_slab x4 x5 x6 x7 ⟨s, hs⟩ r j, hP, hA, hB, hMW, hSC]

theorem all_cons {α : Type} {Q : α → Prop} {a : α} {l : List α} (h : Q a) (t : ∀ x ∈ l, Q x) : ∀ x ∈ a :: l, Q x :=
  List.forall_mem_cons.mpr ⟨h, t⟩
theorem all_nil {α : Type} {Q : α → Prop} : ∀ x ∈ ([] : List α), Q x := fun _ h => absurd h List.not_mem_nil

/-- The sixteen slabs tile the high-part weight buffer. -/
theorem cover9 (c : Dev nD) (arg4 : Memref sig .tc .vmem S1024x1024 .f32) (harg4 : arg4.IsWhole) (arg5 : Memref sig .tc .vmem S1024x1024 .f32) (harg5 : arg5.IsWhole)
    (arg6 : Memref sig .tc .vmem S128x1024 .i32) (harg6 : arg6.IsWhole) (arg7 : Memref sig .tc .vmem S32x1024 .f32) (harg7 : arg7.IsWhole)
    (x4 : Vec Ideal S1024x1024 .f32) (x5 : Vec Ideal S1024x1024 .f32) (x6 : Vec Ideal S128x1024 .i32) (x7 : Vec Ideal S32x1024 .f32) :
    ∀ y : S4096x1024.Idx, ∃ p ∈ (runA.sl.H9_16 (F := Ideal) c arg4 harg4 arg5 harg5 arg6 harg6 arg7 harg7 x4 x5 x6 x7), y ∈ p.1.set :=
  View.cover_of_tiledL _ S256x1024.size (by sl_kernel_rfl)

set_option maxHeartbeats 1600000 in
/-- Each slab of the high-part weight buffer is the block formula on its rows. -/
theorem pieces9 (c : Dev nD) (arg4 : Memref sig .tc .vmem S1024x1024 .f32) (harg4 : arg4.IsWhole) (arg5 : Memref sig .tc .vmem S1024x1024 .f32) (harg5 : arg5.IsWhole)
    (arg6 : Memref sig .tc .vmem S128x1024 .i32) (harg6 : arg6.IsWhole) (arg7 : Memref sig .tc .vmem S32x1024 .f32) (harg7 : arg7.IsWhole)
    (x4 : Vec Ideal S1024x1024 .f32) (x5 : Vec Ideal S1024x1024 .f32) (x6 : Vec Ideal S128x1024 .i32) (x7 : Vec Ideal S32x1024 .f32) :
    ∀ p ∈ (runA.sl.H9_16 (F := Ideal) c arg4 harg4 arg5 harg5 arg6 harg6 arg7 harg7 x4 x5 x6 x7), ∀ x : p.1.shape.Idx, p.2 x = G x4 x5 x6 x7 (p.1.emb x) := by
  sl_unfold_run_names
  refine all_cons ?p15 (all_cons ?p14 (all_cons ?p13 (all_cons ?p12 (all_cons ?p11 (all_cons ?p10 (all_cons ?p9 (all_cons ?p8 (all_cons ?p7 (all_cons ?p6 (all_cons ?p5 (all_cons ?p4 (all_cons ?p3 (all_cons ?p2 (all_cons ?p1 (all_cons ?p0 (all_nil))))))))))))))))
  case p15 =>
    exact piece_hi x4 x5 x6 x7 15 (by omega) 960 120 30 3840 rfl rfl rfl rfl (fun t h => by omega) (fun t h => by omega) (fun t h => by omega) _ _ _ _
      (rd_rows (n := 64) arg4 harg4 x4 960 (inb2 (by omega)) (fun t h => by omega)) (rd_rows (n := 64) arg5 harg5 x5 960 (inb2 (by omega)) (fun t h => by omega))
      (rd_rows (n := 8) arg6 harg6 x6 120 (inb2 (by omega)) (fun t h => by omega)) (rd_rows (n := 2) arg7 harg7 x7 30 (inb2 (by omega)) (fun t h => by omega))
      _ (Cert.SlabOdd.hi15_apply _ _ _ _) (inb2 (R := 4096) (C := 1024) (n := 256) (o := 3840) (by omega))
  case p14 =>
    exact piece_hi x4 x5 x6 x7 14 (by omega) 896 112 28 3584 rfl rfl rfl rfl (fun t h => by omega) (fun t h => by omega) (fun t h => by omega) _ _ _ _
      (rd_rows (n := 64) arg4 harg4 x4 896 (inb2 (by omega)) (fun t h => by omega)) (rd_rows (n := 64) arg5 harg5 x5 896 (inb2 (by omega)) (fun t h => by omega))
      (rd_rows (n := 8) arg6 harg6 x6 112 (inb2 (by omega)) (fun t h => by omega)) (rd_rows (n := 2) arg7 harg7 x7 28 (inb2 (by omega)) (fun t h => by omega))
      _ (Cert.SlabEven.hi14_apply _ _ _ _) (inb2 (R := 4096) (C := 1024) (n := 256) (o := 3584) (by omega))
  case p13 =>
    exact piece_hi x4 x5 x6 x7 13 (by omega) 832 104 26 3328 rfl rfl rfl rfl (fun t h => by omega) (fun t h => by omega) (fun t h => by omega) _ _ _ _
      (rd_rows (n := 64) arg4 harg4 x4 832 (inb2 (by omega)) (fun t h => by omega)) (rd_rows (n := 64) arg5 harg5 x5 832 (inb2 (by omega)) (fun t h => by omega))
      (rd_rows (n := 8) arg6 harg6 x6 104 (inb2 (by omega)) (fun t h => by omega)) (rd_rows (n := 2) arg7 harg7 x7 26 (inb2 (by omega)) (fun t h => by omega))
      _ (Cert.SlabOdd.hi13_apply _ _ _ _) (inb2 (R := 4096) (C := 1024) (n := 256) (o := 3328) (by omega))
  case p12 =>
    exact piece_hi x4 x5 x6 x7 12 (by omega) 768 96 24 3072 rfl rfl rfl rfl (fun t h => by omega) (fun t h => by omega) (fun t h => by omega) _ _ _ _
      (rd_rows (n := 64) arg4 harg4 x4 768 (inb2 (by omega)) (fun t h => by omega)) (rd_rows (n := 64) arg5 harg5 x5 768 (inb2 (by omega)) (fun t h => by omega))
      (rd_rows (n := 8) arg6 harg6 x6 96 (inb2 (by omega)) (fun t h => by omega)) (rd_rows (n := 2) arg7 harg7 x7 24 (inb2 (by omega)) (fun t h => by omega))
      _ (Cert.SlabEven.hi12_apply _ _ _ _) (inb2 (R := 4096) (C := 1024) (n := 256) (o := 3072) (by omega))
  case p11 =>
    exact piece_hi x4 x5 x6 x7 11 (by omega) 704 88 22 2816 rfl rfl rfl rfl (fun t h => by omega) (fun t h => by omega) (fun t h => by omega) _ _ _ _
      (rd_rows (n := 64) arg4 harg4 x4 704 (inb2 (by omega)) (fun t h => by omega)) (rd_rows (n := 64) arg5 harg5 x5 704 (inb2 (by omega)) (fun t h => by omega))
      (rd_rows (n := 8) arg6 harg6 x6 88 (inb2 (by omega)) (fun t h => by omega)) (rd_rows (n := 2) arg7 harg7 x7 22 (inb2 (by omega)) (fun t h => by omega))
      _ (Cert.SlabOdd.hi11_apply _ _ _ _) (inb2 (R := 4096) (C := 1024) (n := 256) (o := 2816) (by omega))
  case p10 =>
    exact piece_hi x4 x5 x6 x7 10 (by omega) 640 80 20 2560 rfl rfl rfl rfl (fun t h => by omega) (fun t h => by omega) (fun t h => by omega) _ _ _ _
      (rd_rows (n := 64) arg4 harg4 x4 640 (inb2 (by omega)) (fun t h => by omega)) (rd_rows (n := 64) arg5 harg5 x5 640 (inb2 (by omega)) (fun t h => by omega))
      (rd_rows (n := 8) arg6 harg6 x6 80 (inb2 (by omega)) (fun t h => by omega)) (rd_rows (n := 2) arg7 harg7 x7 20 (inb2 (by omega)) (fun t h => by omega))
      _ (Cert.SlabEven.hi10_apply _ _ _ _) (inb2 (R := 4096) (C := 1024) (n := 256) (o := 2560) (by omega))
  case p9 =>
    exact piece_hi x4 x5 x6 x7 9 (by omega) 576 72 18 2304 rfl rfl rfl rfl (fun t h => by omega) (fun t h => by omega) (fun t h => by omega) _ _ _ _
      (rd_rows (n := 64) arg4 harg4 x4 576 (inb2 (by omega)) (fun t h => by omega)) (rd_rows (n := 64) arg5 harg5 x5 576 (inb2 (by omega)) (fun t h => by omega))
      (rd_rows (n := 8) arg6 harg6 x6 72 (inb2 (by omega)) (fun t h => by omega)) (rd_rows (n := 2) arg7 harg7 x7 18 (inb2 (by omega)) (fun t h => by omega))
      _ (Cert.SlabOdd.hi9_apply _ _ _ _) (inb2 (R := 4096) (C := 1024) (n := 256) (o := 2304) (by omega))
  case p8 =>
    exact piece_hi x4 x5 x6 x7 8 (by omega) 512 64 16 2048 rfl rfl rfl rfl (fun t h => by omega) (fun t h => by omega) (fun t h => by omega) _ _ _ _
      (rd_rows (n := 64) arg4 harg4 x4 512 (inb2 (by omega)) (fun t h => by omega)) (rd_rows (n := 64) arg5 harg5 x5 512 (inb2 (by omega)) (fun t h => by omega))
      (rd_rows (n := 8) arg6 harg6 x6 64 (inb2 (by omega)) (fun t h => by omega)) (rd_rows (n := 2) arg7 harg7 x7 16 (inb2 (by omega)) (fun t h => by omega))
      _ (Cert.SlabEven.hi8_apply _ _ _ _) (inb2 (R := 4096) (C := 1024) (n := 256) (o := 2048) (by omega))
  case p7 =>
    exact piece_hi x4 x5 x6 x7 7 (by omega) 448 56 14 1792 rfl rfl rfl rfl (fun t h => by omega) (fun t h => by omega) (fun t h => by omega) _ _ _ _
      (rd_rows (n := 64) arg4 harg4 x4 448 (inb2 (by omega)) (fun t h => by omega)) (rd_rows (n := 64) arg5 harg5 x5 448 (inb2 (by omega)) (fun t h => by omega))
      (rd_rows (n := 8) arg6 harg6 x6 56 (inb2 (by omega)) (fun t h => by omega)) (rd_rows (n := 2) arg7 harg7 x7 14 (inb2 (by omega)) (fun t h => by omega))
      _ (Cert.SlabOdd.hi7_apply _ _ _ _) (inb2 (R := 4096) (C := 1024) (n := 256) (o := 1792) (by omega))
  case p6 =>
    exact piece_hi x4 x5 x6 x7 6 (by omega) 384 48 12 1536 rfl rfl rfl rfl (fun t h => by omega) (fun t h => by omega) (fun t h => by omega) _ _ _ _
      (rd_rows (n := 64) arg4 harg4 x4 384 (inb2 (by omega)) (fun t h => by omega)) (rd_rows (n := 64) arg5 harg5 x5 384 (inb2 (by omega)) (fun t h => by omega))
      (rd_rows (n := 8) arg6 harg6 x6 48 (inb2 (by omega)) (fun t h => by omega)) (rd_rows (n := 2) arg7 harg7 x7 12 (inb2 (by omega)) (fun t h => by omega))
      _ (Cert.SlabEven.hi6_apply _ _ _ _) (inb2 (R := 4096) (C := 1024) (n := 256) (o := 1536) (by omega))
  case p5 =>
    exact piece_hi x4 x5 x6 x7 5 (by omega) 320 40 10 1280 rfl rfl rfl rfl (fun t h => by omega) (fun t h => by omega) (fun t h => by omega) _ _ _ _
      (rd_rows (n := 64) arg4 harg4 x4 320 (inb2 (by omega)) (fun t h => by omega)) (rd_rows (n := 64) arg5 harg5 x5 320 (inb2 (by omega)) (fun t h => by omega))
      (rd_rows (n := 8) arg6 harg6 x6 40 (inb2 (by omega)) (fun t h => by omega)) (rd_rows (n := 2) arg7 harg7 x7 10 (inb2 (by omega)) (fun t h => by omega))
      _ (Cert.SlabOdd.hi5_apply _ _ _ _) (inb2 (R := 4096) (C := 1024) (n := 256) (o := 1280) (by omega))
  case p4 =>
    exact piece_hi x4 x5 x6 x7 4 (by omega) 256 32 8 1024 rfl rfl rfl rfl (fun t h => by omega) (fun t h => by omega) (fun t h => by omega) _ _ _ _
      (rd_rows (n := 64) arg4 harg4 x4 256 (inb2 (by omega)) (fun t h => by omega)) (rd_rows (n := 64) arg5 harg5 x5 256 (inb2 (by omega)) (fun t h => by omega))
      (rd_rows (n := 8) arg6 harg6 x6 32 (inb2 (by omega)) (fun t h => by omega)) (rd_rows (n := 2) arg7 harg7 x7 8 (inb2 (by omega)) (fun t h => by omega))
      _ (Cert.SlabEven.hi4_apply _ _ _ _) (inb2 (R := 4096) (C := 1024) (n := 256) (o := 1024) (by omega))
  case p3 =>
    exact piece_hi x4 x5 x6 x7 3 (by omega) 192 24 6 768 rfl rfl rfl rfl (fun t h => by omega) (fun t h => by omega) (fun t h => by omega) _ _ _ _
      (rd_rows (n := 64) arg4 harg4 x4 192 (inb2 (by omega)) (fun t h => by omega)) (rd_rows (n := 64) arg5 harg5 x5 192 (inb2 (by omega)) (fun t h => by omega))
      (rd_rows (n := 8) arg6 harg6 x6 24 (inb2 (by omega)) (fun t h => by omega)) (rd_rows (n := 2) arg7 harg7 x7 6 (inb2 (by omega)) (fun t h => by omega))
      _ (Cert.SlabOdd.hi3_apply _ _ _ _) (inb2 (R := 4096) (C := 1024) (n := 256) (o := 768) (by omega))
  case p2 =>
    exact piece_hi x4 x5 x6 x7 2 (by omega) 128 16 4 512 rfl rfl rfl rfl (fun t h => by omega) (fun t h => by omega) (fun t h => by omega) _ _ _ _
      (rd_rows (n := 64) arg4 harg4 x4 128 (inb2 (by omega)) (fun t h => by omega)) (rd_rows (n := 64) arg5 harg5 x5 128 (inb2 (by omega)) (fun t h => by omega))
      (rd_rows (n := 8) arg6 harg6 x6 16 (inb2 (by omega)) (fun t h => by omega)) (rd_rows (n := 2) arg7 harg7 x7 4 (inb2 (by omega)) (fun t h => by omega))
      _ (Cert.SlabEven.hi2_apply _ _ _ _) (inb2 (R := 4096) (C := 1024) (n := 256) (o := 512) (by omega))
  case p1 =>
    exact piece_hi x4 x5 x6 x7 1 (by omega) 64 8 2 256 rfl rfl rfl rfl (fun t h => by omega) (fun t h => by omega) (fun t h => by omega) _ _ _ _
      (rd_rows (n := 64) arg4 harg4 x4 64 (inb2 (by omega)) (fun t h => by omega)) (rd_rows (n := 64) arg5 harg5 x5 64 (inb2 (by omega)) (fun t h => by omega))
      (rd_rows (n := 8) arg6 harg6 x6 8 (inb2 (by omega)) (fun t h => by omega)) (rd_rows (n := 2) arg7 harg7 x7 2 (inb2 (by omega)) (fun t h => by omega))
      _ (Cert.SlabOdd.hi1_apply _ _ _ _) (inb2 (R := 4096) (C := 1024) (n := 256) (o := 256) (by omega))
  case p0 =>
    exact piece_hi x4 x5 x6 x7 0 (by omega) 0 0 0 0 rfl rfl rfl rfl (fun t h => by omega) (fun t h => by omega) (fun t h => by omega) _ _ _ _
      (rd_rows (n := 64) arg4 harg4 x4 0 (inb2 (by omega)) (fun t h => by omega)) (rd_rows (n := 64) arg5 harg5 x5 0 (inb2 (by omega)) (fun t h => by omega))
      (rd_rows (n := 8) arg6 harg6 x6 0 (inb2 (by omega)) (fun t h => by omega)) (rd_rows (n := 2) arg7 harg7 x7 0 (inb2 (by omega)) (fun t h => by omega))
      _ (Cert.SlabEven.hi0_apply _ _ _ _) (inb2 (R := 4096) (C := 1024) (n := 256) (o := 0) (by omega))

/-- Where the weights are rebuilt, the high-part weight buffer ends holding the block formula at every row and column. -/
theorem readA9 (c : Dev nD) (i : grid0.Coords) (arg2 : Memref sig .tc .vmem S512x4096 .f32) (harg2 : arg2.IsWhole) (arg3 : Memref sig .tc .vmem S4096 .f32) (harg3 : arg3.IsWhole)
    (arg4 : Memref sig .tc .vmem S1024x1024 .f32) (harg4 : arg4.IsWhole) (arg5 : Memref sig .tc .vmem S1024x1024 .f32) (harg5 : arg5.IsWhole)
    (arg6 : Memref sig .tc .vmem S128x1024 .i32) (harg6 : arg6.IsWhole) (arg7 : Memref sig .tc .vmem S32x1024 .f32) (harg7 : arg7.IsWhole)
    (arg8 : Memref sig .tc .vmem S512x1024 .f32) (harg8 : arg8.IsWhole) (arg9 : Memref sig .tc .vmem S4096x1024 .bf16) (harg9 : arg9.IsWhole)
    (arg10 : Memref sig .tc .vmem S4096x1024 .bf16) (harg10 : arg10.IsWhole) (hc : cond0 i)
    (x2 : Vec Ideal S512x4096 .f32) (x3 : Vec Ideal S4096 .f32) (x4 : Vec Ideal S1024x1024 .f32) (x5 : Vec Ideal S1024x1024 .f32) (x6 : Vec Ideal S128x1024 .i32) (x7 : Vec Ideal S32x1024 .f32)
    (f : Buf (Elt Ideal) (arg9.view.loc (c : Thread nD τ))) (k : Fin 4096) (j : Fin 1024) :
    arg9.view.read (Elt Ideal) (arg9.view.writes (Elt Ideal) f (runA c i arg2 harg2 arg3 harg3 arg4 harg4 arg5 harg5 arg6 harg6 arg7 harg7 arg8 harg8 arg9 harg9 arg10 harg10 hc x2 x3 x4 x5 x6 x7).1.2.1) (ix2 k j)
      = wBlock x4 x5 x6 x7 k j := by
  unfold runA; dsimp only
  refine (View.read_writes_apply_eq_canon _ _ _ _ (cover9 c arg4 harg4 arg5 harg5 arg6 harg6 arg7 harg7 x4 x5 x6 x7 (ix2 k j))).trans ?_
  exact (View.canon_apply_of_pieces (G x4 x5 x6 x7) _ (pieces9 c arg4 harg4 arg5 harg5 arg6 harg6 arg7 harg7 x4 x5 x6 x7) (ix2 k j)
    (cover9 c arg4 harg4 arg5 harg5 arg6 harg6 arg7 harg7 x4 x5 x6 x7 (ix2 k j))).trans (G_ix2 x4 x5 x6 x7 k j)

/-- The sixteen slabs tile the low-part weight buffer. -/
theorem cover10 (c : Dev nD) (arg4 : Memref sig .tc .vmem S1024x1024 .f32) (harg4 : arg4.IsWhole) (arg5 : Memref sig .tc .vmem S1024x1024 .f32) (harg5 : arg5.IsWhole)
    (arg6 : Memref sig .tc .vmem S128x1024 .i32) (harg6 : arg6.IsWhole) (arg7 : Memref sig .tc .vmem S32x1024 .f32) (harg7 : arg7.IsWhole)
    (x4 : Vec Ideal S1024x1024 .f32) (x5 : Vec Ideal S1024x1024 .f32) (x6 : Vec Ideal S128x1024 .i32) (x7 : Vec Ideal S32x1024 .f32) :
    ∀ y : S4096x1024.Idx, ∃ p ∈ (runA.sl.H10_16 (F := Ideal) c arg4 harg4 arg5 harg5 arg6 harg6 arg7 harg7 x4 x5 x6 x7), y ∈ p.1.set :=
  View.cover_of_tiledL _ S256x1024.size (by sl_kernel_rfl)

set_option maxHeartbeats 1600000 in
/-- Each slab of the low-part weight buffer is the block formula less itself on its rows. -/
theorem pieces10 (c : Dev nD) (arg4 : Memref sig .tc .vmem S1024x1024 .f32) (harg4 : arg4.IsWhole) (arg5 : Memref sig .tc .vmem S1024x1024 .f32) (harg5 : arg5.IsWhole)
    (arg6 : Memref sig .tc .vmem S128x1024 .i32) (harg6 : arg6.IsWhole) (arg7 : Memref sig .tc .vmem S32x1024 .f32) (harg7 : arg7.IsWhole)
    (x4 : Vec Ideal S1024x1024 .f32) (x5 : Vec Ideal S1024x1024 .f32) (x6 : Vec Ideal S128x1024 .i32) (x7 : Vec Ideal S32x1024 .f32) :
    ∀ p ∈ (runA.sl.H10_16 (F := Ideal) c arg4 harg4 arg5 harg5 arg6 harg6 arg7 harg7 x4 x5 x6 x7), ∀ x : p.1.shape.Idx, p.2 x = G0 x4 x5 x6 x7 (p.1.emb x) := by
  sl_unfold_run_names
  refine all_cons ?p15 (all_cons ?p14 (all_cons ?p13 (all_cons ?p12 (all_cons ?p11 (all_cons ?p10 (all_cons ?p9 (all_cons ?p8 (all_cons ?p7 (all_cons ?p6 (all_cons ?p5 (all_cons ?p4 (all_cons ?p3 (all_cons ?p2 (all_cons ?p1 (all_cons ?p0 (all_nil))))))))))))))))
  case p15 =>
    exact piece_lo x4 x5 x6 x7 15 (by omega) 960 120 30 3840 rfl rfl rfl rfl (fun t h => by omega) (fun t h => by omega) (fun t h => by omega) _ _ _ _
      (rd_rows (n := 64) arg4 harg4 x4 960 (inb2 (by omega)) (fun t h => by omega)) (rd_rows (n := 64) arg5 harg5 x5 960 (inb2 (by omega)) (fun t h => by omega))
      (rd_rows (n := 8) arg6 harg6 x6 120 (inb2 (by omega)) (fun t h => by omega)) (rd_rows (n := 2) arg7 harg7 x7 30 (inb2 (by omega)) (fun t h => by omega))
      _ (Cert.SlabOdd.lo15_apply _ _ _ _) (inb2 (R := 4096) (C := 1024) (n := 256) (o := 3840) (by omega))
  case p14 =>
    exact piece_lo x4 x5 x6 x7 14 (by omega) 896 112 28 3584 rfl rfl rfl rfl (fun t h => by omega) (fun t h => by omega) (fun t h => by omega) _ _ _ _
      (rd_rows (n := 64) arg4 harg4 x4 896 (inb2 (by omega)) (fun t h => by omega)) (rd_rows (n := 64) arg5 harg5 x5 896 (inb2 (by omega)) (fun t h => by omega))
      (rd_rows (n := 8) arg6 harg6 x6 112 (inb2 (by omega)) (fun t h => by omega)) (rd_rows (n := 2) arg7 harg7 x7 28 (inb2 (by omega)) (fun t h => by omega))
      _ (Cert.SlabEven.lo14_apply _ _ _ _) (inb2 (R := 4096) (C := 1024) (n := 256) (o := 3584) (by omega))
  case p13 =>
    exact piece_lo x4 x5 x6 x7 13 (by omega) 832 104 26 3328 rfl rfl rfl rfl (fun t h => by omega) (fun t h => by omega) (fun t h => by omega) _ _ _ _
      (rd_rows (n := 64) arg4 harg4 x4 832 (inb2 (by omega)) (fun t h => by omega)) (rd_rows (n := 64) arg5 harg5 x5 832 (inb2 (by omega)) (fun t h => by omega))
      (rd_rows (n := 8) arg6 harg6 x6 104 (inb2 (by omega)) (fun t h => by omega)) (rd_rows (n := 2) arg7 harg7 x7 26 (inb2 (by omega)) (fun t h => by omega))
      _ (Cert.SlabOdd.lo13_apply _ _ _ _) (inb2 (R := 4096) (C := 1024) (n := 256) (o := 3328) (by omega))
  case p12 =>
    exact piece_lo x4 x5 x6 x7 12 (by omega) 768 96 24 3072 rfl rfl rfl rfl (fun t h => by omega) (fun t h => by omega) (fun t h => by omega) _ _ _ _
      (rd_rows (n := 64) arg4 harg4 x4 768 (inb2 (by omega)) (fun t h => by omega)) (rd_rows (n := 64) arg5 harg5 x5 768 (inb2 (by omega)) (fun t h => by omega))
      (rd_rows (n := 8) arg6 harg6 x6 96 (inb2 (by omega)) (fun t h => by omega)) (rd_rows (n := 2) arg7 harg7 x7 24 (inb2 (by omega)) (fun t h => by omega))
      _ (Cert.SlabEven.lo12_apply _ _ _ _) (inb2 (R := 4096) (C := 1024) (n := 256) (o := 3072) (by omega))
  case p11 =>
    exact piece_lo x4 x5 x6 x7 11 (by omega) 704 88 22 2816 rfl rfl rfl rfl (fun t h => by omega) (fun t h => by omega) (fun t h => by omega) _ _ _ _
      (rd_rows (n := 64) arg4 harg4 x4 704 (inb2 (by omega)) (fun t h => by omega)) (rd_rows (n := 64) arg5 harg5 x5 704 (inb2 (by omega)) (fun t h => by omega))
      (rd_rows (n := 8) arg6 harg6 x6 88 (inb2 (by omega)) (fun t h => by omega)) (rd_rows (n := 2) arg7 harg7 x7 22 (inb2 (by omega)) (fun t h => by omega))
      _ (Cert.SlabOdd.lo11_apply _ _ _ _) (inb2 (R := 4096) (C := 1024) (n := 256) (o := 2816) (by omega))
  case p10 =>
    exact piece_lo x4 x5 x6 x7 10 (by omega) 640 80 20 2560 rfl rfl rfl rfl (fun t h => by omega) (fun t h => by omega) (fun t h => by omega) _ _ _ _
      (rd_rows (n := 64) arg4 harg4 x4 640 (inb2 (by omega)) (fun t h => by omega)) (rd_rows (n := 64) arg5 harg5 x5 640 (inb2 (by omega)) (fun t h => by omega))
      (rd_rows (n := 8) arg6 harg6 x6 80 (inb2 (by omega)) (fun t h => by omega)) (rd_rows (n := 2) arg7 harg7 x7 20 (inb2 (by omega)) (fun t h => by omega))
      _ (Cert.SlabEven.lo10_apply _ _ _ _) (inb2 (R := 4096) (C := 1024) (n := 256) (o := 2560) (by omega))
  case p9 =>
    exact piece_lo x4 x5 x6 x7 9 (by omega) 576 72 18 2304 rfl rfl rfl rfl (fun t h => by omega) (fun t h => by omega) (fun t h => by omega) _ _ _ _
      (rd_rows (n := 64) arg4 harg4 x4 576 (inb2 (by omega)) (fun t h => by omega)) (rd_rows (n := 64) arg5 harg5 x5 576 (inb2 (by omega)) (fun t h => by omega))
      (rd_rows (n := 8) arg6 harg6 x6 72 (inb2 (by omega)) (fun t h => by omega)) (rd_rows (n := 2) arg7 harg7 x7 18 (inb2 (by omega)) (fun t h => by omega))
      _ (Cert.SlabOdd.lo9_apply _ _ _ _) (inb2 (R := 4096) (C := 1024) (n := 256) (o := 2304) (by omega))
  case p8 =>
    exact piece_lo x4 x5 x6 x7 8 (by omega) 512 64 16 2048 rfl rfl rfl rfl (fun t h => by omega) (fun t h => by omega) (fun t h => by omega) _ _ _ _
      (rd_rows (n := 64) arg4 harg4 x4 512 (inb2 (by omega)) (fun t h => by omega)) (rd_rows (n := 64) arg5 harg5 x5 512 (inb2 (by omega)) (fun t h => by omega))
      (rd_rows (n := 8) arg6 harg6 x6 64 (inb2 (by omega)) (fun t h => by omega)) (rd_rows (n := 2) arg7 harg7 x7 16 (inb2 (by omega)) (fun t h => by omega))
      _ (Cert.SlabEven.lo8_apply _ _ _ _) (inb2 (R := 4096) (C := 1024) (n := 256) (o := 2048) (by omega))
  case p7 =>
    exact piece_lo x4 x5 x6 x7 7 (by omega) 448 56 14 1792 rfl rfl rfl rfl (fun t h => by omega) (fun t h => by omega) (fun t h => by omega) _ _ _ _
      (rd_rows (n := 64) arg4 harg4 x4 448 (inb2 (by omega)) (fun t h => by omega)) (rd_rows (n := 64) arg5 harg5 x5 448 (inb2 (by omega)) (fun t h => by omega))
      (rd_rows (n := 8) arg6 harg6 x6 56 (inb2 (by omega)) (fun t h => by omega)) (rd_rows (n := 2) arg7 harg7 x7 14 (inb2 (by omega)) (fun t h => by omega))
      _ (Cert.SlabOdd.lo7_apply _ _ _ _) (inb2 (R := 4096) (C := 1024) (n := 256) (o := 1792) (by omega))
  case p6 =>
    exact piece_lo x4 x5 x6 x7 6 (by omega) 384 48 12 1536 rfl rfl rfl rfl (fun t h => by omega) (fun t h => by omega) (fun t h => by omega) _ _ _ _
      (rd_rows (n := 64) arg4 harg4 x4 384 (inb2 (by omega)) (fun t h => by omega)) (rd_rows (n := 64) arg5 harg5 x5 384 (inb2 (by omega)) (fun t h => by omega))
      (rd_rows (n := 8) arg6 harg6 x6 48 (inb2 (by omega)) (fun t h => by omega)) (rd_rows (n := 2) arg7 harg7 x7 12 (inb2 (by omega)) (fun t h => by omega))
      _ (Cert.SlabEven.lo6_apply _ _ _ _) (inb2 (R := 4096) (C := 1024) (n := 256) (o := 1536) (by omega))
  case p5 =>
    exact piece_lo x4 x5 x6 x7 5 (by omega) 320 40 10 1280 rfl rfl rfl rfl (fun t h => by omega) (fun t h => by omega) (fun t h => by omega) _ _ _ _
      (rd_rows (n := 64) arg4 harg4 x4 320 (inb2 (by omega)) (fun t h => by omega)) (rd_rows (n := 64) arg5 harg5 x5 320 (inb2 (by omega)) (fun t h => by omega))
      (rd_rows (n := 8) arg6 harg6 x6 40 (inb2 (by omega)) (fun t h => by omega)) (rd_rows (n := 2) arg7 harg7 x7 10 (inb2 (by omega)) (fun t h => by omega))
      _ (Cert.SlabOdd.lo5_apply _ _ _ _) (inb2 (R := 4096) (C := 1024) (n := 256) (o := 1280) (by omega))
  case p4 =>
    exact piece_lo x4 x5 x6 x7 4 (by omega) 256 32 8 1024 rfl rfl rfl rfl (fun t h => by omega) (fun t h => by omega) (fun t h => by omega) _ _ _ _
      (rd_rows (n := 64) arg4 harg4 x4 256 (inb2 (by omega)) (fun t h => by omega)) (rd_rows (n := 64) arg5 harg5 x5 256 (inb2 (by omega)) (fun t h => by omega))
      (rd_rows (n := 8) arg6 harg6 x6 32 (inb2 (by omega)) (fun t h => by omega)) (rd_rows (n := 2) arg7 harg7 x7 8 (inb2 (by omega)) (fun t h => by omega))
      _ (Cert.SlabEven.lo4_apply _ _ _ _) (inb2 (R := 4096) (C := 1024) (n := 256) (o := 1024) (by omega))
  case p3 =>
    exact piece_lo x4 x5 x6 x7 3 (by omega) 192 24 6 768 rfl rfl rfl rfl (fun t h => by omega) (fun t h => by omega) (fun t h => by omega) _ _ _ _
      (rd_rows (n := 64) arg4 harg4 x4 192 (inb2 (by omega)) (fun t h => by omega)) (rd_rows (n := 64) arg5 harg5 x5 192 (inb2 (by omega)) (fun t h => by omega))
      (rd_rows (n := 8) arg6 harg6 x6 24 (inb2 (by omega)) (fun t h => by omega)) (rd_rows (n := 2) arg7 harg7 x7 6 (inb2 (by omega)) (fun t h => by omega))
      _ (Cert.SlabOdd.lo3_apply _ _ _ _) (inb2 (R := 4096) (C := 1024) (n := 256) (o := 768) (by omega))
  case p2 =>
    exact piece_lo x4 x5 x6 x7 2 (by omega) 128 16 4 512 rfl rfl rfl rfl (fun t h => by omega) (fun t h => by omega) (fun t h => by omega) _ _ _ _
      (rd_rows (n := 64) arg4 harg4 x4 128 (inb2 (by omega)) (fun t h => by omega)) (rd_rows (n := 64) arg5 harg5 x5 128 (inb2 (by omega)) (fun t h => by omega))
      (rd_rows (n := 8) arg6 harg6 x6 16 (inb2 (by omega)) (fun t h => by omega)) (rd_rows (n := 2) arg7 harg7 x7 4 (inb2 (by omega)) (fun t h => by omega))
      _ (Cert.SlabEven.lo2_apply _ _ _ _) (inb2 (R := 4096) (C := 1024) (n := 256) (o := 512) (by omega))
  case p1 =>
    exact piece_lo x4 x5 x6 x7 1 (by omega) 64 8 2 256 rfl rfl rfl rfl (fun t h => by omega) (fun t h => by omega) (fun t h => by omega) _ _ _ _
      (rd_rows (n := 64) arg4 harg4 x4 64 (inb2 (by omega)) (fun t h => by omega)) (rd_rows (n := 64) arg5 harg5 x5 64 (inb2 (by omega)) (fun t h => by omega))
      (rd_rows (n := 8) arg6 harg6 x6 8 (inb2 (by omega)) (fun t h => by omega)) (rd_rows (n := 2) arg7 harg7 x7 2 (inb2 (by omega)) (fun t h => by omega))
      _ (Cert.SlabOdd.lo1_apply _ _ _ _) (inb2 (R := 4096) (C := 1024) (n := 256) (o := 256) (by omega))
  case p0 =>
    exact piece_lo x4 x5 x6 x7 0 (by omega) 0 0 0 0 rfl rfl rfl rfl (fun t h => by omega) (fun t h => by omega) (fun t h => by omega) _ _ _ _
      (rd_rows (n := 64) arg4 harg4 x4 0 (inb2 (by omega)) (fun t h => by omega)) (rd_rows (n := 64) arg5 harg5 x5 0 (inb2 (by omega)) (fun t h => by omega))
      (rd_rows (n := 8) arg6 harg6 x6 0 (inb2 (by omega)) (fun t h => by omega)) (rd_rows (n := 2) arg7 harg7 x7 0 (inb2 (by omega)) (fun t h => by omega))
      _ (Cert.SlabEven.lo0_apply _ _ _ _) (inb2 (R := 4096) (C := 1024) (n := 256) (o := 0) (by omega))

/-- Where the weights are rebuilt, the low-part weight buffer ends holding the block formula less itself at every row and column. -/
theorem readA10 (c : Dev nD) (i : grid0.Coords) (arg2 : Memref sig .tc .vmem S512x4096 .f32) (harg2 : arg2.IsWhole) (arg3 : Memref sig .tc .vmem S4096 .f32) (harg3 : arg3.IsWhole)
    (arg4 : Memref sig .tc .vmem S1024x1024 .f32) (harg4 : arg4.IsWhole) (arg5 : Memref sig .tc .vmem S1024x1024 .f32) (harg5 : arg5.IsWhole)
    (arg6 : Memref sig .tc .vmem S128x1024 .i32) (harg6 : arg6.IsWhole) (arg7 : Memref sig .tc .vmem S32x1024 .f32) (harg7 : arg7.IsWhole)
    (arg8 : Memref sig .tc .vmem S512x1024 .f32) (harg8 : arg8.IsWhole) (arg9 : Memref sig .tc .vmem S4096x1024 .bf16) (harg9 : arg9.IsWhole)
    (arg10 : Memref sig .tc .vmem S4096x1024 .bf16) (harg10 : arg10.IsWhole) (hc : cond0 i)
    (x2 : Vec Ideal S512x4096 .f32) (x3 : Vec Ideal S4096 .f32) (x4 : Vec Ideal S1024x1024 .f32) (x5 : Vec Ideal S1024x1024 .f32) (x6 : Vec Ideal S128x1024 .i32) (x7 : Vec Ideal S32x1024 .f32)
    (f : Buf (Elt Ideal) (arg10.view.loc (c : Thread nD τ))) (k : Fin 4096) (j : Fin 1024) :
    arg10.view.read (Elt Ideal) (arg10.view.writes (Elt Ideal) f (runA c i arg2 harg2 arg3 harg3 arg4 harg4 arg5 harg5 arg6 harg6 arg7 harg7 arg8 harg8 arg9 harg9 arg10 harg10 hc x2 x3 x4 x5 x6 x7).1.2.2) (ix2 k j)
      = wBlock x4 x5 x6 x7 k j - wBlock x4 x5 x6 x7 k j := by
  unfold runA; dsimp only
  refine (View.read_writes_apply_eq_canon _ _ _ _ (cover10 c arg4 harg4 arg5 harg5 arg6 harg6 arg7 harg7 x4 x5 x6 x7 (ix2 k j))).trans ?_
  exact (View.canon_apply_of_pieces (G0 x4 x5 x6 x7) _ (pieces10 c arg4 harg4 arg5 harg5 arg6 harg6 arg7 harg7 x4 x5 x6 x7) (ix2 k j)
    (cover10 c arg4 harg4 arg5 harg5 arg6 harg6 arg7 harg7 x4 x5 x6 x7 (ix2 k j))).trans (G0_ix2 x4 x5 x6 x7 k j)

/-- A load through the whole-shape box at zero offsets places an index at itself. -/
theorem idx_whole2 (inb : ∀ a, (![0, 0] : Fin 2 → Nat) a + S4096x1024.size a ≤ S4096x1024.size a) (k : Fin 4096) (j : Fin 1024) :
    (Rect.unit (s := S4096x1024) ![0, 0] S4096x1024.size inb).toLoadRect.idx (ix2 k j) = ix2 k j := by
  funext a
  match a with
  | ⟨0, _⟩ => exact Fin.ext (by show 0 + 1 * k.val = k.val; omega)
  | ⟨1, _⟩ => exact Fin.ext (by show 0 + 1 * j.val = j.val; omega)

/-- Where the weights are rebuilt, the result buffer ends holding the product payload of the inputs and of the two weight buffers
    read back whole, which hold the block formula and the block formula less itself. -/
theorem readA8 (c : Dev nD) (i : grid0.Coords) (arg2 : Memref sig .tc .vmem S512x4096 .f32) (harg2 : arg2.IsWhole) (arg3 : Memref sig .tc .vmem S4096 .f32) (harg3 : arg3.IsWhole)
    (arg4 : Memref sig .tc .vmem S1024x1024 .f32) (harg4 : arg4.IsWhole) (arg5 : Memref sig .tc .vmem S1024x1024 .f32) (harg5 : arg5.IsWhole)
    (arg6 : Memref sig .tc .vmem S128x1024 .i32) (harg6 : arg6.IsWhole) (arg7 : Memref sig .tc .vmem S32x1024 .f32) (harg7 : arg7.IsWhole)
    (arg8 : Memref sig .tc .vmem S512x1024 .f32) (harg8 : arg8.IsWhole) (arg9 : Memref sig .tc .vmem S4096x1024 .bf16) (harg9 : arg9.IsWhole)
    (arg10 : Memref sig .tc .vmem S4096x1024 .bf16) (harg10 : arg10.IsWhole) (hc : cond0 i)
    (x2 : Vec Ideal S512x4096 .f32) (x3 : Vec Ideal S4096 .f32) (x4 : Vec Ideal S1024x1024 .f32) (x5 : Vec Ideal S1024x1024 .f32) (x6 : Vec Ideal S128x1024 .i32) (x7 : Vec Ideal S32x1024 .f32)
    (f : Buf (Elt Ideal) (arg8.view.loc (c : Thread nD τ))) :
    ∃ S9 S10 : Vec Ideal S4096x1024 .bf16,
      (∀ k j, S9 (ix2 k j) = Cert.BlockSpec.wBlock x4 x5 x6 x7 k j) ∧
      (∀ k j, S10 (ix2 k j) = Cert.BlockSpec.wBlock x4 x5 x6 x7 k j - Cert.BlockSpec.wBlock x4 x5 x6 x7 k j) ∧
      arg8.view.read (Elt Ideal) (arg8.view.writes (Elt Ideal) f (runA c i arg2 harg2 arg3 harg3 arg4 harg4 arg5 harg5 arg6 harg6 arg7 harg7 arg8 harg8 arg9 harg9 arg10 harg10 hc x2 x3 x4 x5 x6 x7).1.1)
        = k0_pay1 x2 x3 S9 S10 := by
  refine ⟨runA.sl.v12 (F := Ideal) c arg4 harg4 arg5 harg5 arg6 harg6 arg7 harg7 arg9 x4 x5 x6 x7,
    runA.sl.v13 (F := Ideal) c arg4 harg4 arg5 harg5 arg6 harg6 arg7 harg7 arg10 x4 x5 x6 x7, ?_, ?_, ?_⟩
  · intro k j
    unfold runA.sl.v12
    rw [View.readCov_eq_canon']
    show View.canon _ ((Rect.unit (s := S4096x1024) ![0, 0] S4096x1024.size inb_S4096x1024_S4096x1024_0_0).toLoadRect.idx (ix2 k j)) = _
    rw [idx_whole2]
    exact (View.canon_apply_of_pieces (G x4 x5 x6 x7) _ (pieces9 c arg4 harg4 arg5 harg5 arg6 harg6 arg7 harg7 x4 x5 x6 x7) (ix2 k j)
      (cover9 c arg4 harg4 arg5 harg5 arg6 harg6 arg7 harg7 x4 x5 x6 x7 (ix2 k j))).trans (G_ix2 x4 x5 x6 x7 k j)
  · intro k j
    unfold runA.sl.v13
    rw [View.readCov_eq_canon']
    show View.canon _ ((Rect.unit (s := S4096x1024) ![0, 0] S4096x1024.size inb_S4096x1024_S4096x1024_0_0).toLoadRect.idx (ix2 k j)) = _
    rw [idx_whole2]
    exact (View.canon_apply_of_pieces (G0 x4 x5 x6 x7) _ (pieces10 c arg4 harg4 arg5 harg5 arg6 harg6 arg7 harg7 x4 x5 x6 x7) (ix2 k j)
      (cover10 c arg4 harg4 arg5 harg5 arg6 harg6 arg7 harg7 x4 x5 x6 x7 (ix2 k j))).trans (G0_ix2 x4 x5 x6 x7 k j)
  · unfold runA; dsimp only
    refine (View.read_writes_eq_canon _ _ _ ?_).trans ?_
    · intro y
      exact ⟨_, List.mem_singleton_self _, View.mem_set_unit_zero (S := S512x1024) hz2 inb_S512x1024_S512x1024_0_0 y⟩
    · rw [View.canon_unit_zero (S := S512x1024) hz2]
      simp only [View.readAt_eq_ld, harg2.read_unread, harg3.read_unread,
        View.ld_unit_zero (S := S512x4096) hz2, View.ld_unit_zero (S := S4096) hz1]

end Cert.Values

end
-- ==== Proof.PayOut.lean ====
/-
  The kernel's result tile read at one entry.

  Write t (r, k) = x (r, k) * su k for the activations with column k scaled by the sign of weight row k. On the extended
  reals a change of format is the identity, so the tile's "high part" is t itself and its "low part" is t - t. The tile
  is (t · A + t · B) + (t - t) · A for the two weight parts A and B, each product a sum over the 4096 contracted
  coordinates (`pay1_apply`). Where every t (r, k) is a real number, t - t = 0; where moreover B vanishes in column j,
  the entry is the single sum ∑ k, t (r, k) * A (k, j) (`pay1_of_finite`).
-/
import proofs.«416245_j678604833216_3_alg».proof.Proof.Gen.KernelIdeal.Skeleton
import Idealize.ShloMosaic.Lib.ValueIdx
import Idealize.ShloMosaic.PureOps.Ideal.Laws
import Idealize.ShloMosaic.Lib.Pipeline.Value
import Idealize.ShloMosaic.Lib.ValueLayout

open scoped BigOperators
open Cert.KernelIdeal Cert.KernelIdeal.Gen Idealize.ShloMosaic Idealize.ShloMosaic.ValueIdx

noncomputable section

namespace Cert.PayOut

/-- The left operand's row is the result's row. -/
theorem lhs_axis0 (i : S512x1024.Idx) (q : dot_S512x4096_S4096x1024_S512x1024_1_0_0_1_n_n.contr.Idx) :
    (dot_S512x4096_S4096x1024_S512x1024_1_0_0_1_n_n.lhsIdx i q 0).val = (i 0).val := by
  unfold DotDims.lhsIdx
  rw [dif_neg (show ¬(0 : Fin S512x4096.rank) ∈ dot_S512x4096_S4096x1024_S512x1024_1_0_0_1_n_n.lhsBatch by decide), dif_pos (show (0 : Fin S512x4096.rank) ∈ dot_S512x4096_S4096x1024_S512x1024_1_0_0_1_n_n.lhsNonContracting by decide)]
  rfl
/-- The left operand's column is the contracted coordinate. -/
theorem lhs_axis1 (i : S512x1024.Idx) (q : dot_S512x4096_S4096x1024_S512x1024_1_0_0_1_n_n.contr.Idx) :
    (dot_S512x4096_S4096x1024_S512x1024_1_0_0_1_n_n.lhsIdx i q 1).val = (q ⟨0, by decide⟩).val :=
  dot_S512x4096_S4096x1024_S512x1024_1_0_0_1_n_n.lhsIdx_val_of_single rfl i q
/-- The right operand's row is the contracted coordinate. -/
theorem rhs_axis0 (i : S512x1024.Idx) (q : dot_S512x4096_S4096x1024_S512x1024_1_0_0_1_n_n.contr.Idx) :
    (dot_S512x4096_S4096x1024_S512x1024_1_0_0_1_n_n.rhsIdx i q 0).val = (q ⟨0, by decide⟩).val :=
  dot_S512x4096_S4096x1024_S512x1024_1_0_0_1_n_n.rhsIdx_val_of_single rfl i q
/-- The right operand's column is the result's column. -/
theorem rhs_axis1 (i : S512x1024.Idx) (q : dot_S512x4096_S4096x1024_S512x1024_1_0_0_1_n_n.contr.Idx) :
    (dot_S512x4096_S4096x1024_S512x1024_1_0_0_1_n_n.rhsIdx i q 1).val = (i 1).val := by
  unfold DotDims.rhsIdx
  rw [dif_neg (show ¬(1 : Fin S4096x1024.rank) ∈ dot_S512x4096_S4096x1024_S512x1024_1_0_0_1_n_n.rhsBatch by decide), dif_pos (show (1 : Fin S4096x1024.rank) ∈ dot_S512x4096_S4096x1024_S512x1024_1_0_0_1_n_n.rhsNonContracting by decide)]
  rfl

/-- A matrix product into a zero accumulator, read at `(r, j)`: the sum over the 4096 contracted coordinates. -/
theorem matmul_zero_apply (a : FVec Ideal S512x4096 .bf16) (b : FVec Ideal S4096x1024 .bf16) (r : Fin 512) (j : Fin 1024) :
    matmul dot_S512x4096_S4096x1024_S512x1024_1_0_0_1_n_n none a b (constant (F := Ideal) S512x1024 .f32 0x00000000#32) (ix2 r j)
      = ∑ k : Fin 4096, a (ix2 r k) * b (ix2 k j) := by
  show FloatOps.matmul dot_S512x4096_S4096x1024_S512x1024_1_0_0_1_n_n none a b (constant (F := Ideal) S512x1024 .f32 0x00000000#32) (ix2 r j) = _
  rw [Ideal.matmul_constant_zero_apply, ← Equiv.sum_comp (contrEquiv1 dot_S512x4096_S4096x1024_S512x1024_1_0_0_1_n_n 4096 rfl rfl).symm]
  refine Finset.sum_congr rfl fun k _ => ?_
  have hk := contrEquiv1_symm_val dot_S512x4096_S4096x1024_S512x1024_1_0_0_1_n_n 4096 rfl rfl k
  have el : dot_S512x4096_S4096x1024_S512x1024_1_0_0_1_n_n.lhsIdx (ix2 r j) ((contrEquiv1 dot_S512x4096_S4096x1024_S512x1024_1_0_0_1_n_n 4096 rfl rfl).symm k) = ix2 r k := funext fun a => Fin.ext (by
    match a with
    | ⟨0, _⟩ => exact lhs_axis0 _ _
    | ⟨1, _⟩ => exact (lhs_axis1 _ _).trans hk)
  have er : dot_S512x4096_S4096x1024_S512x1024_1_0_0_1_n_n.rhsIdx (ix2 r j) ((contrEquiv1 dot_S512x4096_S4096x1024_S512x1024_1_0_0_1_n_n 4096 rfl rfl).symm k) = ix2 k j := funext fun a => Fin.ext (by
    match a with
    | ⟨0, _⟩ => exact (rhs_axis0 _ _).trans hk
    | ⟨1, _⟩ => exact rhs_axis1 _ _)
  rw [el, er]

/-- The activations with column `k` scaled by the sign `su k` of weight row `k`: entry `(r, k)` is `x (r, k) * su k`. -/
theorem scaled_apply (x2 : FVec Ideal S512x4096 .f32) (x3 : FVec Ideal S4096 .f32) (r : Fin 512) (k : Fin 4096) :
    mulf x2 (broadcastTo S512x4096 (shapeCast S1x4096 x3 shapeCasts_S4096_S1x4096) broadcasts_S1x4096_S512x4096) (ix2 r k)
      = x2 (ix2 r k) * x3 (ix1 k) := by
  rw [mulf_apply]
  congr 1
  rw [broadcastTo_apply _ broadcasts_S1x4096_S512x4096 (ix2 r k) (ix2 (0 : Fin 1) k) (fun a => by
    match a with
    | ⟨0, _⟩ => show 0 = if (1 : Nat) = 1 then 0 else r.val; rw [if_pos rfl]
    | ⟨1, _⟩ => show k.val = if (4096 : Nat) = 1 then 0 else k.val; rw [if_neg (by decide)])]
  exact shapeCast_apply x3 shapeCasts_S4096_S1x4096 (ix2 (0 : Fin 1) k) (ix1 k) (by
    rw [Shape.rowMajor_val_one, Shape.rowMajor_val_two]
    show k.val = 0 * 4096 + k.val
    omega)

/-- The kernel's result tile at `(r, j)`: with `t (r, k) = x (r, k) * su k`, the products of `t` with the two weight parts,
    plus the product of the remainder `t - t` with the first part. -/
theorem pay1_apply (x2 : Vec Ideal S512x4096 .f32) (x3 : Vec Ideal S4096 .f32) (s9 s10 : Vec Ideal S4096x1024 .bf16) (r : Fin 512) (j : Fin 1024) :
    k0_pay1 (F := Ideal) x2 x3 s9 s10 (ix2 r j)
      = ((∑ k : Fin 4096, (x2 (ix2 r k) * x3 (ix1 k)) * s9 (ix2 k j)) + ∑ k : Fin 4096, (x2 (ix2 r k) * x3 (ix1 k)) * s10 (ix2 k j))
        + ∑ k : Fin 4096, ((x2 (ix2 r k) * x3 (ix1 k)) - (x2 (ix2 r k) * x3 (ix1 k))) * s9 (ix2 k j) := by
  unfold k0_pay1
  simp only [addf_apply, matmul_zero_apply, truncf_apply, subf_apply, scaled_apply]

/-- When every `x (r, k) * su k` is a real number and the second weight part vanishes in column `j`, the remainder
    `t - t` is zero and the tile is the single product. -/
theorem pay1_of_finite (x2 : Vec Ideal S512x4096 .f32) (x3 : Vec Ideal S4096 .f32) (s9 s10 : Vec Ideal S4096x1024 .bf16) (r : Fin 512) (j : Fin 1024)
    (hx : ∀ k : Fin 4096, ∃ a : ℝ, x2 (ix2 r k) * x3 (ix1 k) = (a : EReal)) (h10 : ∀ k : Fin 4096, s10 (ix2 k j) = 0) :
    k0_pay1 (F := Ideal) x2 x3 s9 s10 (ix2 r j) = ∑ k : Fin 4096, (x2 (ix2 r k) * x3 (ix1 k)) * s9 (ix2 k j) := by
  rw [pay1_apply]
  have e2 : ∑ k : Fin 4096, (x2 (ix2 r k) * x3 (ix1 k)) * s10 (ix2 k j) = 0 :=
    Finset.sum_eq_zero fun k _ => by rw [h10 k, mul_zero]
  have e3 : ∑ k : Fin 4096, ((x2 (ix2 r k) * x3 (ix1 k)) - (x2 (ix2 r k) * x3 (ix1 k))) * s9 (ix2 k j) = 0 :=
    Finset.sum_eq_zero fun k _ => by
      obtain ⟨a, ha⟩ := hx k
      rw [ha, ← EReal.coe_sub, sub_self, EReal.coe_zero, zero_mul]
  rw [e2, e3, add_zero, add_zero]

end Cert.PayOut
-- ==== Proof.HostPrefix.lean ====
/-
  The arrays the kernel's region finds, where host operations wrote them before it.

  Before its one region the kernel's program unpacks the 3-bit codes and gathers the value table [2048, 11008] from the grid by the same
  operations as the reference, regroups the table as [1024, 2, 11008] and takes its two slices along the middle axis (the first and the
  second kept value of every group), and multiplies the scales by the column signs broadcast over the 32 scale groups. Read at an index:
  the first slice at (g, j) is the table's row 2 g, the second its row 2 g + 1, and the product at (s, j) is scale (s, j) times sign j.
  The table is carried as one opaque array, named as the reference's reading names it, of the kernel's arguments.
-/
import proofs.«416245_j678604833216_3_alg».proof.Proof.Gen.KernelIdeal.Frame
import proofs.«416245_j678604833216_3_alg».proof.Proof.RefRead
import proofs.«416245_j678604833216_3_alg».proof.Proof.Spec
import Idealize.ShloMosaic.Lib.StableHlo.Run
import Idealize.ShloMosaic.Lib.Pipeline.Value
import Idealize.ShloMosaic.Lib.ValueIdx

noncomputable section

namespace Cert.HostPrefix

open Cert.KernelIdeal Cert.KernelIdeal.Gen Idealize.ShloMosaic Idealize.ShloMosaic.ValueIdx Idealize.ShloMosaic.TcCoe Idealize.SL.Sem

/-- The value table of the kernel's arguments: the gather of the grid at the unpacked codes, named as the reference's reading names it. -/
abbrev vals (m : (ℓ : Loc nD τ sig) → Buf (Elt Ideal) ℓ) (c : Dev nD) : (Cert.Spec.Sh2 2048 11008).Idx → EReal :=
  Cert.ReferenceIdeal.ReadP.val_main_v25 (F := Ideal) (m ((c.tc : Thread nD τ).loc main_arg4)) (m ((c.tc : Thread nD τ).loc main_arg5))

/-! ## The arrays the region finds, as terms over the arguments

The kernel's program unpacks the codes and gathers the value table by the same operations, on the same shapes, as the reference; the
side conditions are propositions. So the table the region finds is the reference's table of the kernel's arguments, for every float
family. -/

/-- The first kept values: the table regrouped as [1024, 2, 11008], its slice at middle coordinate 0, flattened. -/
theorem v28_term {F : FTy → Type} [FloatOps F] (m : (ℓ : Loc nD τ sig) → Buf (Elt F) ℓ) (c : Dev nD) :
    @Eq ((⟨S1024x11008, .f32⟩ : BufTy).Contents (Elt F)) (Gen.V (F := F) m c main_v28)
      (shapeCast S1024x11008 (extractStridedSlice S1024x1x11008 ![0, 0, 0]
        (shapeCast S1024x2x11008 (Cert.ReferenceIdeal.ReadP.val_main_v25 (F := F) (m ((c.tc : Thread nD τ).loc main_arg4)) (m ((c.tc : Thread nD τ).loc main_arg5)))
          shapeCasts_S2048x11008_S1024x2x11008) slices_S1024x2x11008_S1024x1x11008_0_0_0) shapeCasts_S1024x1x11008_S1024x11008) := by
  dsimp only [Gen.V, Gen.hostOps0]
  after_results_simp
  rfl

/-- The second kept values: the slice at middle coordinate 1. -/
theorem v30_term {F : FTy → Type} [FloatOps F] (m : (ℓ : Loc nD τ sig) → Buf (Elt F) ℓ) (c : Dev nD) :
    @Eq ((⟨S1024x11008, .f32⟩ : BufTy).Contents (Elt F)) (Gen.V (F := F) m c main_v30)
      (shapeCast S1024x11008 (extractStridedSlice S1024x1x11008 ![0, 1, 0]
        (shapeCast S1024x2x11008 (Cert.ReferenceIdeal.ReadP.val_main_v25 (F := F) (m ((c.tc : Thread nD τ).loc main_arg4)) (m ((c.tc : Thread nD τ).loc main_arg5)))
          shapeCasts_S2048x11008_S1024x2x11008) slices_S1024x2x11008_S1024x1x11008_0_1_0) shapeCasts_S1024x1x11008_S1024x11008) := by
  dsimp only [Gen.V, Gen.hostOps0]
  after_results_simp
  rfl

/-- The scales times the column signs broadcast over the 32 scale groups. -/
theorem v33_term {F : FTy → Type} [FloatOps F] (m : (ℓ : Loc nD τ sig) → Buf (Elt F) ℓ) (c : Dev nD) :
    @Eq (FVec F S32x11008 .f32) (Gen.V (F := F) m c main_v33)
      (mulf (m ((c.tc : Thread nD τ).loc main_arg1))
        (broadcastInDim S32x11008 ![0, 1] bcast_S1x11008_S32x11008_0_1
          (broadcastInDim S1x11008 ![1] bcast_S11008_S1x11008_1 (m ((c.tc : Thread nD τ).loc main_arg3))))) := by
  dsimp only [Gen.V, Gen.hostOps0]
  after_results_simp

/-! ## The layout operations read at an index -/

section Reads
variable {α : Type}

/-- A [2048, 11008] table regrouped, sliced at middle coordinate 0 and flattened, at (g, j): the table's row 2 g. -/
theorem regroup_lo (T : S2048x11008.Idx → α) (g : Fin 1024) (j : Fin 11008) :
    shapeCast S1024x11008 (extractStridedSlice S1024x1x11008 ![0, 0, 0] (shapeCast S1024x2x11008 T shapeCasts_S2048x11008_S1024x2x11008)
      slices_S1024x2x11008_S1024x1x11008_0_0_0) shapeCasts_S1024x1x11008_S1024x11008 (ix2 g j) = T (ix2 (Cert.Spec.lo g) j) := by
  have hg := g.isLt
  have hj := j.isLt
  rw [shapeCast_apply _ shapeCasts_S1024x1x11008_S1024x11008 (ix2 g j) (ix3 g (0 : Fin 1) j)
      (by rewrite [Shape.rowMajor_val_three, Shape.rowMajor_val_two]; show (g.val * 1 + 0) * 11008 + j.val = g.val * 11008 + j.val; omega),
    extractStridedSlice_apply _ _ slices_S1024x2x11008_S1024x1x11008_0_0_0 (ix3 g (0 : Fin 1) j) (ix3 g (0 : Fin 2) j)
      (fun a => match a with
        | ⟨0, _⟩ => (Nat.zero_add _).symm
        | ⟨1, _⟩ => rfl
        | ⟨2, _⟩ => (Nat.zero_add _).symm),
    shapeCast_apply _ shapeCasts_S2048x11008_S1024x2x11008 (ix3 g (0 : Fin 2) j) (ix2 (Cert.Spec.lo g) j)
      (by rewrite [Shape.rowMajor_val_two, Shape.rowMajor_val_three]; show (2 * g.val) * 11008 + j.val = (g.val * 2 + 0) * 11008 + j.val; omega)]

/-- … sliced at middle coordinate 1: the table's row 2 g + 1. -/
theorem regroup_hi (T : S2048x11008.Idx → α) (g : Fin 1024) (j : Fin 11008) :
    shapeCast S1024x11008 (extractStridedSlice S1024x1x11008 ![0, 1, 0] (shapeCast S1024x2x11008 T shapeCasts_S2048x11008_S1024x2x11008)
      slices_S1024x2x11008_S1024x1x11008_0_1_0) shapeCasts_S1024x1x11008_S1024x11008 (ix2 g j) = T (ix2 (Cert.Spec.hi g) j) := by
  have hg := g.isLt
  have hj := j.isLt
  rw [shapeCast_apply _ shapeCasts_S1024x1x11008_S1024x11008 (ix2 g j) (ix3 g (0 : Fin 1) j)
      (by rewrite [Shape.rowMajor_val_three, Shape.rowMajor_val_two]; show (g.val * 1 + 0) * 11008 + j.val = g.val * 11008 + j.val; omega),
    extractStridedSlice_apply _ _ slices_S1024x2x11008_S1024x1x11008_0_1_0 (ix3 g (0 : Fin 1) j) (ix3 g (1 : Fin 2) j)
      (fun a => match a with
        | ⟨0, _⟩ => (Nat.zero_add _).symm
        | ⟨1, _⟩ => rfl
        | ⟨2, _⟩ => (Nat.zero_add _).symm),
    shapeCast_apply _ shapeCasts_S2048x11008_S1024x2x11008 (ix3 g (1 : Fin 2) j) (ix2 (Cert.Spec.hi g) j)
      (by rewrite [Shape.rowMajor_val_two, Shape.rowMajor_val_three]; show (2 * g.val + 1) * 11008 + j.val = (g.val * 2 + 1) * 11008 + j.val; omega)]

/-- A vector over the columns broadcast over 32 rows, at (s, j): its entry j. -/
theorem bcast_rows (x : S11008.Idx → α) (s : Fin 32) (j : Fin 11008) :
    broadcastInDim S32x11008 ![0, 1] bcast_S1x11008_S32x11008_0_1 (broadcastInDim S1x11008 ![1] bcast_S11008_S1x11008_1 x) (ix2 s j) = x (ix1 j) := by
  rw [broadcastInDim_apply _ bcast_S1x11008_S32x11008_0_1 _ (ix2 s j) (ix2 (0 : Fin 1) j)
      (fun a => match a with
        | ⟨0, _⟩ => by show 0 = if (1 : Nat) = 1 then 0 else s.val; rw [if_pos rfl]
        | ⟨1, _⟩ => by show j.val = if (11008 : Nat) = 1 then 0 else j.val; rw [if_neg (by decide)]),
    broadcastInDim_apply _ bcast_S11008_S1x11008_1 _ (ix2 (0 : Fin 1) j) (ix1 j)
      (fun a => match a with
        | ⟨0, _⟩ => by show j.val = if (11008 : Nat) = 1 then 0 else j.val; rw [if_neg (by decide)])]

end Reads

/-! ## The three arrays at an index -/

/-- The first kept values at (g, j): the value table's row 2 g. -/
theorem V_v28 (m : (ℓ : Loc nD τ sig) → Buf (Elt Ideal) ℓ) (c : Dev nD) (g : Fin 1024) (j : Fin 11008) :
    (Gen.V (F := Ideal) m c main_v28 : (⟨S1024x11008, .f32⟩ : BufTy).Contents (Elt Ideal)) (ix2 g j) = vals m c (ix2 (Cert.Spec.lo g) j) := by
  rw [v28_term]
  show _ = Cert.ReferenceIdeal.ReadP.val_main_v25 (F := Ideal) (m ((c.tc : Thread nD τ).loc main_arg4)) (m ((c.tc : Thread nD τ).loc main_arg5)) (ix2 (Cert.Spec.lo g) j)
  generalize Cert.ReferenceIdeal.ReadP.val_main_v25 (F := Ideal) (m ((c.tc : Thread nD τ).loc main_arg4)) (m ((c.tc : Thread nD τ).loc main_arg5)) = T
  exact regroup_lo T g j

/-- The second kept values at (g, j): the value table's row 2 g + 1. -/
theorem V_v30 (m : (ℓ : Loc nD τ sig) → Buf (Elt Ideal) ℓ) (c : Dev nD) (g : Fin 1024) (j : Fin 11008) :
    (Gen.V (F := Ideal) m c main_v30 : (⟨S1024x11008, .f32⟩ : BufTy).Contents (Elt Ideal)) (ix2 g j) = vals m c (ix2 (Cert.Spec.hi g) j) := by
  rw [v30_term]
  show _ = Cert.ReferenceIdeal.ReadP.val_main_v25 (F := Ideal) (m ((c.tc : Thread nD τ).loc main_arg4)) (m ((c.tc : Thread nD τ).loc main_arg5)) (ix2 (Cert.Spec.hi g) j)
  generalize Cert.ReferenceIdeal.ReadP.val_main_v25 (F := Ideal) (m ((c.tc : Thread nD τ).loc main_arg4)) (m ((c.tc : Thread nD τ).loc main_arg5)) = T
  exact regroup_hi T g j

/-- The scaled column signs at (s, j): the scale times the column sign. -/
theorem V_v33 (m : (ℓ : Loc nD τ sig) → Buf (Elt Ideal) ℓ) (c : Dev nD) (s : Fin 32) (j : Fin 11008) :
    (Gen.V (F := Ideal) m c main_v33 : (⟨S32x11008, .f32⟩ : BufTy).Contents (Elt Ideal)) (ix2 s j)
      = @HMul.hMul EReal EReal EReal instHMul (m ((c.tc : Thread nD τ).loc main_arg1) (ix2 s j)) (m ((c.tc : Thread nD τ).loc main_arg3) (ix1 j)) := by
  rw [v33_term, mulf_apply, bcast_rows]

end Cert.HostPrefix

end
-- ==== Proof.KCols.lean ====
/-
  What the kernel's staging buffers hold, entry by entry, in terms of the argument arrays.

  At grid point t the column block is n = t / 8 and the row block t % 8. The two value tables' blocks hold, at (g, j), rows 2 g and
  2 g + 1 of the value table at column 1024 n + j; the selector words' block the words of that column; the scales' block the scale
  times the column sign; the activations' block rows 512 (t % 8) + r; the row signs' block the whole vector; the result's block the
  result array at (512 (t % 8) + y₀, 1024 n + y₁). In the last column of blocks only the columns inside the arrays are named.
-/
import proofs.«416245_j678604833216_3_alg».proof.Proof.KData
import proofs.«416245_j678604833216_3_alg».proof.Proof.HostPrefix
import proofs.«416245_j678604833216_3_alg».proof.Proof.Blocks
import Idealize.ShloMosaic.Lib.Pipeline.Value
import Idealize.ShloMosaic.Lib.ValueIdx

set_option maxRecDepth 16384

noncomputable section

namespace Cert.KernelIdeal.Cols

open Cert.KernelIdeal Cert.KernelIdeal.Gen Cert.KernelIdeal.Data
open Idealize.ShloMosaic Idealize.ShloMosaic.ValueIdx Idealize.ShloMosaic.TcCoe

variable (m : (ℓ : Loc nD τ sig) → Buf (Elt Ideal) ℓ)

/-- The first value table's block at (g, j), on a column inside the array: row 2 g of the value table. -/
theorem col2 (c : Dev nD) (t : Fin cfg0.N) (d2 : S1024x1024.Idx → Elt Ideal .f32) (g : Fin 1024) (j : Fin 1024)
    (h : 1024 * (t.val / 8) + j.val < 11008) :
    win0_2.fill (grid0.coords t) d2 (iblk m c 2 t) (ix2 g j)
      = vals m c (ix2 (Cert.Spec.lo g) (⟨1024 * (t.val / 8) + j.val, h⟩ : Fin 11008)) := by
  have hm : win0_2.moved (grid0.coords t) (ix2 g j) = true := (Cert.Blocks.moved2 t (ix2 g j)).mpr h
  unfold Pipeline.Window.fill
  rw [dif_pos hm]
  unfold iblk
  rw [Cert.Blocks.read_blk2 c t]
  exact Cert.HostPrefix.V_v28 m c g (⟨1024 * (t.val / 8) + j.val, h⟩ : Fin 11008)

/-- The second value table's block at (g, j): row 2 g + 1 of the value table. -/
theorem col3 (c : Dev nD) (t : Fin cfg0.N) (d3 : S1024x1024.Idx → Elt Ideal .f32) (g : Fin 1024) (j : Fin 1024)
    (h : 1024 * (t.val / 8) + j.val < 11008) :
    win0_3.fill (grid0.coords t) d3 (iblk m c 3 t) (ix2 g j)
      = vals m c (ix2 (Cert.Spec.hi g) (⟨1024 * (t.val / 8) + j.val, h⟩ : Fin 11008)) := by
  have hm : win0_3.moved (grid0.coords t) (ix2 g j) = true := (Cert.Blocks.moved3 t (ix2 g j)).mpr h
  unfold Pipeline.Window.fill
  rw [dif_pos hm]
  unfold iblk
  rw [Cert.Blocks.read_blk3 c t]
  exact Cert.HostPrefix.V_v30 m c g (⟨1024 * (t.val / 8) + j.val, h⟩ : Fin 11008)

/-- The selector words' block at (w, j): the word of row w at the column. -/
theorem col4 (c : Dev nD) (t : Fin cfg0.N) (d4 : S128x1024.Idx → Elt Ideal .i32) (w : Fin 128) (j : Fin 1024)
    (h : 1024 * (t.val / 8) + j.val < 11008) :
    win0_4.fill (grid0.coords t) d4 (iblk m c 4 t) (ix2 w j)
      = m ((c.tc : Thread nD τ).loc main_arg6) (ix2 w (⟨1024 * (t.val / 8) + j.val, h⟩ : Fin 11008)) := by
  have hm : win0_4.moved (grid0.coords t) (ix2 w j) = true := (Cert.Blocks.moved4 t (ix2 w j)).mpr h
  unfold Pipeline.Window.fill
  rw [dif_pos hm]
  unfold iblk
  rw [Cert.Blocks.read_blk4 c t]
  exact congrFun (V_main_arg6 m c) (ix2 w (⟨1024 * (t.val / 8) + j.val, h⟩ : Fin 11008))

/-- The scales' block at (s, j): the scale of group s at the column times the column sign. -/
theorem col5 (c : Dev nD) (t : Fin cfg0.N) (d5 : S32x1024.Idx → Elt Ideal .f32) (s : Fin 32) (j : Fin 1024)
    (h : 1024 * (t.val / 8) + j.val < 11008) :
    win0_5.fill (grid0.coords t) d5 (iblk m c 5 t) (ix2 s j)
      = @HMul.hMul EReal EReal EReal instHMul
          (m ((c.tc : Thread nD τ).loc main_arg1) (ix2 s (⟨1024 * (t.val / 8) + j.val, h⟩ : Fin 11008)))
          (m ((c.tc : Thread nD τ).loc main_arg3) (ix1 (⟨1024 * (t.val / 8) + j.val, h⟩ : Fin 11008))) := by
  have hm : win0_5.moved (grid0.coords t) (ix2 s j) = true := (Cert.Blocks.moved5 t (ix2 s j)).mpr h
  unfold Pipeline.Window.fill
  rw [dif_pos hm]
  unfold iblk
  rw [Cert.Blocks.read_blk5 c t]
  exact Cert.HostPrefix.V_v33 m c s (⟨1024 * (t.val / 8) + j.val, h⟩ : Fin 11008)

/-- The activations' block at (r, k): row 512 (t % 8) + r of the activations. -/
theorem row0 (c : Dev nD) (t : Fin cfg0.N) (r : Fin 512) (k : Fin 4096) :
    iblk m c 0 t (ix2 r k)
      = m ((c.tc : Thread nD τ).loc main_arg0) (ix2 (⟨512 * (t.val % 8) + r.val, by omega⟩ : Fin 4096) k) := by
  unfold iblk
  rw [Cert.Blocks.read_blk0 c t]
  exact congrFun (V_main_arg0 m c) (ix2 (⟨512 * (t.val % 8) + r.val, by omega⟩ : Fin 4096) k)

/-- The row signs' block is the whole vector. -/
theorem row1 (c : Dev nD) (t : Fin cfg0.N) (k : Fin 4096) :
    iblk m c 1 t (ix1 k) = m ((c.tc : Thread nD τ).loc main_arg2) (ix1 k) := by
  unfold iblk
  rw [Cert.Blocks.read_blk1 c t]
  exact congrFun (V_main_arg2 m c) (ix1 k)

/-- A coordinate of the result's block at point t lies inside the block and, along the columns, inside the array. -/
theorem inb6 (c : Dev nD) (t : Fin cfg0.N) (y : (win0_6.xblock (grid0.coords t)).Idx) :
    1024 * (t.val / 8) + (y 1).val < 11008 ∧ (y 1).val < 1024 ∧ (y 0).val < 512 := by
  have h0 : (y 0).val < (cfg0.win 6).xsize (grid0.coords t) (0 : Fin 2) := (y 0).isLt
  have h1 : (y 1).val < (cfg0.win 6).xsize (grid0.coords t) (1 : Fin 2) := (y 1).isLt
  rw [(Cert.Blocks.xsize6 t).1] at h0
  rw [(Cert.Blocks.xsize6 t).2] at h1
  omega

/-- The result's block at point t read off the result array: element (512 (t % 8) + y₀, 1024 (t / 8) + y₁). -/
theorem out6 (c : Dev nD) (t : Fin cfg0.N) (y : (win0_6.xblock (grid0.coords t)).Idx) :
    (win0_6.blk t).view.read (Elt Ideal) (G m c) y
      = G m c (ix2 (⟨512 * (t.val % 8) + (y 0).val, by have := (inb6 c t y).2.2; omega⟩ : Fin 4096)
               (⟨1024 * (t.val / 8) + (y 1).val, (inb6 c t y).1⟩ : Fin 11008)) :=
  Cert.Blocks.read_blk6 c t (G m c) y

end Cert.KernelIdeal.Cols

end
-- ==== Proof.Finite.lean ====
/-
  Finite inputs.

  The precondition compares, entry by entry, the absolute value of each of the five real-valued inputs with +∞, takes the
  conjunction over every entry of each input, and then the conjunction of the five. On the extended reals the absolute
  value is max x (-x), and max x (-x) < +∞ leaves exactly the real numbers: at -∞ and at +∞ the maximum is +∞. So the
  precondition holding says every entry of the five inputs is a real number (`finite_of_pre`). A table lookup only
  repeats entries of the table, so a lookup into a table of real numbers has only real entries (`vals_finite`).
-/
import proofs.«416245_j678604833216_3_alg».proof.Pre_finite_inputs
import proofs.«416245_j678604833216_3_alg».proof.Proof.Gen.Pre_finite_inputs
import proofs.«416245_j678604833216_3_alg».proof.Proof.RefRead
import Idealize.ShloMosaic.Lib.ReduceAll
import Idealize.ShloMosaic.Lib.ValueIdx
import Idealize.ShloMosaic.Lib.Affine
import Idealize.ShloMosaic.PureOps.Ideal.Laws

open Cert.Pre_finite_inputs Idealize.ShloMosaic Idealize.ShloMosaic.ValueIdx

noncomputable section

namespace Cert.Finite

/-- The rank-0 shape has one index. -/
instance : Subsingleton S_.Idx := ⟨fun a b => funext fun d => d.elim0⟩

/-- The pattern `0x7F800000` denotes `+∞`. -/
theorem inf_bits : Ideal.ofBits .f32 0x7F800000#32 = (⊤ : EReal) := by
  simp [Ideal.ofBits, Ideal.ieee]

/-- An extended real whose absolute value `max x (-x)` is below `+∞` is a real number. -/
theorem real_of_abs_lt (x : EReal) (h : Ideal.cmp .olt (max x (-x)) (Ideal.ofBits .f32 0x7F800000#32) = 1#1) :
    ∃ a : ℝ, x = (a : EReal) := by
  rw [inf_bits] at h
  have hlt : max x (-x) < ⊤ := by
    by_contra hn
    simp [Ideal.cmp, hn] at h
  induction x using EReal.rec with
  | bot => simp at hlt
  | coe a => exact ⟨a, rfl⟩
  | top => simp at hlt

/-- An array all of whose entries pass `|x| < +∞` has only real entries. -/
theorem finite_of_all {s : Shape} {axes : List (Fin s.rank)} (x : FVec Ideal s .f32) (dims : Fin S_.rank → Fin s.rank)
    (hb : S_.BroadcastsInDim s dims) (hr : s.ReducesTo axes S_) (hu : 0 < S_.numel) (init : IVec S_ 1)
    (e : Host.reduce IntOp.andi (cmpf .olt (Host.absf x) (broadcastInDim s dims hb (constant (F := Ideal) S_ .f32 0x7F800000#32))) init hr hu ix0 = 1#1) :
    ∀ y, ∃ a : ℝ, x y = (a : EReal) := by
  intro y
  have hy := Host.reduce_andi_all _ init hr hu ix0 e y
  exact real_of_abs_lt (x y) hy

/-- The precondition holds only when every float input is finite. -/
theorem finite_of_pre (x0 : FVec Ideal S4096x4096 .f32) (x1 : FVec Ideal S32x11008 .f32) (x2 : FVec Ideal S4096 .f32) (x3 : FVec Ideal S11008 .f32) (x4 : FVec Ideal S8 .f32) (x5 : IVec S128x688x96 32) (x6 : IVec S128x11008 32)
    (h : Cert.Pre_finite_inputs.fn (F := Ideal) x0 x1 x2 x3 x4 x5 x6 = fun _ => 1#1) :
    (∀ y, ∃ a : ℝ, x0 y = (a : EReal)) ∧ (∀ y, ∃ a : ℝ, x1 y = (a : EReal)) ∧ (∀ y, ∃ a : ℝ, x2 y = (a : EReal)) ∧ (∀ y, ∃ a : ℝ, x3 y = (a : EReal)) ∧ (∀ y, ∃ a : ℝ, x4 y = (a : EReal)) := by
  have h0 := congrFun h ix0
  dsimp only [fn, fn_part1, Idealize.ShloMosaic.andi] at h0
  simp only [IntOp.andi_eq_one] at h0
  obtain ⟨⟨⟨⟨e0, e1⟩, e2⟩, e3⟩, e4⟩ := h0
  exact ⟨finite_of_all x0 _ _ _ _ _ e0, finite_of_all x1 _ _ _ _ _ e1, finite_of_all x2 _ _ _ _ _ e2,
    finite_of_all x3 _ _ _ _ _ e3, finite_of_all x4 _ _ _ _ _ e4⟩

/-- A gather from a table of real numbers has only real entries. -/
theorem vals_finite (x4 : (⟨Cert.ReferenceIdeal.S8, .f32⟩ : BufTy).Contents (Elt Ideal)) (x5 : (⟨Cert.ReferenceIdeal.S128x688x96, .i32⟩ : BufTy).Contents (Elt Ideal)) (h4 : ∀ y, ∃ a : ℝ, x4 y = (a : EReal)) :
    ∀ y, ∃ a : ℝ, Cert.ReferenceIdeal.ReadP.val_main_v25 (F := Ideal) x4 x5 y = (a : EReal) := by
  intro y
  unfold Cert.ReferenceIdeal.ReadP.val_main_v25
  generalize Cert.ReferenceIdeal.ReadP.val_main_v24 (F := Ideal) x5 = idx
  unfold Host.gather
  exact h4 _

end Cert.Finite
-- ==== Proof.KPure.lean ====
/-
  Three facts about the weight and the activations on the extended reals.

  Column j of a block is column J of the arrays: then the block formula of the weight is the specification's weight, both reading the
  same nibble by the same shift and masks. Where every float argument is a real number, the weight the kernel keeps is a real number
  (an entry of the value table or zero, times a scale times a column sign), so is an activation times its row sign, and a real
  number minus itself is zero.
-/
import proofs.«416245_j678604833216_3_alg».proof.Proof.Spec
import proofs.«416245_j678604833216_3_alg».proof.Proof.BlockSpec
import proofs.«416245_j678604833216_3_alg».proof.Proof.KData
import proofs.«416245_j678604833216_3_alg».proof.Proof.Finite
import Idealize.ShloMosaic.Lib.ValueIdx
import Mathlib.Data.EReal.Operations

noncomputable section

namespace Cert.KernelIdeal.Pure

open Cert.KernelIdeal Cert.KernelIdeal.Gen Cert.KernelIdeal.Data
open Idealize.ShloMosaic Idealize.ShloMosaic.ValueIdx Idealize.ShloMosaic.TcCoe

/-! ## The block formula on a column of the arrays

Column j of the block is column J of the arrays: the two value tables' column j holds the value table's rows 2 g and 2 g + 1 of column
J, the selector words' and the scales' column j hold column J's (the scales already times the column sign). Then the block formula
is the specification's weight: both read the same nibble by the same shift and masks. -/

/-- The unscaled weight. -/
theorem selOf_eq_wsel (a b : (Cert.BlockSpec.Sh2 1024 1024).Idx → EReal) (mw : (Cert.BlockSpec.Sh2 128 1024).Idx → BitVec 32)
    (vals : (Cert.Spec.Sh2 2048 11008).Idx → EReal) (sel : (Cert.Spec.Sh2 128 11008).Idx → BitVec 32) (J : Fin 11008) (j : Fin 1024)
    (ha : ∀ g : Fin 1024, a (ix2 g j) = vals (ix2 (Cert.Spec.lo g) J)) (hb : ∀ g : Fin 1024, b (ix2 g j) = vals (ix2 (Cert.Spec.hi g) J))
    (hm : ∀ w : Fin 128, mw (ix2 w j) = sel (ix2 w J)) (k : Fin 4096) :
    Cert.BlockSpec.selOf (W := 128) a b mw k j = Cert.Spec.wsel vals sel k J := by
  unfold Cert.Spec.wsel Cert.Spec.pos1 Cert.Spec.pos0 Cert.Spec.nib
  rw [← hm, ← ha (Cert.Spec.grp k), ← hb (Cert.Spec.grp k)]
  rfl

/-- The scaled weight. -/
theorem wBlock_eq_wKer (a b : (Cert.BlockSpec.Sh2 1024 1024).Idx → EReal) (mw : (Cert.BlockSpec.Sh2 128 1024).Idx → BitVec 32) (sc : (Cert.BlockSpec.Sh2 32 1024).Idx → EReal)
    (vals : (Cert.Spec.Sh2 2048 11008).Idx → EReal) (sel : (Cert.Spec.Sh2 128 11008).Idx → BitVec 32) (scales : (Cert.Spec.Sh2 32 11008).Idx → EReal)
    (sv : (Cert.Spec.Sh1 11008).Idx → EReal) (J : Fin 11008) (j : Fin 1024)
    (ha : ∀ g : Fin 1024, a (ix2 g j) = vals (ix2 (Cert.Spec.lo g) J)) (hb : ∀ g : Fin 1024, b (ix2 g j) = vals (ix2 (Cert.Spec.hi g) J))
    (hm : ∀ w : Fin 128, mw (ix2 w j) = sel (ix2 w J)) (hs : ∀ s : Fin 32, sc (ix2 s j) = scales (ix2 s J) * sv (ix1 J)) (k : Fin 4096) :
    Cert.BlockSpec.wBlock a b mw sc k j = Cert.Spec.wKer vals sel scales sv k J := by
  unfold Cert.BlockSpec.wBlock Cert.Spec.wKer
  rw [selOf_eq_wsel a b mw vals sel J j ha hb hm k, ← hs (Cert.Spec.sgrp k)]

/-! ## Real numbers -/

variable (m : (ℓ : Loc nD τ sig) → Buf (Elt Ideal) ℓ)

/-- An entry of the unscaled weight is an entry of the value table or zero. -/
theorem wsel_real (c : Dev nD) (hfin : FinArgs m c) (k : Fin 4096) (J : Fin 11008) :
    ∃ a : ℝ, Cert.Spec.wsel (vals m c) (m ((c.tc : Thread nD τ).loc main_arg6)) k J = (a : EReal) := by
  have hv := Cert.Finite.vals_finite (m ((c.tc : Thread nD τ).loc main_arg4)) (m ((c.tc : Thread nD τ).loc main_arg5)) hfin.2.2.2.2
  unfold Cert.Spec.wsel
  split
  · exact hv _
  · split
    · exact hv _
    · exact ⟨0, rfl⟩

/-- The weight the kernel keeps is a real number: a product of three. -/
theorem wArr_real (c : Dev nD) (hfin : FinArgs m c) (k : Fin 4096) (J : Fin 11008) : ∃ a : ℝ, wArr m c k J = (a : EReal) := by
  obtain ⟨w, hw⟩ := wsel_real m c hfin k J
  obtain ⟨s, hs⟩ := hfin.2.1 (ix2 (Cert.Spec.sgrp k) J)
  obtain ⟨v, hv⟩ := hfin.2.2.2.1 (ix1 J)
  refine ⟨w * (s * v), ?_⟩
  unfold wArr Cert.Spec.wKer
  rw [hw, hs, hv, EReal.coe_mul, EReal.coe_mul]

/-- An activation times its row sign is a real number. -/
theorem xsu_real (c : Dev nD) (hfin : FinArgs m c) (i k : Fin 4096) :
    ∃ a : ℝ, HMul.hMul (α := EReal) (β := EReal) (γ := EReal) (m ((c.tc : Thread nD τ).loc main_arg0) (ix2 i k)) (m ((c.tc : Thread nD τ).loc main_arg2) (ix1 k)) = (a : EReal) := by
  obtain ⟨x, hx⟩ := hfin.1 (ix2 i k)
  obtain ⟨u, hu⟩ := hfin.2.2.1 (ix1 k)
  exact ⟨x * u, by rw [hx, hu, EReal.coe_mul]⟩

/-- The weight minus itself is zero. -/
theorem wArr_sub_self (c : Dev nD) (hfin : FinArgs m c) (k : Fin 4096) (J : Fin 11008) : wArr m c k J - wArr m c k J = 0 := by
  obtain ⟨a, ha⟩ := wArr_real m c hfin k J
  rw [ha, ← EReal.coe_sub, sub_self, EReal.coe_zero]

end Cert.KernelIdeal.Pure

end
-- ==== Proof.KMathB.lean ====
/-
  The result block where the weights are kept.

  The result tile at entry (r, j) is, with t (r, k) = x (r, k) · su k: (t · A + t · B) + (t − t) · A for the two weight buffers A and B.
  Where the inputs are real numbers t − t = 0; where the buffers are good for the column block (A the weight of the arrays, B zero, on
  the columns inside the arrays) the entry is ∑ k, (x (i, k) · su k) · w (k, J) with i, J the entry's row and column in the arrays:
  the specification's result in the kernel's association. Cut to the columns inside the array, the tile is the block of the result array.
-/
import proofs.«416245_j678604833216_3_alg».proof.Proof.KData
import proofs.«416245_j678604833216_3_alg».proof.Proof.Values
import proofs.«416245_j678604833216_3_alg».proof.Proof.PayOut
import proofs.«416245_j678604833216_3_alg».proof.Proof.KCols
import proofs.«416245_j678604833216_3_alg».proof.Proof.KPure
import Idealize.ShloMosaic.Lib.Pipeline.Value
import Idealize.ShloMosaic.Lib.ValueIdx

set_option maxRecDepth 16384

noncomputable section

open scoped BigOperators

namespace Cert.KernelIdeal.Math

open Cert.KernelIdeal Cert.KernelIdeal.Gen Cert.KernelIdeal.Body Cert.KernelIdeal.Data Idealize.ShloMosaic Idealize.ShloMosaic.ValueIdx Idealize.ShloMosaic.TcCoe Idealize.SL.Sem

variable (m : (ℓ : Loc nD τ sig) → Buf (Elt Ideal) ℓ)

/-! ## The result tile at one entry

With the activations' row and the row signs real numbers, the second weight buffer zero in the column and the first holding the
weights W k, the tile's entry is the single sum over the contracted coordinate. -/

theorem tile_entry (x2 : Vec Ideal S512x4096 .f32) (x3 : Vec Ideal S4096 .f32) (S9 S10 : Vec Ideal S4096x1024 .bf16)
    (X : Fin 4096 → EReal) (su : Fin 4096 → EReal) (W : Fin 4096 → EReal) (r : Fin 512) (j : Fin 1024)
    (hx2 : ∀ k : Fin 4096, x2 (ix2 r k) = X k) (hx3 : ∀ k : Fin 4096, x3 (ix1 k) = su k)
    (hreal : ∀ k : Fin 4096, ∃ a : ℝ, X k * su k = (a : EReal))
    (h9 : ∀ k : Fin 4096, S9 (ix2 k j) = W k) (h10 : ∀ k : Fin 4096, S10 (ix2 k j) = 0) :
    k0_pay1 (F := Ideal) x2 x3 S9 S10 (ix2 r j) = ∑ k : Fin 4096, (X k * su k) * W k := by
  rw [Cert.PayOut.pay1_of_finite x2 x3 S9 S10 r j (fun k => by rw [hx2 k, hx3 k]; exact hreal k) h10]
  refine Finset.sum_congr rfl fun k _ => ?_
  rw [hx2 k, hx3 k, h9 k]

/-! ## The result block -/

/-- With the weight buffers good for the column block, the product payload, cut to the columns inside the array, is the block of the
    result array. -/
theorem tile_block (c : Dev nD) (t : Fin cfg0.N) (S9 S10 : Vec Ideal S4096x1024 .bf16)
    (hgood : Good m c (t.val / 8) S9 S10) (hfin : FinArgs m c) :
    win0_6.cut (grid0.coords t) (k0_pay1 (F := Ideal) (iblk m c 0 t) (iblk m c 1 t) S9 S10)
      = (win0_6.blk t).view.read (Elt Ideal) (G m c) := by
  funext y
  obtain ⟨hJ, hj, hr⟩ := Cert.KernelIdeal.Cols.inb6 c t y
  have hI : 512 * (t.val % 8) + (y 0).val < 4096 := by omega
  rw [Cert.KernelIdeal.Cols.out6 m c t y]
  have hy : win0_6.xinj (grid0.coords t) y = ix2 (⟨(y 0).val, hr⟩ : Fin 512) (⟨(y 1).val, hj⟩ : Fin 1024) := by
    funext a; match a with | ⟨0, _⟩ => rfl | ⟨1, _⟩ => rfl
  show k0_pay1 (F := Ideal) (iblk m c 0 t) (iblk m c 1 t) S9 S10 (win0_6.xinj (grid0.coords t) y) = _
  rw [hy, tile_entry (iblk m c 0 t) (iblk m c 1 t) S9 S10
    (fun k => m ((c.tc : Thread nD τ).loc main_arg0) (ix2 (⟨512 * (t.val % 8) + (y 0).val, hI⟩ : Fin 4096) k))
    (fun k => m ((c.tc : Thread nD τ).loc main_arg2) (ix1 k))
    (fun k => wArr m c k (⟨1024 * (t.val / 8) + (y 1).val, hJ⟩ : Fin 11008))
    (⟨(y 0).val, hr⟩ : Fin 512) (⟨(y 1).val, hj⟩ : Fin 1024)
    (fun k => Cert.KernelIdeal.Cols.row0 m c t (⟨(y 0).val, hr⟩ : Fin 512) k)
    (fun k => Cert.KernelIdeal.Cols.row1 m c t k)
    (fun k => Cert.KernelIdeal.Pure.xsu_real m c hfin (⟨512 * (t.val % 8) + (y 0).val, hI⟩ : Fin 4096) k)
    (fun k => (hgood k (⟨(y 1).val, hj⟩ : Fin 1024) hJ).1)
    (fun k => (hgood k (⟨(y 1).val, hj⟩ : Fin 1024) hJ).2)]
  unfold G wArr
  unfold Cert.Spec.outKer
  rfl

theorem mathB (c : Dev nD) (t : Fin cfg0.N) (arg2 : Memref sig .tc .vmem S512x4096 .f32) (harg2 : arg2.IsWhole) (arg3 : Memref sig .tc .vmem S4096 .f32) (harg3 : arg3.IsWhole)
    (arg4 : Memref sig .tc .vmem S1024x1024 .f32) (harg4 : arg4.IsWhole) (arg5 : Memref sig .tc .vmem S1024x1024 .f32) (harg5 : arg5.IsWhole)
    (arg6 : Memref sig .tc .vmem S128x1024 .i32) (harg6 : arg6.IsWhole) (arg7 : Memref sig .tc .vmem S32x1024 .f32) (harg7 : arg7.IsWhole)
    (arg8 : Memref sig .tc .vmem S512x1024 .f32) (harg8 : arg8.IsWhole) (arg9 : Memref sig .tc .vmem S4096x1024 .bf16) (harg9 : arg9.IsWhole)
    (arg10 : Memref sig .tc .vmem S4096x1024 .bf16) (harg10 : arg10.IsWhole) (hc : ¬cond0 (grid0.coords t))
    (x4 x5 : Vec Ideal S1024x1024 .f32) (x6 : Vec Ideal S128x1024 .i32) (x7 : Vec Ideal S32x1024 .f32) (S9 S10 : Vec Ideal S4096x1024 .bf16)
    (hgood : Good m c (t.val / 8) S9 S10) (hfin : FinArgs m c) (f8 : Buf (Elt Ideal) (arg8.view.loc (c : Thread nD τ))) :
    win0_6.cut (grid0.coords t) (arg8.view.read (Elt Ideal) (arg8.view.writes (Elt Ideal) f8
        (runB c (grid0.coords t) arg2 harg2 arg3 harg3 arg4 harg4 arg5 harg5 arg6 harg6 arg7 harg7 arg8 harg8 arg9 harg9 arg10 harg10 hc (iblk m c 0 t) (iblk m c 1 t) x4 x5 x6 x7 S9 S10).1))
      = (win0_6.blk t).view.read (Elt Ideal) (G m c) := by
  rw [Cert.Values.readB8]
  exact tile_block m c t S9 S10 hgood hfin

end Cert.KernelIdeal.Math

end
-- ==== Proof.KMath.lean ====
/-
  The result block and the weight buffers where the weights are rebuilt.

  Each weight buffer read back is the block formula on the staging buffers of the two value tables, the selector words and the scales
  (the low-part buffer: the formula less itself). On a column inside the arrays those staging buffers hold the arrays' column, so the
  formula is the weight of the arrays; the weight is a real number there (a table entry, or zero, times real scales), so the low part
  w − w is zero: the buffers are good for the column block. The result block then follows as where the weights are kept.
-/
import proofs.«416245_j678604833216_3_alg».proof.Proof.KData
import proofs.«416245_j678604833216_3_alg».proof.Proof.Values
import proofs.«416245_j678604833216_3_alg».proof.Proof.PayOut
import proofs.«416245_j678604833216_3_alg».proof.Proof.KCols
import proofs.«416245_j678604833216_3_alg».proof.Proof.KPure
import proofs.«416245_j678604833216_3_alg».proof.Proof.KMathB
import proofs.«416245_j678604833216_3_alg».proof.Proof.BlockSpec
import Idealize.ShloMosaic.Lib.Pipeline.Value
import Idealize.ShloMosaic.Lib.ValueIdx

set_option maxRecDepth 16384

noncomputable section

open scoped BigOperators

namespace Cert.KernelIdeal.Math

open Cert.KernelIdeal Cert.KernelIdeal.Gen Cert.KernelIdeal.Body Cert.KernelIdeal.Data Idealize.ShloMosaic Idealize.ShloMosaic.ValueIdx Idealize.ShloMosaic.TcCoe Idealize.SL.Sem

variable (m : (ℓ : Loc nD τ sig) → Buf (Elt Ideal) ℓ)

/-! ## The rebuilt weights -/

/-- The block formula on the filled staging buffers is the weight of the arrays, on a column inside the arrays. -/
theorem wBlock_fill (c : Dev nD) (t : Fin cfg0.N)
    (d2 d3 : S1024x1024.Idx → Elt Ideal .f32) (d4 : S128x1024.Idx → Elt Ideal .i32) (d5 : S32x1024.Idx → Elt Ideal .f32)
    (k : Fin 4096) (j : Fin 1024) (h : 1024 * (t.val / 8) + j.val < 11008) :
    Cert.BlockSpec.wBlock (win0_2.fill (grid0.coords t) d2 (iblk m c 2 t)) (win0_3.fill (grid0.coords t) d3 (iblk m c 3 t))
        (win0_4.fill (grid0.coords t) d4 (iblk m c 4 t)) (win0_5.fill (grid0.coords t) d5 (iblk m c 5 t)) k j
      = wArr m c k (⟨1024 * (t.val / 8) + j.val, h⟩ : Fin 11008) :=
  Cert.KernelIdeal.Pure.wBlock_eq_wKer _ _ _ _ (vals m c) (m ((c.tc : Thread nD τ).loc main_arg6))
    (m ((c.tc : Thread nD τ).loc main_arg1)) (m ((c.tc : Thread nD τ).loc main_arg3)) (⟨1024 * (t.val / 8) + j.val, h⟩ : Fin 11008) j
    (fun g => Cert.KernelIdeal.Cols.col2 m c t d2 g j h) (fun g => Cert.KernelIdeal.Cols.col3 m c t d3 g j h)
    (fun w => Cert.KernelIdeal.Cols.col4 m c t d4 w j h) (fun s => Cert.KernelIdeal.Cols.col5 m c t d5 s j h) k

theorem mathA (c : Dev nD) (t : Fin cfg0.N) (arg2 : Memref sig .tc .vmem S512x4096 .f32) (harg2 : arg2.IsWhole) (arg3 : Memref sig .tc .vmem S4096 .f32) (harg3 : arg3.IsWhole)
    (arg4 : Memref sig .tc .vmem S1024x1024 .f32) (harg4 : arg4.IsWhole) (arg5 : Memref sig .tc .vmem S1024x1024 .f32) (harg5 : arg5.IsWhole)
    (arg6 : Memref sig .tc .vmem S128x1024 .i32) (harg6 : arg6.IsWhole) (arg7 : Memref sig .tc .vmem S32x1024 .f32) (harg7 : arg7.IsWhole)
    (arg8 : Memref sig .tc .vmem S512x1024 .f32) (harg8 : arg8.IsWhole) (arg9 : Memref sig .tc .vmem S4096x1024 .bf16) (harg9 : arg9.IsWhole)
    (arg10 : Memref sig .tc .vmem S4096x1024 .bf16) (harg10 : arg10.IsWhole) (hc : cond0 (grid0.coords t))
    (d2 d3 : S1024x1024.Idx → Elt Ideal .f32) (d4 : S128x1024.Idx → Elt Ideal .i32) (d5 : S32x1024.Idx → Elt Ideal .f32)
    (hfin : FinArgs m c) (f8 : Buf (Elt Ideal) (arg8.view.loc (c : Thread nD τ))) (f9 : Buf (Elt Ideal) (arg9.view.loc (c : Thread nD τ)))
    (f10 : Buf (Elt Ideal) (arg10.view.loc (c : Thread nD τ))) :
    win0_6.cut (grid0.coords t) (arg8.view.read (Elt Ideal) (arg8.view.writes (Elt Ideal) f8
        (runA c (grid0.coords t) arg2 harg2 arg3 harg3 arg4 harg4 arg5 harg5 arg6 harg6 arg7 harg7 arg8 harg8 arg9 harg9 arg10 harg10 hc (iblk m c 0 t) (iblk m c 1 t)
          (win0_2.fill (grid0.coords t) d2 (iblk m c 2 t)) (win0_3.fill (grid0.coords t) d3 (iblk m c 3 t))
          (win0_4.fill (grid0.coords t) d4 (iblk m c 4 t)) (win0_5.fill (grid0.coords t) d5 (iblk m c 5 t))).1.1))
      = (win0_6.blk t).view.read (Elt Ideal) (G m c)
    ∧ Good m c (t.val / 8)
        (arg9.view.read (Elt Ideal) (arg9.view.writes (Elt Ideal) f9
          (runA c (grid0.coords t) arg2 harg2 arg3 harg3 arg4 harg4 arg5 harg5 arg6 harg6 arg7 harg7 arg8 harg8 arg9 harg9 arg10 harg10 hc (iblk m c 0 t) (iblk m c 1 t)
          (win0_2.fill (grid0.coords t) d2 (iblk m c 2 t)) (win0_3.fill (grid0.coords t) d3 (iblk m c 3 t))
          (win0_4.fill (grid0.coords t) d4 (iblk m c 4 t)) (win0_5.fill (grid0.coords t) d5 (iblk m c 5 t))).1.2.1))
        (arg10.view.read (Elt Ideal) (arg10.view.writes (Elt Ideal) f10
          (runA c (grid0.coords t) arg2 harg2 arg3 harg3 arg4 harg4 arg5 harg5 arg6 harg6 arg7 harg7 arg8 harg8 arg9 harg9 arg10 harg10 hc (iblk m c 0 t) (iblk m c 1 t)
          (win0_2.fill (grid0.coords t) d2 (iblk m c 2 t)) (win0_3.fill (grid0.coords t) d3 (iblk m c 3 t))
          (win0_4.fill (grid0.coords t) d4 (iblk m c 4 t)) (win0_5.fill (grid0.coords t) d5 (iblk m c 5 t))).1.2.2)) := by
  refine ⟨?_, ?_⟩
  · obtain ⟨S9, S10, h9, h10, hread⟩ := Cert.Values.readA8 c (grid0.coords t) arg2 harg2 arg3 harg3 arg4 harg4 arg5 harg5 arg6 harg6 arg7 harg7 arg8 harg8 arg9 harg9 arg10 harg10 hc (iblk m c 0 t) (iblk m c 1 t)
      (win0_2.fill (grid0.coords t) d2 (iblk m c 2 t)) (win0_3.fill (grid0.coords t) d3 (iblk m c 3 t))
      (win0_4.fill (grid0.coords t) d4 (iblk m c 4 t)) (win0_5.fill (grid0.coords t) d5 (iblk m c 5 t)) f8
    rw [hread]
    refine tile_block m c t S9 S10 (fun k j h => ⟨?_, ?_⟩) hfin
    · rw [h9 k j]; exact wBlock_fill m c t d2 d3 d4 d5 k j h
    · rw [h10 k j, wBlock_fill m c t d2 d3 d4 d5 k j h]; exact Cert.KernelIdeal.Pure.wArr_sub_self m c hfin k _
  · intro k j h
    refine ⟨?_, ?_⟩
    · rw [Cert.Values.readA9]; exact wBlock_fill m c t d2 d3 d4 d5 k j h
    · rw [Cert.Values.readA10, wBlock_fill m c t d2 d3 d4 d5 k j h]; exact Cert.KernelIdeal.Pure.wArr_sub_self m c hfin k _

end Cert.KernelIdeal.Math

end
-- ==== Proof.KLaunch.lean ====
/-
  The launch of the kernel's pipeline at the idealized instance. At every grid point the body runs from what the pipeline hands it — the
  activations' block, the sign row, and, on the columns inside the arrays, the two value tables', the selector words' and the scales'
  blocks — and from the two weight buffers, to the result block of the result array and the weight buffers the next point needs: at the
  first point of a column block it rebuilds the weights (and the buffers then hold that block's weights and their zero remainder), at
  the other points it keeps them. The windows whose last column block overhangs the arrays are stated on the columns inside only; past
  them the staging buffers hold words the proof does not name, and no column of the result inside the array depends on them.
-/
import proofs.«416245_j678604833216_3_alg».proof.Proof.KData
import proofs.«416245_j678604833216_3_alg».proof.Proof.Blocks
import proofs.«416245_j678604833216_3_alg».proof.Proof.KMath
import Idealize.ShloMosaic.Lib.Memref

set_option maxRecDepth 16384

noncomputable section

namespace Cert.KernelIdeal.Launch

open Cert.KernelIdeal Cert.KernelIdeal.Gen Cert.KernelIdeal.Body Cert.KernelIdeal.Data Cert.KernelIdeal.Math

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## What the body finds in the cut input windows -/

/-- Window 2's staging buffer at any point, fetched there or not: its block on the columns inside the array, `d` past them (the block
    index moves only with the column block, and the cut is a function of the block index). -/
theorem before_2 (c : Dev nD) (t : Fin cfg0.N) (d) : (dats m 0 c).before 2 t d = win0_2.fill (grid0.coords t) d (iblk m c 2 t) := by
  rw [(dats m 0 c).before_in_eq_fetched 2 rfl (fun _ => rfl) Cert.Blocks.clip_congr2
    (fun t => by rw [after_2]; unfold aft2 Dat.blockOf iblk; rw [A_eq]; exact Window.cut_fill _ _ _ _) t d]
  unfold Dat.fetched Dat.blockOf iblk; rw [A_eq]
theorem before_3 (c : Dev nD) (t : Fin cfg0.N) (d) : (dats m 0 c).before 3 t d = win0_3.fill (grid0.coords t) d (iblk m c 3 t) := by
  rw [(dats m 0 c).before_in_eq_fetched 3 rfl (fun _ => rfl) Cert.Blocks.clip_congr3
    (fun t => by rw [after_3]; unfold aft3 Dat.blockOf iblk; rw [A_eq]; exact Window.cut_fill _ _ _ _) t d]
  unfold Dat.fetched Dat.blockOf iblk; rw [A_eq]
theorem before_4 (c : Dev nD) (t : Fin cfg0.N) (d) : (dats m 0 c).before 4 t d = win0_4.fill (grid0.coords t) d (iblk m c 4 t) := by
  rw [(dats m 0 c).before_in_eq_fetched 4 rfl (fun _ => rfl) Cert.Blocks.clip_congr4
    (fun t => by rw [after_4]; unfold aft4 Dat.blockOf iblk; rw [A_eq]; exact Window.cut_fill _ _ _ _) t d]
  unfold Dat.fetched Dat.blockOf iblk; rw [A_eq]
theorem before_5 (c : Dev nD) (t : Fin cfg0.N) (d) : (dats m 0 c).before 5 t d = win0_5.fill (grid0.coords t) d (iblk m c 5 t) := by
  rw [(dats m 0 c).before_in_eq_fetched 5 rfl (fun _ => rfl) Cert.Blocks.clip_congr5
    (fun t => by rw [after_5]; unfold aft5 Dat.blockOf iblk; rw [A_eq]; exact Window.cut_fill _ _ _ _) t d]
  unfold Dat.fetched Dat.blockOf iblk; rw [A_eq]

/-- A whole memref's buffer at written contents is owned at what it then reads. -/
theorem owns_of_pt (c : Dev nD) {sp : Space} {S : Shape} {e : EltTy} (M : Memref sig .tc sp S e)
    (f : Buf (Elt Ideal) (M.view.loc (c : Thread nD τ))) :
    (M.view.loc (c : Thread nD τ) ↦[M.view.set]{fullShare} f : sProp 𝕄) ⊢ owns (c : Thread nD τ) M fullShare (M.view.read (Elt Ideal) f) := by
  unfold owns
  iintro H; iexists f; isplitr; · ipureintro; rfl
  iexact H

/-- What the loose windows' closed forms are on the columns inside the arrays. -/
theorem cut_aft2 (c : Dev nD) (t : Fin cfg0.N) (d) :
    (win0 2).fill (grid0.coords t) d ((win0 2).cut (grid0.coords t) (aft2 m c t)) = win0_2.fill (grid0.coords t) d (iblk m c 2 t) := by
  unfold aft2; exact congrArg _ (Window.cut_fill win0_2 _ _ _)
theorem cut_aft3 (c : Dev nD) (t : Fin cfg0.N) (d) :
    (win0 3).fill (grid0.coords t) d ((win0 3).cut (grid0.coords t) (aft3 m c t)) = win0_3.fill (grid0.coords t) d (iblk m c 3 t) := by
  unfold aft3; exact congrArg _ (Window.cut_fill win0_3 _ _ _)
theorem cut_aft4 (c : Dev nD) (t : Fin cfg0.N) (d) :
    (win0 4).fill (grid0.coords t) d ((win0 4).cut (grid0.coords t) (aft4 m c t)) = win0_4.fill (grid0.coords t) d (iblk m c 4 t) := by
  unfold aft4; exact congrArg _ (Window.cut_fill win0_4 _ _ _)
theorem cut_aft5 (c : Dev nD) (t : Fin cfg0.N) (d) :
    (win0 5).fill (grid0.coords t) d ((win0 5).cut (grid0.coords t) (aft5 m c t)) = win0_5.fill (grid0.coords t) d (iblk m c 5 t) := by
  unfold aft5; exact congrArg _ (Window.cut_fill win0_5 _ _ _)
/-- The result's staging buffer, left at contents whose part inside the array is the result array's block, is what the loose window's
    obligation asks. -/
theorem cut_aft6 (c : Dev nD) (t : Fin cfg0.N) (O : S512x1024.Idx → Elt Ideal .f32)
    (hO : win0_6.cut (grid0.coords t) O = (win0_6.blk t).view.read (Elt Ideal) (G m c)) :
    (win0 6).fill (grid0.coords t) O ((win0 6).cut (grid0.coords t) (aft6 m c t)) = O := by
  refine Window.fill_congr_cut win0_6 (grid0.coords t) ?_
  rw [hO]; unfold aft6; exact (Window.cut_fill win0_6 _ _ _).symm

theorem body_obligation (c : Dev nD) (hfin : FinArgs m c) :
    BodyObligationLoose (dats m 0 c) (defs₀ (F := Ideal)) Variants.none () Set.univ := fun t => by
  rw [bigSep_W0, bigSep_W0]
  simp only
  simp only [before_0, before_1, before_2, before_3, before_4, before_5]
  rw [show (dats m 0 c).owesAt () t.succ = (dats m 0 c).owesAt () t.castSucc from rfl,
    show (dats m 0 c).Φ t.castSucc = Phi m c t.castSucc from rfl, show (dats m 0 c).Φ t.succ = Phi m c t.succ from rfl,
    after_0, after_1, after_2, after_3, after_4, after_5, after_6]
  show _ ⊢ wp frame (wpE (defs₀ (F := Ideal)) Variants.none c none) Set.univ (bodyAt0 t) _
  unfold Phi
  have hsucc : (t.succ : Fin (cfg0.N + 1)).val = t.val + 1 := rfl
  have hcast : (t.castSucc : Fin (cfg0.N + 1)).val = t.val := rfl
  by_cases hc : cond0 (grid0.coords t)
  · have h8 : t.val % 8 = 0 := (hcond0 t).mp hc
    iintro ⟨⟨%S9, %S10, -, HS9, HS10, Hr⟩, Ho, ⟨%d0, H0⟩, ⟨%d1, H1⟩, ⟨%d2, H2⟩, ⟨%d3, H3⟩, ⟨%d4, H4⟩, ⟨%d5, H5⟩, ⟨%d6, H6⟩⟩
    have hM := mathA m c t (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (Memref.whole cc0_scratch0) (Memref.isWhole_whole _) (Memref.whole cc0_scratch1) (Memref.isWhole_whole _) hc d2 d3 d4 d5 hfin
    generalize hR : runA c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (Memref.whole cc0_scratch0) (Memref.isWhole_whole _) (Memref.whole cc0_scratch1) (Memref.isWhole_whole _) hc (iblk m c 0 t) (iblk m c 1 t)
      (win0_2.fill (grid0.coords t) d2 (iblk m c 2 t)) (win0_3.fill (grid0.coords t) d3 (iblk m c 3 t))
      (win0_4.fill (grid0.coords t) d4 (iblk m c 4 t)) (win0_5.fill (grid0.coords t) d5 (iblk m c 5 t)) = R at hM
    iapply (R.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS9]; · iexists _; iexact HS9
    isplitl [HS10]; · iexists _; iexact HS10
    iintro ⟨H0, H1, H2, H3, H4, H5, ⟨%f8, H8⟩, ⟨%f9, H9⟩, ⟨%f10, H10⟩⟩
    obtain ⟨hO, hG⟩ := hM f8 f9 f10
    isplitl [H9 H10 Hr]
    · iexists ((Memref.whole cc0_scratch0).view.read (Elt Ideal) ((Memref.whole cc0_scratch0).view.writes (Elt Ideal) f9 R.1.2.1)),
        ((Memref.whole cc0_scratch1).view.read (Elt Ideal) ((Memref.whole cc0_scratch1).view.writes (Elt Ideal) f10 R.1.2.2))
      isplitr
      · ipureintro; intro _
        rw [hsucc, show (t.val + 1) / 8 = t.val / 8 from by omega]; exact hG
      isplitl [H9]; · iapply (owns_of_pt c _ _); iexact H9
      isplitl [H10]; · iapply (owns_of_pt c _ _); iexact H10
      iexact Hr
    isplitl [Ho]; · iexact Ho
    isplitl [H0]; · iexact H0
    isplitl [H1]; · iexact H1
    isplitl [H2]; · iexists d2; rw [cut_aft2]; iexact H2
    isplitl [H3]; · iexists d3; rw [cut_aft3]; iexact H3
    isplitl [H4]; · iexists d4; rw [cut_aft4]; iexact H4
    isplitl [H5]; · iexists d5; rw [cut_aft5]; iexact H5
    iexists ((st0_6 t).view.read (Elt Ideal) ((st0_6 t).view.writes (Elt Ideal) f8 R.1.1))
    rw [cut_aft6 m c t _ hO]
    iapply (owns_of_pt c _ _); iexact H8
  · have h8 : t.val % 8 ≠ 0 := fun h => hc ((hcond0 t).mpr h)
    iintro ⟨⟨%S9, %S10, %hg, HS9, HS10, Hr⟩, Ho, ⟨%d0, H0⟩, ⟨%d1, H1⟩, ⟨%d2, H2⟩, ⟨%d3, H3⟩, ⟨%d4, H4⟩, ⟨%d5, H5⟩, ⟨%d6, H6⟩⟩
    have hgood : Good m c (t.val / 8) S9 S10 := hg h8
    have hM := mathB m c t (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (Memref.whole cc0_scratch0) (Memref.isWhole_whole _) (Memref.whole cc0_scratch1) (Memref.isWhole_whole _) hc
      (win0_2.fill (grid0.coords t) d2 (iblk m c 2 t)) (win0_3.fill (grid0.coords t) d3 (iblk m c 3 t))
      (win0_4.fill (grid0.coords t) d4 (iblk m c 4 t)) (win0_5.fill (grid0.coords t) d5 (iblk m c 5 t)) S9 S10 hgood hfin
    generalize hR : runB c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (Memref.whole cc0_scratch0) (Memref.isWhole_whole _) (Memref.whole cc0_scratch1) (Memref.isWhole_whole _) hc (iblk m c 0 t) (iblk m c 1 t)
      (win0_2.fill (grid0.coords t) d2 (iblk m c 2 t)) (win0_3.fill (grid0.coords t) d3 (iblk m c 3 t))
      (win0_4.fill (grid0.coords t) d4 (iblk m c 4 t)) (win0_5.fill (grid0.coords t) d5 (iblk m c 5 t)) S9 S10 = R at hM
    iapply (R.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS9]; · iexact HS9
    isplitl [HS10]; · iexact HS10
    iintro ⟨H0, H1, H2, H3, H4, H5, ⟨%f8, H8⟩, HS9, HS10⟩
    have hO := hM f8
    isplitl [HS9 HS10 Hr]
    · iexists S9, S10
      isplitr
      · ipureintro; intro h
        rw [hsucc] at h ⊢
        rw [show (t.val + 1) / 8 = t.val / 8 from by omega]; exact hgood
      isplitl [HS9]; · iexact HS9
      isplitl [HS10]; · iexact HS10
      iexact Hr
    isplitl [Ho]; · iexact Ho
    isplitl [H0]; · iexact H0
    isplitl [H1]; · iexact H1
    isplitl [H2]; · iexists d2; rw [cut_aft2]; iexact H2
    isplitl [H3]; · iexists d3; rw [cut_aft3]; iexact H3
    isplitl [H4]; · iexists d4; rw [cut_aft4]; iexact H4
    isplitl [H5]; · iexists d5; rw [cut_aft5]; iexact H5
    iexists ((st0_6 t).view.read (Elt Ideal) ((st0_6 t).view.writes (Elt Ideal) f8 R.1))
    rw [cut_aft6 m c t _ hO]
    iapply (owns_of_pt c _ _); iexact H8

/-! ## The launch -/

/-- Before the first point the two weight buffers hold anything: the invariant asks nothing of them there. -/
theorem hin (c : Dev nD) : Pipeline.ΦA spec0 c ⊢ (dats m 0 c).Φ 0 := by
  rw [show (dats m 0 c).Φ 0 = Phi m c 0 from rfl]
  unfold Pipeline.ΦA Phi
  rw [scopedRest0_eq]
  simp only [owns_whole_eq]
  iintro ⟨⟨⟨%f9, H9⟩, ⟨%f10, H10⟩⟩, Hr⟩
  iexists f9, f10
  isplitr
  · ipureintro; intro h; exact absurd rfl h
  isplitl [H9]
  · iexists f9; isplitr; · ipureintro; rfl
    iexact H9
  isplitl [H10]
  · iexists f10; isplitr; · ipureintro; rfl
    iexact H10
  iexact Hr

/-- After the last point they are forgotten. -/
theorem hout (c : Dev nD) : (dats m 0 c).Φ (Fin.last cfg0.N) ⊢ Pipeline.ΦA spec0 c := by
  rw [show (dats m 0 c).Φ (Fin.last cfg0.N) = Phi m c (Fin.last cfg0.N) from rfl]
  unfold Pipeline.ΦA Phi
  rw [scopedRest0_eq]
  simp only [owns_whole_eq]
  iintro ⟨%S9, %S10, -, ⟨%f9, -, H9⟩, ⟨%f10, -, H10⟩, Hr⟩
  isplitr [Hr]
  · isplitl [H9]
    · iexists f9; iexact H9
    iexists f10; iexact H10
  iexact Hr

set_option backward.isDefEq.respectTransparency.types false in
/-- At the compiled mesh, from any memory with zero counters whose float arguments are finite: every weakly fair execution of @main
    terminates, the result array ends at what the proof data compute, every other unscoped buffer as the region found it. -/
theorem run_main (hfin : ∀ c, FinArgs m c) :
    θ_run defs (onTc (τ := τ) (main (F := Ideal))) (s₀ m ρ) (Pipeline.FramePost cfgs (dats m) 0 (V m)) :=
  Pipeline.θ_run_frame_track cfgs (dats m) (0 : Fin 1) launch0 defs₀ Variants.none m ρ main
    (hbody := fun c => body_obligation m c (hfin c)) (hshare := fun c => (dats m 0 c).share_full fun _ => rfl)
    (howed := fun _ _ => rfl) (V := V m) (hmain := hmain m Variants.none) (hA := A_eq m) (hin := hin m) (hout := hout m)

end Cert.KernelIdeal.Launch

end
-- ==== Proof.ScatterAt.lean ====
/-
  Reading a scatter of plain writes at one position.

  A scatter of writes is a left fold over the update indices in row-major order: each update index whose target lies
  inside the operand overwrites the operand there. Read at one position, such a fold holds the value written by the
  LAST update index landing on that position, and the operand's own value when none does (`foldl_miss`,
  `foldl_last`, over any strictly increasing list; `scatter_miss`, `scatter_last` for the scatter itself).

  Here the updates have shape 1024 x 2 x 11008 and the operand 4096 x 11008. The update at (g, s, n) reads a row word
  4g + p s g n (with p s g n < 4) and a column word n, both signed and unclamped; both are small and nonnegative, so it
  lands on (4g + p s g n, n), always inside. The updates landing on (k, j) are therefore those at (k / 4, s, j) with
  p s (k / 4) j = k % 4. The row-major position of (g, s, n) is (2g + s) * 11008 + n, so s = 0 comes before s = 1: when
  both land on (k, j) the second one wins (`scatter_set_at`).
-/
import proofs.«416245_j678604833216_3_alg».proof.ReferenceIdeal
import proofs.«416245_j678604833216_3_alg».proof.Proof.Spec
import Idealize.ShloMosaic.Lib.ValueIdx
import Mathlib.Data.List.Sort
import Mathlib.Data.List.FinRange

open Idealize.ShloMosaic Idealize.ShloMosaic.ValueIdx

namespace Cert.ScatterAt

section Fold

variable {ι β α : Type} [LT ι]

/-- A fold of writes never touching position `i'` leaves the start value there. -/
theorem foldl_miss (st : (β → α) → ι → β → α) (hit : ι → Prop) (i' : β)
    (hmiss : ∀ r n, ¬ hit n → st r n i' = r i')
    (L : List ι) (x : β → α) (h : ∀ n ∈ L, ¬ hit n) : (L.foldl st x) i' = x i' := by
  induction L generalizing x with
  | nil => rfl
  | cons a t ih =>
    rw [List.foldl_cons, ih _ (fun n hn => h n (List.mem_cons_of_mem _ hn))]
    exact hmiss x a (h a List.mem_cons_self)

/-- In a fold of writes over a strictly increasing list, position `i'` holds what the last write hitting it wrote. -/
theorem foldl_last (st : (β → α) → ι → β → α) (hit : ι → Prop) (u : ι → α) (i' : β)
    (hhit : ∀ r n, hit n → st r n i' = u n)
    (hmiss : ∀ r n, ¬ hit n → st r n i' = r i')
    (L : List ι) (hL : L.Pairwise (· < ·)) (x : β → α) (n : ι) (hn : n ∈ L) (hnhit : hit n)
    (hlater : ∀ m ∈ L, n < m → ¬ hit m) : (L.foldl st x) i' = u n := by
  induction L generalizing x with
  | nil => cases hn
  | cons a t ih =>
    rw [List.pairwise_cons] at hL
    rw [List.foldl_cons]
    rcases List.mem_cons.1 hn with rfl | hnt
    · rw [foldl_miss st hit i' hmiss t _ (fun m hm => hlater m (List.mem_cons_of_mem _ hm) (hL.1 m hm))]
      exact hhit x n hnhit
    · exact ih hL.2 _ hnt (fun m hm => hlater m (List.mem_cons_of_mem _ hm))

end Fold

section Read

variable {s si u : Shape} {w : Nat} {α : Type}

/-- A scatter of plain writes, read at a position some update lands on: it holds the update of the last such update
    index in row-major order. -/
theorem scatter_last (d : ScatterDims s si u) (x : s.Idx → α) (idx : IVec si w) (upd : u.Idx → α) (i' : s.Idx)
    (n : Fin u.numel) (hn : d.resultIdx? (u.rowMajor.symm n) idx = some i')
    (hlater : ∀ m : Fin u.numel, n < m → ¬ d.resultIdx? (u.rowMajor.symm m) idx = some i') :
    Host.scatter d (fun _ b => b) x idx upd i' = upd (u.rowMajor.symm n) := by
  unfold Host.scatter
  refine foldl_last _ (fun m => d.resultIdx? (u.rowMajor.symm m) idx = some i') (fun m => upd (u.rowMajor.symm m)) i'
    ?_ ?_ _ (List.sortedLT_finRange _).pairwise x n (List.mem_finRange n) hn (fun m _ => hlater m)
  · intro r m h
    dsimp only
    rw [h]
    exact if_pos rfl
  · intro r m
    dsimp only
    generalize d.resultIdx? (u.rowMajor.symm m) idx = o
    intro h
    cases o with
    | none => rfl
    | some i => exact if_neg (fun e => h (by rw [e]))

/-- A scatter of plain writes, read at a position no update lands on: the operand's value. -/
theorem scatter_miss (d : ScatterDims s si u) (x : s.Idx → α) (idx : IVec si w) (upd : u.Idx → α) (i' : s.Idx)
    (h : ∀ m : Fin u.numel, ¬ d.resultIdx? (u.rowMajor.symm m) idx = some i') :
    Host.scatter d (fun _ b => b) x idx upd i' = x i' := by
  unfold Host.scatter
  refine foldl_miss _ (fun m => d.resultIdx? (u.rowMajor.symm m) idx = some i') i' ?_ _ x (fun m _ => h m)
  intro r m
  dsimp only
  generalize d.resultIdx? (u.rowMajor.symm m) idx = o
  intro h
  cases o with
  | none => rfl
  | some i => exact if_neg (fun e => h (by rw [e]))

end Read

open Cert.ReferenceIdeal

/-- A small natural number written as a 32-bit word reads back, signed, as itself. -/
theorem toInt_ofNat_small (r : Nat) (hr : r < 11008) : (BitVec.ofNat 32 r).toInt = (r : Int) := by
  rw [BitVec.toInt_eq_toNat_cond, BitVec.toNat_ofNat]
  have : r % 2 ^ 32 = r := Nat.mod_eq_of_lt (by omega)
  rw [this]; split <;> omega

section
variable [Facts₀]

/-- The dimension numbers of the scatter: both operand axes are indexed, the index vector is the last axis of the
    indices, and an update is a single element. -/
abbrev D : ScatterDims S4096x11008 S1024x2x11008x2 S1024x2x11008 :=
  scatter_S4096x11008_S1024x2x11008x2_S1024x2x11008_n_01_01_3

/-- No operand axis is left for a window. -/
theorem sKept_nil : D.sKept = [] := by
  show Shape.kept S4096x11008 [0, 1] = []
  decide

/-- The window coordinate is zero on both operand axes. -/
theorem window_eq (j : S1024x2x11008.Idx) (a : Fin 2) : D.window j a = 0 := by
  unfold ScatterDims.window
  rw [dif_neg]
  rw [sKept_nil]; exact List.not_mem_nil

/-- Component `c` of the start index of the update at `(g, s, n)` is read at `(g, s, n, c)`. -/
theorem siIdx_eq (g : Fin 1024) (s : Fin 2) (n : Fin 11008) (c : Fin 2) :
    D.siIdx (ix3 g s n) c = ix4 g s n c := by
  funext b
  fin_cases b <;> rfl

/-- The row start of the update at `(g, s, n)`: its first index word, signed. -/
theorem start_zero {w : Nat} (idx : IVec S1024x2x11008x2 w) (g : Fin 1024) (s : Fin 2) (n : Fin 11008) :
    D.start (ix3 g s n) idx 0 = (idx (ix4 g s n (0 : Fin 2))).toInt := by
  unfold ScatterDims.start
  have hm : (0 : Fin 2) ∈ D.scatterDimsToOperandDims := by
    show (0 : Fin 2) ∈ [(0 : Fin 2), 1]
    decide
  rw [dif_pos hm]
  exact congrArg (fun t => (idx t).toInt) (siIdx_eq g s n 0)

/-- The column start of the update at `(g, s, n)`: its second index word, signed. -/
theorem start_one {w : Nat} (idx : IVec S1024x2x11008x2 w) (g : Fin 1024) (s : Fin 2) (n : Fin 11008) :
    D.start (ix3 g s n) idx 1 = (idx (ix4 g s n (1 : Fin 2))).toInt := by
  unfold ScatterDims.start
  have hm : (1 : Fin 2) ∈ D.scatterDimsToOperandDims := by
    show (1 : Fin 2) ∈ [(0 : Fin 2), 1]
    decide
  rw [dif_pos hm]
  exact congrArg (fun t => (idx t).toInt) (siIdx_eq g s n 1)

/-- Where the update at `(g, s, n)` lands when its two index words hold a row `r` and the column `n`. -/
theorem resultIdx_eq (idx : IVec S1024x2x11008x2 32) (g : Fin 1024) (s : Fin 2) (n : Fin 11008) (r : Fin 4096)
    (h0 : idx (ix4 g s n (0 : Fin 2)) = BitVec.ofNat 32 r.val)
    (h1 : idx (ix4 g s n (1 : Fin 2)) = BitVec.ofNat 32 n.val) :
    D.resultIdx? (ix3 g s n) idx = some (ix2 r n) := by
  have e0 : D.start (ix3 g s n) idx 0 + D.window (ix3 g s n) 0 = (r.val : Int) := by
    rw [start_zero, h0, window_eq, toInt_ofNat_small _ (by have := r.isLt; omega)]; simp
  have e1 : D.start (ix3 g s n) idx 1 + D.window (ix3 g s n) 1 = (n.val : Int) := by
    rw [start_one, h1, window_eq, toInt_ofNat_small _ n.isLt]; simp
  have hb : ∀ a : Fin 2, 0 ≤ D.start (ix3 g s n) idx a + D.window (ix3 g s n) a ∧
      D.start (ix3 g s n) idx a + D.window (ix3 g s n) a < S4096x11008.size a := by
    intro a
    fin_cases a
    · show 0 ≤ D.start (ix3 g s n) idx 0 + D.window (ix3 g s n) 0 ∧ D.start (ix3 g s n) idx 0 + D.window (ix3 g s n) 0 < ((4096 : Nat) : Int)
      rw [e0]; have := r.isLt; omega
    · show 0 ≤ D.start (ix3 g s n) idx 1 + D.window (ix3 g s n) 1 ∧ D.start (ix3 g s n) idx 1 + D.window (ix3 g s n) 1 < ((11008 : Nat) : Int)
      rw [e1]; have := n.isLt; omega
  unfold ScatterDims.resultIdx?
  rw [dif_pos hb]
  congr 1
  funext a
  fin_cases a
  · apply Fin.ext
    show (D.start (ix3 g s n) idx 0 + D.window (ix3 g s n) 0).toNat = r.val
    rw [e0]; simp
  · apply Fin.ext
    show (D.start (ix3 g s n) idx 1 + D.window (ix3 g s n) 1).toNat = n.val
    rw [e1]; simp

/-- The row-major position of an update index. -/
theorem pos_eq (g : Fin 1024) (s : Fin 2) (n : Fin 11008) :
    (S1024x2x11008.rowMajor (ix3 g s n)).val = (g.val * 2 + s.val) * 11008 + n.val :=
  Shape.rowMajor_val_three (ix3 g s n)

/-- The dense matrix after the scatter, read at row `k`, column `j`: the updates landing there are those of group
    `k / 4`, column `j`, whose kept position is `k % 4`; the second of the two comes later in row-major order and wins. -/
theorem scatter_set_at {α : Type} (x : Cert.ReferenceIdeal.S4096x11008.Idx → α) (idx : IVec Cert.ReferenceIdeal.S1024x2x11008x2 32)
    (upd : Cert.ReferenceIdeal.S1024x2x11008.Idx → α) (p : Fin 2 → Fin 1024 → Fin 11008 → Fin 4)
    (hrow : ∀ (s : Fin 2) (g : Fin 1024) (n : Fin 11008), idx (ix4 g s n (0 : Fin 2)) = BitVec.ofNat 32 (4 * g.val + (p s g n).val))
    (hcol : ∀ (s : Fin 2) (g : Fin 1024) (n : Fin 11008), idx (ix4 g s n (1 : Fin 2)) = BitVec.ofNat 32 n.val)
    (k : Fin 4096) (j : Fin 11008) :
    Host.scatter Cert.ReferenceIdeal.scatter_S4096x11008_S1024x2x11008x2_S1024x2x11008_n_01_01_3 (fun _ b => b) x idx upd (ix2 k j)
      = if (p 1 (Cert.Spec.grp k) j).val = k.val % 4 then upd (ix3 (Cert.Spec.grp k) (1 : Fin 2) j)
        else if (p 0 (Cert.Spec.grp k) j).val = k.val % 4 then upd (ix3 (Cert.Spec.grp k) (0 : Fin 2) j) else x (ix2 k j) := by
  have hGv : (Cert.Spec.grp k).val = k.val / 4 := rfl
  generalize Cert.Spec.grp k = G at hGv ⊢
  -- which updates land on (k, j)
  have hit_iff : ∀ (g : Fin 1024) (s : Fin 2) (n : Fin 11008),
      D.resultIdx? (ix3 g s n) idx = some (ix2 k j) ↔ (g = G ∧ n = j ∧ (p s G j).val = k.val % 4) := by
    intro g s n
    have hlt : 4 * g.val + (p s g n).val < 4096 := by have := g.isLt; have := (p s g n).isLt; omega
    rw [resultIdx_eq idx g s n ⟨_, hlt⟩ (hrow s g n) (hcol s g n)]
    constructor
    · intro h
      have h' := Option.some.inj h
      have e0 : 4 * g.val + (p s g n).val = k.val := congrArg Fin.val (congrFun h' 0)
      have e1 : n = j := congrFun h' 1
      have hp := (p s g n).isLt
      have hg : g = G := Fin.ext (by omega)
      subst hg; subst e1
      exact ⟨rfl, rfl, by omega⟩
    · rintro ⟨rfl, rfl, hp⟩
      have : (⟨4 * g.val + (p s g n).val, hlt⟩ : Fin 4096) = k := Fin.ext (by show 4 * g.val + (p s g n).val = k.val; omega)
      rw [this]
  have hit_pos : ∀ m : Fin S1024x2x11008.numel, D.resultIdx? (S1024x2x11008.rowMajor.symm m) idx = some (ix2 k j) →
      ∃ s : Fin 2, (p s G j).val = k.val % 4 ∧ m.val = (G.val * 2 + s.val) * 11008 + j.val := by
    intro m hm
    obtain ⟨g, s, n, hm3⟩ : ∃ (g : Fin 1024) (s : Fin 2) (n : Fin 11008), S1024x2x11008.rowMajor.symm m = ix3 g s n :=
      ⟨_, _, _, eq_ix3 _⟩
    rw [hm3] at hm
    obtain ⟨hg, hn, hp⟩ := (hit_iff g s n).1 hm
    refine ⟨s, hp, ?_⟩
    have hm' : m = S1024x2x11008.rowMajor (ix3 G s j) := by
      rw [← hg, ← hn, ← hm3, Equiv.apply_symm_apply]
    rw [hm', pos_eq]
  by_cases h1 : (p 1 G j).val = k.val % 4
  · rw [if_pos h1]
    refine (scatter_last D x idx upd (ix2 k j) (S1024x2x11008.rowMajor (ix3 G 1 j)) ?_ ?_).trans ?_
    · rw [Equiv.symm_apply_apply]; exact (hit_iff G 1 j).2 ⟨rfl, rfl, h1⟩
    · intro m hlt hm
      obtain ⟨s, _, hv⟩ := hit_pos m hm
      rw [Fin.lt_def, pos_eq, hv] at hlt
      have := s.isLt
      have h11 : ((1 : Fin 2) : Nat) = 1 := rfl
      omega
    · rw [Equiv.symm_apply_apply]
  · rw [if_neg h1]
    by_cases h0 : (p 0 G j).val = k.val % 4
    · rw [if_pos h0]
      refine (scatter_last D x idx upd (ix2 k j) (S1024x2x11008.rowMajor (ix3 G 0 j)) ?_ ?_).trans ?_
      · rw [Equiv.symm_apply_apply]; exact (hit_iff G 0 j).2 ⟨rfl, rfl, h0⟩
      · intro m hlt hm
        obtain ⟨s, hp, hv⟩ := hit_pos m hm
        rw [Fin.lt_def, pos_eq, hv] at hlt
        have hs1 : s.val ≠ 1 := fun e => h1 (by have : s = 1 := Fin.ext e; rw [← this]; exact hp)
        have := s.isLt
        have h00 : ((0 : Fin 2) : Nat) = 0 := rfl
        omega
      · rw [Equiv.symm_apply_apply]
    · rw [if_neg h0]
      refine scatter_miss D x idx upd (ix2 k j) ?_
      intro m hm
      obtain ⟨s, hp, _⟩ := hit_pos m hm
      have hs : s = 0 ∨ s = 1 := by
        have := s.isLt
        rcases Nat.lt_or_ge s.val 1 with h | h
        · exact Or.inl (Fin.ext (by show s.val = 0; omega))
        · exact Or.inr (Fin.ext (by show s.val = 1; omega))
      rcases hs with rfl | rfl
      · exact h0 hp
      · exact h1 hp

end
end Cert.ScatterAt
-- ==== Proof.RefValue.lean ====
/-
  The reference's result is the specification's `outRef`.

  The reference builds the dense weight by a scatter into a zero array: update (g, s, j), the value table's row 2 g + s in column j,
  goes to row 4 g + (kept position number s of group g in column j) of column j. The positions are two-bit fields of the selector
  word's nibble, so they are below four, the row indices are below 4096, and the wrap of negative indices does nothing. Read at row
  k = 4 g + p the scatter gives the table's row 2 g + 1 if the second position is p, else row 2 g if the first is, else zero: the
  specification's unscaled weight. The three elementwise products then scale it by the group scale, the row sign and the column sign,
  and the final contraction is the sum over k. The value table itself (a gather of the grid at the unpacked codes) is carried as one
  opaque array.
-/
import proofs.«416245_j678604833216_3_alg».proof.Proof.RefRead
import proofs.«416245_j678604833216_3_alg».proof.Proof.Spec
import proofs.«416245_j678604833216_3_alg».proof.Proof.ScatterAt
import Idealize.ShloMosaic.Lib.Pipeline.Value
import Idealize.ShloMosaic.Lib.ValueIdx
import Idealize.ShloMosaic.PureOps.Ideal.Laws

noncomputable section

open scoped BigOperators

namespace Cert.RefValue

open Cert.ReferenceIdeal Cert.ReferenceIdeal.Gen Cert.ReferenceIdeal.ReadP Idealize.ShloMosaic Idealize.ShloMosaic.ValueIdx Idealize.ShloMosaic.TcCoe Idealize.SL.Sem Idealize.ShloMosaic.StableHlo

/-- The host's logical right shift of a word by four times a nibble number below 8 is the shift by that many bits. -/
theorem shr_four_mul (w : BitVec 32) (r : Nat) (hr : r < 8) :
    IntOp.shrui ArithUnit.host w (IntOp.muli (4#32) (BitVec.ofNat 32 r)) = w >>> (4 * r) := by
  interval_cases r <;> simp [IntOp.shrui, IntOp.muli]

/-- The reshaped selector nibbles: entry (g, j) is the nibble of group g in column j. -/
theorem nib_word (x6 : (⟨S128x11008, .i32⟩ : BufTy).Contents (Elt Ideal)) (g : Fin 1024) (j : Fin 11008) :
    val_main_v37 (F := Ideal) x6 (ix2 g j) = Cert.Spec.nib x6 g j := by
  have hg := g.isLt
  have hj := j.isLt
  rw [val_main_v37_apply, val_main_v36_apply, val_main_v35_apply, val_main_c_4_apply, val_main_v34_apply,
    val_main_v32_apply, val_main_v27_apply, val_main_v26_apply, val_main_v33_apply, val_main_v31_apply,
    val_main_v30_apply, val_main_v29_apply, val_main_c_3_apply, val_main_v28_apply]
  have h1 : idx_main_v27 (idx_main_v32 (idx_main_v37 (ix2 g j))) = ix2 (⟨g.val / 8, by omega⟩ : Fin 128) j := by
    funext a
    match a with
    | ⟨0, _⟩ => exact Fin.ext (by show (g.val * 11008 + j.val) / 88064 = g.val / 8; omega)
    | ⟨1, _⟩ => exact Fin.ext (by show (g.val * 11008 + j.val) % 11008 = j.val; omega)
  have h2 : ((idx_main_v31 (idx_main_v33 (idx_main_v37 (ix2 g j))) 0 : Fin 8) : Nat) = g.val % 8 := by
    show (g.val * 11008 + j.val) / 11008 % 8 = g.val % 8; omega
  rw [h1, h2, shr_four_mul _ _ (by omega)]
  rfl

/-- The first kept position, as the reference computes it. -/
theorem pos0_word (x6 : (⟨S128x11008, .i32⟩ : BufTy).Contents (Elt Ideal)) (g : Fin 1024) (j : Fin 11008) :
    val_main_v40 (F := Ideal) x6 (ix2 g j) = Cert.Spec.pos0 x6 g j := by
  rw [val_main_v40_apply, val_main_v39_apply, val_main_v38_apply, val_main_c_5_apply, nib_word]
  rfl

/-- A host logical right shift by two. -/
theorem shr_two (w : BitVec 32) : IntOp.shrui ArithUnit.host w (2#32) = w >>> 2 := by
  simp [IntOp.shrui]

/-- The second kept position, as the reference computes it. -/
theorem pos1_word (x6 : (⟨S128x11008, .i32⟩ : BufTy).Contents (Elt Ideal)) (g : Fin 1024) (j : Fin 11008) :
    val_main_v45 (F := Ideal) x6 (ix2 g j) = Cert.Spec.pos1 x6 g j := by
  rw [val_main_v45_apply, val_main_v44_apply, val_main_v43_apply, val_main_c_7_apply, val_main_v42_apply,
    val_main_v41_apply, val_main_c_6_apply, nib_word, shr_two]
  rfl

/-! ## Words: small numbers, signed compares with zero -/

/-- A signed compare of a word below 2^31 with zero is false. -/
theorem slt_zero_small (m : Nat) (hm : m < 2147483648) :
    IntOp.cmpi CmpIPredicate.slt (BitVec.ofNat 32 m) (0#32) = 0#1 := by
  have h : (BitVec.ofNat 32 m).slt (0#32) = false := by
    rw [BitVec.slt_eq_decide, BitVec.toInt_eq_toNat_of_lt (by simp only [BitVec.toNat_ofNat]; omega)]
    simp
    omega
  unfold IntOp.cmpi
  simp only [h]
  rfl

/-- So the wrap of a negative index leaves such a word alone. -/
theorem wrap_small (m : Nat) (c : BitVec 32) (hm : m < 2147483648) :
    Scalar.select (IntOp.cmpi CmpIPredicate.slt (BitVec.ofNat 32 m) (0#32)) (IntOp.addi (BitVec.ofNat 32 m) c) (BitVec.ofNat 32 m)
      = BitVec.ofNat 32 m := by
  rw [slt_zero_small m hm, select_zero]

/-- Four times a group number plus a position below four, as a word. -/
theorem four_mul_add (g : Nat) (p : BitVec 32) (hp : p.toNat < 4) (hg : g < 1024) :
    IntOp.addi (IntOp.muli (4#32) (BitVec.ofNat 32 g)) p = BitVec.ofNat 32 (4 * g + p.toNat) := by
  apply BitVec.eq_of_toNat_eq
  simp only [IntOp.addi, IntOp.muli, BitVec.toNat_add, BitVec.toNat_mul, BitVec.toNat_ofNat]
  omega

/-- A word masked by 3 is below 4. -/
theorem and_three_lt (w : BitVec 32) : (w &&& 3#32).toNat < 4 := by
  rw [BitVec.toNat_and]
  have : w.toNat &&& (3#32 : BitVec 32).toNat ≤ (3#32 : BitVec 32).toNat := Nat.and_le_right
  have e : (3#32 : BitVec 32).toNat = 3 := rfl
  omega

theorem pos0_lt (sel : (Cert.Spec.Sh2 128 11008).Idx → BitVec 32) (g : Fin 1024) (j : Fin 11008) :
    (Cert.Spec.pos0 sel g j).toNat < 4 := and_three_lt _
theorem pos1_lt (sel : (Cert.Spec.Sh2 128 11008).Idx → BitVec 32) (g : Fin 1024) (j : Fin 11008) :
    (Cert.Spec.pos1 sel g j).toNat < 4 := and_three_lt _

/-! ## The two joins read at an index -/

section Joins
variable {α : Type}

/-- The join of two [1024, 1, 11008] arrays along the middle axis, at middle coordinate 0: the first. -/
theorem join1_left (a b : S1024x1x11008.Idx → α) (g : Fin 1024) (n : Fin 11008) :
    concatenate S1024x2x11008 1 [⟨S1024x1x11008, a⟩, ⟨S1024x1x11008, b⟩] concatenates_S1024x1x11008_S1024x1x11008_S1024x2x11008_d1
      (ix3 g (0 : Fin 2) n) = a (ix3 g (0 : Fin 1) n) :=
  concatenate_pair_apply_left 1 a b _ (ix3 g (0 : Fin 2) n) rfl (ix3 g (0 : Fin 1) n)
    (fun c => match c with | ⟨0, _⟩ => rfl | ⟨1, _⟩ => rfl | ⟨2, _⟩ => rfl)

/-- … at middle coordinate 1: the second. -/
theorem join1_right (a b : S1024x1x11008.Idx → α) (g : Fin 1024) (n : Fin 11008) :
    concatenate S1024x2x11008 1 [⟨S1024x1x11008, a⟩, ⟨S1024x1x11008, b⟩] concatenates_S1024x1x11008_S1024x1x11008_S1024x2x11008_d1
      (ix3 g (1 : Fin 2) n) = b (ix3 g (0 : Fin 1) n) :=
  concatenate_pair_apply_right 1 a b _ (ix3 g (1 : Fin 2) n) rfl rfl (ix3 g (0 : Fin 1) n)
    (fun c hc => match c, hc with | ⟨0, _⟩, _ => rfl | ⟨1, _⟩, hc => (hc rfl).elim | ⟨2, _⟩, _ => rfl) rfl

/-- The join of two [1024, 2, 11008, 1] arrays along the last axis, at last coordinate 0: the first. -/
theorem join3_left (a b : S1024x2x11008x1.Idx → α) (g : Fin 1024) (s : Fin 2) (n : Fin 11008) :
    concatenate S1024x2x11008x2 3 [⟨S1024x2x11008x1, a⟩, ⟨S1024x2x11008x1, b⟩] concatenates_S1024x2x11008x1_S1024x2x11008x1_S1024x2x11008x2_d3
      (ix4 g s n (0 : Fin 2)) = a (ix4 g s n (0 : Fin 1)) :=
  concatenate_pair_apply_left 3 a b _ (ix4 g s n (0 : Fin 2)) rfl (ix4 g s n (0 : Fin 1))
    (fun c => match c with | ⟨0, _⟩ => rfl | ⟨1, _⟩ => rfl | ⟨2, _⟩ => rfl | ⟨3, _⟩ => rfl)

/-- … at last coordinate 1: the second. -/
theorem join3_right (a b : S1024x2x11008x1.Idx → α) (g : Fin 1024) (s : Fin 2) (n : Fin 11008) :
    concatenate S1024x2x11008x2 3 [⟨S1024x2x11008x1, a⟩, ⟨S1024x2x11008x1, b⟩] concatenates_S1024x2x11008x1_S1024x2x11008x1_S1024x2x11008x2_d3
      (ix4 g s n (1 : Fin 2)) = b (ix4 g s n (0 : Fin 1)) :=
  concatenate_pair_apply_right 3 a b _ (ix4 g s n (1 : Fin 2)) rfl rfl (ix4 g s n (0 : Fin 1))
    (fun c hc => match c, hc with | ⟨0, _⟩, _ => rfl | ⟨1, _⟩, _ => rfl | ⟨2, _⟩, _ => rfl | ⟨3, _⟩, hc => (hc rfl).elim) rfl

end Joins

/-! ## The scatter's index array -/

theorem fin2_cases (s : Fin 2) : s = 0 ∨ s = 1 := by
  rcases s with ⟨v, hv⟩
  have h : v = 0 ∨ v = 1 := by omega
  rcases h with rfl | rfl
  · exact Or.inl rfl
  · exact Or.inr rfl

/-- The kept position number s of group g in column n, as a word. -/
def posOf (x6 : (⟨S128x11008, .i32⟩ : BufTy).Contents (Elt Ideal)) (s : Fin 2) (g : Fin 1024) (n : Fin 11008) : BitVec 32 :=
  if s.val = 0 then Cert.Spec.pos0 x6 g n else Cert.Spec.pos1 x6 g n

theorem posOf_lt (x6 : (⟨S128x11008, .i32⟩ : BufTy).Contents (Elt Ideal)) (s : Fin 2) (g : Fin 1024) (n : Fin 11008) :
    (posOf x6 s g n).toNat < 4 := by
  unfold posOf
  split
  · exact pos0_lt _ _ _
  · exact pos1_lt _ _ _

/-- … and as a number below four. -/
def posFin (x6 : (⟨S128x11008, .i32⟩ : BufTy).Contents (Elt Ideal)) (s : Fin 2) (g : Fin 1024) (n : Fin 11008) : Fin 4 :=
  ⟨(posOf x6 s g n).toNat, posOf_lt x6 s g n⟩

theorem posFin_zero (x6 : (⟨S128x11008, .i32⟩ : BufTy).Contents (Elt Ideal)) (g : Fin 1024) (n : Fin 11008) :
    (posFin x6 0 g n).val = (Cert.Spec.pos0 x6 g n).toNat := rfl
theorem posFin_one (x6 : (⟨S128x11008, .i32⟩ : BufTy).Contents (Elt Ideal)) (g : Fin 1024) (n : Fin 11008) :
    (posFin x6 1 g n).val = (Cert.Spec.pos1 x6 g n).toNat := rfl

/-- The row indices before the wrap of negatives: entry (g, s, n) is 4 g plus the kept position number s. -/
theorem kidx_at (x6 : (⟨S128x11008, .i32⟩ : BufTy).Contents (Elt Ideal)) (g : Fin 1024) (s : Fin 2) (n : Fin 11008) :
    val_main_v56 (F := Ideal) x6 (ix3 g s n) = BitVec.ofNat 32 (4 * g.val + (posFin x6 s g n).val) := by
  have hg := g.isLt
  unfold val_main_v56
  rcases fin2_cases s with rfl | rfl
  · have e : idx_main_v54 (ix3 g (0 : Fin 1) n) = ix2 g n := by
      funext a; match a with | ⟨0, _⟩ => rfl | ⟨1, _⟩ => rfl
    rw [join1_left, val_main_v54_apply, e, val_main_v51_apply, val_main_v50_apply, val_main_v49_apply, val_main_v48_apply,
      val_main_v47_apply, val_main_c_8_apply, val_main_v46_apply, pos0_word, posFin_zero]
    exact four_mul_add g.val _ (pos0_lt _ _ _) hg
  · have e : idx_main_v55 (ix3 g (0 : Fin 1) n) = ix2 g n := by
      funext a; match a with | ⟨0, _⟩ => rfl | ⟨1, _⟩ => rfl
    rw [join1_right, val_main_v55_apply, e, val_main_v53_apply, val_main_v52_apply, val_main_v49_apply, val_main_v48_apply,
      val_main_v47_apply, val_main_c_8_apply, val_main_v46_apply, pos1_word, posFin_one]
    exact four_mul_add g.val _ (pos1_lt _ _ _) hg

/-- The scatter's row index of update (g, s, n): 4 g plus the kept position number s (no wrap: it is not negative). -/
theorem row_index (x6 : (⟨S128x11008, .i32⟩ : BufTy).Contents (Elt Ideal)) (s : Fin 2) (g : Fin 1024) (n : Fin 11008) :
    val_main_v73 (F := Ideal) x6 (ix4 g s n (0 : Fin 2)) = BitVec.ofNat 32 (4 * g.val + (posFin x6 s g n).val) := by
  have hg := g.isLt
  have hp := (posFin x6 s g n).isLt
  unfold val_main_v73
  have e : idx_main_v71 (ix4 g s n (0 : Fin 1)) = ix3 g s n := by
    funext a; match a with | ⟨0, _⟩ => rfl | ⟨1, _⟩ => rfl | ⟨2, _⟩ => rfl
  rw [join3_left, val_main_v71_apply, e, val_main_v65_apply, val_main_v62_apply, val_main_v64_apply, val_main_v61_apply,
    val_main_c_9_apply, val_main_v63_apply, val_main_c_10_apply, kidx_at]
  exact wrap_small _ _ (by omega)

/-- The scatter's column index of update (g, s, n): n. -/
theorem col_index (x6 : (⟨S128x11008, .i32⟩ : BufTy).Contents (Elt Ideal)) (s : Fin 2) (g : Fin 1024) (n : Fin 11008) :
    val_main_v73 (F := Ideal) x6 (ix4 g s n (1 : Fin 2)) = BitVec.ofNat 32 n.val := by
  have hn := n.isLt
  unfold val_main_v73
  have e : idx_main_v72 (ix4 g s n (0 : Fin 1)) = ix3 g s n := by
    funext a; match a with | ⟨0, _⟩ => rfl | ⟨1, _⟩ => rfl | ⟨2, _⟩ => rfl
  rw [join3_right, val_main_v72_apply, e, val_main_v70_apply, val_main_v67_apply, val_main_v69_apply, val_main_v66_apply,
    val_main_c_11_apply, val_main_v68_apply, val_main_c_12_apply, val_main_v58_apply, val_main_v57_apply]
  exact wrap_small n.val _ (by omega)

/-! ## The scattered weight, its scaling, and the product -/

/-- A 32-bit word has a given value below 2^32 exactly when it is that number's word. -/
theorem toNat_eq_iff (p : BitVec 32) (r : Nat) (hr : r < 4294967296) : p.toNat = r ↔ p = BitVec.ofNat 32 r := by
  constructor
  · intro h
    apply BitVec.eq_of_toNat_eq
    rw [BitVec.toNat_ofNat]; omega
  · intro h
    rw [h, BitVec.toNat_ofNat]; omega

/-- The updates are the value table regrouped: update (g, 0, j) is row 2 g of the table … -/
theorem upd_lo (x4 : (⟨S8, .f32⟩ : BufTy).Contents (Elt Ideal)) (x5 : (⟨S128x688x96, .i32⟩ : BufTy).Contents (Elt Ideal))
    (g : Fin 1024) (j : Fin 11008) :
    val_main_v59 (F := Ideal) x4 x5 (ix3 g (0 : Fin 2) j) = val_main_v25 (F := Ideal) x4 x5 (ix2 (Cert.Spec.lo g) j) := by
  have hg := g.isLt
  have hj := j.isLt
  have e : idx_main_v59 (ix3 g (0 : Fin 2) j) = ix2 (Cert.Spec.lo g) j := by
    funext a
    match a with
    | ⟨0, _⟩ => exact Fin.ext (by show ((g.val * 2 + 0) * 11008 + j.val) / 11008 = 2 * g.val; omega)
    | ⟨1, _⟩ => exact Fin.ext (by show ((g.val * 2 + 0) * 11008 + j.val) % 11008 = j.val; omega)
  rw [val_main_v59_apply, e]

/-- … and update (g, 1, j) is row 2 g + 1. -/
theorem upd_hi (x4 : (⟨S8, .f32⟩ : BufTy).Contents (Elt Ideal)) (x5 : (⟨S128x688x96, .i32⟩ : BufTy).Contents (Elt Ideal))
    (g : Fin 1024) (j : Fin 11008) :
    val_main_v59 (F := Ideal) x4 x5 (ix3 g (1 : Fin 2) j) = val_main_v25 (F := Ideal) x4 x5 (ix2 (Cert.Spec.hi g) j) := by
  have hg := g.isLt
  have hj := j.isLt
  have e : idx_main_v59 (ix3 g (1 : Fin 2) j) = ix2 (Cert.Spec.hi g) j := by
    funext a
    match a with
    | ⟨0, _⟩ => exact Fin.ext (by show ((g.val * 2 + 1) * 11008 + j.val) / 11008 = 2 * g.val + 1; omega)
    | ⟨1, _⟩ => exact Fin.ext (by show ((g.val * 2 + 1) * 11008 + j.val) % 11008 = j.val; omega)
  rw [val_main_v59_apply, e]

/-- The scatter's operand is zero everywhere. -/
theorem zero_at (k : Fin 4096) (j : Fin 11008) : val_main_v60 (F := Ideal) (ix2 k j) = (0 : EReal) := by
  rw [val_main_v60_apply, val_main_cst_apply]
  exact Ideal.ofBits_zero_f32

/-- The scattered array is the unscaled weight of the specification. -/
theorem weight_at (x4 : (⟨S8, .f32⟩ : BufTy).Contents (Elt Ideal)) (x5 : (⟨S128x688x96, .i32⟩ : BufTy).Contents (Elt Ideal))
    (x6 : (⟨S128x11008, .i32⟩ : BufTy).Contents (Elt Ideal)) (k : Fin 4096) (j : Fin 11008) :
    val_main_v74 (F := Ideal) x4 x5 x6 (ix2 k j) = Cert.Spec.wsel (val_main_v25 (F := Ideal) x4 x5) x6 k j := by
  have hk := k.isLt
  unfold val_main_v74
  rw [Cert.ScatterAt.scatter_set_at _ _ _ (posFin x6) (fun s g n => row_index x6 s g n) (fun s g n => col_index x6 s g n) k j,
    upd_hi, upd_lo, zero_at, posFin_one, posFin_zero]
  generalize val_main_v25 (F := Ideal) x4 x5 = vals
  unfold Cert.Spec.wsel
  simp only [toNat_eq_iff _ (k.val % 4) (by omega)]

/-- The scale array at (k, j) is the scale of row k's group of 128. -/
theorem scale_at (x1 : (⟨S32x11008, .f32⟩ : BufTy).Contents (Elt Ideal)) (k : Fin 4096) (j : Fin 11008) :
    val_main_v76 (F := Ideal) x1 (ix2 k j) = x1 (ix2 (Cert.Spec.sgrp k) j) := by
  have hk := k.isLt
  have hj := j.isLt
  have e : idx_main_v75 (idx_main_v76 (ix2 k j)) = ix2 (Cert.Spec.sgrp k) j := by
    funext a
    match a with
    | ⟨0, _⟩ => exact Fin.ext (by show (k.val * 11008 + j.val) / 1409024 = k.val / 128; omega)
    | ⟨1, _⟩ => exact Fin.ext (by show (k.val * 11008 + j.val) % 11008 = j.val; omega)
  rw [val_main_v76_apply, val_main_v75_apply, e]

/-- The row signs broadcast along the columns. -/
theorem su_at (x2 : (⟨S4096, .f32⟩ : BufTy).Contents (Elt Ideal)) (k : Fin 4096) (j : Fin 11008) :
    val_main_v79 (F := Ideal) x2 (ix2 k j) = x2 (ix1 k) := by
  have e : idx_main_v78 (idx_main_v79 (ix2 k j)) = ix1 k := by
    funext a; match a with | ⟨0, _⟩ => rfl
  rw [val_main_v79_apply, val_main_v78_apply, e]

/-- The column signs broadcast along the rows. -/
theorem sv_at (x3 : (⟨S11008, .f32⟩ : BufTy).Contents (Elt Ideal)) (k : Fin 4096) (j : Fin 11008) :
    val_main_v82 (F := Ideal) x3 (ix2 k j) = x3 (ix1 j) := by
  have e : idx_main_v81 (idx_main_v82 (ix2 k j)) = ix1 j := by
    funext a; match a with | ⟨0, _⟩ => rfl
  rw [val_main_v82_apply, val_main_v81_apply, e]

/-- The right factor of the product is the weight as the reference scales it. -/
theorem scaled_at (x1 : (⟨S32x11008, .f32⟩ : BufTy).Contents (Elt Ideal)) (x2 : (⟨S4096, .f32⟩ : BufTy).Contents (Elt Ideal))
    (x3 : (⟨S11008, .f32⟩ : BufTy).Contents (Elt Ideal)) (x4 : (⟨S8, .f32⟩ : BufTy).Contents (Elt Ideal))
    (x5 : (⟨S128x688x96, .i32⟩ : BufTy).Contents (Elt Ideal)) (x6 : (⟨S128x11008, .i32⟩ : BufTy).Contents (Elt Ideal))
    (k : Fin 4096) (j : Fin 11008) :
    val_main_v83 (F := Ideal) x1 x2 x3 x4 x5 x6 (ix2 k j)
      = Cert.Spec.wRef (val_main_v25 (F := Ideal) x4 x5) x6 x1 x2 x3 k j := by
  rw [val_main_v83_apply, val_main_v80_apply, val_main_v77_apply, weight_at, scale_at, su_at, sv_at]
  generalize val_main_v25 (F := Ideal) x4 x5 = vals
  unfold Cert.Spec.wRef
  rfl

/-- The reference's result is the specification's. -/
theorem ref_result (x0 : (⟨Cert.ReferenceIdeal.S4096x4096, .f32⟩ : BufTy).Contents (Elt Ideal)) (x1 : (⟨Cert.ReferenceIdeal.S32x11008, .f32⟩ : BufTy).Contents (Elt Ideal)) (x2 : (⟨Cert.ReferenceIdeal.S4096, .f32⟩ : BufTy).Contents (Elt Ideal)) (x3 : (⟨Cert.ReferenceIdeal.S11008, .f32⟩ : BufTy).Contents (Elt Ideal)) (x4 : (⟨Cert.ReferenceIdeal.S8, .f32⟩ : BufTy).Contents (Elt Ideal)) (x5 : (⟨Cert.ReferenceIdeal.S128x688x96, .i32⟩ : BufTy).Contents (Elt Ideal)) (x6 : (⟨Cert.ReferenceIdeal.S128x11008, .i32⟩ : BufTy).Contents (Elt Ideal)) (i : Fin 4096) (j : Fin 11008) :
    Cert.ReferenceIdeal.ReadP.val_main_v84 (F := Ideal) x0 x1 x2 x3 x4 x5 x6 (ix2 i j)
      = Cert.Spec.outRef x0 (Cert.ReferenceIdeal.ReadP.val_main_v25 (F := Ideal) x4 x5) x6 x1 x2 x3 i j := by
  rw [val_main_v84_apply]
  unfold Cert.Spec.outRef
  refine Finset.sum_congr rfl fun k _ => ?_
  have el : lidx_main_v84 (ix2 i j) k = ix2 i k := by
    funext a; match a with | ⟨0, _⟩ => rfl | ⟨1, _⟩ => rfl
  have er : ridx_main_v84 (ix2 i j) k = ix2 k j := by
    funext a; match a with | ⟨0, _⟩ => rfl | ⟨1, _⟩ => rfl
  rw [el, er, scaled_at]

end Cert.RefValue

end
-- ==== Proof.Claims.lean ====
/-
  The claims for the idealized programs, assembled.

  The kernel's pipeline writes the result array block by block; each block written back is that block of the specified
  product (the kernel's association, Spec.outKer, of the argument arrays), and the blocks cover the array, so the array ends
  holding the product (`final_out`). The precondition says the five real-valued arguments are finite, which is what the
  pipeline's run asks for; its run then gives the result and the unchanged arguments (`kernel_run`). The reference's
  result is the other association of the same product (Spec.outRef), and on the extended reals the two associations are
  one number (Spec.outKer_eq_outRef): from memories agreeing on the arguments the two programs end with equal results
  (`algebraic`). The seventeen rewrites that separate the idealized kernel from the printed one are each "narrow, then widen
  back", the identity on the extended reals (`preserves`).
-/
import proofs.«416245_j678604833216_3_alg».proof.Defs
import proofs.«416245_j678604833216_3_alg».proof.Proof.KLaunch
import proofs.«416245_j678604833216_3_alg».proof.Proof.RefValue
import proofs.«416245_j678604833216_3_alg».proof.Proof.Finite
import proofs.«416245_j678604833216_3_alg».proof.Proof.Gen.ReferenceIdeal.Run
import proofs.«416245_j678604833216_3_alg».proof.Proof.Gen.KernelIdeal.Frame
import proofs.«416245_j678604833216_3_alg».proof.Proof.Gen.Pre_finite_inputs
import proofs.«416245_j678604833216_3_alg».proof.Proof.Blocks
import Idealize.ShloMosaic.Lib.Pipeline.Value
import Idealize.ShloMosaic.Adequacy

noncomputable section

namespace Cert.Claims

open Cert.KernelIdeal Cert.KernelIdeal.Gen Cert.KernelIdeal.Data
open Idealize.ShloMosaic Idealize.ShloMosaic.TcCoe Idealize.SL.Sem Idealize.ShloMosaic.ValueIdx

section Kernel

variable (m : (ℓ : Loc nD τ sig) → Buf (Elt Ideal) ℓ) (ρ : Dev nD → PrngReg)

/-- The result array after the last grid point is the specified product: every block written back is that block of the
    product, and the blocks cover the array. -/
theorem final_out (c : Dev nD) : (dats m 0 c).arrAt 6 cfg0.N = G m c := by
  refine (dats m 0 c).arrAt_eq_of_cover 6 (G m c) (fun t _ => ?_) (Cert.Blocks.cover6 c)
  show (cfg0.win 6).cut (cfg0.grid.coords t) ((dats m 0 c).after 6 t) = _
  rw [Data.after_6]
  unfold aft6
  exact Pipeline.Window.cut_fill _ _ _ _

/-- The precondition gives that every entry of the five float arguments is a real number. -/
theorem fin_of_pre (hpre : Cert.Pre_KernelIdeal m) (c : Dev nD) : FinArgs m c := by
  unfold FinArgs
  exact Cert.Finite.finite_of_pre _ _ _ _ _ _ _ (hpre c)

/-- The kernel runs, ends with the specified product in its result array, and leaves its arguments unchanged. -/
theorem kernel_run (hpre : Cert.Pre_KernelIdeal m) :
    θ_run (Cert.KernelIdeal.defs (F := Ideal)) (onTc (τ := τ) (main (F := Ideal))) ⟨m, fun _ => 0, ρ⟩ (fun r => ∀ c : Dev nD,
      r.2.mem ((c.tc : Thread nD τ).loc main_v34) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 6).trans (final_out m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).1 1).trans (((dats m 0 c).arrAt_in 1 rfl _).trans ((A_eq m c 1).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).1 4).trans (((dats m 0 c).arrAt_in 4 rfl _).trans ((A_eq m c 4).trans (V_main_arg6 m c)))⟩)
    (Launch.run_main m ρ (fun c => fin_of_pre m hpre c))

end Kernel

/-- The idealized kernel runs and leaves its arguments unchanged. -/
theorem frame_pi : Cert.frame_KernelIdeal := fun m ρ hpre =>
  (θ_run Cert.KernelIdeal.defs _ _).mono (fun _ h c => (h c).2) (kernel_run m ρ hpre)

/-- The idealized reference runs and leaves its arguments unchanged. -/
theorem frame_ri : Cert.frame_ReferenceIdeal := fun m ρ _ =>
  (θ_run Cert.ReferenceIdeal.defs _ _).mono (fun _ h c => (h c).2) (Cert.ReferenceIdeal.Value.run (F := Ideal) m ρ)

/-- Each of the seventeen rewrites: narrowing to the shorter format and widening back is the identity on the extended reals,
    and the rounding through the shorter format on bit patterns. -/
theorem preserves : Cert.preserves_Kernel_KernelIdeal :=
  ⟨IdealRules.truncf_extf.statement _ .f32 .bf16, IdealRules.truncf_extf.statement _ .f32 .bf16,
   IdealRules.truncf_extf.statement _ .f32 .bf16, IdealRules.truncf_extf.statement _ .f32 .bf16,
   IdealRules.truncf_extf.statement _ .f32 .bf16, IdealRules.truncf_extf.statement _ .f32 .bf16,
   IdealRules.truncf_extf.statement _ .f32 .bf16, IdealRules.truncf_extf.statement _ .f32 .bf16,
   IdealRules.truncf_extf.statement _ .f32 .bf16, IdealRules.truncf_extf.statement _ .f32 .bf16,
   IdealRules.truncf_extf.statement _ .f32 .bf16, IdealRules.truncf_extf.statement _ .f32 .bf16,
   IdealRules.truncf_extf.statement _ .f32 .bf16, IdealRules.truncf_extf.statement _ .f32 .bf16,
   IdealRules.truncf_extf.statement _ .f32 .bf16, IdealRules.truncf_extf.statement _ .f32 .bf16,
   IdealRules.truncf_extf.statement _ .f32 .bf16⟩

/-- From memories agreeing on the arguments both programs end with the same result: the kernel with its association of the
    product, the reference with the other, and the two are one number on the extended reals. -/
theorem algebraic : Cert.algebraic_KernelIdeal_ReferenceIdeal := by
  intro m ρ m' ρ' hpre hagree
  refine ⟨fun c => G m c, kernel_run m ρ hpre, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.ReadP.val_main_v84_eq]
  obtain ⟨a0, a1, a2, a3, a4, a5, a6⟩ := hagree c
  rw [a0, a1, a2, a3, a4, a5, a6]
  funext y
  obtain ⟨i, j, rfl⟩ : ∃ (i : Fin 4096) (j : Fin 11008), y = ix2 i j := ⟨y 0, y 1, eq_ix2 y⟩
  rw [Cert.RefValue.ref_result]
  exact (Cert.Spec.outKer_eq_outRef _ _ _ _ _ _ i j).symm

end Cert.Claims
-- ==== Proof.lean ====
/-
  The certificate's claim, assembled. The bit-level program's frame is proved from the body's run at any float instance with proof data that
  say nothing about what the body computes (Proof/KernelFrame.lean). At the idealized instance the kernel's pipeline is run with proof data
  that name the result array (Proof/KData.lean, Proof/KLaunch.lean): the result is x · W in the kernel's association of the scale factors,
  which on the extended reals is the reference's (Proof/Spec.lean); the reference's result is read off its run, its scatter of the kept
  values read at an index (Proof/ScatterAt.lean, Proof/RefValue.lean). The two rounding remainders the kernel adds are zero because the
  inputs are finite. Proof/Claims.lean states the five conjuncts.
-/
import proofs.«416245_j678604833216_3_alg».proof.Defs
import proofs.«416245_j678604833216_3_alg».proof.Proof.Gen.Kernel
import proofs.«416245_j678604833216_3_alg».proof.Proof.Gen.KernelIdeal
import proofs.«416245_j678604833216_3_alg».proof.Proof.Gen.ReferenceIdeal
import proofs.«416245_j678604833216_3_alg».proof.Proof.Gen.Pre_finite_inputs
import proofs.«416245_j678604833216_3_alg».proof.Proof.KernelFrame
import proofs.«416245_j678604833216_3_alg».proof.Proof.Claims
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Cert.Kernel.FrameProof.frame, Cert.Claims.frame_pi, Cert.Claims.frame_ri, Cert.Claims.preserves, Cert.Claims.algebraic⟩

end Cert.Proof

end
